-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S3x96 .f32) (main_arg6 : FVec F S3x96 .f32) (main_arg7 : FVec F S96x40 .f32) (main_arg8 : FVec F S40 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96 .f32 := Host.absf main_arg6
  let main_cst_8 : FVec F S_ .f32 := constant S_ .f32 0x7F800000#32
  let main_v25 : FVec F S3x96 .f32 := broadcastInDim S3x96 ![] bcast_S_S3x96 main_cst_8
  let main_v26 : IVec S3x96 1 := cmpf .olt main_v24 main_v25
  let main_c_9 : IVec S_ 1 := constantI S_ 1 1#1
  let main_v27 : IVec S_ 1 := (fun x v => Host.reduce IntOp.andi x v reducesTo_S3x96_S_d0_1 h_S_) main_v26 main_c_9
  let main_v28 : IVec S_ 1 := andi main_v23 main_v27
  let main_v29 : FVec F S96x40 .f32 := Host.absf main_arg7
  let main_cst_10 : FVec F S_ .f32 := constant S_ .f32 0x7F800000#32
  let main_v30 : FVec F S96x40 .f32 := broadcastInDim S96x40 ![] bcast_S_S96x40 main_cst_10
  let main_v31 : IVec S96x40 1 := cmpf .olt main_v29 main_v30
  let main_c_11 : IVec S_ 1 := constantI S_ 1 1#1
  let main_v32 : IVec S_ 1 := (fun x v => Host.reduce IntOp.andi x v reducesTo_S96x40_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S256x96 .f32) (main_arg3 : FVec F S96 .f32) (main_arg4 : FVec F S3x96x96 .f32) (main_arg5 : FVec F S3x96 .f32) (main_arg6 : FVec F S3x96 .f32) (main_arg7 : FVec F S96x40 .f32) (main_arg8 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x96 .f32 := Host.absf main_arg2
  let main_cst_0 : FVec F S_ .f32 := constant S_ .f32 0x7F800000#32
  let main_v5 : FVec F S256x96 .f32 := broadcastInDim S256x96 ![] bcast_S_S256x96 main_cst_0
  let main_v6 : IVec S256x96 1 := cmpf .olt main_v4 main_v5
  let main_c_1 : IVec S_ 1 := constantI S_ 1 1#1
  let main_v7 : IVec S_ 1 := (fun x v => Host.reduce IntOp.andi x v reducesTo_S256x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x96 : Shape := ⟨2, ![1, 96]⟩
abbrev S50000x96 : Shape := ⟨2, ![50000, 96]⟩
abbrev S5000x256 : Shape := ⟨2, ![5000, 256]⟩
abbrev S5000x96 : Shape := ⟨2, ![5000, 96]⟩
abbrev S850000x96 : Shape := ⟨2, ![850000, 96]⟩
abbrev S1x96x96 : Shape := ⟨3, ![1, 96, 96]⟩
abbrev S96x96 : Shape := ⟨2, ![96, 96]⟩
abbrev S96x128 : Shape := ⟨2, ![96, 128]⟩
abbrev S128 : Shape := ⟨1, ![128]⟩
abbrev S1x128 : Shape := ⟨2, ![1, 128]⟩
abbrev S50000x128 : Shape := ⟨2, ![50000, 128]⟩
abbrev S5000x128 : Shape := ⟨2, ![5000, 128]⟩
abbrev S50000x40 : Shape := ⟨2, ![50000, 40]⟩

abbrev nBuf : Space → Nat
  | .hbm => 214
  | .vmem => 57
  | .smem => 0
  | _ => 0

abbrev hbmTy0_0 (i : Nat) : BufTy := match i % 128 with
  | 0 => ⟨S50000x256, .f32⟩
  | 1 => ⟨S2x800000, .i32⟩
  | 2 => ⟨S256x96, .f32⟩
  | 3 => ⟨S96, .f32⟩
  | 4 => ⟨S3x96x96, .f32⟩
  | 5 => ⟨S3x96, .f32⟩
  | 6 => ⟨S3x96, .f32⟩
  | 7 => ⟨S96x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S1x96, .f32⟩
  | 51 => ⟨S50000x96, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x96, .f32⟩
  | 61 => ⟨S850000x96, .f32⟩
  | 62 => ⟨S850000x96, .f32⟩
  | 63 => ⟨S_, .f32⟩
  | 64 => ⟨S50000x96, .f32⟩
  | 65 => ⟨S850000x1, .i32⟩
  | 66 => ⟨S50000x96, .f32⟩
  | 67 => ⟨S1x96x96, .f32⟩
  | 68 => ⟨S96x96, .f32⟩
  | 69 => ⟨S50000x96, .f32⟩
  | 70 => ⟨S_, .f32⟩
  | 71 => ⟨S96, .f32⟩
  | 72 => ⟨S1x96, .f32⟩
  | 73 => ⟨S_, .f32⟩
  | 74 => ⟨S1x96, .f32⟩
  | 75 => ⟨S1x96, .f32⟩
  | 76 => ⟨S_, .i32⟩
  | 77 => ⟨S_, .f32⟩
  | 78 => ⟨S96, .f32⟩
  | 79 => ⟨S1x96, .f32⟩
  | 80 => ⟨S_, .f32⟩
  | 81 => ⟨S1x96, .f32⟩
  | 82 => ⟨S1x96, .f32⟩
  | 83 => ⟨S50000x96, .f32⟩
  | 84 => ⟨S50000x96, .f32⟩
  | 85 => ⟨S50000x96, .f32⟩
  | 86 => ⟨S_, .f32⟩
  | 87 => ⟨S_, .f32⟩
  | 88 => ⟨S_, .f32⟩
  | 89 => ⟨S_, .f32⟩
  | 90 => ⟨S96, .f32⟩
  | 91 => ⟨S1x96, .f32⟩
  | 92 => ⟨S1x96, .f32⟩
  | 93 => ⟨S1x96, .f32⟩
  | 94 => ⟨S_, .f32⟩
  | 95 => ⟨S_, .i1⟩
  | 96 => ⟨S_, .f32⟩
  | 97 => ⟨S_, .f32⟩
  | 98 => ⟨S1x96, .f32⟩
  | 99 => ⟨S1x96, .f32⟩
  | 100 => ⟨S1x96, .f32⟩
  | 101 => ⟨S1x96, .f32⟩
  | 102 => ⟨S50000x96, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x96, .f32⟩
  | 112 => ⟨S850000x96, .f32⟩
  | 113 => ⟨S850000x96, .f32⟩
  | 114 => ⟨S_, .f32⟩
  | 115 => ⟨S50000x96, .f32⟩
  | 116 => ⟨S850000x1, .i32⟩
  | 117 => ⟨S50000x96, .f32⟩
  | 118 => ⟨S1x96x96, .f32⟩
  | 119 => ⟨S96x96, .f32⟩
  | 120 => ⟨S50000x96, .f32⟩
  | 121 => ⟨S_, .f32⟩
  | 122 => ⟨S96, .f32⟩
  | 123 => ⟨S1x96, .f32⟩
  | 124 => ⟨S_, .f32⟩
  | 125 => ⟨S1x96, .f32⟩
  | 126 => ⟨S1x96, .f32⟩
  | 127 => ⟨S_, .i32⟩
  | _ => ⟨S50000x256, .f32⟩

abbrev hbmTy0_1 (i : Nat) : BufTy := match i % 128 with
  | 0 => ⟨S_, .f32⟩
  | 1 => ⟨S96, .f32⟩
  | 2 => ⟨S1x96, .f32⟩
  | 3 => ⟨S_, .f32⟩
  | 4 => ⟨S1x96, .f32⟩
  | 5 => ⟨S1x96, .f32⟩
  | 6 => ⟨S50000x96, .f32⟩
  | 7 => ⟨S50000x96, .f32⟩
  | 8 => ⟨S50000x96, .f32⟩
  | 9 => ⟨S_, .f32⟩
  | 10 => ⟨S_, .f32⟩
  | 11 => ⟨S_, .f32⟩
  | 12 => ⟨S_, .f32⟩
  | 13 => ⟨S96, .f32⟩
  | 14 => ⟨S1x96, .f32⟩
  | 15 => ⟨S1x96, .f32⟩
  | 16 => ⟨S1x96, .f32⟩
  | 17 => ⟨S_, .f32⟩
  | 18 => ⟨S_, .i1⟩
  | 19 => ⟨S_, .f32⟩
  | 20 => ⟨S_, .f32⟩
  | 21 => ⟨S1x96, .f32⟩
  | 22 => ⟨S1x96, .f32⟩
  | 23 => ⟨S1x96, .f32⟩
  | 24 => ⟨S1x96, .f32⟩
  | 25 => ⟨S50000x96, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000x96, .f32⟩
  | 35 => ⟨S850000x96, .f32⟩
  | 36 => ⟨S850000x96, .f32⟩
  | 37 => ⟨S_, .f32⟩
  | 38 => ⟨S50000x96, .f32⟩
  | 39 => ⟨S850000x1, .i32⟩
  | 40 => ⟨S50000x96, .f32⟩
  | 41 => ⟨S1x96x96, .f32⟩
  | 42 => ⟨S96x96, .f32⟩
  | 43 => ⟨S50000x96, .f32⟩
  | 44 => ⟨S_, .f32⟩
  | 45 => ⟨S96, .f32⟩
  | 46 => ⟨S1x96, .f32⟩
  | 47 => ⟨S_, .f32⟩
  | 48 => ⟨S1x96, .f32⟩
  | 49 => ⟨S1x96, .f32⟩
  | 50 => ⟨S_, .i32⟩
  | 51 => ⟨S_, .f32⟩
  | 52 => ⟨S96, .f32⟩
  | 53 => ⟨S1x96, .f32⟩
  | 54 => ⟨S_, .f32⟩
  | 55 => ⟨S1x96, .f32⟩
  | 56 => ⟨S1x96, .f32⟩
  | 57 => ⟨S50000x96, .f32⟩
  | 58 => ⟨S50000x96, .f32⟩
  | 59 => ⟨S50000x96, .f32⟩
  | 60 => ⟨S_, .f32⟩
  | 61 => ⟨S_, .f32⟩
  | 62 => ⟨S_, .f32⟩
  | 63 => ⟨S_, .f32⟩
  | 64 => ⟨S96, .f32⟩
  | 65 => ⟨S1x96, .f32⟩
  | 66 => ⟨S1x96, .f32⟩
  | 67 => ⟨S1x96, .f32⟩
  | 68 => ⟨S_, .f32⟩
  | 69 => ⟨S_, .i1⟩
  | 70 => ⟨S_, .f32⟩
  | 71 => ⟨S_, .f32⟩
  | 72 => ⟨S1x96, .f32⟩
  | 73 => ⟨S1x96, .f32⟩
  | 74 => ⟨S1x96, .f32⟩
  | 75 => ⟨S1x96, .f32⟩
  | 76 => ⟨S50000x96, .f32⟩
  | 77 => ⟨S_, .i32⟩
  | 78 => ⟨S_, .f32⟩
  | 79 => ⟨S96x128, .f32⟩
  | 80 => ⟨S_, .i32⟩
  | 81 => ⟨S_, .f32⟩
  | 82 => ⟨S128, .f32⟩
  | 83 => ⟨S1x128, .f32⟩
  | 84 => ⟨S50000x128, .f32⟩
  | 85 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S1x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S96x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S1x96, .f32⟩
  | .local _ .vmem, ⟨31, _⟩ => ⟨S1x96, .f32⟩
  | .local _ .vmem, ⟨32, _⟩ => ⟨S1x96, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S96x96, .f32⟩
  | .local _ .vmem, ⟨41, _⟩ => ⟨S5000x96, .f32⟩
  | .local _ .vmem, ⟨42, _⟩ => ⟨S5000x96, .f32⟩
  | .local _ .vmem, ⟨43, _⟩ => ⟨S5000x96, .f32⟩
  | .local _ .vmem, ⟨44, _⟩ => ⟨S5000x96, .f32⟩
  | .local _ .vmem, ⟨45, _⟩ => ⟨S1x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S5000x96, .f32⟩
  | .local _ .vmem, ⟨50, _⟩ => ⟨S5000x96, .f32⟩
  | .local _ .vmem, ⟨51, _⟩ => ⟨S5000x96, .f32⟩
  | .local _ .vmem, ⟨52, _⟩ => ⟨S5000x96, .f32⟩
  | .local _ .vmem, ⟨53, _⟩ => ⟨S96x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_cst_3 : Ref sig .tc := ⟨.hbm, 94, rfl⟩
abbrev main_call1_v13 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_12 : Ref sig .tc := ⟨.hbm, 103, rfl⟩
abbrev main_v56 : Ref sig .tc := ⟨.hbm, 104, rfl⟩
abbrev main_v57 : Ref sig .tc := ⟨.hbm, 105, rfl⟩
abbrev main_c_13 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_14 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_15 : Ref sig .tc := ⟨.hbm, 121, rfl⟩
abbrev main_v71 : Ref sig .tc := ⟨.hbm, 122, rfl⟩
abbrev main_v72 : Ref sig .tc := ⟨.hbm, 123, rfl⟩
abbrev main_cst_16 : Ref sig .tc := ⟨.hbm, 124, rfl⟩
abbrev main_v73 : Ref sig .tc := ⟨.hbm, 125, rfl⟩
abbrev main_v74 : Ref sig .tc := ⟨.hbm, 126, rfl⟩
abbrev main_c_17 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_cst_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_cst_1 : Ref sig .tc := ⟨.hbm, 138, rfl⟩
abbrev main_call2_v8 : Ref sig .tc := ⟨.hbm, 139, rfl⟩
abbrev main_call2_cst_2 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_v12 : Ref sig .tc := ⟨.hbm, 144, rfl⟩
abbrev main_call2_cst_3 : Ref sig .tc := ⟨.hbm, 145, rfl⟩
abbrev main_call2_v13 : Ref sig .tc := ⟨.hbm, 146, rfl⟩
abbrev main_call2_cst_4 : Ref sig .tc := ⟨.hbm, 147, rfl⟩
abbrev main_call2_call0_v0 : Ref sig .tc := ⟨.hbm, 148, rfl⟩
abbrev main_call2_call0_v1 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_c_18 : Ref sig .tc := ⟨.hbm, 154, rfl⟩
abbrev main_v79 : Ref sig .tc := ⟨.hbm, 155, rfl⟩
abbrev main_v80 : Ref sig .tc := ⟨.hbm, 156, rfl⟩
abbrev main_c_19 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_20 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_cst_21 : Ref sig .tc := ⟨.hbm, 172, rfl⟩
abbrev main_v94 : Ref sig .tc := ⟨.hbm, 173, rfl⟩
abbrev main_v95 : Ref sig .tc := ⟨.hbm, 174, rfl⟩
abbrev main_cst_22 : Ref sig .tc := ⟨.hbm, 175, rfl⟩
abbrev main_v96 : Ref sig .tc := ⟨.hbm, 176, rfl⟩
abbrev main_v97 : Ref sig .tc := ⟨.hbm, 177, rfl⟩
abbrev main_c_23 : Ref sig .tc := ⟨.hbm, 178, rfl⟩
abbrev main_call3_cst : Ref sig .tc := ⟨.hbm, 179, rfl⟩
abbrev main_call3_v0 : Ref sig .tc := ⟨.hbm, 180, rfl⟩
abbrev main_call3_v1 : Ref sig .tc := ⟨.hbm, 181, rfl⟩
abbrev main_call3_cst_0 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_v5 : Ref sig .tc := ⟨.hbm, 186, rfl⟩
abbrev main_call3_v6 : Ref sig .tc := ⟨.hbm, 187, rfl⟩
abbrev main_call3_v7 : Ref sig .tc := ⟨.hbm, 188, rfl⟩
abbrev main_call3_cst_1 : Ref sig .tc := ⟨.hbm, 189, rfl⟩
abbrev main_call3_v8 : Ref sig .tc := ⟨.hbm, 190, rfl⟩
abbrev main_call3_cst_2 : Ref sig .tc := ⟨.hbm, 191, rfl⟩
abbrev main_call3_v9 : Ref sig .tc := ⟨.hbm, 192, rfl⟩
abbrev main_call3_v10 : Ref sig .tc := ⟨.hbm, 193, rfl⟩
abbrev main_call3_v11 : Ref sig .tc := ⟨.hbm, 194, rfl⟩
abbrev main_call3_v12 : Ref sig .tc := ⟨.hbm, 195, rfl⟩
abbrev main_call3_cst_3 : Ref sig .tc := ⟨.hbm, 196, rfl⟩
abbrev main_call3_v13 : Ref sig .tc := ⟨.hbm, 197, rfl⟩
abbrev main_call3_cst_4 : Ref sig .tc := ⟨.hbm, 198, rfl⟩
abbrev main_call3_call0_v0 : Ref sig .tc := ⟨.hbm, 199, rfl⟩
abbrev main_call3_call0_v1 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_c_24 : Ref sig .tc := ⟨.hbm, 205, rfl⟩
abbrev main_call4_v0 : Ref sig .tc := ⟨.hbm, 206, rfl⟩
abbrev main_v102 : Ref sig .tc := ⟨.hbm, 207, rfl⟩
abbrev main_c_25 : Ref sig .tc := ⟨.hbm, 208, rfl⟩
abbrev main_call5_v0 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x96 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S96x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x96 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x96 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S96x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S96_S1x96 : S96.ShapeCasts S1x96
  inb_S5000x256_S5000x256_0_0 : ∀ a, (![0, 0] : Fin 2 → Nat) a + S5000x256.size a ≤ S5000x256.size a
  h_S5000x256 : 0 < S5000x256.numel
  inb_S256x96_S256x96_0_0 : ∀ a, (![0, 0] : Fin 2 → Nat) a + S256x96.size a ≤ S256x96.size a
  h_S256x96 : 0 < S256x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  reducesTo_S50000x96_S96_d0 : S50000x96.ReducesTo [0] S96
  h_S_ : 0 < S_.numel
  bcast_S96_S1x96_1 : S96.BroadcastsInDim S1x96 (![1] : Fin 1 → Fin S1x96.rank)
  bcast_S_S1x96 : S_.BroadcastsInDim S1x96 (![] : Fin 0 → Fin S1x96.rank)
  bcast_S1x96_S50000x96_0_1 : S1x96.BroadcastsInDim S50000x96 (![0, 1] : Fin 2 → Fin S50000x96.rank)
  slices_S3x96_S1x96_0_0 : S3x96.Slices ![0, 0] S1x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  pads_S96x40_S96x128_000_0880 : S96x40.Pads (![0, 0] : Fin 2 → Nat) ![0, 88] ![0, 0] S96x128
  pads_S40_S128_0880 : S40.Pads (![0] : Fin 1 → Nat) ![88] ![0] S128
  shapeCasts_S128_S1x128 : S128.ShapeCasts S1x128
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S50000x128_S50000x40_0_0 : S50000x128.Slices ![0, 0] S50000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x96_S5000x96_1_0_0_1_n_n_wf : DotDims.WF S5000x256 S256x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x128_S5000x128_1_0_0_1_n_n_wf : DotDims.WF S5000x96 S96x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x96.size a ≤ S50000x96.size a
  hwx4_5 : ∀ i : grid4.Coords, EltTy.bits .f32 = 32 ∨ (Rect.block (s := S50000x96) S5000x96.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x96.size a ≤ S50000x96.size a
  hwx5_1 : ∀ i : grid5.Coords, EltTy.bits .f32 = 32 ∨ (Rect.block (s := S50000x96) S5000x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S96x96.size a ≤ S96x96.size a
  hwx5_2 : ∀ i : grid5.Coords, EltTy.bits .f32 = 32 ∨ (Rect.block (s := S96x96) S96x96.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x96.size a ≤ S50000x96.size a
  hwx5_3 : ∀ i : grid5.Coords, EltTy.bits .f32 = 32 ∨ (Rect.block (s := S50000x96) S5000x96.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x96.size a ≤ S1x96.size a
  hwx6_1 : ∀ i : grid6.Coords, EltTy.bits .f32 = 32 ∨ (Rect.block (s := S1x96) S1x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x96.size a ≤ S1x96.size a
  hwx6_3 : ∀ i : grid6.Coords, EltTy.bits .f32 = 32 ∨ (Rect.block (s := S1x96) S1x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x96.size a ≤ S50000x96.size a
  hwx6_5 : ∀ i : grid6.Coords, EltTy.bits .f32 = 32 ∨ (Rect.block (s := S50000x96) S5000x96.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x128.size a ≤ S96x128.size a
  hwx7_1 : ∀ i : grid7.Coords, EltTy.bits .f32 = 32 ∨ (Rect.block (s := S96x128) S96x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x96_S5000x96_1_0_0_1_n_n : DotDims S5000x256 S256x96 S5000x96 where
  lhsContracting := [1]
  rhsContracting := [0]
  lhsNonContracting := [0]
  rhsNonContracting := [1]
  lhsBatch := []
  rhsBatch := []
  wf := dot_S5000x256_S256x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x96.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v90) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S5000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92) S96x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S5000x96.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v93) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S5000x96.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v101) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v102) S96x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v105) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S1x96 : Shape := ⟨2, ![1, 96]⟩
abbrev S850000x96 : Shape := ⟨2, ![850000, 96]⟩
abbrev S1x96x96 : Shape := ⟨3, ![1, 96, 96]⟩
abbrev S96x96 : Shape := ⟨2, ![96, 96]⟩
abbrev S50000x40 : Shape := ⟨2, ![50000, 40]⟩
abbrev S1x40 : Shape := ⟨2, ![1, 40]⟩

abbrev nBuf : Space → Nat
  | .hbm => 312
  | .vmem => 0
  | .smem => 0
  | _ => 0

abbrev hbmTy0_0 (i : Nat) : BufTy := match i % 128 with
  | 0 => ⟨S50000x256, .f32⟩
  | 1 => ⟨S2x800000, .i32⟩
  | 2 => ⟨S256x96, .f32⟩
  | 3 => ⟨S96, .f32⟩
  | 4 => ⟨S3x96x96, .f32⟩
  | 5 => ⟨S3x96, .f32⟩
  | 6 => ⟨S3x96, .f32⟩
  | 7 => ⟨S96x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x96, .f32⟩
  | 50 => ⟨S1x96, .f32⟩
  | 51 => ⟨S50000x96, .f32⟩
  | 52 => ⟨S50000x96, .f32⟩
  | 53 => ⟨S_, .f32⟩
  | 54 => ⟨S50000x96, .f32⟩
  | 55 => ⟨S50000x96, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x96, .f32⟩
  | 66 => ⟨S850000x96, .f32⟩
  | 67 => ⟨S850000x96, .f32⟩
  | 68 => ⟨S_, .f32⟩
  | 69 => ⟨S50000x96, .f32⟩
  | 70 => ⟨S850000x1, .i32⟩
  | 71 => ⟨S50000x96, .f32⟩
  | 72 => ⟨S_, .f32⟩
  | 73 => ⟨S50000x96, .f32⟩
  | 74 => ⟨S50000x96, .f32⟩
  | 75 => ⟨S_, .f32⟩
  | 76 => ⟨S50000x96, .f32⟩
  | 77 => ⟨S50000x96, .f32⟩
  | 78 => ⟨S50000x96, .f32⟩
  | 79 => ⟨S_, .f32⟩
  | 80 => ⟨S50000x96, .f32⟩
  | 81 => ⟨S50000x96, .f32⟩
  | 82 => ⟨S1x96x96, .f32⟩
  | 83 => ⟨S96x96, .f32⟩
  | 84 => ⟨S50000x96, .f32⟩
  | 85 => ⟨S_, .f32⟩
  | 86 => ⟨S50000x96, .f32⟩
  | 87 => ⟨S50000x96, .f32⟩
  | 88 => ⟨S50000x96, .f32⟩
  | 89 => ⟨S_, .f32⟩
  | 90 => ⟨S96, .f32⟩
  | 91 => ⟨S_, .f32⟩
  | 92 => ⟨S96, .f32⟩
  | 93 => ⟨S96, .f32⟩
  | 94 => ⟨S_, .i32⟩
  | 95 => ⟨S_, .f32⟩
  | 96 => ⟨S96, .f32⟩
  | 97 => ⟨S1x96, .f32⟩
  | 98 => ⟨S_, .f32⟩
  | 99 => ⟨S1x96, .f32⟩
  | 100 => ⟨S1x96, .f32⟩
  | 101 => ⟨S50000x96, .f32⟩
  | 102 => ⟨S50000x96, .f32⟩
  | 103 => ⟨S50000x96, .f32⟩
  | 104 => ⟨S_, .f32⟩
  | 105 => ⟨S_, .f32⟩
  | 106 => ⟨S_, .f32⟩
  | 107 => ⟨S_, .f32⟩
  | 108 => ⟨S96, .f32⟩
  | 109 => ⟨S96, .f32⟩
  | 110 => ⟨S96, .f32⟩
  | 111 => ⟨S_, .f32⟩
  | 112 => ⟨S_, .i1⟩
  | 113 => ⟨S_, .f32⟩
  | 114 => ⟨S_, .f32⟩
  | 115 => ⟨S96, .f32⟩
  | 116 => ⟨S96, .f32⟩
  | 117 => ⟨S1x96, .f32⟩
  | 118 => ⟨S96, .f32⟩
  | 119 => ⟨S1x96, .f32⟩
  | 120 => ⟨S50000x96, .f32⟩
  | 121 => ⟨S50000x96, .f32⟩
  | 122 => ⟨S1x96, .f32⟩
  | 123 => ⟨S50000x96, .f32⟩
  | 124 => ⟨S50000x96, .f32⟩
  | 125 => ⟨S_, .f32⟩
  | 126 => ⟨S96, .f32⟩
  | 127 => ⟨S96, .f32⟩
  | _ => ⟨S50000x256, .f32⟩

abbrev hbmTy0_1 (i : Nat) : BufTy := match i % 128 with
  | 0 => ⟨S96, .f32⟩
  | 1 => ⟨S1x96, .f32⟩
  | 2 => ⟨S50000x96, .f32⟩
  | 3 => ⟨S50000x96, .f32⟩
  | 4 => ⟨S1x96, .f32⟩
  | 5 => ⟨S96, .f32⟩
  | 6 => ⟨S1x96, .f32⟩
  | 7 => ⟨S50000x96, .f32⟩
  | 8 => ⟨S50000x96, .f32⟩
  | 9 => ⟨S_, .f32⟩
  | 10 => ⟨S50000x96, .f32⟩
  | 11 => ⟨S50000x96, .f32⟩
  | 12 => ⟨S850000x1, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x96, .f32⟩
  | 22 => ⟨S850000x96, .f32⟩
  | 23 => ⟨S850000x96, .f32⟩
  | 24 => ⟨S_, .f32⟩
  | 25 => ⟨S50000x96, .f32⟩
  | 26 => ⟨S850000x1, .i32⟩
  | 27 => ⟨S50000x96, .f32⟩
  | 28 => ⟨S_, .f32⟩
  | 29 => ⟨S50000x96, .f32⟩
  | 30 => ⟨S50000x96, .f32⟩
  | 31 => ⟨S_, .f32⟩
  | 32 => ⟨S50000x96, .f32⟩
  | 33 => ⟨S50000x96, .f32⟩
  | 34 => ⟨S50000x96, .f32⟩
  | 35 => ⟨S_, .f32⟩
  | 36 => ⟨S50000x96, .f32⟩
  | 37 => ⟨S50000x96, .f32⟩
  | 38 => ⟨S1x96x96, .f32⟩
  | 39 => ⟨S96x96, .f32⟩
  | 40 => ⟨S50000x96, .f32⟩
  | 41 => ⟨S_, .f32⟩
  | 42 => ⟨S50000x96, .f32⟩
  | 43 => ⟨S50000x96, .f32⟩
  | 44 => ⟨S50000x96, .f32⟩
  | 45 => ⟨S_, .f32⟩
  | 46 => ⟨S96, .f32⟩
  | 47 => ⟨S_, .f32⟩
  | 48 => ⟨S96, .f32⟩
  | 49 => ⟨S96, .f32⟩
  | 50 => ⟨S_, .i32⟩
  | 51 => ⟨S_, .f32⟩
  | 52 => ⟨S96, .f32⟩
  | 53 => ⟨S1x96, .f32⟩
  | 54 => ⟨S_, .f32⟩
  | 55 => ⟨S1x96, .f32⟩
  | 56 => ⟨S1x96, .f32⟩
  | 57 => ⟨S50000x96, .f32⟩
  | 58 => ⟨S50000x96, .f32⟩
  | 59 => ⟨S50000x96, .f32⟩
  | 60 => ⟨S_, .f32⟩
  | 61 => ⟨S_, .f32⟩
  | 62 => ⟨S_, .f32⟩
  | 63 => ⟨S_, .f32⟩
  | 64 => ⟨S96, .f32⟩
  | 65 => ⟨S96, .f32⟩
  | 66 => ⟨S96, .f32⟩
  | 67 => ⟨S_, .f32⟩
  | 68 => ⟨S_, .i1⟩
  | 69 => ⟨S_, .f32⟩
  | 70 => ⟨S_, .f32⟩
  | 71 => ⟨S96, .f32⟩
  | 72 => ⟨S96, .f32⟩
  | 73 => ⟨S1x96, .f32⟩
  | 74 => ⟨S96, .f32⟩
  | 75 => ⟨S1x96, .f32⟩
  | 76 => ⟨S50000x96, .f32⟩
  | 77 => ⟨S50000x96, .f32⟩
  | 78 => ⟨S1x96, .f32⟩
  | 79 => ⟨S50000x96, .f32⟩
  | 80 => ⟨S50000x96, .f32⟩
  | 81 => ⟨S_, .f32⟩
  | 82 => ⟨S96, .f32⟩
  | 83 => ⟨S96, .f32⟩
  | 84 => ⟨S96, .f32⟩
  | 85 => ⟨S1x96, .f32⟩
  | 86 => ⟨S50000x96, .f32⟩
  | 87 => ⟨S50000x96, .f32⟩
  | 88 => ⟨S1x96, .f32⟩
  | 89 => ⟨S96, .f32⟩
  | 90 => ⟨S1x96, .f32⟩
  | 91 => ⟨S50000x96, .f32⟩
  | 92 => ⟨S50000x96, .f32⟩
  | 93 => ⟨S_, .f32⟩
  | 94 => ⟨S50000x96, .f32⟩
  | 95 => ⟨S50000x96, .f32⟩
  | 96 => ⟨S850000x1, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x96, .f32⟩
  | 106 => ⟨S850000x96, .f32⟩
  | 107 => ⟨S850000x96, .f32⟩
  | 108 => ⟨S_, .f32⟩
  | 109 => ⟨S50000x96, .f32⟩
  | 110 => ⟨S850000x1, .i32⟩
  | 111 => ⟨S50000x96, .f32⟩
  | 112 => ⟨S_, .f32⟩
  | 113 => ⟨S50000x96, .f32⟩
  | 114 => ⟨S50000x96, .f32⟩
  | 115 => ⟨S_, .f32⟩
  | 116 => ⟨S50000x96, .f32⟩
  | 117 => ⟨S50000x96, .f32⟩
  | 118 => ⟨S50000x96, .f32⟩
  | 119 => ⟨S_, .f32⟩
  | 120 => ⟨S50000x96, .f32⟩
  | 121 => ⟨S50000x96, .f32⟩
  | 122 => ⟨S1x96x96, .f32⟩
  | 123 => ⟨S96x96, .f32⟩
  | 124 => ⟨S50000x96, .f32⟩
  | 125 => ⟨S_, .f32⟩
  | 126 => ⟨S50000x96, .f32⟩
  | 127 => ⟨S50000x96, .f32⟩
  | _ => ⟨S50000x256, .f32⟩

abbrev hbmTy0_2 (i : Nat) : BufTy := match i % 128 with
  | 0 => ⟨S50000x96, .f32⟩
  | 1 => ⟨S_, .f32⟩
  | 2 => ⟨S96, .f32⟩
  | 3 => ⟨S_, .f32⟩
  | 4 => ⟨S96, .f32⟩
  | 5 => ⟨S96, .f32⟩
  | 6 => ⟨S_, .i32⟩
  | 7 => ⟨S_, .f32⟩
  | 8 => ⟨S96, .f32⟩
  | 9 => ⟨S1x96, .f32⟩
  | 10 => ⟨S_, .f32⟩
  | 11 => ⟨S1x96, .f32⟩
  | 12 => ⟨S1x96, .f32⟩
  | 13 => ⟨S50000x96, .f32⟩
  | 14 => ⟨S50000x96, .f32⟩
  | 15 => ⟨S50000x96, .f32⟩
  | 16 => ⟨S_, .f32⟩
  | 17 => ⟨S_, .f32⟩
  | 18 => ⟨S_, .f32⟩
  | 19 => ⟨S_, .f32⟩
  | 20 => ⟨S96, .f32⟩
  | 21 => ⟨S96, .f32⟩
  | 22 => ⟨S96, .f32⟩
  | 23 => ⟨S_, .f32⟩
  | 24 => ⟨S_, .i1⟩
  | 25 => ⟨S_, .f32⟩
  | 26 => ⟨S_, .f32⟩
  | 27 => ⟨S96, .f32⟩
  | 28 => ⟨S96, .f32⟩
  | 29 => ⟨S1x96, .f32⟩
  | 30 => ⟨S96, .f32⟩
  | 31 => ⟨S1x96, .f32⟩
  | 32 => ⟨S50000x96, .f32⟩
  | 33 => ⟨S50000x96, .f32⟩
  | 34 => ⟨S1x96, .f32⟩
  | 35 => ⟨S50000x96, .f32⟩
  | 36 => ⟨S50000x96, .f32⟩
  | 37 => ⟨S_, .f32⟩
  | 38 => ⟨S96, .f32⟩
  | 39 => ⟨S96, .f32⟩
  | 40 => ⟨S96, .f32⟩
  | 41 => ⟨S1x96, .f32⟩
  | 42 => ⟨S50000x96, .f32⟩
  | 43 => ⟨S50000x96, .f32⟩
  | 44 => ⟨S1x96, .f32⟩
  | 45 => ⟨S96, .f32⟩
  | 46 => ⟨S1x96, .f32⟩
  | 47 => ⟨S50000x96, .f32⟩
  | 48 => ⟨S50000x96, .f32⟩
  | 49 => ⟨S_, .f32⟩
  | 50 => ⟨S50000x96, .f32⟩
  | 51 => ⟨S50000x96, .f32⟩
  | 52 => ⟨S50000x40, .f32⟩
  | 53 => ⟨S1x40, .f32⟩
  | 54 => ⟨S50000x40, .f32⟩
  | 55 => ⟨S50000x40, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_cst_1 : Ref sig .tc := ⟨.hbm, 105, rfl⟩
abbrev main_call2_v8 : Ref sig .tc := ⟨.hbm, 106, rfl⟩
abbrev main_call2_cst_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_cst_3 : Ref sig .tc := ⟨.hbm, 111, rfl⟩
abbrev main_call2_v12 : Ref sig .tc := ⟨.hbm, 112, rfl⟩
abbrev main_call2_cst_4 : Ref sig .tc := ⟨.hbm, 113, rfl⟩
abbrev main_call2_call0_v0 : Ref sig .tc := ⟨.hbm, 114, rfl⟩
abbrev main_call2_call0_v1 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_16 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_call3_cst : Ref sig .tc := ⟨.hbm, 137, rfl⟩
abbrev main_call3_v0 : Ref sig .tc := ⟨.hbm, 138, rfl⟩
abbrev main_v84 : Ref sig .tc := ⟨.hbm, 139, rfl⟩
abbrev main_v85 : Ref sig .tc := ⟨.hbm, 140, rfl⟩
abbrev main_c_17 : Ref sig .tc := ⟨.hbm, 141, rfl⟩
abbrev main_v86 : Ref sig .tc := ⟨.hbm, 142, rfl⟩
abbrev main_v87 : Ref sig .tc := ⟨.hbm, 143, rfl⟩
abbrev main_c_18 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_19 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_20 : Ref sig .tc := ⟨.hbm, 156, rfl⟩
abbrev main_v98 : Ref sig .tc := ⟨.hbm, 157, rfl⟩
abbrev main_v99 : Ref sig .tc := ⟨.hbm, 158, rfl⟩
abbrev main_cst_21 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_22 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_23 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_24 : Ref sig .tc := ⟨.hbm, 173, rfl⟩
abbrev main_v111 : Ref sig .tc := ⟨.hbm, 174, rfl⟩
abbrev main_cst_25 : Ref sig .tc := ⟨.hbm, 175, rfl⟩
abbrev main_v112 : Ref sig .tc := ⟨.hbm, 176, rfl⟩
abbrev main_v113 : Ref sig .tc := ⟨.hbm, 177, rfl⟩
abbrev main_c_26 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_cst_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_v6 : Ref sig .tc := ⟨.hbm, 187, rfl⟩
abbrev main_call4_v7 : Ref sig .tc := ⟨.hbm, 188, rfl⟩
abbrev main_call4_cst_1 : Ref sig .tc := ⟨.hbm, 189, rfl⟩
abbrev main_call4_v8 : Ref sig .tc := ⟨.hbm, 190, rfl⟩
abbrev main_call4_cst_2 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_cst_3 : Ref sig .tc := ⟨.hbm, 195, rfl⟩
abbrev main_call4_v12 : Ref sig .tc := ⟨.hbm, 196, rfl⟩
abbrev main_call4_cst_4 : Ref sig .tc := ⟨.hbm, 197, rfl⟩
abbrev main_call4_call0_v0 : Ref sig .tc := ⟨.hbm, 198, rfl⟩
abbrev main_call4_call0_v1 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_cst_27 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_call5_cst : Ref sig .tc := ⟨.hbm, 221, rfl⟩
abbrev main_call5_v0 : Ref sig .tc := ⟨.hbm, 222, rfl⟩
abbrev main_v134 : Ref sig .tc := ⟨.hbm, 223, rfl⟩
abbrev main_v135 : Ref sig .tc := ⟨.hbm, 224, rfl⟩
abbrev main_c_28 : Ref sig .tc := ⟨.hbm, 225, rfl⟩
abbrev main_v136 : Ref sig .tc := ⟨.hbm, 226, rfl⟩
abbrev main_v137 : Ref sig .tc := ⟨.hbm, 227, rfl⟩
abbrev main_c_29 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_cst_30 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_cst_31 : Ref sig .tc := ⟨.hbm, 240, rfl⟩
abbrev main_v148 : Ref sig .tc := ⟨.hbm, 241, rfl⟩
abbrev main_v149 : Ref sig .tc := ⟨.hbm, 242, rfl⟩
abbrev main_cst_32 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_cst_33 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_cst_34 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_cst_35 : Ref sig .tc := ⟨.hbm, 257, rfl⟩
abbrev main_v161 : Ref sig .tc := ⟨.hbm, 258, rfl⟩
abbrev main_cst_36 : Ref sig .tc := ⟨.hbm, 259, rfl⟩
abbrev main_v162 : Ref sig .tc := ⟨.hbm, 260, rfl⟩
abbrev main_v163 : Ref sig .tc := ⟨.hbm, 261, rfl⟩
abbrev main_c_37 : Ref sig .tc := ⟨.hbm, 262, rfl⟩
abbrev main_call6_cst : Ref sig .tc := ⟨.hbm, 263, rfl⟩
abbrev main_call6_v0 : Ref sig .tc := ⟨.hbm, 264, rfl⟩
abbrev main_call6_v1 : Ref sig .tc := ⟨.hbm, 265, rfl⟩
abbrev main_call6_cst_0 : Ref sig .tc := ⟨.hbm, 266, rfl⟩
abbrev main_call6_v2 : Ref sig .tc := ⟨.hbm, 267, rfl⟩
abbrev main_call6_v3 : Ref sig .tc := ⟨.hbm, 268, rfl⟩
abbrev main_call6_v4 : Ref sig .tc := ⟨.hbm, 269, rfl⟩
abbrev main_call6_v5 : Ref sig .tc := ⟨.hbm, 270, rfl⟩
abbrev main_call6_v6 : Ref sig .tc := ⟨.hbm, 271, rfl⟩
abbrev main_call6_v7 : Ref sig .tc := ⟨.hbm, 272, rfl⟩
abbrev main_call6_cst_1 : Ref sig .tc := ⟨.hbm, 273, rfl⟩
abbrev main_call6_v8 : Ref sig .tc := ⟨.hbm, 274, rfl⟩
abbrev main_call6_cst_2 : Ref sig .tc := ⟨.hbm, 275, rfl⟩
abbrev main_call6_v9 : Ref sig .tc := ⟨.hbm, 276, rfl⟩
abbrev main_call6_v10 : Ref sig .tc := ⟨.hbm, 277, rfl⟩
abbrev main_call6_v11 : Ref sig .tc := ⟨.hbm, 278, rfl⟩
abbrev main_call6_cst_3 : Ref sig .tc := ⟨.hbm, 279, rfl⟩
abbrev main_call6_v12 : Ref sig .tc := ⟨.hbm, 280, rfl⟩
abbrev main_call6_cst_4 : Ref sig .tc := ⟨.hbm, 281, rfl⟩
abbrev main_call6_call0_v0 : Ref sig .tc := ⟨.hbm, 282, rfl⟩
abbrev main_call6_call0_v1 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_cst_38 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_call7_cst : Ref sig .tc := ⟨.hbm, 305, rfl⟩
abbrev main_call7_v0 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S850000x1_S850000x96_0_1 : S850000x1.BroadcastsInDim S850000x96 (![0, 1] : Fin 2 → Fin S850000x96.rank)
  slices_S3x96x96_S1x96x96_0_0_0 : S3x96x96.Slices ![0, 0, 0] S1x96x96
  shapeCasts_S1x96x96_S96x96 : S1x96x96.ShapeCasts S96x96
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  slices_S3x96_S1x96_0_0 : S3x96.Slices ![0, 0] S1x96
  shapeCasts_S1x96_S96 : S1x96.ShapeCasts S96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x96_S50000x96_1_0_0_1_n_n_wf : DotDims.WF S50000x256 S256x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.Spec.lean ====
/-
  The four dense stages of the GCN2 network as functions of whole arrays, index by index, on the extended reals.

  * `affine x w b`   : entry (i, j) is  Σ_k x(i,k)·w(k,j) + b(0,j)   (a linear layer; the bias a row vector).
  * `fcRelu`         : max(affine, 0)                                 (the input layer).
  * `mixed c₁ c₂`    : with h = 0.9·agg + 0.1·x₀ (the two literals as their binary values),
                         entry (i, j) is  c₁·h(i,j) + c₂·Σ_k h(i,k)·w(k,j)   (initial residual + identity mapping).
  * `bnRelu`         : max(γ(0,j)·(o(i,j) − μ(0,j))·rsqrt(σ²(0,j) + ε) + β(0,j), 0)   (batch-norm affine + ReLU;
                         the statistics, scale and shift row vectors).
  Every scalar operation is the extended reals' exact one (`FloatOps` at `Ideal`); a product under a sum is EReal's.
-/
import Idealize.ShloMosaic.PureOps.Ideal
import Idealize.ShloMosaic.Lib.ValueIdx

noncomputable section

namespace Cert.Gcn

open Idealize.ShloMosaic Idealize.ShloMosaic.ValueIdx

/-- A matrix shape. -/
abbrev M2 (a b : ℕ) : Shape := ⟨2, ![a, b]⟩

/-- The f32 literal `b` as an extended real. -/
abbrev lit (b : BitVec 32) : EReal := FloatOps.ofBits (F := Ideal) .f32 b

/-- `x·w + b`, the bias `b` a row vector. -/
def affine {A K B : ℕ} (x : (M2 A K).Idx → EReal) (w : (M2 K B).Idx → EReal) (b : (M2 1 B).Idx → EReal) :
    (M2 A B).Idx → EReal :=
  fun i => FloatOps.addf (F := Ideal) (φ := .f32) (∑ k : Fin K, x (ix2 (i 0) k) * w (ix2 k (i 1))) (b (ix2 0 (i 1)))

/-- `max (x·w + b) 0`. -/
def fcRelu {A K B : ℕ} (x : (M2 A K).Idx → EReal) (w : (M2 K B).Idx → EReal) (b : (M2 1 B).Idx → EReal) :
    (M2 A B).Idx → EReal :=
  fun i => FloatOps.maximumf (F := Ideal) (φ := .f32) (affine x w b i) (lit 0x00000000#32)

/-- The initial-residual mix `h = 0.9·agg + 0.1·x₀` at row `p`, column `k`. -/
def resid {A H : ℕ} (agg x0 : (M2 A H).Idx → EReal) (p : Fin A) (k : Fin H) : EReal :=
  FloatOps.addf (F := Ideal) (φ := .f32)
    (FloatOps.mulf (F := Ideal) (φ := .f32) (lit 0x3F666666#32) (agg (ix2 p k)))
    (FloatOps.mulf (F := Ideal) (φ := .f32) (lit 0x3DCCCCCD#32) (x0 (ix2 p k)))

/-- `c₁·h + c₂·(h·w)` with `h = resid agg x₀`. -/
def mixed {A H : ℕ} (c1 c2 : BitVec 32) (agg x0 : (M2 A H).Idx → EReal) (w : (M2 H H).Idx → EReal) :
    (M2 A H).Idx → EReal :=
  fun i => FloatOps.addf (F := Ideal) (φ := .f32)
    (FloatOps.mulf (F := Ideal) (φ := .f32) (lit c1) (resid agg x0 (i 0) (i 1)))
    (FloatOps.mulf (F := Ideal) (φ := .f32) (lit c2) (∑ k : Fin H, resid agg x0 (i 0) k * w (ix2 k (i 1))))

/-- Batch-norm affine then ReLU, the statistics and the scale and shift row vectors. -/
def bnRelu {A H : ℕ} (o : (M2 A H).Idx → EReal) (mean var gamma beta : (M2 1 H).Idx → EReal) :
    (M2 A H).Idx → EReal :=
  fun i => FloatOps.maximumf (F := Ideal) (φ := .f32)
    (FloatOps.addf (F := Ideal) (φ := .f32)
      (FloatOps.mulf (F := Ideal) (φ := .f32)
        (FloatOps.mulf (F := Ideal) (φ := .f32) (gamma (ix2 0 (i 1)))
          (FloatOps.subf (F := Ideal) (φ := .f32) (o i) (mean (ix2 0 (i 1)))))
        (FloatOps.rsqrt (F := Ideal) (φ := .f32)
          (FloatOps.addf (F := Ideal) (φ := .f32) (var (ix2 0 (i 1))) (lit 0x3727C5AC#32))))
      (beta (ix2 0 (i 1))))
    (lit 0x00000000#32)

end Cert.Gcn

end
-- ==== Proof.KVal.lean ====
/-
  The kernel program's value as named stage functions of whole arrays, on the extended reals: each array the host
  program makes between two regions is the composed term of the operations that make it; each region's array is
  one of the four dense stages (affine, fcRelu, mixed, bnRelu).

  * row, col   : the edge list's two rows, each followed by the node ids 0 … 49999 (the self loops): 850000 entries.
  * deg, dinv  : the in-degree of every node (a scatter-add of ones over col) and its inverse square root where positive.
  * normw      : the edge weight dinv(row)·dinv(col), a column [850000, 1]; a negative index is read wrapped by 50000.
  * agg        : the weighted neighbour sum: a scatter-add over col of normw·cur(row), rows wrapped the same way.
  * mean, var  : the column statistics of a [50000, 96] array as [1, 96] rows (the variance over 50000 − 0 entries).
  * wsl, prow  : layer l's [96, 96] slice of the stacked weights; row l of a [3, 96] parameter array as a [1, 96] row.
  * padw, padb : the output layer's weight and bias padded with zeros to 128 columns.
  * value      : the network: input layer, three residual graph layers, output layer, the first 40 columns.
-/
import proofs.«408610_j12541304504853_3_alg».proof.KernelIdeal
import proofs.«408610_j12541304504853_3_alg».proof.Proof.Spec
import Idealize.ShloMosaic.PureOps.Ideal
import Idealize.ShloMosaic.Lib.ValueIdx

noncomputable section

namespace Cert.Gcn.KVal

open Cert.KernelIdeal Idealize.ShloMosaic

variable [Facts₀]
open Facts₀

/-- An array of shape `S` and element type `e` on the extended reals. -/
abbrev T (S : Shape) (e : EltTy) : Type := (⟨S, e⟩ : BufTy).Contents (Elt Ideal)

/-! ## The graph: indices, degrees, edge weights -/

/-- The source row of the edge list, then the node ids. -/
def row (e : T S2x800000 .i32) : T S850000 .i32 :=
  concatenate S850000 0
    [⟨S800000, shapeCast S800000 (extractStridedSlice S1x800000 ![0, 0] e slices_S2x800000_S1x800000_0_0) shapeCasts_S1x800000_S800000⟩,
      ⟨S50000, iotaInDim S50000 32 0⟩]
    concatenates_S800000_S50000_S850000_d0

/-- The target row of the edge list, then the node ids. -/
def col (e : T S2x800000 .i32) : T S850000 .i32 :=
  concatenate S850000 0
    [⟨S800000, shapeCast S800000 (extractStridedSlice S1x800000 ![1, 0] e slices_S2x800000_S1x800000_1_0) shapeCasts_S1x800000_S800000⟩,
      ⟨S50000, iotaInDim S50000 32 0⟩]
    concatenates_S800000_S50000_S850000_d0

/-- The in-degree of every node: ones added at the targets. -/
def deg (cl : T S850000 .i32) : T S50000 .f32 :=
  Host.scatterAdd (F := Ideal) (φ := .f32) scatter_S50000_S850000x1_S850000_n_0_0_1
    (broadcastInDim S50000 ![] bcast_S_S50000 (constant (F := Ideal) S_ .f32 0x00000000#32))
    (broadcastInDim S850000x1 ![0] bcast_S850000_S850000x1_0 cl)
    (broadcastInDim S850000 ![] bcast_S_S850000 (constant (F := Ideal) S_ .f32 0x3F800000#32))

/-- Where the degree is positive. -/
def dpos (cl : T S850000 .i32) : T S50000 .i1 :=
  cmpf (F := Ideal) (φ := .f32) .ogt (deg cl) (broadcastInDim S50000 ![] bcast_S_S50000 (constant (F := Ideal) S_ .f32 0x00000000#32))

/-- The inverse square root of the degree. -/
def drs (cl : T S850000 .i32) : T S50000 .f32 := Host.rsqrt (F := Ideal) (φ := .f32) (deg cl)

/-- The inverse square root of the degree where it is positive, zero elsewhere. -/
def dinv (cl : T S850000 .i32) : T S50000 .f32 :=
  select (dpos cl) (drs cl) (broadcastInDim S50000 ![] bcast_S_S50000 (id (constant (F := Ideal) S_ .f32 0x00000000#32)))

/-- A node index with a negative one wrapped by 50000. -/
def wrap (ix : T S850000 .i32) : T S850000 .i32 :=
  select (cmpi .slt ix (broadcastInDim S850000 ![] bcast_S_S850000 (constantI S_ 32 0#32)))
    (addi ix (broadcastInDim S850000 ![] bcast_S_S850000 (constantI S_ 32 50000#32))) ix

/-- The edge weight dinv(row)·dinv(col) as a column, from the two index rows and the inverse-root degrees. -/
def normwOf (rw cl : T S850000 .i32) (dv : T S50000 .f32) : T S850000x1 .f32 :=
  broadcastInDim S850000x1 ![0] bcast_S850000_S850000x1_0
    (mulf (F := Ideal) (φ := .f32)
      (Host.gather gather_S50000_S850000x1_S850000_n_0_n_n_0_1_1 dv (broadcastInDim S850000x1 ![0] bcast_S850000_S850000x1_0 (wrap rw)))
      (Host.gather gather_S50000_S850000x1_S850000_n_0_n_n_0_1_1 dv (broadcastInDim S850000x1 ![0] bcast_S850000_S850000x1_0 (wrap cl))))

/-- The edge weights of the edge list. -/
def normw (e : T S2x800000 .i32) : T S850000x1 .f32 := normwOf (row e) (col e) (dinv (col e))

/-! ## The input layer -/

/-- The input layer's bias as a row. -/
def brow (b : T S96 .f32) : T S1x96 .f32 := shapeCast S1x96 b shapeCasts_S96_S1x96

/-- The input layer: max(x·w + b, 0). -/
def x1 (x : T S50000x256 .f32) (w : T S256x96 .f32) (b : T S96 .f32) : T S50000x96 .f32 := Cert.Gcn.fcRelu x w (brow b)

/-! ## A graph layer's host-made arrays -/

/-- The weighted neighbour sum of `cur`. -/
def agg (rw cl : T S850000 .i32) (nw : T S850000x1 .f32) (cur : T S50000x96 .f32) : T S50000x96 .f32 :=
  Host.scatterAdd (F := Ideal) (φ := .f32) scatter_S50000x96_S850000x1_S850000x96_1_0_0_1
    (broadcastInDim S50000x96 ![] bcast_S_S50000x96 (constant (F := Ideal) S_ .f32 0x00000000#32))
    (broadcastInDim S850000x1 ![0] bcast_S850000_S850000x1_0 cl)
    (mulf (F := Ideal) (φ := .f32) (broadcastInDim S850000x96 ![0, 1] bcast_S850000x1_S850000x96_0_1 nw)
      (Host.gather gather_S50000x96_S850000x1_S850000x96_1_0_n_n_0_1_196 cur
        (broadcastInDim S850000x1 ![0] bcast_S850000_S850000x1_0 (wrap rw))))

/-- Layer 1's weight. -/
def wsl0 (cw : T S3x96x96 .f32) : T S96x96 .f32 :=
  shapeCast S96x96 (extractStridedSlice S1x96x96 ![0, 0, 0] cw slices_S3x96x96_S1x96x96_0_0_0) shapeCasts_S1x96x96_S96x96
/-- Layer 2's weight. -/
def wsl1 (cw : T S3x96x96 .f32) : T S96x96 .f32 :=
  shapeCast S96x96 (extractStridedSlice S1x96x96 ![1, 0, 0] cw slices_S3x96x96_S1x96x96_1_0_0) shapeCasts_S1x96x96_S96x96
/-- Layer 3's weight. -/
def wsl2 (cw : T S3x96x96 .f32) : T S96x96 .f32 :=
  shapeCast S96x96 (extractStridedSlice S1x96x96 ![2, 0, 0] cw slices_S3x96x96_S1x96x96_2_0_0) shapeCasts_S1x96x96_S96x96

/-- The column means as a row: the column sums over 50000. -/
def mean (o : T S50000x96 .f32) : T S1x96 .f32 :=
  Host.divf (F := Ideal) (φ := .f32)
    (broadcastInDim S1x96 ![1] bcast_S96_S1x96_1
      (Host.reduceAdd (F := Ideal) (φ := .f32) o (constant (F := Ideal) S_ .f32 0x00000000#32) reducesTo_S50000x96_S96_d0 h_S_))
    (broadcastInDim S1x96 ![] bcast_S_S1x96 (constant (F := Ideal) S_ .f32 0x47435000#32))

/-- The number of entries of a column less the degrees of freedom taken (none): 50000 − 0. -/
def cnt : T S_ .f32 :=
  subf (F := Ideal) (φ := .f32) (constant (F := Ideal) S_ .f32 0x47435000#32) (sitofp (F := Ideal) .f32 (constantI S_ 32 0#32))

/-- The squared deviations from the column means. -/
def sqdev (o : T S50000x96 .f32) : T S50000x96 .f32 :=
  mulf (F := Ideal) (φ := .f32) (subf (F := Ideal) (φ := .f32) o (broadcastInDim S50000x96 ![0, 1] bcast_S1x96_S50000x96_0_1 (mean o)))
    (subf (F := Ideal) (φ := .f32) o (broadcastInDim S50000x96 ![0, 1] bcast_S1x96_S50000x96_0_1 (mean o)))

/-- The column variances as a row: the summed squared deviations over the count where the count is positive. -/
def var (o : T S50000x96 .f32) : T S1x96 .f32 :=
  select (broadcastInDim S1x96 ![] bcast_S_S1x96
      (cmpf (F := Ideal) (φ := .f32) .ogt cnt (constant (F := Ideal) S_ .f32 0x00000000#32)))
    (Host.divf (F := Ideal) (φ := .f32)
      (broadcastInDim S1x96 ![1] bcast_S96_S1x96_1
        (Host.reduceAdd (F := Ideal) (φ := .f32) (sqdev o) (constant (F := Ideal) S_ .f32 0x00000000#32) reducesTo_S50000x96_S96_d0 h_S_))
      (broadcastInDim S1x96 ![] bcast_S_S1x96 cnt))
    (broadcastInDim S1x96 ![] bcast_S_S1x96 (id (constant (F := Ideal) S_ .f32 0x7FC00000#32)))

/-- Row 0 of a [3, 96] parameter array. -/
def prow0 (g : T S3x96 .f32) : T S1x96 .f32 := extractStridedSlice S1x96 ![0, 0] g slices_S3x96_S1x96_0_0
/-- Row 1 of a [3, 96] parameter array. -/
def prow1 (g : T S3x96 .f32) : T S1x96 .f32 := extractStridedSlice S1x96 ![1, 0] g slices_S3x96_S1x96_1_0
/-- Row 2 of a [3, 96] parameter array. -/
def prow2 (g : T S3x96 .f32) : T S1x96 .f32 := extractStridedSlice S1x96 ![2, 0] g slices_S3x96_S1x96_2_0

/-! ## The three graph layers -/

/-- Layer 1's mix of the neighbour sum with the initial features. -/
def mix1 (rw cl : T S850000 .i32) (nw : T S850000x1 .f32) (x0 cur : T S50000x96 .f32) (cw : T S3x96x96 .f32) : T S50000x96 .f32 :=
  Cert.Gcn.mixed 0x3F183370#32 0x3ECF991F#32 (agg rw cl nw cur) x0 (wsl0 cw)
/-- Layer 2's mix. -/
def mix2 (rw cl : T S850000 .i32) (nw : T S850000x1 .f32) (x0 cur : T S50000x96 .f32) (cw : T S3x96x96 .f32) : T S50000x96 .f32 :=
  Cert.Gcn.mixed 0x3F46E010#32 0x3E647FBE#32 (agg rw cl nw cur) x0 (wsl1 cw)
/-- Layer 3's mix. -/
def mix3 (rw cl : T S850000 .i32) (nw : T S850000x1 .f32) (x0 cur : T S50000x96 .f32) (cw : T S3x96x96 .f32) : T S50000x96 .f32 :=
  Cert.Gcn.mixed 0x3F588995#32 0x3E1DD9AD#32 (agg rw cl nw cur) x0 (wsl2 cw)

/-- Batch norm over the columns of `o` with scale row `g` and shift row `b`, then ReLU. -/
def bn (o : T S50000x96 .f32) (g b : T S1x96 .f32) : T S50000x96 .f32 := Cert.Gcn.bnRelu o (mean o) (var o) g b

/-- Layer 1. -/
def layer1 (rw cl : T S850000 .i32) (nw : T S850000x1 .f32) (x0 cur : T S50000x96 .f32) (cw : T S3x96x96 .f32)
    (g bt : T S3x96 .f32) : T S50000x96 .f32 :=
  bn (mix1 rw cl nw x0 cur cw) (prow0 g) (prow0 bt)
/-- Layer 2. -/
def layer2 (rw cl : T S850000 .i32) (nw : T S850000x1 .f32) (x0 cur : T S50000x96 .f32) (cw : T S3x96x96 .f32)
    (g bt : T S3x96 .f32) : T S50000x96 .f32 :=
  bn (mix2 rw cl nw x0 cur cw) (prow1 g) (prow1 bt)
/-- Layer 3. -/
def layer3 (rw cl : T S850000 .i32) (nw : T S850000x1 .f32) (x0 cur : T S50000x96 .f32) (cw : T S3x96x96 .f32)
    (g bt : T S3x96 .f32) : T S50000x96 .f32 :=
  bn (mix3 rw cl nw x0 cur cw) (prow2 g) (prow2 bt)

/-! ## The output layer -/

/-- The output weight with 88 zero columns appended. -/
def padw (w2 : T S96x40 .f32) : T S96x128 .f32 :=
  pad S96x128 ![0, 0] ![0, 88] ![0, 0] w2 (sitofp (F := Ideal) .f32 (constantI S_ 32 0#32)) pads_S96x40_S96x128_000_0880 h_S_

/-- The output bias with 88 zeros appended, as a row. -/
def padb (b2 : T S40 .f32) : T S1x128 .f32 :=
  shapeCast S1x128 (pad S128 ![0] ![88] ![0] b2 (sitofp (F := Ideal) .f32 (constantI S_ 32 0#32)) pads_S40_S128_0880 h_S_)
    shapeCasts_S128_S1x128

/-- The output layer on 128 columns. -/
def outp (cur : T S50000x96 .f32) (w2 : T S96x40 .f32) (b2 : T S40 .f32) : T S50000x128 .f32 :=
  Cert.Gcn.affine cur (padw w2) (padb b2)

/-- The first 40 columns. -/
def out (p : T S50000x128 .f32) : T S50000x40 .f32 := extractStridedSlice S50000x40 ![0, 0] p slices_S50000x128_S50000x40_0_0

/-! ## The network -/

/-- The kernel program's result from its nine arguments: features, edge list, input weight and bias, the stacked layer
    weights, scales and shifts, output weight and bias. -/
def value (a0 : T S50000x256 .f32) (a1 : T S2x800000 .i32) (a2 : T S256x96 .f32) (a3 : T S96 .f32) (a4 : T S3x96x96 .f32)
    (a5 a6 : T S3x96 .f32) (a7 : T S96x40 .f32) (a8 : T S40 .f32) : T S50000x40 .f32 :=
  out (outp
    (layer3 (row a1) (col a1) (normw a1) (x1 a0 a2 a3)
      (layer2 (row a1) (col a1) (normw a1) (x1 a0 a2 a3)
        (layer1 (row a1) (col a1) (normw a1) (x1 a0 a2 a3) (x1 a0 a2 a3) a4 a5 a6) a4 a5 a6) a4 a5 a6)
    a7 a8)

end Cert.Gcn.KVal

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.RegFc0.lean ====
/-
  Region 0 (the input layer): the array its ten row blocks leave is max(x·W₁ + b₁, 0) of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access. -/
theorem offsets_zero : (![0, 0] : Fin 2 → Nat) = fun _ => 0 := funext fun a => by fin_cases a <;> rfl

/-- The body's value at row `p`, column `q` of the block: row `p` of the x-block against column `q` of the weight,
    plus the bias row at `q`, then the maximum with zero. -/
theorem body_apply (x0 : Vec Ideal S5000x256 .f32) (x1 : Vec Ideal S256x96 .f32) (x2 : Vec Ideal S1x96 .f32)
    (p : Fin 5000) (q : Fin 96) :
    k0_pay1 x0 x1 x2 (ix2 p q) = FloatOps.maximumf (F := Ideal) (φ := .f32)
      (FloatOps.addf (F := Ideal) (φ := .f32) (∑ k : Fin 256, x0 (ix2 p k) * x1 (ix2 k q)) (x2 (ix2 0 q)))
      (Cert.Gcn.lit 0x00000000#32) := by
  unfold k0_pay1
  rw [maximumf_apply, addf_apply,
    Cert.LibMatProd.matmul_zero_apply dot_S5000x256_S256x96_S5000x96_1_0_0_1_n_n rfl none x0 x1 p q,
    shapeCast_self, broadcastTo_1b_ab_apply]
  rfl

/-- A block whose x-rows are rows of the array `a0` (row `p` of the block is row `r` of the array), whose weight is
    the whole array `a1` and whose bias row is `a2`, holds at `(p, q)` the input layer of the arrays at `(r, q)`. -/
theorem body_of_arrays (a0 : S50000x256.Idx → EReal) (a1 : S256x96.Idx → EReal) (a2 : S1x96.Idx → EReal)
    (x0 : Vec Ideal S5000x256 .f32) (x1 : Vec Ideal S256x96 .f32) (x2 : Vec Ideal S1x96 .f32)
    (p : Fin 5000) (q : Fin 96) (r : Fin 50000)
    (h0 : ∀ k : Fin 256, x0 (ix2 p k) = a0 (ix2 r k))
    (h1 : ∀ k : Fin 256, x1 (ix2 k q) = a1 (ix2 k q))
    (h2 : x2 (ix2 0 q) = a2 (ix2 0 q)) :
    k0_pay1 x0 x1 x2 (ix2 p q) = Cert.Gcn.fcRelu a0 a1 a2 (ix2 r q) := by
  rw [body_apply, h2, Finset.sum_congr rfl (fun k _ => by rw [h0 k, h1 k])]
  rfl

/-- The printed index maps over the grid: the x-window and the output window sit at row block `t`, column block 0;
    the weight and the bias row at block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the input layer of the arrays the region finds. -/
theorem flushed_eq (c : Dev nD) (t : Fin cfg0.N) :
    (dat0 (F := Ideal) V c).flushed 3 t
      = ((cfg0.win 3).blk t).view.read (Elt Ideal) (Cert.Gcn.fcRelu (V c main_arg0) (V c main_arg2) (V c main_v31)) := by
  show (cfg0.win 3).cut (grid0.coords t) ((dat0 V c).after 3 t) = _
  rw [after0_3]
  unfold out0_3
  rw [View.canon_unit_zero offsets_zero]
  simp only [View.ld_unit_zero (S := S5000x256) offsets_zero, View.ld_unit_zero (S := S256x96) offsets_zero,
    View.ld_unit_zero (S := S1x96) offsets_zero]
  obtain ⟨e00, e01, e10, e11, e20, e21, e30, e31⟩ := index_facts t
  funext j
  have ht : t.val < 10 := lt_of_lt_of_eq t.isLt N_0
  have hj0 : (j 0).val < 5000 := (j 0).isLt
  have hj1 : (j 1).val < 96 := (j 1).isLt
  have hj : (win0 3).xinj (grid0.coords t) j = ix2 (⟨(j 0).val, hj0⟩ : Fin 5000) (⟨(j 1).val, hj1⟩ : Fin 96) :=
    funext fun a => by match a with | ⟨0, _⟩ => rfl | ⟨1, _⟩ => rfl
  show k0_pay1 (iblk0 V c 0 t) (iblk0 V c 1 t) (iblk0 V c 2 t) ((win0 3).xinj (grid0.coords t) j) = _
  rw [hj]
  refine (body_of_arrays (V c main_arg0) (V c main_arg2) (V c main_v31) (iblk0 V c 0 t) (iblk0 V c 1 t) (iblk0 V c 2 t)
    ⟨(j 0).val, hj0⟩ ⟨(j 1).val, hj1⟩ ⟨t.val * 5000 + (j 0).val, by omega⟩ (fun k => ?_) (fun k => ?_) ?_).trans ?_
  · -- the x-block's row is the array's row 5000·t + p
    show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 256 + 1 * k.val = k.val; omega
  · -- the weight block is the whole weight
    show V c main_arg2 (((cfg0.win 1).blk t).view.emb (ix2 k (⟨(j 1).val, hj1⟩ : Fin 96))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 96 + 1 * (j 1).val = (j 1).val; omega
  · -- the bias block is the whole bias row
    show V c main_v31 (((cfg0.win 2).blk t).view.emb (ix2 (0 : Fin 1) (⟨(j 1).val, hj1⟩ : Fin 96))) = _
    refine congrArg (V c main_v31) (funext fun a => Fin.ext ?_)
    match a with
    | ⟨0, _⟩ => show win0_2.index t (0 : Fin 2) * 1 + 1 * 0 = 0; omega
    | ⟨1, _⟩ => show win0_2.index t (1 : Fin 2) * 96 + 1 * (j 1).val = (j 1).val; omega
  · -- and (5000·t + p, q) is where the output block's (p, q) sits in the array
    show Cert.Gcn.fcRelu (V c main_arg0) (V c main_arg2) (V c main_v31) _
      = Cert.Gcn.fcRelu (V c main_arg0) (V c main_arg2) (V c main_v31) (((cfg0.win 3).blk t).view.emb j)
    refine congrArg _ (funext fun a => Fin.ext ?_)
    match a with
    | ⟨0, _⟩ => show t.val * 5000 + (j 0).val = win0_3.index t (0 : Fin 2) * 5000 + 1 * (j 0).val; omega
    | ⟨1, _⟩ => show (j 1).val = win0_3.index t (1 : Fin 2) * 96 + 1 * (j 1).val; omega

/-- An index of the array is in point `t`'s block iff each coordinate is in the block's range on its axis. -/
theorem mem_block (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_v32).slice (win0_3.rect t)).set ↔ _
  rw [View.set_slice_whole, Rect.mem_set_unit]
  exact Iff.rfl

/-- Every index of the array is in the block of the point its row falls in: row `r` in block `r / 5000`. -/
theorem covered (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  obtain ⟨e00, e01, e10, e11, e20, e21, e30, e31⟩ := index_facts t
  have e30' : win0_3.index t (0 : Fin 2) = (i 0).val / 5000 := e30
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 96 ≤ (i 1).val ∧ (i 1).val < win0_3.index t (1 : Fin 2) * 96 + 96
    omega

/-- The array window 3 ends holding: one function of the arrays the region finds, index by index. -/
theorem final0 (c : Dev nD) :
    (dat0 (F := Ideal) V c).arrAt 3 cfg0.N = Cert.Gcn.fcRelu (V c main_arg0) (V c main_arg2) (V c main_v31) :=
  (dat0 (F := Ideal) V c).arrAt_eq_of_cover 3 (Cert.Gcn.fcRelu (V c main_arg0) (V c main_arg2) (V c main_v31))
    (fun t _ => flushed_eq V c t) covered

end Cert.Gcn.Reg0

end
-- ==== Proof.RegMix1.lean ====
/-
  Region 1 (layer 1's mix): the array its ten row blocks leave is c₁·h + c₂·(h·W) with h = 0.9·agg + 0.1·x₀, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg1

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-buffer access, as the printed list. -/
theorem zeros2 : (![0, 0] : Fin 2 → Nat) = fun _ => 0 := funext fun a => by fin_cases a <;> rfl

/-- The mix read at row `p`, column `q` depends on row `p` of the two feature operands and column `q` of the weight
    only: operands that agree there (row `p` of one pair against row `r` of another, of any heights) give the same entry. -/
theorem mixed_rows {A B H : ℕ} (c1 c2 : BitVec 32) (a0 a1 : (M2 A H).Idx → EReal) (b0 b1 : (M2 B H).Idx → EReal)
    (w w' : (M2 H H).Idx → EReal) (p : Fin A) (r : Fin B) (q : Fin H)
    (h0 : ∀ k : Fin H, a0 (ix2 p k) = b0 (ix2 r k)) (h1 : ∀ k : Fin H, a1 (ix2 p k) = b1 (ix2 r k))
    (h2 : ∀ k : Fin H, w (ix2 k q) = w' (ix2 k q)) :
    mixed c1 c2 a0 a1 w (ix2 p q) = mixed c1 c2 b0 b1 w' (ix2 r q) := by
  show FloatOps.addf (F := Ideal) (φ := .f32) (FloatOps.mulf (F := Ideal) (φ := .f32) (lit c1) (resid a0 a1 p q))
      (FloatOps.mulf (F := Ideal) (φ := .f32) (lit c2) (∑ k : Fin H, resid a0 a1 p k * w (ix2 k q)))
    = FloatOps.addf (F := Ideal) (φ := .f32) (FloatOps.mulf (F := Ideal) (φ := .f32) (lit c1) (resid b0 b1 r q))
      (FloatOps.mulf (F := Ideal) (φ := .f32) (lit c2) (∑ k : Fin H, resid b0 b1 r k * w' (ix2 k q)))
  have hr : ∀ k : Fin H, resid a0 a1 p k = resid b0 b1 r k := fun k => by unfold resid; rw [h0 k, h1 k]
  simp only [hr, h2]

/-- The kernel body's result at row `p`, column `q` of a block is the mix of the three loaded blocks there: the
    elementwise operations read at the index, the matrix product into zeros as the sum over the shared axis. -/
theorem pay_apply (x0 x1 : Vec Ideal S5000x96 .f32) (x2 : Vec Ideal S96x96 .f32) (p : Fin 5000) (q : Fin 96) :
    k1_pay1 x0 x1 x2 (ix2 p q) = mixed 0x3F183370#32 0x3ECF991F#32 x0 x1 x2 (ix2 p q) := by
  unfold k1_pay1
  simp only [shapeCast_self]
  show FloatOps.addf (F := Ideal) (φ := .f32) (FloatOps.mulf (F := Ideal) (φ := .f32) _ _)
      (FloatOps.mulf (F := Ideal) (φ := .f32) _ (matmul dot_S5000x96_S96x96_S5000x96_1_0_0_1_n_n none _ x2 (constant S5000x96 .f32 0x00000000#32) (ix2 p q))) = _
  rw [Cert.LibMatProd.matmul_zero_apply dot_S5000x96_S96x96_S5000x96_1_0_0_1_n_n rfl]
  rfl

/-- So the body's result is the mix of the three loaded blocks, as one function on the block. -/
theorem pay_eq (x0 x1 : Vec Ideal S5000x96 .f32) (x2 : Vec Ideal S96x96 .f32) :
    k1_pay1 x0 x1 x2 = mixed 0x3F183370#32 0x3ECF991F#32 x0 x1 x2 := funext fun j => by
  obtain ⟨p, q, rfl⟩ : ∃ (p : Fin 5000) (q : Fin 96), j = ix2 p q := ⟨j 0, j 1, eq_ix2 j⟩
  exact pay_apply x0 x1 x2 p q

/-- The printed index maps over the grid: the two feature windows move with the output window down the rows and stay
    at column block 0; the weight's window stays at block (0, 0); the output's row block index is at most 9. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point `t` writes back is block `t` of the mix of the whole arrays: row `p` of the block is row
    `5000·(block index) + p` of the array on the output's side and on both feature operands' sides, and the weight's
    block is the whole weight. -/
theorem flushed_eq (c : Dev nD) (t : Fin cfg1.N) :
    (dat1 (F := Ideal) V c).flushed 3 t = ((cfg1.win 3).blk t).view.read (Elt Ideal)
      (mixed 0x3F183370#32 0x3ECF991F#32 (V c main_v44) (V c main_v32) (V c main_v46)) := by
  show (cfg1.win 3).cut (grid1.coords t) ((dat1 V c).after 3 t) = _
  rw [after1_3]
  unfold out1_3
  rw [View.canon_unit_zero zeros2]
  simp only [View.ld_unit_zero (S := S5000x96) zeros2, View.ld_unit_zero (S := S96x96) zeros2]
  rw [pay_eq]
  obtain ⟨e0, e1, e2, e3, e4, e5, e6, e7⟩ := idx_facts t
  funext j
  obtain ⟨p, q, rfl⟩ : ∃ (p : Fin 5000) (q : Fin 96), j = ix2 p q := ⟨j 0, j 1, eq_ix2 j⟩
  have hr : win1_3.index t (0 : Fin 2) * 5000 + 1 * p.val < 50000 := by have := p.isLt; omega
  show mixed 0x3F183370#32 0x3ECF991F#32 (iblk1 V c 0 t) (iblk1 V c 1 t) (iblk1 V c 2 t) (ix2 p q)
    = mixed 0x3F183370#32 0x3ECF991F#32 (V c main_v44) (V c main_v32) (V c main_v46) (((cfg1.win 3).blk t).view.emb (ix2 p q))
  have hi : ((cfg1.win 3).blk t).view.emb (ix2 p q) = ix2 (⟨win1_3.index t (0 : Fin 2) * 5000 + 1 * p.val, hr⟩ : Fin 50000) q := by
    funext a; apply Fin.ext
    match a with
    | ⟨0, _⟩ => show win1_3.index t (0 : Fin 2) * 5000 + 1 * p.val = win1_3.index t (0 : Fin 2) * 5000 + 1 * p.val; rfl
    | ⟨1, _⟩ => show win1_3.index t (1 : Fin 2) * 96 + 1 * q.val = q.val; omega
  rw [hi]
  refine mixed_rows _ _ _ _ _ _ _ _ p _ q (fun k => ?_) (fun k => ?_) (fun k => ?_)
  · show V c main_v44 (((cfg1.win 0).blk t).view.emb (ix2 p k)) = V c main_v44 (ix2 _ k)
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 96 + 1 * k.val = k.val; omega
  · show V c main_v32 (((cfg1.win 1).blk t).view.emb (ix2 p k)) = V c main_v32 (ix2 _ k)
    refine congrArg _ (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 96 + 1 * k.val = k.val; omega
  · show V c main_v46 (((cfg1.win 2).blk t).view.emb (ix2 k q)) = V c main_v46 (ix2 k q)
    refine congrArg _ (funext fun a => Fin.ext ?_)
    match a with
    | ⟨0, _⟩ => show win1_2.index t (0 : Fin 2) * 96 + 1 * k.val = k.val; omega
    | ⟨1, _⟩ => show win1_2.index t (1 : Fin 2) * 96 + 1 * q.val = q.val; omega

/-- An index of the array is in point `t`'s block iff each coordinate is in the block's range on its axis. -/
theorem mem_blk (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v47).slice (win1_3.rect t)).set ↔ _
  rw [View.set_slice_whole, Rect.mem_set_unit]
  exact Iff.rfl

/-- Every index of the array is in some point's block: row `r` in that of the point whose row block index is `r / 5000`. -/
theorem covered (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- The array window 3 ends holding: one function of the arrays the region finds, index by index. -/
theorem final1 (c : Dev nD) :
    (dat1 (F := Ideal) V c).arrAt 3 cfg1.N = Cert.Gcn.mixed 0x3F183370#32 0x3ECF991F#32 (V c main_v44) (V c main_v32) (V c main_v46) :=
  (dat1 (F := Ideal) V c).arrAt_eq_of_cover 3 _ (fun t _ => flushed_eq V c t) covered

end Cert.Gcn.Reg1

end
-- ==== Proof.KFoldA.lean ====
/-
  The head of the kernel program's fold: from the launch memory through the first three host stretches (indices,
  degrees, edge weights, the bias row), region 0 (the input layer), the fourth stretch (layer 1's neighbour sum and
  weight) and region 1 (layer 1's mix). At each boundary, every buffer something later reads holds a named stage
  function of the launch arrays: a buffer a stretch writes holds the composed term of the stretch's operations on what
  the stretch read; a region's output holds the region's dense stage of its input arrays; every other buffer holds
  what it held.
-/
import proofs.«408610_j12541304504853_3_alg».proof.Proof.Gen.KernelIdeal.Frame
import proofs.«408610_j12541304504853_3_alg».proof.Proof.KVal
import proofs.«408610_j12541304504853_3_alg».proof.Proof.RegFc0
import proofs.«408610_j12541304504853_3_alg».proof.Proof.RegMix1
import Idealize.ShloMosaic.Lib.Pipeline.Value
import Idealize.ShloMosaic.Lib.StableHlo.Run

set_option maxRecDepth 16384
set_option maxHeartbeats 1600000

noncomputable section

namespace Cert.Gcn.KFoldA

open Cert.KernelIdeal Cert.KernelIdeal.Gen
open Idealize.ShloMosaic Idealize.ShloMosaic.TcCoe

variable (m : (ℓ : Loc nD τ sig) → Buf (Elt Ideal) ℓ) (ρ : Dev nD → PrngReg)

/-- A buffer that no operation of the stretch writes holds after it what it held before. -/
local macro "keep_across " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The nine argument arrays as launched on core `c`. -/
abbrev a0 (c : Dev nD) : KVal.T S50000x256 .f32 := m ((c : Thread nD τ).loc main_arg0)
abbrev a1 (c : Dev nD) : KVal.T S2x800000 .i32 := m ((c : Thread nD τ).loc main_arg1)
abbrev a2 (c : Dev nD) : KVal.T S256x96 .f32 := m ((c : Thread nD τ).loc main_arg2)
abbrev a3 (c : Dev nD) : KVal.T S96 .f32 := m ((c : Thread nD τ).loc main_arg3)
abbrev a4 (c : Dev nD) : KVal.T S3x96x96 .f32 := m ((c : Thread nD τ).loc main_arg4)
abbrev a5 (c : Dev nD) : KVal.T S3x96 .f32 := m ((c : Thread nD τ).loc main_arg5)
abbrev a6 (c : Dev nD) : KVal.T S3x96 .f32 := m ((c : Thread nD τ).loc main_arg6)
abbrev a7 (c : Dev nD) : KVal.T S96x40 .f32 := m ((c : Thread nD τ).loc main_arg7)
abbrev a8 (c : Dev nD) : KVal.T S40 .f32 := m ((c : Thread nD τ).loc main_arg8)

/-! ## What each host stretch writes, from what it reads (any contents `Wp` before it) -/

/-- The source indices: the edge list's first row, then the node ids. -/
theorem h0_v3 (Wp : Valuation τ sig (Elt Ideal)) (e : KVal.T S2x800000 .i32)
    (h_e : Wp (Proc.devRef .tc main_arg1) = e) :
    StableHlo.after hostOps0 Wp (Proc.devRef .tc main_v3) = KVal.row e := by
  subst h_e
  after_results
  rfl
/-- The target indices: the edge list's second row, then the node ids. -/
theorem h0_v6 (Wp : Valuation τ sig (Elt Ideal)) (e : KVal.T S2x800000 .i32)
    (h_e : Wp (Proc.devRef .tc main_arg1) = e) :
    StableHlo.after hostOps0 Wp (Proc.devRef .tc main_v6) = KVal.col e := by
  subst h_e
  after_results
  rfl
/-- Where the degree is positive. -/
theorem h0_v12 (Wp : Valuation τ sig (Elt Ideal)) (e : KVal.T S2x800000 .i32)
    (h_e : Wp (Proc.devRef .tc main_arg1) = e) :
    StableHlo.after hostOps0 Wp (Proc.devRef .tc main_v12) = KVal.dpos (KVal.col e) := by
  subst h_e
  after_results
  rfl
/-- The inverse square root of the degree. -/
theorem h0_v13 (Wp : Valuation τ sig (Elt Ideal)) (e : KVal.T S2x800000 .i32)
    (h_e : Wp (Proc.devRef .tc main_arg1) = e) :
    StableHlo.after hostOps0 Wp (Proc.devRef .tc main_v13) = KVal.drs (KVal.col e) := by
  subst h_e
  after_results
  rfl
/-- The zero the nodes of degree zero get. -/
theorem h0_cst_2 (Wp : Valuation τ sig (Elt Ideal))
    : StableHlo.after hostOps0 Wp (Proc.devRef .tc main_cst_2) = (constant (F := Ideal) S_ .f32 0x00000000#32 : KVal.T S_ .f32) := by
  after_results
/-- The inverse-root degree where the degree is positive, zero elsewhere. -/
theorem h0_1_v14 (Wp : Valuation τ sig (Elt Ideal)) (cl : KVal.T S850000 .i32)
    (h12 : Wp (Proc.devRef .tc main_v12) = KVal.dpos cl) (h13 : Wp (Proc.devRef .tc main_v13) = KVal.drs cl)
    (hc : Wp (Proc.devRef .tc main_cst_2) = (constant (F := Ideal) S_ .f32 0x00000000#32 : KVal.T S_ .f32)) :
    StableHlo.after hostOps0_1 Wp (Proc.devRef .tc main_v14) = KVal.dinv cl := by
  after_results
  simp only [StableHlo.TRef.ofBuf, StableHlo.TRef.toBuf, cast_eq]
  rw [h12, h13, hc]
  rfl
/-- The edge weights as a column. -/
theorem h0_2_v30 (Wp : Valuation τ sig (Elt Ideal)) (rw : KVal.T S850000 .i32) (cl : KVal.T S850000 .i32) (dv : KVal.T S50000 .f32)
    (h_rw : Wp (Proc.devRef .tc main_v3) = rw) (h_cl : Wp (Proc.devRef .tc main_v6) = cl) (h_dv : Wp (Proc.devRef .tc main_v14) = dv) :
    StableHlo.after hostOps0_2 Wp (Proc.devRef .tc main_v30) = KVal.normwOf rw cl dv := by
  subst h_rw h_cl h_dv
  after_results
  rfl
/-- The input layer's bias as a row. -/
theorem h0_2_v31 (Wp : Valuation τ sig (Elt Ideal)) (b : KVal.T S96 .f32)
    (h_b : Wp (Proc.devRef .tc main_arg3) = b) :
    StableHlo.after hostOps0_2 Wp (Proc.devRef .tc main_v31) = KVal.brow b := by
  subst h_b
  after_results
  rfl
/-- Layer 1's weighted neighbour sum. -/
theorem h1_v44 (Wp : Valuation τ sig (Elt Ideal)) (rw : KVal.T S850000 .i32) (cl : KVal.T S850000 .i32) (nw : KVal.T S850000x1 .f32) (cur : KVal.T S50000x96 .f32)
    (h_rw : Wp (Proc.devRef .tc main_v3) = rw) (h_cl : Wp (Proc.devRef .tc main_v6) = cl) (h_nw : Wp (Proc.devRef .tc main_v30) = nw) (h_cur : Wp (Proc.devRef .tc main_v32) = cur) :
    StableHlo.after hostOps1 Wp (Proc.devRef .tc main_v44) = KVal.agg rw cl nw cur := by
  subst h_rw h_cl h_nw h_cur
  after_results
  rfl
/-- Layer 1's weight. -/
theorem h1_v46 (Wp : Valuation τ sig (Elt Ideal)) (cw : KVal.T S3x96x96 .f32)
    (h_cw : Wp (Proc.devRef .tc main_arg4) = cw) :
    StableHlo.after hostOps1 Wp (Proc.devRef .tc main_v46) = KVal.wsl0 cw := by
  subst h_cw
  after_results
  rfl

/-! ## What each region leaves in its output array, from what it finds in its input arrays -/

/-- The input layer. -/
theorem r0 (V : (c : Dev nD) → (b : Ref sig .tc) → Buf (Elt Ideal) ((c : Thread nD τ).loc b)) (c : Dev nD)
    (x : KVal.T S50000x256 .f32) (w : KVal.T S256x96 .f32) (b : KVal.T S96 .f32)
    (hx : V c main_arg0 = x) (hw : V c main_arg2 = w) (hb : V c main_v31 = KVal.brow b) :
    (dat0 (F := Ideal) V c).arrAt 3 cfg0.N = KVal.x1 x w b := by
  rw [Cert.Gcn.Reg0.final0, hx, hw, hb]
  rfl
/-- Layer 1's mix. -/
theorem r1 (V : (c : Dev nD) → (b : Ref sig .tc) → Buf (Elt Ideal) ((c : Thread nD τ).loc b)) (c : Dev nD)
    (rw cl : KVal.T S850000 .i32) (nw : KVal.T S850000x1 .f32) (x0 cur : KVal.T S50000x96 .f32) (cw : KVal.T S3x96x96 .f32)
    (hagg : V c main_v44 = KVal.agg rw cl nw cur) (hx : V c main_v32 = x0) (hw : V c main_v46 = KVal.wsl0 cw) :
    (dat1 (F := Ideal) V c).arrAt 3 cfg1.N = KVal.mix1 rw cl nw x0 cur cw := by
  rw [Cert.Gcn.Reg1.final1, hagg, hx, hw]
  rfl

/-! ## The stage values on core `c`'s launch arrays -/

abbrev rwE (c : Dev nD) : KVal.T S850000 .i32 := KVal.row (a1 m c)
abbrev clE (c : Dev nD) : KVal.T S850000 .i32 := KVal.col (a1 m c)
abbrev nwE (c : Dev nD) : KVal.T S850000x1 .f32 := KVal.normw (a1 m c)
abbrev x1E (c : Dev nD) : KVal.T S50000x96 .f32 := KVal.x1 (a0 m c) (a2 m c) (a3 m c)
abbrev mx1 (c : Dev nD) : KVal.T S50000x96 .f32 := KVal.mix1 (rwE m c) (clE m c) (nwE m c) (x1E m c) (x1E m c) (a4 m c)

/-! ## The boundaries, in order: at each, every buffer something later reads -/

theorem W0_main_arg0 (c : Dev nD) : W0 m ρ c (Proc.devRef .tc main_arg0) = a0 m c := rfl
theorem W0_main_arg1 (c : Dev nD) : W0 m ρ c (Proc.devRef .tc main_arg1) = a1 m c := rfl
theorem W0_main_arg2 (c : Dev nD) : W0 m ρ c (Proc.devRef .tc main_arg2) = a2 m c := rfl
theorem W0_main_arg3 (c : Dev nD) : W0 m ρ c (Proc.devRef .tc main_arg3) = a3 m c := rfl
theorem W0_main_arg4 (c : Dev nD) : W0 m ρ c (Proc.devRef .tc main_arg4) = a4 m c := rfl
theorem W0_main_arg5 (c : Dev nD) : W0 m ρ c (Proc.devRef .tc main_arg5) = a5 m c := rfl
theorem W0_main_arg6 (c : Dev nD) : W0 m ρ c (Proc.devRef .tc main_arg6) = a6 m c := rfl
theorem W0_main_arg7 (c : Dev nD) : W0 m ρ c (Proc.devRef .tc main_arg7) = a7 m c := rfl
theorem W0_main_arg8 (c : Dev nD) : W0 m ρ c (Proc.devRef .tc main_arg8) = a8 m c := rfl

/-! ### Boundary 1: after the stretch `hostOps0` -/

theorem W1_main_v3 (c : Dev nD) : W1 m ρ c (Proc.devRef .tc main_v3) = rwE m c :=
  h0_v3 (W0 m ρ c) _ (W0_main_arg1 m ρ c)
theorem W1_main_v6 (c : Dev nD) : W1 m ρ c (Proc.devRef .tc main_v6) = clE m c :=
  h0_v6 (W0 m ρ c) _ (W0_main_arg1 m ρ c)
theorem W1_main_v12 (c : Dev nD) : W1 m ρ c (Proc.devRef .tc main_v12) = KVal.dpos (clE m c) :=
  h0_v12 (W0 m ρ c) _ (W0_main_arg1 m ρ c)
theorem W1_main_v13 (c : Dev nD) : W1 m ρ c (Proc.devRef .tc main_v13) = KVal.drs (clE m c) :=
  h0_v13 (W0 m ρ c) _ (W0_main_arg1 m ρ c)
theorem W1_main_cst_2 (c : Dev nD) : W1 m ρ c (Proc.devRef .tc main_cst_2) = (constant (F := Ideal) S_ .f32 0x00000000#32 : KVal.T S_ .f32) :=
  h0_cst_2 (W0 m ρ c)
theorem W1_main_arg0 (c : Dev nD) : W1 m ρ c (Proc.devRef .tc main_arg0) = a0 m c :=
  (by keep_across hostOps0 : W1 m ρ c (Proc.devRef .tc main_arg0) = W0 m ρ c (Proc.devRef .tc main_arg0)).trans (W0_main_arg0 m ρ c)
theorem W1_main_arg2 (c : Dev nD) : W1 m ρ c (Proc.devRef .tc main_arg2) = a2 m c :=
  (by keep_across hostOps0 : W1 m ρ c (Proc.devRef .tc main_arg2) = W0 m ρ c (Proc.devRef .tc main_arg2)).trans (W0_main_arg2 m ρ c)
theorem W1_main_arg3 (c : Dev nD) : W1 m ρ c (Proc.devRef .tc main_arg3) = a3 m c :=
  (by keep_across hostOps0 : W1 m ρ c (Proc.devRef .tc main_arg3) = W0 m ρ c (Proc.devRef .tc main_arg3)).trans (W0_main_arg3 m ρ c)
theorem W1_main_arg4 (c : Dev nD) : W1 m ρ c (Proc.devRef .tc main_arg4) = a4 m c :=
  (by keep_across hostOps0 : W1 m ρ c (Proc.devRef .tc main_arg4) = W0 m ρ c (Proc.devRef .tc main_arg4)).trans (W0_main_arg4 m ρ c)
theorem W1_main_arg5 (c : Dev nD) : W1 m ρ c (Proc.devRef .tc main_arg5) = a5 m c :=
  (by keep_across hostOps0 : W1 m ρ c (Proc.devRef .tc main_arg5) = W0 m ρ c (Proc.devRef .tc main_arg5)).trans (W0_main_arg5 m ρ c)
theorem W1_main_arg6 (c : Dev nD) : W1 m ρ c (Proc.devRef .tc main_arg6) = a6 m c :=
  (by keep_across hostOps0 : W1 m ρ c (Proc.devRef .tc main_arg6) = W0 m ρ c (Proc.devRef .tc main_arg6)).trans (W0_main_arg6 m ρ c)
theorem W1_main_arg7 (c : Dev nD) : W1 m ρ c (Proc.devRef .tc main_arg7) = a7 m c :=
  (by keep_across hostOps0 : W1 m ρ c (Proc.devRef .tc main_arg7) = W0 m ρ c (Proc.devRef .tc main_arg7)).trans (W0_main_arg7 m ρ c)
theorem W1_main_arg8 (c : Dev nD) : W1 m ρ c (Proc.devRef .tc main_arg8) = a8 m c :=
  (by keep_across hostOps0 : W1 m ρ c (Proc.devRef .tc main_arg8) = W0 m ρ c (Proc.devRef .tc main_arg8)).trans (W0_main_arg8 m ρ c)

/-! ### Boundary 2: after the stretch `hostOps0_1` -/

theorem W2_main_v14 (c : Dev nD) : W2 m ρ c (Proc.devRef .tc main_v14) = KVal.dinv (clE m c) :=
  h0_1_v14 (W1 m ρ c) _ (W1_main_v12 m ρ c) (W1_main_v13 m ρ c) (W1_main_cst_2 m ρ c)
theorem W2_main_arg0 (c : Dev nD) : W2 m ρ c (Proc.devRef .tc main_arg0) = a0 m c :=
  (by keep_across hostOps0_1 : W2 m ρ c (Proc.devRef .tc main_arg0) = W1 m ρ c (Proc.devRef .tc main_arg0)).trans (W1_main_arg0 m ρ c)
theorem W2_main_arg2 (c : Dev nD) : W2 m ρ c (Proc.devRef .tc main_arg2) = a2 m c :=
  (by keep_across hostOps0_1 : W2 m ρ c (Proc.devRef .tc main_arg2) = W1 m ρ c (Proc.devRef .tc main_arg2)).trans (W1_main_arg2 m ρ c)
theorem W2_main_arg3 (c : Dev nD) : W2 m ρ c (Proc.devRef .tc main_arg3) = a3 m c :=
  (by keep_across hostOps0_1 : W2 m ρ c (Proc.devRef .tc main_arg3) = W1 m ρ c (Proc.devRef .tc main_arg3)).trans (W1_main_arg3 m ρ c)
theorem W2_main_arg4 (c : Dev nD) : W2 m ρ c (Proc.devRef .tc main_arg4) = a4 m c :=
  (by keep_across hostOps0_1 : W2 m ρ c (Proc.devRef .tc main_arg4) = W1 m ρ c (Proc.devRef .tc main_arg4)).trans (W1_main_arg4 m ρ c)
theorem W2_main_arg5 (c : Dev nD) : W2 m ρ c (Proc.devRef .tc main_arg5) = a5 m c :=
  (by keep_across hostOps0_1 : W2 m ρ c (Proc.devRef .tc main_arg5) = W1 m ρ c (Proc.devRef .tc main_arg5)).trans (W1_main_arg5 m ρ c)
theorem W2_main_arg6 (c : Dev nD) : W2 m ρ c (Proc.devRef .tc main_arg6) = a6 m c :=
  (by keep_across hostOps0_1 : W2 m ρ c (Proc.devRef .tc main_arg6) = W1 m ρ c (Proc.devRef .tc main_arg6)).trans (W1_main_arg6 m ρ c)
theorem W2_main_arg7 (c : Dev nD) : W2 m ρ c (Proc.devRef .tc main_arg7) = a7 m c :=
  (by keep_across hostOps0_1 : W2 m ρ c (Proc.devRef .tc main_arg7) = W1 m ρ c (Proc.devRef .tc main_arg7)).trans (W1_main_arg7 m ρ c)
theorem W2_main_arg8 (c : Dev nD) : W2 m ρ c (Proc.devRef .tc main_arg8) = a8 m c :=
  (by keep_across hostOps0_1 : W2 m ρ c (Proc.devRef .tc main_arg8) = W1 m ρ c (Proc.devRef .tc main_arg8)).trans (W1_main_arg8 m ρ c)
theorem W2_main_v3 (c : Dev nD) : W2 m ρ c (Proc.devRef .tc main_v3) = rwE m c :=
  (by keep_across hostOps0_1 : W2 m ρ c (Proc.devRef .tc main_v3) = W1 m ρ c (Proc.devRef .tc main_v3)).trans (W1_main_v3 m ρ c)
theorem W2_main_v6 (c : Dev nD) : W2 m ρ c (Proc.devRef .tc main_v6) = clE m c :=
  (by keep_across hostOps0_1 : W2 m ρ c (Proc.devRef .tc main_v6) = W1 m ρ c (Proc.devRef .tc main_v6)).trans (W1_main_v6 m ρ c)

/-! ### Boundary 3: after the stretch `hostOps0_2` -/

theorem W3_main_v30 (c : Dev nD) : W3 m ρ c (Proc.devRef .tc main_v30) = nwE m c :=
  h0_2_v30 (W2 m ρ c) _ _ _ (W2_main_v3 m ρ c) (W2_main_v6 m ρ c) (W2_main_v14 m ρ c)
theorem W3_main_v31 (c : Dev nD) : W3 m ρ c (Proc.devRef .tc main_v31) = KVal.brow (a3 m c) :=
  h0_2_v31 (W2 m ρ c) _ (W2_main_arg3 m ρ c)
theorem W3_main_arg0 (c : Dev nD) : W3 m ρ c (Proc.devRef .tc main_arg0) = a0 m c :=
  (by keep_across hostOps0_2 : W3 m ρ c (Proc.devRef .tc main_arg0) = W2 m ρ c (Proc.devRef .tc main_arg0)).trans (W2_main_arg0 m ρ c)
theorem W3_main_arg2 (c : Dev nD) : W3 m ρ c (Proc.devRef .tc main_arg2) = a2 m c :=
  (by keep_across hostOps0_2 : W3 m ρ c (Proc.devRef .tc main_arg2) = W2 m ρ c (Proc.devRef .tc main_arg2)).trans (W2_main_arg2 m ρ c)
theorem W3_main_arg4 (c : Dev nD) : W3 m ρ c (Proc.devRef .tc main_arg4) = a4 m c :=
  (by keep_across hostOps0_2 : W3 m ρ c (Proc.devRef .tc main_arg4) = W2 m ρ c (Proc.devRef .tc main_arg4)).trans (W2_main_arg4 m ρ c)
theorem W3_main_arg5 (c : Dev nD) : W3 m ρ c (Proc.devRef .tc main_arg5) = a5 m c :=
  (by keep_across hostOps0_2 : W3 m ρ c (Proc.devRef .tc main_arg5) = W2 m ρ c (Proc.devRef .tc main_arg5)).trans (W2_main_arg5 m ρ c)
theorem W3_main_arg6 (c : Dev nD) : W3 m ρ c (Proc.devRef .tc main_arg6) = a6 m c :=
  (by keep_across hostOps0_2 : W3 m ρ c (Proc.devRef .tc main_arg6) = W2 m ρ c (Proc.devRef .tc main_arg6)).trans (W2_main_arg6 m ρ c)
theorem W3_main_arg7 (c : Dev nD) : W3 m ρ c (Proc.devRef .tc main_arg7) = a7 m c :=
  (by keep_across hostOps0_2 : W3 m ρ c (Proc.devRef .tc main_arg7) = W2 m ρ c (Proc.devRef .tc main_arg7)).trans (W2_main_arg7 m ρ c)
theorem W3_main_arg8 (c : Dev nD) : W3 m ρ c (Proc.devRef .tc main_arg8) = a8 m c :=
  (by keep_across hostOps0_2 : W3 m ρ c (Proc.devRef .tc main_arg8) = W2 m ρ c (Proc.devRef .tc main_arg8)).trans (W2_main_arg8 m ρ c)
theorem W3_main_v3 (c : Dev nD) : W3 m ρ c (Proc.devRef .tc main_v3) = rwE m c :=
  (by keep_across hostOps0_2 : W3 m ρ c (Proc.devRef .tc main_v3) = W2 m ρ c (Proc.devRef .tc main_v3)).trans (W2_main_v3 m ρ c)
theorem W3_main_v6 (c : Dev nD) : W3 m ρ c (Proc.devRef .tc main_v6) = clE m c :=
  (by keep_across hostOps0_2 : W3 m ρ c (Proc.devRef .tc main_v6) = W2 m ρ c (Proc.devRef .tc main_v6)).trans (W2_main_v6 m ρ c)

/-! ### Boundary 4: after region 0 -/

theorem W4_main_v32 (c : Dev nD) : W4 m ρ c (Proc.devRef .tc main_v32) = x1E m c :=
  (W4_arr m ρ c 3).trans (r0 (V3 m ρ) c _ _ _ (W3_main_arg0 m ρ c) (W3_main_arg2 m ρ c) (W3_main_v31 m ρ c))
theorem W4_main_arg4 (c : Dev nD) : W4 m ρ c (Proc.devRef .tc main_arg4) = a4 m c :=
  (W4_of_ne m ρ c main_arg4 (by decide)).trans (W3_main_arg4 m ρ c)
theorem W4_main_arg5 (c : Dev nD) : W4 m ρ c (Proc.devRef .tc main_arg5) = a5 m c :=
  (W4_of_ne m ρ c main_arg5 (by decide)).trans (W3_main_arg5 m ρ c)
theorem W4_main_arg6 (c : Dev nD) : W4 m ρ c (Proc.devRef .tc main_arg6) = a6 m c :=
  (W4_of_ne m ρ c main_arg6 (by decide)).trans (W3_main_arg6 m ρ c)
theorem W4_main_arg7 (c : Dev nD) : W4 m ρ c (Proc.devRef .tc main_arg7) = a7 m c :=
  (W4_of_ne m ρ c main_arg7 (by decide)).trans (W3_main_arg7 m ρ c)
theorem W4_main_arg8 (c : Dev nD) : W4 m ρ c (Proc.devRef .tc main_arg8) = a8 m c :=
  (W4_of_ne m ρ c main_arg8 (by decide)).trans (W3_main_arg8 m ρ c)
theorem W4_main_v3 (c : Dev nD) : W4 m ρ c (Proc.devRef .tc main_v3) = rwE m c :=
  (W4_of_ne m ρ c main_v3 (by decide)).trans (W3_main_v3 m ρ c)
theorem W4_main_v6 (c : Dev nD) : W4 m ρ c (Proc.devRef .tc main_v6) = clE m c :=
  (W4_of_ne m ρ c main_v6 (by decide)).trans (W3_main_v6 m ρ c)
theorem W4_main_v30 (c : Dev nD) : W4 m ρ c (Proc.devRef .tc main_v30) = nwE m c :=
  (W4_of_ne m ρ c main_v30 (by decide)).trans (W3_main_v30 m ρ c)

/-! ### Boundary 5: after the stretch `hostOps1` -/

theorem W5_main_v44 (c : Dev nD) : W5 m ρ c (Proc.devRef .tc main_v44) = KVal.agg (rwE m c) (clE m c) (nwE m c) (x1E m c) :=
  h1_v44 (W4 m ρ c) _ _ _ _ (W4_main_v3 m ρ c) (W4_main_v6 m ρ c) (W4_main_v30 m ρ c) (W4_main_v32 m ρ c)
theorem W5_main_v46 (c : Dev nD) : W5 m ρ c (Proc.devRef .tc main_v46) = KVal.wsl0 (a4 m c) :=
  h1_v46 (W4 m ρ c) _ (W4_main_arg4 m ρ c)
theorem W5_main_arg4 (c : Dev nD) : W5 m ρ c (Proc.devRef .tc main_arg4) = a4 m c :=
  (by keep_across hostOps1 : W5 m ρ c (Proc.devRef .tc main_arg4) = W4 m ρ c (Proc.devRef .tc main_arg4)).trans (W4_main_arg4 m ρ c)
theorem W5_main_arg5 (c : Dev nD) : W5 m ρ c (Proc.devRef .tc main_arg5) = a5 m c :=
  (by keep_across hostOps1 : W5 m ρ c (Proc.devRef .tc main_arg5) = W4 m ρ c (Proc.devRef .tc main_arg5)).trans (W4_main_arg5 m ρ c)
theorem W5_main_arg6 (c : Dev nD) : W5 m ρ c (Proc.devRef .tc main_arg6) = a6 m c :=
  (by keep_across hostOps1 : W5 m ρ c (Proc.devRef .tc main_arg6) = W4 m ρ c (Proc.devRef .tc main_arg6)).trans (W4_main_arg6 m ρ c)
theorem W5_main_arg7 (c : Dev nD) : W5 m ρ c (Proc.devRef .tc main_arg7) = a7 m c :=
  (by keep_across hostOps1 : W5 m ρ c (Proc.devRef .tc main_arg7) = W4 m ρ c (Proc.devRef .tc main_arg7)).trans (W4_main_arg7 m ρ c)
theorem W5_main_arg8 (c : Dev nD) : W5 m ρ c (Proc.devRef .tc main_arg8) = a8 m c :=
  (by keep_across hostOps1 : W5 m ρ c (Proc.devRef .tc main_arg8) = W4 m ρ c (Proc.devRef .tc main_arg8)).trans (W4_main_arg8 m ρ c)
theorem W5_main_v3 (c : Dev nD) : W5 m ρ c (Proc.devRef .tc main_v3) = rwE m c :=
  (by keep_across hostOps1 : W5 m ρ c (Proc.devRef .tc main_v3) = W4 m ρ c (Proc.devRef .tc main_v3)).trans (W4_main_v3 m ρ c)
theorem W5_main_v6 (c : Dev nD) : W5 m ρ c (Proc.devRef .tc main_v6) = clE m c :=
  (by keep_across hostOps1 : W5 m ρ c (Proc.devRef .tc main_v6) = W4 m ρ c (Proc.devRef .tc main_v6)).trans (W4_main_v6 m ρ c)
theorem W5_main_v30 (c : Dev nD) : W5 m ρ c (Proc.devRef .tc main_v30) = nwE m c :=
  (by keep_across hostOps1 : W5 m ρ c (Proc.devRef .tc main_v30) = W4 m ρ c (Proc.devRef .tc main_v30)).trans (W4_main_v30 m ρ c)
theorem W5_main_v32 (c : Dev nD) : W5 m ρ c (Proc.devRef .tc main_v32) = x1E m c :=
  (by keep_across hostOps1 : W5 m ρ c (Proc.devRef .tc main_v32) = W4 m ρ c (Proc.devRef .tc main_v32)).trans (W4_main_v32 m ρ c)

/-! ### Boundary 6: after region 1 -/

theorem W6_main_v47 (c : Dev nD) : W6 m ρ c (Proc.devRef .tc main_v47) = mx1 m c :=
  (W6_arr m ρ c 3).trans (r1 (V5 m ρ) c _ _ _ _ _ _ (W5_main_v44 m ρ c) (W5_main_v32 m ρ c) (W5_main_v46 m ρ c))
theorem W6_main_arg4 (c : Dev nD) : W6 m ρ c (Proc.devRef .tc main_arg4) = a4 m c :=
  (W6_of_ne m ρ c main_arg4 (by decide)).trans (W5_main_arg4 m ρ c)
theorem W6_main_arg5 (c : Dev nD) : W6 m ρ c (Proc.devRef .tc main_arg5) = a5 m c :=
  (W6_of_ne m ρ c main_arg5 (by decide)).trans (W5_main_arg5 m ρ c)
theorem W6_main_arg6 (c : Dev nD) : W6 m ρ c (Proc.devRef .tc main_arg6) = a6 m c :=
  (W6_of_ne m ρ c main_arg6 (by decide)).trans (W5_main_arg6 m ρ c)
theorem W6_main_arg7 (c : Dev nD) : W6 m ρ c (Proc.devRef .tc main_arg7) = a7 m c :=
  (W6_of_ne m ρ c main_arg7 (by decide)).trans (W5_main_arg7 m ρ c)
theorem W6_main_arg8 (c : Dev nD) : W6 m ρ c (Proc.devRef .tc main_arg8) = a8 m c :=
  (W6_of_ne m ρ c main_arg8 (by decide)).trans (W5_main_arg8 m ρ c)
theorem W6_main_v3 (c : Dev nD) : W6 m ρ c (Proc.devRef .tc main_v3) = rwE m c :=
  (W6_of_ne m ρ c main_v3 (by decide)).trans (W5_main_v3 m ρ c)
theorem W6_main_v6 (c : Dev nD) : W6 m ρ c (Proc.devRef .tc main_v6) = clE m c :=
  (W6_of_ne m ρ c main_v6 (by decide)).trans (W5_main_v6 m ρ c)
theorem W6_main_v30 (c : Dev nD) : W6 m ρ c (Proc.devRef .tc main_v30) = nwE m c :=
  (W6_of_ne m ρ c main_v30 (by decide)).trans (W5_main_v30 m ρ c)
theorem W6_main_v32 (c : Dev nD) : W6 m ρ c (Proc.devRef .tc main_v32) = x1E m c :=
  ((W6_arr m ρ c 1).trans (((dat1 (V5 m ρ) c).arrAt_in 1 rfl _).trans (A_eq1 (V5 m ρ) c 1))).trans (W5_main_v32 m ρ c)

/-! ## The head of the fold: what region 1 leaves, and the long-lived buffers beside it -/

theorem head (c : Dev nD) :
    W6 (F := Ideal) m ρ c (Proc.devRef .tc main_v47)
        = KVal.mix1 (KVal.row (m ((c : Thread nD τ).loc main_arg1))) (KVal.col (m ((c : Thread nD τ).loc main_arg1))) (KVal.normw (m ((c : Thread nD τ).loc main_arg1)))
            (KVal.x1 (m ((c : Thread nD τ).loc main_arg0)) (m ((c : Thread nD τ).loc main_arg2)) (m ((c : Thread nD τ).loc main_arg3)))
            (KVal.x1 (m ((c : Thread nD τ).loc main_arg0)) (m ((c : Thread nD τ).loc main_arg2)) (m ((c : Thread nD τ).loc main_arg3)))
            (m ((c : Thread nD τ).loc main_arg4))
    ∧ W6 (F := Ideal) m ρ c (Proc.devRef .tc main_v3) = KVal.row (m ((c : Thread nD τ).loc main_arg1))
    ∧ W6 (F := Ideal) m ρ c (Proc.devRef .tc main_v6) = KVal.col (m ((c : Thread nD τ).loc main_arg1))
    ∧ W6 (F := Ideal) m ρ c (Proc.devRef .tc main_v30) = KVal.normw (m ((c : Thread nD τ).loc main_arg1))
    ∧ W6 (F := Ideal) m ρ c (Proc.devRef .tc main_v32) = KVal.x1 (m ((c : Thread nD τ).loc main_arg0)) (m ((c : Thread nD τ).loc main_arg2)) (m ((c : Thread nD τ).loc main_arg3))
    ∧ W6 (F := Ideal) m ρ c (Proc.devRef .tc main_arg4) = m ((c : Thread nD τ).loc main_arg4)
    ∧ W6 (F := Ideal) m ρ c (Proc.devRef .tc main_arg5) = m ((c : Thread nD τ).loc main_arg5)
    ∧ W6 (F := Ideal) m ρ c (Proc.devRef .tc main_arg6) = m ((c : Thread nD τ).loc main_arg6)
    ∧ W6 (F := Ideal) m ρ c (Proc.devRef .tc main_arg7) = m ((c : Thread nD τ).loc main_arg7)
    ∧ W6 (F := Ideal) m ρ c (Proc.devRef .tc main_arg8) = m ((c : Thread nD τ).loc main_arg8) :=
  ⟨W6_main_v47 m ρ c, W6_main_v3 m ρ c, W6_main_v6 m ρ c, W6_main_v30 m ρ c, W6_main_v32 m ρ c, W6_main_arg4 m ρ c,
    W6_main_arg5 m ρ c, W6_main_arg6 m ρ c, W6_main_arg7 m ρ c, W6_main_arg8 m ρ c⟩

end Cert.Gcn.KFoldA

end
-- ==== Proof.RegBn2.lean ====
/-
  Region 2 (layer 1's batch-norm affine + ReLU): the array its ten row blocks leave, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg2

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's arithmetic at an entry of the block -/

/-- The zero offsets of a whole-block rectangle. -/
theorem offsets_zero : (![0, 0] : Fin 2 → Nat) = fun _ => 0 := funext fun a => by fin_cases a <;> rfl

/-- A row vector broadcast down the block's rows, read at entry (p, q), is the row's entry (0, q). -/
theorem row_broadcast_apply {α : Type} (x : S1x96.Idx → α) (h : S1x96.Broadcasts S5000x96) (p : Fin 5000) (q : Fin 96) :
    broadcastTo S5000x96 x h (ix2 p q) = x (ix2 0 q) :=
  broadcastTo_apply x h (ix2 p q) (ix2 0 q) (fun a => by
    match a with
    | ⟨0, _⟩ => rfl
    | ⟨1, _⟩ => rfl)

/-- The body's result at entry (p, q) of the block: max(γ(0,q)·(o(p,q) − μ(0,q))·rsqrt(σ²(0,q) + ε) + β(0,q), 0),
    of the scale row γ, the block o, the mean row μ, the variance row σ² and the shift row β. -/
theorem payload_apply (ga : Vec Ideal S1x96 .f32) (o : Vec Ideal S5000x96 .f32) (mu va be : Vec Ideal S1x96 .f32)
    (p : Fin 5000) (q : Fin 96) :
    k2_pay1 ga o mu va be (ix2 p q) =
      FloatOps.maximumf (F := Ideal) (φ := .f32)
        (FloatOps.addf (F := Ideal) (φ := .f32)
          (FloatOps.mulf (F := Ideal) (φ := .f32)
            (FloatOps.mulf (F := Ideal) (φ := .f32) (ga (ix2 0 q))
              (FloatOps.subf (F := Ideal) (φ := .f32) (o (ix2 p q)) (mu (ix2 0 q))))
            (FloatOps.rsqrt (F := Ideal) (φ := .f32)
              (FloatOps.addf (F := Ideal) (φ := .f32) (va (ix2 0 q)) (lit 0x3727C5AC#32))))
          (be (ix2 0 q)))
        (lit 0x00000000#32) := by
  unfold k2_pay1
  simp only [shapeCast_self]
  show FloatOps.maximumf (F := Ideal) (φ := .f32)
        (FloatOps.addf (F := Ideal) (φ := .f32)
          (FloatOps.mulf (F := Ideal) (φ := .f32)
            (FloatOps.mulf (F := Ideal) (φ := .f32) (broadcastTo S5000x96 ga broadcasts_S1x96_S5000x96 (ix2 p q))
              (FloatOps.subf (F := Ideal) (φ := .f32) (o (ix2 p q)) (broadcastTo S5000x96 mu broadcasts_S1x96_S5000x96 (ix2 p q))))
            (broadcastTo S5000x96 (rsqrt (addf va (broadcast S1x96 (Scalar.ofBits .f32 0x3727C5AC#32)))) broadcasts_S1x96_S5000x96 (ix2 p q)))
          (broadcastTo S5000x96 be broadcasts_S1x96_S5000x96 (ix2 p q)))
        (lit 0x00000000#32) = _
  rw [row_broadcast_apply, row_broadcast_apply, row_broadcast_apply, row_broadcast_apply]
  rfl

/-! ## From the ten blocks to the array -/

/-- The printed index maps over the grid: the block of o moves with the output's block; the four rows stay at block
    (0, 0); the output's block index is the point's row block, below ten, and column block zero. -/
theorem index_facts : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block of the output is some point's. -/
theorem index_onto : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the batch-norm affine + ReLU of the arrays the region finds. -/
theorem flushed_eq (c : Dev nD) (t : Fin cfg2.N) :
    (dat2 (F := Ideal) V c).flushed 5 t = ((cfg2.win 5).blk t).view.read (Elt Ideal)
      (Cert.Gcn.bnRelu (V c main_v47) (V c main_v51) (V c main_v52) (V c main_v53) (V c main_v54)) := by
  show (cfg2.win 5).cut (grid2.coords t) ((dat2 (F := Ideal) V c).after 5 t) = _
  rw [after2_5]
  unfold out2_5
  rw [View.canon_unit_zero offsets_zero]
  simp only [View.ld_unit_zero (S := S5000x96) offsets_zero, View.ld_unit_zero (S := S1x96) offsets_zero]
  obtain ⟨e00, e01, e10, e11, e20, e21, e30, e31, e40, e41, e50, e51⟩ := index_facts t
  funext j
  obtain ⟨p, q, rfl⟩ : ∃ (p : Fin 5000) (q : Fin 96), j = ix2 p q := ⟨j 0, j 1, eq_ix2 j⟩
  refine (payload_apply _ _ _ _ _ p q).trans ?_
  have ho : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 96 + 1 * q.val = win2_5.index t (1 : Fin 2) * 96 + 1 * q.val; omega
  have hmu : ((cfg2.win 1).blk t).view.emb (ix2 (0 : Fin 1) q : S1x96.Idx)
      = (ix2 (0 : Fin 1) ((((cfg2.win 5).blk t).view.emb (ix2 p q)) 1 : Fin 96) : S1x96.Idx) := by
    funext a; apply Fin.ext
    match a with
    | ⟨0, _⟩ => show win2_1.index t (0 : Fin 2) * 1 + 1 * 0 = 0; omega
    | ⟨1, _⟩ => show win2_1.index t (1 : Fin 2) * 96 + 1 * q.val = win2_5.index t (1 : Fin 2) * 96 + 1 * q.val; omega
  have hva : ((cfg2.win 2).blk t).view.emb (ix2 (0 : Fin 1) q : S1x96.Idx)
      = (ix2 (0 : Fin 1) ((((cfg2.win 5).blk t).view.emb (ix2 p q)) 1 : Fin 96) : S1x96.Idx) := by
    funext a; apply Fin.ext
    match a with
    | ⟨0, _⟩ => show win2_2.index t (0 : Fin 2) * 1 + 1 * 0 = 0; omega
    | ⟨1, _⟩ => show win2_2.index t (1 : Fin 2) * 96 + 1 * q.val = win2_5.index t (1 : Fin 2) * 96 + 1 * q.val; omega
  have hga : ((cfg2.win 3).blk t).view.emb (ix2 (0 : Fin 1) q : S1x96.Idx)
      = (ix2 (0 : Fin 1) ((((cfg2.win 5).blk t).view.emb (ix2 p q)) 1 : Fin 96) : S1x96.Idx) := by
    funext a; apply Fin.ext
    match a with
    | ⟨0, _⟩ => show win2_3.index t (0 : Fin 2) * 1 + 1 * 0 = 0; omega
    | ⟨1, _⟩ => show win2_3.index t (1 : Fin 2) * 96 + 1 * q.val = win2_5.index t (1 : Fin 2) * 96 + 1 * q.val; omega
  have hbe : ((cfg2.win 4).blk t).view.emb (ix2 (0 : Fin 1) q : S1x96.Idx)
      = (ix2 (0 : Fin 1) ((((cfg2.win 5).blk t).view.emb (ix2 p q)) 1 : Fin 96) : S1x96.Idx) := by
    funext a; apply Fin.ext
    match a with
    | ⟨0, _⟩ => show win2_4.index t (0 : Fin 2) * 1 + 1 * 0 = 0; omega
    | ⟨1, _⟩ => show win2_4.index t (1 : Fin 2) * 96 + 1 * q.val = win2_5.index t (1 : Fin 2) * 96 + 1 * q.val; omega
  show FloatOps.maximumf (F := Ideal) (φ := .f32)
        (FloatOps.addf (F := Ideal) (φ := .f32)
          (FloatOps.mulf (F := Ideal) (φ := .f32)
            (FloatOps.mulf (F := Ideal) (φ := .f32)
              (V c main_v53 (((cfg2.win 3).blk t).view.emb (ix2 (0 : Fin 1) q : S1x96.Idx)))
              (FloatOps.subf (F := Ideal) (φ := .f32)
                (V c main_v47 (((cfg2.win 0).blk t).view.emb (ix2 p q)))
                (V c main_v51 (((cfg2.win 1).blk t).view.emb (ix2 (0 : Fin 1) q : S1x96.Idx)))))
            (FloatOps.rsqrt (F := Ideal) (φ := .f32)
              (FloatOps.addf (F := Ideal) (φ := .f32)
                (V c main_v52 (((cfg2.win 2).blk t).view.emb (ix2 (0 : Fin 1) q : S1x96.Idx)))
                (lit 0x3727C5AC#32))))
          (V c main_v54 (((cfg2.win 4).blk t).view.emb (ix2 (0 : Fin 1) q : S1x96.Idx))))
        (lit 0x00000000#32)
      = Cert.Gcn.bnRelu (V c main_v47) (V c main_v51) (V c main_v52) (V c main_v53) (V c main_v54)
          (((cfg2.win 5).blk t).view.emb (ix2 p q))
  rw [ho, hmu, hva, hga, hbe]
  rfl

/-- An index of the array is in point `t`'s block iff each coordinate is in the block's range on its axis. -/
theorem mem_block (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v55).slice (win2_5.rect t)).set ↔ _
  rw [View.set_slice_whole, Rect.mem_set_unit]
  exact Iff.rfl

/-- Every index of the array lies in the block of the point whose row block holds its row: row `r` in block `r / 5000`. -/
theorem covered (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 96 ≤ (i 1).val ∧ (i 1).val < win2_5.index t (1 : Fin 2) * 96 + 96; omega

/-- The array window 5 ends holding: one function of the arrays the region finds, index by index. -/
theorem final2 (c : Dev nD) :
    (dat2 (F := Ideal) V c).arrAt 5 cfg2.N = Cert.Gcn.bnRelu (V c main_v47) (V c main_v51) (V c main_v52) (V c main_v53) (V c main_v54) := by
  exact (dat2 (F := Ideal) V c).arrAt_eq_of_cover 5 _ (fun t _ => flushed_eq V c t) covered

end Cert.Gcn.Reg2

end
-- ==== Proof.RegMix3.lean ====
/-
  Region 3 (layer 2's mix): the array its ten row blocks leave is c₁·h + c₂·(h·W) with h = 0.9·agg + 0.1·x₀, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg3

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-buffer access, as the printed list. -/
theorem zeros2 : (![0, 0] : Fin 2 → Nat) = fun _ => 0 := funext fun a => by fin_cases a <;> rfl

/-- The mix read at row `p`, column `q` depends on row `p` of the two feature operands and column `q` of the weight
    only: operands that agree there (row `p` of one pair against row `r` of another, of any heights) give the same entry. -/
theorem mixed_rows {A B H : ℕ} (c1 c2 : BitVec 32) (a0 a1 : (M2 A H).Idx → EReal) (b0 b1 : (M2 B H).Idx → EReal)
    (w w' : (M2 H H).Idx → EReal) (p : Fin A) (r : Fin B) (q : Fin H)
    (h0 : ∀ k : Fin H, a0 (ix2 p k) = b0 (ix2 r k)) (h1 : ∀ k : Fin H, a1 (ix2 p k) = b1 (ix2 r k))
    (h2 : ∀ k : Fin H, w (ix2 k q) = w' (ix2 k q)) :
    mixed c1 c2 a0 a1 w (ix2 p q) = mixed c1 c2 b0 b1 w' (ix2 r q) := by
  show FloatOps.addf (F := Ideal) (φ := .f32) (FloatOps.mulf (F := Ideal) (φ := .f32) (lit c1) (resid a0 a1 p q))
      (FloatOps.mulf (F := Ideal) (φ := .f32) (lit c2) (∑ k : Fin H, resid a0 a1 p k * w (ix2 k q)))
    = FloatOps.addf (F := Ideal) (φ := .f32) (FloatOps.mulf (F := Ideal) (φ := .f32) (lit c1) (resid b0 b1 r q))
      (FloatOps.mulf (F := Ideal) (φ := .f32) (lit c2) (∑ k : Fin H, resid b0 b1 r k * w' (ix2 k q)))
  have hr : ∀ k : Fin H, resid a0 a1 p k = resid b0 b1 r k := fun k => by unfold resid; rw [h0 k, h1 k]
  simp only [hr, h2]

/-- The kernel body's result at row `p`, column `q` of a block is the mix of the three loaded blocks there: the
    elementwise operations read at the index, the matrix product into zeros as the sum over the shared axis. -/
theorem pay_apply (x0 x1 : Vec Ideal S5000x96 .f32) (x2 : Vec Ideal S96x96 .f32) (p : Fin 5000) (q : Fin 96) :
    k3_pay1 x0 x1 x2 (ix2 p q) = mixed 0x3F46E010#32 0x3E647FBE#32 x0 x1 x2 (ix2 p q) := by
  unfold k3_pay1
  simp only [shapeCast_self]
  show FloatOps.addf (F := Ideal) (φ := .f32) (FloatOps.mulf (F := Ideal) (φ := .f32) _ _)
      (FloatOps.mulf (F := Ideal) (φ := .f32) _ (matmul dot_S5000x96_S96x96_S5000x96_1_0_0_1_n_n none _ x2 (constant S5000x96 .f32 0x00000000#32) (ix2 p q))) = _
  rw [Cert.LibMatProd.matmul_zero_apply dot_S5000x96_S96x96_S5000x96_1_0_0_1_n_n rfl]
  rfl

/-- So the body's result is the mix of the three loaded blocks, as one function on the block. -/
theorem pay_eq (x0 x1 : Vec Ideal S5000x96 .f32) (x2 : Vec Ideal S96x96 .f32) :
    k3_pay1 x0 x1 x2 = mixed 0x3F46E010#32 0x3E647FBE#32 x0 x1 x2 := funext fun j => by
  obtain ⟨p, q, rfl⟩ : ∃ (p : Fin 5000) (q : Fin 96), j = ix2 p q := ⟨j 0, j 1, eq_ix2 j⟩
  exact pay_apply x0 x1 x2 p q

/-- The printed index maps over the grid: the two feature windows move with the output window down the rows and stay
    at column block 0; the weight's window stays at block (0, 0); the output's row block index is at most 9. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) ≤ 9
    ∧ win3_3.index t (1 : Fin 2) = 0 :=
  (by decide +kernel : ∀ t : Fin grid3.N, _)

/-- Every one of the ten row blocks is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

variable (V : (c : Dev nD) → (b : Ref sig .tc) → Buf (Elt Ideal) ((c : Thread nD τ).loc b))

/-- What point `t` writes back is block `t` of the mix of the whole arrays: row `p` of the block is row
    `5000·(block index) + p` of the array on the output's side and on both feature operands' sides, and the weight's
    block is the whole weight. -/
theorem flushed_eq (c : Dev nD) (t : Fin cfg3.N) :
    (dat3 (F := Ideal) V c).flushed 3 t = ((cfg3.win 3).blk t).view.read (Elt Ideal)
      (mixed 0x3F46E010#32 0x3E647FBE#32 (V c main_v67) (V c main_v32) (V c main_v69)) := by
  show (cfg3.win 3).cut (grid3.coords t) ((dat3 V c).after 3 t) = _
  rw [after3_3]
  unfold out3_3
  rw [View.canon_unit_zero zeros2]
  simp only [View.ld_unit_zero (S := S5000x96) zeros2, View.ld_unit_zero (S := S96x96) zeros2]
  rw [pay_eq]
  obtain ⟨e0, e1, e2, e3, e4, e5, e6, e7⟩ := idx_facts t
  funext j
  obtain ⟨p, q, rfl⟩ : ∃ (p : Fin 5000) (q : Fin 96), j = ix2 p q := ⟨j 0, j 1, eq_ix2 j⟩
  have hr : win3_3.index t (0 : Fin 2) * 5000 + 1 * p.val < 50000 := by have := p.isLt; omega
  show mixed 0x3F46E010#32 0x3E647FBE#32 (iblk3 V c 0 t) (iblk3 V c 1 t) (iblk3 V c 2 t) (ix2 p q)
    = mixed 0x3F46E010#32 0x3E647FBE#32 (V c main_v67) (V c main_v32) (V c main_v69) (((cfg3.win 3).blk t).view.emb (ix2 p q))
  have hi : ((cfg3.win 3).blk t).view.emb (ix2 p q) = ix2 (⟨win3_3.index t (0 : Fin 2) * 5000 + 1 * p.val, hr⟩ : Fin 50000) q := by
    funext a; apply Fin.ext
    match a with
    | ⟨0, _⟩ => show win3_3.index t (0 : Fin 2) * 5000 + 1 * p.val = win3_3.index t (0 : Fin 2) * 5000 + 1 * p.val; rfl
    | ⟨1, _⟩ => show win3_3.index t (1 : Fin 2) * 96 + 1 * q.val = q.val; omega
  rw [hi]
  refine mixed_rows _ _ _ _ _ _ _ _ p _ q (fun k => ?_) (fun k => ?_) (fun k => ?_)
  · show V c main_v67 (((cfg3.win 0).blk t).view.emb (ix2 p k)) = V c main_v67 (ix2 _ k)
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 96 + 1 * k.val = k.val; omega
  · show V c main_v32 (((cfg3.win 1).blk t).view.emb (ix2 p k)) = V c main_v32 (ix2 _ k)
    refine congrArg _ (funext fun a => Fin.ext ?_)
    match a with
    | ⟨0, _⟩ => show win3_1.index t (0 : Fin 2) * 5000 + 1 * p.val = win3_3.index t (0 : Fin 2) * 5000 + 1 * p.val; omega
    | ⟨1, _⟩ => show win3_1.index t (1 : Fin 2) * 96 + 1 * k.val = k.val; omega
  · show V c main_v69 (((cfg3.win 2).blk t).view.emb (ix2 k q)) = V c main_v69 (ix2 k q)
    refine congrArg _ (funext fun a => Fin.ext ?_)
    match a with
    | ⟨0, _⟩ => show win3_2.index t (0 : Fin 2) * 96 + 1 * k.val = k.val; omega
    | ⟨1, _⟩ => show win3_2.index t (1 : Fin 2) * 96 + 1 * q.val = q.val; omega

/-- An index of the array is in point `t`'s block iff each coordinate is in the block's range on its axis. -/
theorem mem_blk (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v70).slice (win3_3.rect t)).set ↔ _
  rw [View.set_slice_whole, Rect.mem_set_unit]
  exact Iff.rfl

/-- Every index of the array is in some point's block: row `r` in that of the point whose row block index is `r / 5000`. -/
theorem covered (i : S50000x96.Idx) : ∃ t : Fin cfg3.N, (cfg3.win 3).flush t = true ∧ i ∈ ((cfg3.win 3).blk t).view.set := by
  have hi0 : (i 0).val < 50000 := (i 0).isLt
  have hi1 : (i 1).val < 96 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 96 ≤ (i 1).val ∧ (i 1).val < win3_3.index t (1 : Fin 2) * 96 + 96; omega

/-- The array window 3 ends holding: one function of the arrays the region finds, index by index. -/
theorem final3 (c : Dev nD) :
    (dat3 (F := Ideal) V c).arrAt 3 cfg3.N = Cert.Gcn.mixed 0x3F46E010#32 0x3E647FBE#32 (V c main_v67) (V c main_v32) (V c main_v69) :=
  (dat3 (F := Ideal) V c).arrAt_eq_of_cover 3 _ (fun t _ => flushed_eq V c t) covered

end Cert.Gcn.Reg3

end
-- ==== Proof.RegBn4.lean ====
/-
  Region 4 (layer 2's batch-norm affine + ReLU): the array its ten row blocks leave, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg4

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's arithmetic at an entry of the block -/

/-- The zero offsets of a whole-block rectangle. -/
theorem offsets_zero : (![0, 0] : Fin 2 → Nat) = fun _ => 0 := funext fun a => by fin_cases a <;> rfl

/-- A row vector broadcast down the block's rows, read at entry (p, q), is the row's entry (0, q). -/
theorem row_broadcast_apply {α : Type} (x : S1x96.Idx → α) (h : S1x96.Broadcasts S5000x96) (p : Fin 5000) (q : Fin 96) :
    broadcastTo S5000x96 x h (ix2 p q) = x (ix2 0 q) :=
  broadcastTo_apply x h (ix2 p q) (ix2 0 q) (fun a => by
    match a with
    | ⟨0, _⟩ => rfl
    | ⟨1, _⟩ => rfl)

/-- The body's result at entry (p, q) of the block: max(γ(0,q)·(o(p,q) − μ(0,q))·rsqrt(σ²(0,q) + ε) + β(0,q), 0),
    of the scale row γ, the block o, the mean row μ, the variance row σ² and the shift row β. -/
theorem payload_apply (ga : Vec Ideal S1x96 .f32) (o : Vec Ideal S5000x96 .f32) (mu va be : Vec Ideal S1x96 .f32)
    (p : Fin 5000) (q : Fin 96) :
    k4_pay1 ga o mu va be (ix2 p q) =
      FloatOps.maximumf (F := Ideal) (φ := .f32)
        (FloatOps.addf (F := Ideal) (φ := .f32)
          (FloatOps.mulf (F := Ideal) (φ := .f32)
            (FloatOps.mulf (F := Ideal) (φ := .f32) (ga (ix2 0 q))
              (FloatOps.subf (F := Ideal) (φ := .f32) (o (ix2 p q)) (mu (ix2 0 q))))
            (FloatOps.rsqrt (F := Ideal) (φ := .f32)
              (FloatOps.addf (F := Ideal) (φ := .f32) (va (ix2 0 q)) (lit 0x3727C5AC#32))))
          (be (ix2 0 q)))
        (lit 0x00000000#32) := by
  unfold k4_pay1
  simp only [shapeCast_self]
  show FloatOps.maximumf (F := Ideal) (φ := .f32)
        (FloatOps.addf (F := Ideal) (φ := .f32)
          (FloatOps.mulf (F := Ideal) (φ := .f32)
            (FloatOps.mulf (F := Ideal) (φ := .f32) (broadcastTo S5000x96 ga broadcasts_S1x96_S5000x96 (ix2 p q))
              (FloatOps.subf (F := Ideal) (φ := .f32) (o (ix2 p q)) (broadcastTo S5000x96 mu broadcasts_S1x96_S5000x96 (ix2 p q))))
            (broadcastTo S5000x96 (rsqrt (addf va (broadcast S1x96 (Scalar.ofBits .f32 0x3727C5AC#32)))) broadcasts_S1x96_S5000x96 (ix2 p q)))
          (broadcastTo S5000x96 be broadcasts_S1x96_S5000x96 (ix2 p q)))
        (lit 0x00000000#32) = _
  rw [row_broadcast_apply, row_broadcast_apply, row_broadcast_apply, row_broadcast_apply]
  rfl

/-! ## From the ten blocks to the array -/

/-- The printed index maps over the grid: the block of o moves with the output's block; the four rows stay at block
    (0, 0); the output's block index is the point's row block, below ten, and column block zero. -/
theorem index_facts : ∀ t : Fin cfg4.N, win4_0.index t (0 : Fin 2) = win4_5.index t (0 : Fin 2)
    ∧ win4_0.index t (1 : Fin 2) = win4_5.index t (1 : Fin 2)
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) ≤ 9 ∧ win4_5.index t (1 : Fin 2) = 0 :=
  (by decide +kernel : ∀ t : Fin grid4.N, _)

/-- Every row block of the output is some point's. -/
theorem index_onto : ∀ q0 : Fin 10, ∃ t : Fin cfg4.N, win4_5.index t = ![q0.val, 0] :=
  (by decide +kernel : ∀ q0 : Fin 10, ∃ t : Fin grid4.N, win4_5.index t = ![q0.val, 0])

/-- What point `t` writes back is block `t` of the batch-norm affine + ReLU of the arrays the region finds. -/
theorem flushed_eq (c : Dev nD) (t : Fin cfg4.N) :
    (dat4 (F := Ideal) V c).flushed 5 t = ((cfg4.win 5).blk t).view.read (Elt Ideal)
      (Cert.Gcn.bnRelu (V c main_v70) (V c main_v74) (V c main_v75) (V c main_v76) (V c main_v77)) := by
  show (cfg4.win 5).cut (grid4.coords t) ((dat4 (F := Ideal) V c).after 5 t) = _
  rw [after4_5]
  unfold out4_5
  rw [View.canon_unit_zero offsets_zero]
  simp only [View.ld_unit_zero (S := S5000x96) offsets_zero, View.ld_unit_zero (S := S1x96) offsets_zero]
  obtain ⟨e00, e01, e10, e11, e20, e21, e30, e31, e40, e41, e50, e51⟩ := index_facts t
  funext j
  obtain ⟨p, q, rfl⟩ : ∃ (p : Fin 5000) (q : Fin 96), j = ix2 p q := ⟨j 0, j 1, eq_ix2 j⟩
  refine (payload_apply _ _ _ _ _ p q).trans ?_
  have ho : ((cfg4.win 0).blk t).view.emb (ix2 p q) = ((cfg4.win 5).blk t).view.emb (ix2 p q) := by
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 96 + 1 * q.val = win4_5.index t (1 : Fin 2) * 96 + 1 * q.val; omega
  have hmu : ((cfg4.win 1).blk t).view.emb (ix2 (0 : Fin 1) q : S1x96.Idx)
      = (ix2 (0 : Fin 1) ((((cfg4.win 5).blk t).view.emb (ix2 p q)) 1 : Fin 96) : S1x96.Idx) := by
    funext a; apply Fin.ext
    match a with
    | ⟨0, _⟩ => show win4_1.index t (0 : Fin 2) * 1 + 1 * 0 = 0; omega
    | ⟨1, _⟩ => show win4_1.index t (1 : Fin 2) * 96 + 1 * q.val = win4_5.index t (1 : Fin 2) * 96 + 1 * q.val; omega
  have hva : ((cfg4.win 2).blk t).view.emb (ix2 (0 : Fin 1) q : S1x96.Idx)
      = (ix2 (0 : Fin 1) ((((cfg4.win 5).blk t).view.emb (ix2 p q)) 1 : Fin 96) : S1x96.Idx) := by
    funext a; apply Fin.ext
    match a with
    | ⟨0, _⟩ => show win4_2.index t (0 : Fin 2) * 1 + 1 * 0 = 0; omega
    | ⟨1, _⟩ => show win4_2.index t (1 : Fin 2) * 96 + 1 * q.val = win4_5.index t (1 : Fin 2) * 96 + 1 * q.val; omega
  have hga : ((cfg4.win 3).blk t).view.emb (ix2 (0 : Fin 1) q : S1x96.Idx)
      = (ix2 (0 : Fin 1) ((((cfg4.win 5).blk t).view.emb (ix2 p q)) 1 : Fin 96) : S1x96.Idx) := by
    funext a; apply Fin.ext
    match a with
    | ⟨0, _⟩ => show win4_3.index t (0 : Fin 2) * 1 + 1 * 0 = 0; omega
    | ⟨1, _⟩ => show win4_3.index t (1 : Fin 2) * 96 + 1 * q.val = win4_5.index t (1 : Fin 2) * 96 + 1 * q.val; omega
  have hbe : ((cfg4.win 4).blk t).view.emb (ix2 (0 : Fin 1) q : S1x96.Idx)
      = (ix2 (0 : Fin 1) ((((cfg4.win 5).blk t).view.emb (ix2 p q)) 1 : Fin 96) : S1x96.Idx) := by
    funext a; apply Fin.ext
    match a with
    | ⟨0, _⟩ => show win4_4.index t (0 : Fin 2) * 1 + 1 * 0 = 0; omega
    | ⟨1, _⟩ => show win4_4.index t (1 : Fin 2) * 96 + 1 * q.val = win4_5.index t (1 : Fin 2) * 96 + 1 * q.val; omega
  show FloatOps.maximumf (F := Ideal) (φ := .f32)
        (FloatOps.addf (F := Ideal) (φ := .f32)
          (FloatOps.mulf (F := Ideal) (φ := .f32)
            (FloatOps.mulf (F := Ideal) (φ := .f32)
              (V c main_v76 (((cfg4.win 3).blk t).view.emb (ix2 (0 : Fin 1) q : S1x96.Idx)))
              (FloatOps.subf (F := Ideal) (φ := .f32)
                (V c main_v70 (((cfg4.win 0).blk t).view.emb (ix2 p q)))
                (V c main_v74 (((cfg4.win 1).blk t).view.emb (ix2 (0 : Fin 1) q : S1x96.Idx)))))
            (FloatOps.rsqrt (F := Ideal) (φ := .f32)
              (FloatOps.addf (F := Ideal) (φ := .f32)
                (V c main_v75 (((cfg4.win 2).blk t).view.emb (ix2 (0 : Fin 1) q : S1x96.Idx)))
                (lit 0x3727C5AC#32))))
          (V c main_v77 (((cfg4.win 4).blk t).view.emb (ix2 (0 : Fin 1) q : S1x96.Idx))))
        (lit 0x00000000#32)
      = Cert.Gcn.bnRelu (V c main_v70) (V c main_v74) (V c main_v75) (V c main_v76) (V c main_v77)
          (((cfg4.win 5).blk t).view.emb (ix2 p q))
  rw [ho, hmu, hva, hga, hbe]
  rfl

/-- An index of the array is in point `t`'s block iff each coordinate is in the block's range on its axis. -/
theorem mem_block (t : Fin cfg4.N) (i : S50000x96.Idx) :
    i ∈ ((cfg4.win 5).blk t).view.set ↔ ∀ a : Fin 2, win4_5.index t a * S5000x96.size a ≤ (i a).val ∧ (i a).val < win4_5.index t a * S5000x96.size a + S5000x96.size a := by
  show i ∈ ((View.whole main_v78).slice (win4_5.rect t)).set ↔ _
  rw [View.set_slice_whole, Rect.mem_set_unit]
  exact Iff.rfl

/-- Every index of the array lies in the block of the point whose row block holds its row: row `r` in block `r / 5000`. -/
theorem covered (i : S50000x96.Idx) :
    ∃ t : Fin cfg4.N, (cfg4.win 5).flush t = true ∧ i ∈ ((cfg4.win 5).blk t).view.set := by
  have hi0 : (i 0).val < 50000 := (i 0).isLt
  have hi1 : (i 1).val < 96 := (i 1).isLt
  obtain ⟨t, ht⟩ := index_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 96 ≤ (i 1).val ∧ (i 1).val < win4_5.index t (1 : Fin 2) * 96 + 96; omega

/-- The array window 5 ends holding: one function of the arrays the region finds, index by index. -/
theorem final4 (c : Dev nD) :
    (dat4 (F := Ideal) V c).arrAt 5 cfg4.N = Cert.Gcn.bnRelu (V c main_v70) (V c main_v74) (V c main_v75) (V c main_v76) (V c main_v77) := by
  exact (dat4 (F := Ideal) V c).arrAt_eq_of_cover 5 _ (fun t _ => flushed_eq V c t) covered

end Cert.Gcn.Reg4

end
-- ==== Proof.KFoldM.lean ====
/-
  The middle of the kernel program's fold: from region 1's exit (layer 1's mixed array, given) through layer 1's
  statistics and parameter rows, region 2 (layer 1's batch norm and ReLU), layer 2's neighbour sum and weight,
  region 3 (layer 2's mix), layer 2's statistics and parameter rows, and region 4 (layer 2's batch norm and ReLU).
  At each boundary, every buffer something later reads holds a named stage function of what the buffers held at
  region 1's exit: a buffer a stretch writes holds the composed term of the stretch's operations on what the stretch
  read; a region's output holds the region's dense stage of its input arrays; every other buffer holds what it held.
-/
import proofs.«408610_j12541304504853_3_alg».proof.Proof.Gen.KernelIdeal.Frame
import proofs.«408610_j12541304504853_3_alg».proof.Proof.KVal
import proofs.«408610_j12541304504853_3_alg».proof.Proof.RegBn2
import proofs.«408610_j12541304504853_3_alg».proof.Proof.RegMix3
import proofs.«408610_j12541304504853_3_alg».proof.Proof.RegBn4
import Idealize.ShloMosaic.Lib.Pipeline.Value
import Idealize.ShloMosaic.Lib.StableHlo.Run

set_option maxRecDepth 16384
set_option maxHeartbeats 1600000

noncomputable section

namespace Cert.Gcn.KFoldM

open Cert.KernelIdeal Cert.KernelIdeal.Gen
open Idealize.ShloMosaic Idealize.ShloMosaic.TcCoe

variable (m : (ℓ : Loc nD τ sig) → Buf (Elt Ideal) ℓ) (ρ : Dev nD → PrngReg)

/-- A buffer that no operation of the stretch writes holds after it what it held before. -/
local macro "keep_across " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch writes, from what it reads (any contents `Wp` before it) -/

/-- Layer 1's column means. -/
theorem h2_v51 (Wp : Valuation τ sig (Elt Ideal)) (o : KVal.T S50000x96 .f32)
    (h_o : Wp (Proc.devRef .tc main_v47) = o) :
    StableHlo.after hostOps2 Wp (Proc.devRef .tc main_v51) = KVal.mean o := by
  subst h_o
  after_results
  rfl
/-- The degrees of freedom layer 1's variance takes off: none. -/
theorem h2_c_11 (Wp : Valuation τ sig (Elt Ideal))
    : StableHlo.after hostOps2 Wp (Proc.devRef .tc main_c_11) = (constantI S_ 32 0#32 : KVal.T S_ .i32) := by
  after_results
/-- Layer 1's column variances. -/
theorem h2_1_v52 (Wp : Valuation τ sig (Elt Ideal)) (o : KVal.T S50000x96 .f32)
    (h_o : Wp (Proc.devRef .tc main_v47) = o) (hc : Wp (Proc.devRef .tc main_c_11) = (constantI S_ 32 0#32 : KVal.T S_ .i32)) :
    StableHlo.after hostOps2_1 Wp (Proc.devRef .tc main_v52) = KVal.var o := by
  subst h_o
  after_results
  simp only [StableHlo.TRef.ofBuf, StableHlo.TRef.toBuf, cast_eq]
  rw [hc]
  rfl
/-- Layer 1's scale row. -/
theorem h2_2_v53 (Wp : Valuation τ sig (Elt Ideal)) (g : KVal.T S3x96 .f32)
    (h_g : Wp (Proc.devRef .tc main_arg5) = g) :
    StableHlo.after hostOps2_2 Wp (Proc.devRef .tc main_v53) = KVal.prow0 g := by
  subst h_g
  after_results
  rfl
/-- Layer 1's shift row. -/
theorem h2_2_v54 (Wp : Valuation τ sig (Elt Ideal)) (g : KVal.T S3x96 .f32)
    (h_g : Wp (Proc.devRef .tc main_arg6) = g) :
    StableHlo.after hostOps2_2 Wp (Proc.devRef .tc main_v54) = KVal.prow0 g := by
  subst h_g
  after_results
  rfl
/-- Layer 2's weighted neighbour sum. -/
theorem h3_v67 (Wp : Valuation τ sig (Elt Ideal)) (rw : KVal.T S850000 .i32) (cl : KVal.T S850000 .i32) (nw : KVal.T S850000x1 .f32) (cur : KVal.T S50000x96 .f32)
    (h_rw : Wp (Proc.devRef .tc main_v3) = rw) (h_cl : Wp (Proc.devRef .tc main_v6) = cl) (h_nw : Wp (Proc.devRef .tc main_v30) = nw) (h_cur : Wp (Proc.devRef .tc main_v55) = cur) :
    StableHlo.after hostOps3 Wp (Proc.devRef .tc main_v67) = KVal.agg rw cl nw cur := by
  subst h_rw h_cl h_nw h_cur
  after_results
  rfl
/-- Layer 2's weight. -/
theorem h3_v69 (Wp : Valuation τ sig (Elt Ideal)) (cw : KVal.T S3x96x96 .f32)
    (h_cw : Wp (Proc.devRef .tc main_arg4) = cw) :
    StableHlo.after hostOps3 Wp (Proc.devRef .tc main_v69) = KVal.wsl1 cw := by
  subst h_cw
  after_results
  rfl
/-- Layer 2's column means. -/
theorem h4_v74 (Wp : Valuation τ sig (Elt Ideal)) (o : KVal.T S50000x96 .f32)
    (h_o : Wp (Proc.devRef .tc main_v70) = o) :
    StableHlo.after hostOps4 Wp (Proc.devRef .tc main_v74) = KVal.mean o := by
  subst h_o
  after_results
  rfl
/-- The degrees of freedom layer 2's variance takes off: none. -/
theorem h4_c_17 (Wp : Valuation τ sig (Elt Ideal))
    : StableHlo.after hostOps4 Wp (Proc.devRef .tc main_c_17) = (constantI S_ 32 0#32 : KVal.T S_ .i32) := by
  after_results
/-- Layer 2's column variances. -/
theorem h4_1_v75 (Wp : Valuation τ sig (Elt Ideal)) (o : KVal.T S50000x96 .f32)
    (h_o : Wp (Proc.devRef .tc main_v70) = o) (hc : Wp (Proc.devRef .tc main_c_17) = (constantI S_ 32 0#32 : KVal.T S_ .i32)) :
    StableHlo.after hostOps4_1 Wp (Proc.devRef .tc main_v75) = KVal.var o := by
  subst h_o
  after_results
  simp only [StableHlo.TRef.ofBuf, StableHlo.TRef.toBuf, cast_eq]
  rw [hc]
  rfl
/-- Layer 2's scale row. -/
theorem h4_2_v76 (Wp : Valuation τ sig (Elt Ideal)) (g : KVal.T S3x96 .f32)
    (h_g : Wp (Proc.devRef .tc main_arg5) = g) :
    StableHlo.after hostOps4_2 Wp (Proc.devRef .tc main_v76) = KVal.prow1 g := by
  subst h_g
  after_results
  rfl
/-- Layer 2's shift row. -/
theorem h4_2_v77 (Wp : Valuation τ sig (Elt Ideal)) (g : KVal.T S3x96 .f32)
    (h_g : Wp (Proc.devRef .tc main_arg6) = g) :
    StableHlo.after hostOps4_2 Wp (Proc.devRef .tc main_v77) = KVal.prow1 g := by
  subst h_g
  after_results
  rfl

/-! ## What each region leaves in its output array, from what it finds in its input arrays -/

/-- Layer 1's batch norm and ReLU. -/
theorem r2 (V : (c : Dev nD) → (b : Ref sig .tc) → Buf (Elt Ideal) ((c : Thread nD τ).loc b)) (c : Dev nD)
    (o : KVal.T S50000x96 .f32) (g b : KVal.T S1x96 .f32)
    (ho : V c main_v47 = o) (hm : V c main_v51 = KVal.mean o) (hv : V c main_v52 = KVal.var o)
    (hg : V c main_v53 = g) (hb : V c main_v54 = b) :
    (dat2 (F := Ideal) V c).arrAt 5 cfg2.N = KVal.bn o g b := by
  rw [Cert.Gcn.Reg2.final2, ho, hm, hv, hg, hb]
  rfl
/-- Layer 2's mix. -/
theorem r3 (V : (c : Dev nD) → (b : Ref sig .tc) → Buf (Elt Ideal) ((c : Thread nD τ).loc b)) (c : Dev nD)
    (rw cl : KVal.T S850000 .i32) (nw : KVal.T S850000x1 .f32) (x0 cur : KVal.T S50000x96 .f32) (cw : KVal.T S3x96x96 .f32)
    (hagg : V c main_v67 = KVal.agg rw cl nw cur) (hx : V c main_v32 = x0) (hw : V c main_v69 = KVal.wsl1 cw) :
    (dat3 (F := Ideal) V c).arrAt 3 cfg3.N = KVal.mix2 rw cl nw x0 cur cw := by
  rw [Cert.Gcn.Reg3.final3, hagg, hx, hw]
  rfl
/-- Layer 2's batch norm and ReLU. -/
theorem r4 (V : (c : Dev nD) → (b : Ref sig .tc) → Buf (Elt Ideal) ((c : Thread nD τ).loc b)) (c : Dev nD)
    (o : KVal.T S50000x96 .f32) (g b : KVal.T S1x96 .f32)
    (ho : V c main_v70 = o) (hm : V c main_v74 = KVal.mean o) (hv : V c main_v75 = KVal.var o)
    (hg : V c main_v76 = g) (hb : V c main_v77 = b) :
    (dat4 (F := Ideal) V c).arrAt 5 cfg4.N = KVal.bn o g b := by
  rw [Cert.Gcn.Reg4.final4, ho, hm, hv, hg, hb]
  rfl

/-! ## The long-lived buffers at boundary 6 (region 1's exit), as given -/

/-- What region 1's output, the index rows, the edge weights, the input layer's array and the layer parameters hold at
    boundary 6. -/
structure At6 (c : Dev nD) (o1 : KVal.T S50000x96 .f32) (rw cl : KVal.T S850000 .i32) (nw : KVal.T S850000x1 .f32) (x0 : KVal.T S50000x96 .f32)
    (a4 : KVal.T S3x96x96 .f32) (a5 a6 : KVal.T S3x96 .f32) (a7 : KVal.T S96x40 .f32) (a8 : KVal.T S40 .f32) : Prop where
  h47 : W6 (F := Ideal) m ρ c (Proc.devRef .tc main_v47) = o1
  h3 : W6 (F := Ideal) m ρ c (Proc.devRef .tc main_v3) = rw
  h6 : W6 (F := Ideal) m ρ c (Proc.devRef .tc main_v6) = cl
  h30 : W6 (F := Ideal) m ρ c (Proc.devRef .tc main_v30) = nw
  h32 : W6 (F := Ideal) m ρ c (Proc.devRef .tc main_v32) = x0
  h4 : W6 (F := Ideal) m ρ c (Proc.devRef .tc main_arg4) = a4
  h5 : W6 (F := Ideal) m ρ c (Proc.devRef .tc main_arg5) = a5
  h6' : W6 (F := Ideal) m ρ c (Proc.devRef .tc main_arg6) = a6
  h7 : W6 (F := Ideal) m ρ c (Proc.devRef .tc main_arg7) = a7
  h8 : W6 (F := Ideal) m ρ c (Proc.devRef .tc main_arg8) = a8

section Fold

variable (c : Dev nD) {o1 : KVal.T S50000x96 .f32} {rw cl : KVal.T S850000 .i32} {nw : KVal.T S850000x1 .f32} {x0 : KVal.T S50000x96 .f32}
  {a4 : KVal.T S3x96x96 .f32} {a5 a6 : KVal.T S3x96 .f32} {a7 : KVal.T S96x40 .f32} {a8 : KVal.T S40 .f32}
  (H : At6 m ρ c o1 rw cl nw x0 a4 a5 a6 a7 a8)
include H

/-! ## The boundaries, in order: at each, every buffer something later reads -/

theorem W6_main_v47 : W6 m ρ c (Proc.devRef .tc main_v47) = o1 := H.h47
theorem W6_main_v3 : W6 m ρ c (Proc.devRef .tc main_v3) = rw := H.h3
theorem W6_main_v6 : W6 m ρ c (Proc.devRef .tc main_v6) = cl := H.h6
theorem W6_main_v30 : W6 m ρ c (Proc.devRef .tc main_v30) = nw := H.h30
theorem W6_main_v32 : W6 m ρ c (Proc.devRef .tc main_v32) = x0 := H.h32
theorem W6_main_arg4 : W6 m ρ c (Proc.devRef .tc main_arg4) = a4 := H.h4
theorem W6_main_arg5 : W6 m ρ c (Proc.devRef .tc main_arg5) = a5 := H.h5
theorem W6_main_arg6 : W6 m ρ c (Proc.devRef .tc main_arg6) = a6 := H.h6'
theorem W6_main_arg7 : W6 m ρ c (Proc.devRef .tc main_arg7) = a7 := H.h7
theorem W6_main_arg8 : W6 m ρ c (Proc.devRef .tc main_arg8) = a8 := H.h8

/-! ### Boundary 7: after the stretch `hostOps2` -/

theorem W7_main_v51 : W7 m ρ c (Proc.devRef .tc main_v51) = KVal.mean o1 :=
  h2_v51 (W6 m ρ c) _ (W6_main_v47 m ρ c H)
theorem W7_main_c_11 : W7 m ρ c (Proc.devRef .tc main_c_11) = (constantI S_ 32 0#32 : KVal.T S_ .i32) :=
  h2_c_11 (W6 m ρ c)
theorem W7_main_v47 : W7 m ρ c (Proc.devRef .tc main_v47) = o1 :=
  (by keep_across hostOps2 : W7 m ρ c (Proc.devRef .tc main_v47) = W6 m ρ c (Proc.devRef .tc main_v47)).trans (W6_main_v47 m ρ c H)
theorem W7_main_v3 : W7 m ρ c (Proc.devRef .tc main_v3) = rw :=
  (by keep_across hostOps2 : W7 m ρ c (Proc.devRef .tc main_v3) = W6 m ρ c (Proc.devRef .tc main_v3)).trans (W6_main_v3 m ρ c H)
theorem W7_main_v6 : W7 m ρ c (Proc.devRef .tc main_v6) = cl :=
  (by keep_across hostOps2 : W7 m ρ c (Proc.devRef .tc main_v6) = W6 m ρ c (Proc.devRef .tc main_v6)).trans (W6_main_v6 m ρ c H)
theorem W7_main_v30 : W7 m ρ c (Proc.devRef .tc main_v30) = nw :=
  (by keep_across hostOps2 : W7 m ρ c (Proc.devRef .tc main_v30) = W6 m ρ c (Proc.devRef .tc main_v30)).trans (W6_main_v30 m ρ c H)
theorem W7_main_v32 : W7 m ρ c (Proc.devRef .tc main_v32) = x0 :=
  (by keep_across hostOps2 : W7 m ρ c (Proc.devRef .tc main_v32) = W6 m ρ c (Proc.devRef .tc main_v32)).trans (W6_main_v32 m ρ c H)
theorem W7_main_arg4 : W7 m ρ c (Proc.devRef .tc main_arg4) = a4 :=
  (by keep_across hostOps2 : W7 m ρ c (Proc.devRef .tc main_arg4) = W6 m ρ c (Proc.devRef .tc main_arg4)).trans (W6_main_arg4 m ρ c H)
theorem W7_main_arg5 : W7 m ρ c (Proc.devRef .tc main_arg5) = a5 :=
  (by keep_across hostOps2 : W7 m ρ c (Proc.devRef .tc main_arg5) = W6 m ρ c (Proc.devRef .tc main_arg5)).trans (W6_main_arg5 m ρ c H)
theorem W7_main_arg6 : W7 m ρ c (Proc.devRef .tc main_arg6) = a6 :=
  (by keep_across hostOps2 : W7 m ρ c (Proc.devRef .tc main_arg6) = W6 m ρ c (Proc.devRef .tc main_arg6)).trans (W6_main_arg6 m ρ c H)
theorem W7_main_arg7 : W7 m ρ c (Proc.devRef .tc main_arg7) = a7 :=
  (by keep_across hostOps2 : W7 m ρ c (Proc.devRef .tc main_arg7) = W6 m ρ c (Proc.devRef .tc main_arg7)).trans (W6_main_arg7 m ρ c H)
theorem W7_main_arg8 : W7 m ρ c (Proc.devRef .tc main_arg8) = a8 :=
  (by keep_across hostOps2 : W7 m ρ c (Proc.devRef .tc main_arg8) = W6 m ρ c (Proc.devRef .tc main_arg8)).trans (W6_main_arg8 m ρ c H)

/-! ### Boundary 8: after the stretch `hostOps2_1` -/

theorem W8_main_v52 : W8 m ρ c (Proc.devRef .tc main_v52) = KVal.var o1 :=
  h2_1_v52 (W7 m ρ c) _ (W7_main_v47 m ρ c H) (W7_main_c_11 m ρ c H)
theorem W8_main_v47 : W8 m ρ c (Proc.devRef .tc main_v47) = o1 :=
  (by keep_across hostOps2_1 : W8 m ρ c (Proc.devRef .tc main_v47) = W7 m ρ c (Proc.devRef .tc main_v47)).trans (W7_main_v47 m ρ c H)
theorem W8_main_v3 : W8 m ρ c (Proc.devRef .tc main_v3) = rw :=
  (by keep_across hostOps2_1 : W8 m ρ c (Proc.devRef .tc main_v3) = W7 m ρ c (Proc.devRef .tc main_v3)).trans (W7_main_v3 m ρ c H)
theorem W8_main_v6 : W8 m ρ c (Proc.devRef .tc main_v6) = cl :=
  (by keep_across hostOps2_1 : W8 m ρ c (Proc.devRef .tc main_v6) = W7 m ρ c (Proc.devRef .tc main_v6)).trans (W7_main_v6 m ρ c H)
theorem W8_main_v30 : W8 m ρ c (Proc.devRef .tc main_v30) = nw :=
  (by keep_across hostOps2_1 : W8 m ρ c (Proc.devRef .tc main_v30) = W7 m ρ c (Proc.devRef .tc main_v30)).trans (W7_main_v30 m ρ c H)
theorem W8_main_v32 : W8 m ρ c (Proc.devRef .tc main_v32) = x0 :=
  (by keep_across hostOps2_1 : W8 m ρ c (Proc.devRef .tc main_v32) = W7 m ρ c (Proc.devRef .tc main_v32)).trans (W7_main_v32 m ρ c H)
theorem W8_main_arg4 : W8 m ρ c (Proc.devRef .tc main_arg4) = a4 :=
  (by keep_across hostOps2_1 : W8 m ρ c (Proc.devRef .tc main_arg4) = W7 m ρ c (Proc.devRef .tc main_arg4)).trans (W7_main_arg4 m ρ c H)
theorem W8_main_arg5 : W8 m ρ c (Proc.devRef .tc main_arg5) = a5 :=
  (by keep_across hostOps2_1 : W8 m ρ c (Proc.devRef .tc main_arg5) = W7 m ρ c (Proc.devRef .tc main_arg5)).trans (W7_main_arg5 m ρ c H)
theorem W8_main_arg6 : W8 m ρ c (Proc.devRef .tc main_arg6) = a6 :=
  (by keep_across hostOps2_1 : W8 m ρ c (Proc.devRef .tc main_arg6) = W7 m ρ c (Proc.devRef .tc main_arg6)).trans (W7_main_arg6 m ρ c H)
theorem W8_main_arg7 : W8 m ρ c (Proc.devRef .tc main_arg7) = a7 :=
  (by keep_across hostOps2_1 : W8 m ρ c (Proc.devRef .tc main_arg7) = W7 m ρ c (Proc.devRef .tc main_arg7)).trans (W7_main_arg7 m ρ c H)
theorem W8_main_arg8 : W8 m ρ c (Proc.devRef .tc main_arg8) = a8 :=
  (by keep_across hostOps2_1 : W8 m ρ c (Proc.devRef .tc main_arg8) = W7 m ρ c (Proc.devRef .tc main_arg8)).trans (W7_main_arg8 m ρ c H)
theorem W8_main_v51 : W8 m ρ c (Proc.devRef .tc main_v51) = KVal.mean o1 :=
  (by keep_across hostOps2_1 : W8 m ρ c (Proc.devRef .tc main_v51) = W7 m ρ c (Proc.devRef .tc main_v51)).trans (W7_main_v51 m ρ c H)

/-! ### Boundary 9: after the stretch `hostOps2_2` -/

theorem W9_main_v53 : W9 m ρ c (Proc.devRef .tc main_v53) = KVal.prow0 a5 :=
  h2_2_v53 (W8 m ρ c) _ (W8_main_arg5 m ρ c H)
theorem W9_main_v54 : W9 m ρ c (Proc.devRef .tc main_v54) = KVal.prow0 a6 :=
  h2_2_v54 (W8 m ρ c) _ (W8_main_arg6 m ρ c H)
theorem W9_main_v47 : W9 m ρ c (Proc.devRef .tc main_v47) = o1 :=
  (by keep_across hostOps2_2 : W9 m ρ c (Proc.devRef .tc main_v47) = W8 m ρ c (Proc.devRef .tc main_v47)).trans (W8_main_v47 m ρ c H)
theorem W9_main_v3 : W9 m ρ c (Proc.devRef .tc main_v3) = rw :=
  (by keep_across hostOps2_2 : W9 m ρ c (Proc.devRef .tc main_v3) = W8 m ρ c (Proc.devRef .tc main_v3)).trans (W8_main_v3 m ρ c H)
theorem W9_main_v6 : W9 m ρ c (Proc.devRef .tc main_v6) = cl :=
  (by keep_across hostOps2_2 : W9 m ρ c (Proc.devRef .tc main_v6) = W8 m ρ c (Proc.devRef .tc main_v6)).trans (W8_main_v6 m ρ c H)
theorem W9_main_v30 : W9 m ρ c (Proc.devRef .tc main_v30) = nw :=
  (by keep_across hostOps2_2 : W9 m ρ c (Proc.devRef .tc main_v30) = W8 m ρ c (Proc.devRef .tc main_v30)).trans (W8_main_v30 m ρ c H)
theorem W9_main_v32 : W9 m ρ c (Proc.devRef .tc main_v32) = x0 :=
  (by keep_across hostOps2_2 : W9 m ρ c (Proc.devRef .tc main_v32) = W8 m ρ c (Proc.devRef .tc main_v32)).trans (W8_main_v32 m ρ c H)
theorem W9_main_arg4 : W9 m ρ c (Proc.devRef .tc main_arg4) = a4 :=
  (by keep_across hostOps2_2 : W9 m ρ c (Proc.devRef .tc main_arg4) = W8 m ρ c (Proc.devRef .tc main_arg4)).trans (W8_main_arg4 m ρ c H)
theorem W9_main_arg5 : W9 m ρ c (Proc.devRef .tc main_arg5) = a5 :=
  (by keep_across hostOps2_2 : W9 m ρ c (Proc.devRef .tc main_arg5) = W8 m ρ c (Proc.devRef .tc main_arg5)).trans (W8_main_arg5 m ρ c H)
theorem W9_main_arg6 : W9 m ρ c (Proc.devRef .tc main_arg6) = a6 :=
  (by keep_across hostOps2_2 : W9 m ρ c (Proc.devRef .tc main_arg6) = W8 m ρ c (Proc.devRef .tc main_arg6)).trans (W8_main_arg6 m ρ c H)
theorem W9_main_arg7 : W9 m ρ c (Proc.devRef .tc main_arg7) = a7 :=
  (by keep_across hostOps2_2 : W9 m ρ c (Proc.devRef .tc main_arg7) = W8 m ρ c (Proc.devRef .tc main_arg7)).trans (W8_main_arg7 m ρ c H)
theorem W9_main_arg8 : W9 m ρ c (Proc.devRef .tc main_arg8) = a8 :=
  (by keep_across hostOps2_2 : W9 m ρ c (Proc.devRef .tc main_arg8) = W8 m ρ c (Proc.devRef .tc main_arg8)).trans (W8_main_arg8 m ρ c H)
theorem W9_main_v51 : W9 m ρ c (Proc.devRef .tc main_v51) = KVal.mean o1 :=
  (by keep_across hostOps2_2 : W9 m ρ c (Proc.devRef .tc main_v51) = W8 m ρ c (Proc.devRef .tc main_v51)).trans (W8_main_v51 m ρ c H)
theorem W9_main_v52 : W9 m ρ c (Proc.devRef .tc main_v52) = KVal.var o1 :=
  (by keep_across hostOps2_2 : W9 m ρ c (Proc.devRef .tc main_v52) = W8 m ρ c (Proc.devRef .tc main_v52)).trans (W8_main_v52 m ρ c H)

/-! ### Boundary 10: after region 2 -/

theorem W10_main_v55 : W10 m ρ c (Proc.devRef .tc main_v55) = KVal.bn o1 (KVal.prow0 a5) (KVal.prow0 a6) :=
  (W10_arr m ρ c 5).trans (r2 (V9 m ρ) c _ _ _ (W9_main_v47 m ρ c H) (W9_main_v51 m ρ c H) (W9_main_v52 m ρ c H) (W9_main_v53 m ρ c H) (W9_main_v54 m ρ c H))
theorem W10_main_v3 : W10 m ρ c (Proc.devRef .tc main_v3) = rw :=
  (W10_of_ne m ρ c main_v3 (by decide)).trans (W9_main_v3 m ρ c H)
theorem W10_main_v6 : W10 m ρ c (Proc.devRef .tc main_v6) = cl :=
  (W10_of_ne m ρ c main_v6 (by decide)).trans (W9_main_v6 m ρ c H)
theorem W10_main_v30 : W10 m ρ c (Proc.devRef .tc main_v30) = nw :=
  (W10_of_ne m ρ c main_v30 (by decide)).trans (W9_main_v30 m ρ c H)
theorem W10_main_v32 : W10 m ρ c (Proc.devRef .tc main_v32) = x0 :=
  (W10_of_ne m ρ c main_v32 (by decide)).trans (W9_main_v32 m ρ c H)
theorem W10_main_arg4 : W10 m ρ c (Proc.devRef .tc main_arg4) = a4 :=
  (W10_of_ne m ρ c main_arg4 (by decide)).trans (W9_main_arg4 m ρ c H)
theorem W10_main_arg5 : W10 m ρ c (Proc.devRef .tc main_arg5) = a5 :=
  (W10_of_ne m ρ c main_arg5 (by decide)).trans (W9_main_arg5 m ρ c H)
theorem W10_main_arg6 : W10 m ρ c (Proc.devRef .tc main_arg6) = a6 :=
  (W10_of_ne m ρ c main_arg6 (by decide)).trans (W9_main_arg6 m ρ c H)
theorem W10_main_arg7 : W10 m ρ c (Proc.devRef .tc main_arg7) = a7 :=
  (W10_of_ne m ρ c main_arg7 (by decide)).trans (W9_main_arg7 m ρ c H)
theorem W10_main_arg8 : W10 m ρ c (Proc.devRef .tc main_arg8) = a8 :=
  (W10_of_ne m ρ c main_arg8 (by decide)).trans (W9_main_arg8 m ρ c H)

/-! ### Boundary 11: after the stretch `hostOps3` -/

theorem W11_main_v67 : W11 m ρ c (Proc.devRef .tc main_v67) = KVal.agg rw cl nw (KVal.bn o1 (KVal.prow0 a5) (KVal.prow0 a6)) :=
  h3_v67 (W10 m ρ c) _ _ _ _ (W10_main_v3 m ρ c H) (W10_main_v6 m ρ c H) (W10_main_v30 m ρ c H) (W10_main_v55 m ρ c H)
theorem W11_main_v69 : W11 m ρ c (Proc.devRef .tc main_v69) = KVal.wsl1 a4 :=
  h3_v69 (W10 m ρ c) _ (W10_main_arg4 m ρ c H)
theorem W11_main_v3 : W11 m ρ c (Proc.devRef .tc main_v3) = rw :=
  (by keep_across hostOps3 : W11 m ρ c (Proc.devRef .tc main_v3) = W10 m ρ c (Proc.devRef .tc main_v3)).trans (W10_main_v3 m ρ c H)
theorem W11_main_v6 : W11 m ρ c (Proc.devRef .tc main_v6) = cl :=
  (by keep_across hostOps3 : W11 m ρ c (Proc.devRef .tc main_v6) = W10 m ρ c (Proc.devRef .tc main_v6)).trans (W10_main_v6 m ρ c H)
theorem W11_main_v30 : W11 m ρ c (Proc.devRef .tc main_v30) = nw :=
  (by keep_across hostOps3 : W11 m ρ c (Proc.devRef .tc main_v30) = W10 m ρ c (Proc.devRef .tc main_v30)).trans (W10_main_v30 m ρ c H)
theorem W11_main_v32 : W11 m ρ c (Proc.devRef .tc main_v32) = x0 :=
  (by keep_across hostOps3 : W11 m ρ c (Proc.devRef .tc main_v32) = W10 m ρ c (Proc.devRef .tc main_v32)).trans (W10_main_v32 m ρ c H)
theorem W11_main_arg4 : W11 m ρ c (Proc.devRef .tc main_arg4) = a4 :=
  (by keep_across hostOps3 : W11 m ρ c (Proc.devRef .tc main_arg4) = W10 m ρ c (Proc.devRef .tc main_arg4)).trans (W10_main_arg4 m ρ c H)
theorem W11_main_arg5 : W11 m ρ c (Proc.devRef .tc main_arg5) = a5 :=
  (by keep_across hostOps3 : W11 m ρ c (Proc.devRef .tc main_arg5) = W10 m ρ c (Proc.devRef .tc main_arg5)).trans (W10_main_arg5 m ρ c H)
theorem W11_main_arg6 : W11 m ρ c (Proc.devRef .tc main_arg6) = a6 :=
  (by keep_across hostOps3 : W11 m ρ c (Proc.devRef .tc main_arg6) = W10 m ρ c (Proc.devRef .tc main_arg6)).trans (W10_main_arg6 m ρ c H)
theorem W11_main_arg7 : W11 m ρ c (Proc.devRef .tc main_arg7) = a7 :=
  (by keep_across hostOps3 : W11 m ρ c (Proc.devRef .tc main_arg7) = W10 m ρ c (Proc.devRef .tc main_arg7)).trans (W10_main_arg7 m ρ c H)
theorem W11_main_arg8 : W11 m ρ c (Proc.devRef .tc main_arg8) = a8 :=
  (by keep_across hostOps3 : W11 m ρ c (Proc.devRef .tc main_arg8) = W10 m ρ c (Proc.devRef .tc main_arg8)).trans (W10_main_arg8 m ρ c H)

/-! ### Boundary 12: after region 3 -/

theorem W12_main_v70 : W12 m ρ c (Proc.devRef .tc main_v70) = KVal.mix2 rw cl nw x0 (KVal.bn o1 (KVal.prow0 a5) (KVal.prow0 a6)) a4 :=
  (W12_arr m ρ c 3).trans (r3 (V11 m ρ) c _ _ _ _ _ _ (W11_main_v67 m ρ c H) (W11_main_v32 m ρ c H) (W11_main_v69 m ρ c H))
theorem W12_main_v3 : W12 m ρ c (Proc.devRef .tc main_v3) = rw :=
  (W12_of_ne m ρ c main_v3 (by decide)).trans (W11_main_v3 m ρ c H)
theorem W12_main_v6 : W12 m ρ c (Proc.devRef .tc main_v6) = cl :=
  (W12_of_ne m ρ c main_v6 (by decide)).trans (W11_main_v6 m ρ c H)
theorem W12_main_v30 : W12 m ρ c (Proc.devRef .tc main_v30) = nw :=
  (W12_of_ne m ρ c main_v30 (by decide)).trans (W11_main_v30 m ρ c H)
theorem W12_main_v32 : W12 m ρ c (Proc.devRef .tc main_v32) = x0 :=
  ((W12_arr m ρ c 1).trans (((dat3 (V11 m ρ) c).arrAt_in 1 rfl _).trans (A_eq3 (V11 m ρ) c 1))).trans (W11_main_v32 m ρ c H)
theorem W12_main_arg4 : W12 m ρ c (Proc.devRef .tc main_arg4) = a4 :=
  (W12_of_ne m ρ c main_arg4 (by decide)).trans (W11_main_arg4 m ρ c H)
theorem W12_main_arg5 : W12 m ρ c (Proc.devRef .tc main_arg5) = a5 :=
  (W12_of_ne m ρ c main_arg5 (by decide)).trans (W11_main_arg5 m ρ c H)
theorem W12_main_arg6 : W12 m ρ c (Proc.devRef .tc main_arg6) = a6 :=
  (W12_of_ne m ρ c main_arg6 (by decide)).trans (W11_main_arg6 m ρ c H)
theorem W12_main_arg7 : W12 m ρ c (Proc.devRef .tc main_arg7) = a7 :=
  (W12_of_ne m ρ c main_arg7 (by decide)).trans (W11_main_arg7 m ρ c H)
theorem W12_main_arg8 : W12 m ρ c (Proc.devRef .tc main_arg8) = a8 :=
  (W12_of_ne m ρ c main_arg8 (by decide)).trans (W11_main_arg8 m ρ c H)

/-! ### Boundary 13: after the stretch `hostOps4` -/

theorem W13_main_v74 : W13 m ρ c (Proc.devRef .tc main_v74) = KVal.mean (KVal.mix2 rw cl nw x0 (KVal.bn o1 (KVal.prow0 a5) (KVal.prow0 a6)) a4) :=
  h4_v74 (W12 m ρ c) _ (W12_main_v70 m ρ c H)
theorem W13_main_c_17 : W13 m ρ c (Proc.devRef .tc main_c_17) = (constantI S_ 32 0#32 : KVal.T S_ .i32) :=
  h4_c_17 (W12 m ρ c)
theorem W13_main_v3 : W13 m ρ c (Proc.devRef .tc main_v3) = rw :=
  (by keep_across hostOps4 : W13 m ρ c (Proc.devRef .tc main_v3) = W12 m ρ c (Proc.devRef .tc main_v3)).trans (W12_main_v3 m ρ c H)
theorem W13_main_v6 : W13 m ρ c (Proc.devRef .tc main_v6) = cl :=
  (by keep_across hostOps4 : W13 m ρ c (Proc.devRef .tc main_v6) = W12 m ρ c (Proc.devRef .tc main_v6)).trans (W12_main_v6 m ρ c H)
theorem W13_main_v30 : W13 m ρ c (Proc.devRef .tc main_v30) = nw :=
  (by keep_across hostOps4 : W13 m ρ c (Proc.devRef .tc main_v30) = W12 m ρ c (Proc.devRef .tc main_v30)).trans (W12_main_v30 m ρ c H)
theorem W13_main_v32 : W13 m ρ c (Proc.devRef .tc main_v32) = x0 :=
  (by keep_across hostOps4 : W13 m ρ c (Proc.devRef .tc main_v32) = W12 m ρ c (Proc.devRef .tc main_v32)).trans (W12_main_v32 m ρ c H)
theorem W13_main_arg4 : W13 m ρ c (Proc.devRef .tc main_arg4) = a4 :=
  (by keep_across hostOps4 : W13 m ρ c (Proc.devRef .tc main_arg4) = W12 m ρ c (Proc.devRef .tc main_arg4)).trans (W12_main_arg4 m ρ c H)
theorem W13_main_arg5 : W13 m ρ c (Proc.devRef .tc main_arg5) = a5 :=
  (by keep_across hostOps4 : W13 m ρ c (Proc.devRef .tc main_arg5) = W12 m ρ c (Proc.devRef .tc main_arg5)).trans (W12_main_arg5 m ρ c H)
theorem W13_main_arg6 : W13 m ρ c (Proc.devRef .tc main_arg6) = a6 :=
  (by keep_across hostOps4 : W13 m ρ c (Proc.devRef .tc main_arg6) = W12 m ρ c (Proc.devRef .tc main_arg6)).trans (W12_main_arg6 m ρ c H)
theorem W13_main_arg7 : W13 m ρ c (Proc.devRef .tc main_arg7) = a7 :=
  (by keep_across hostOps4 : W13 m ρ c (Proc.devRef .tc main_arg7) = W12 m ρ c (Proc.devRef .tc main_arg7)).trans (W12_main_arg7 m ρ c H)
theorem W13_main_arg8 : W13 m ρ c (Proc.devRef .tc main_arg8) = a8 :=
  (by keep_across hostOps4 : W13 m ρ c (Proc.devRef .tc main_arg8) = W12 m ρ c (Proc.devRef .tc main_arg8)).trans (W12_main_arg8 m ρ c H)
theorem W13_main_v70 : W13 m ρ c (Proc.devRef .tc main_v70) = KVal.mix2 rw cl nw x0 (KVal.bn o1 (KVal.prow0 a5) (KVal.prow0 a6)) a4 :=
  (by keep_across hostOps4 : W13 m ρ c (Proc.devRef .tc main_v70) = W12 m ρ c (Proc.devRef .tc main_v70)).trans (W12_main_v70 m ρ c H)

/-! ### Boundary 14: after the stretch `hostOps4_1` -/

theorem W14_main_v75 : W14 m ρ c (Proc.devRef .tc main_v75) = KVal.var (KVal.mix2 rw cl nw x0 (KVal.bn o1 (KVal.prow0 a5) (KVal.prow0 a6)) a4) :=
  h4_1_v75 (W13 m ρ c) _ (W13_main_v70 m ρ c H) (W13_main_c_17 m ρ c H)
theorem W14_main_v3 : W14 m ρ c (Proc.devRef .tc main_v3) = rw :=
  (by keep_across hostOps4_1 : W14 m ρ c (Proc.devRef .tc main_v3) = W13 m ρ c (Proc.devRef .tc main_v3)).trans (W13_main_v3 m ρ c H)
theorem W14_main_v6 : W14 m ρ c (Proc.devRef .tc main_v6) = cl :=
  (by keep_across hostOps4_1 : W14 m ρ c (Proc.devRef .tc main_v6) = W13 m ρ c (Proc.devRef .tc main_v6)).trans (W13_main_v6 m ρ c H)
theorem W14_main_v30 : W14 m ρ c (Proc.devRef .tc main_v30) = nw :=
  (by keep_across hostOps4_1 : W14 m ρ c (Proc.devRef .tc main_v30) = W13 m ρ c (Proc.devRef .tc main_v30)).trans (W13_main_v30 m ρ c H)
theorem W14_main_v32 : W14 m ρ c (Proc.devRef .tc main_v32) = x0 :=
  (by keep_across hostOps4_1 : W14 m ρ c (Proc.devRef .tc main_v32) = W13 m ρ c (Proc.devRef .tc main_v32)).trans (W13_main_v32 m ρ c H)
theorem W14_main_arg4 : W14 m ρ c (Proc.devRef .tc main_arg4) = a4 :=
  (by keep_across hostOps4_1 : W14 m ρ c (Proc.devRef .tc main_arg4) = W13 m ρ c (Proc.devRef .tc main_arg4)).trans (W13_main_arg4 m ρ c H)
theorem W14_main_arg5 : W14 m ρ c (Proc.devRef .tc main_arg5) = a5 :=
  (by keep_across hostOps4_1 : W14 m ρ c (Proc.devRef .tc main_arg5) = W13 m ρ c (Proc.devRef .tc main_arg5)).trans (W13_main_arg5 m ρ c H)
theorem W14_main_arg6 : W14 m ρ c (Proc.devRef .tc main_arg6) = a6 :=
  (by keep_across hostOps4_1 : W14 m ρ c (Proc.devRef .tc main_arg6) = W13 m ρ c (Proc.devRef .tc main_arg6)).trans (W13_main_arg6 m ρ c H)
theorem W14_main_arg7 : W14 m ρ c (Proc.devRef .tc main_arg7) = a7 :=
  (by keep_across hostOps4_1 : W14 m ρ c (Proc.devRef .tc main_arg7) = W13 m ρ c (Proc.devRef .tc main_arg7)).trans (W13_main_arg7 m ρ c H)
theorem W14_main_arg8 : W14 m ρ c (Proc.devRef .tc main_arg8) = a8 :=
  (by keep_across hostOps4_1 : W14 m ρ c (Proc.devRef .tc main_arg8) = W13 m ρ c (Proc.devRef .tc main_arg8)).trans (W13_main_arg8 m ρ c H)
theorem W14_main_v70 : W14 m ρ c (Proc.devRef .tc main_v70) = KVal.mix2 rw cl nw x0 (KVal.bn o1 (KVal.prow0 a5) (KVal.prow0 a6)) a4 :=
  (by keep_across hostOps4_1 : W14 m ρ c (Proc.devRef .tc main_v70) = W13 m ρ c (Proc.devRef .tc main_v70)).trans (W13_main_v70 m ρ c H)
theorem W14_main_v74 : W14 m ρ c (Proc.devRef .tc main_v74) = KVal.mean (KVal.mix2 rw cl nw x0 (KVal.bn o1 (KVal.prow0 a5) (KVal.prow0 a6)) a4) :=
  (by keep_across hostOps4_1 : W14 m ρ c (Proc.devRef .tc main_v74) = W13 m ρ c (Proc.devRef .tc main_v74)).trans (W13_main_v74 m ρ c H)

/-! ### Boundary 15: after the stretch `hostOps4_2` -/

theorem W15_main_v76 : W15 m ρ c (Proc.devRef .tc main_v76) = KVal.prow1 a5 :=
  h4_2_v76 (W14 m ρ c) _ (W14_main_arg5 m ρ c H)
theorem W15_main_v77 : W15 m ρ c (Proc.devRef .tc main_v77) = KVal.prow1 a6 :=
  h4_2_v77 (W14 m ρ c) _ (W14_main_arg6 m ρ c H)
theorem W15_main_v3 : W15 m ρ c (Proc.devRef .tc main_v3) = rw :=
  (by keep_across hostOps4_2 : W15 m ρ c (Proc.devRef .tc main_v3) = W14 m ρ c (Proc.devRef .tc main_v3)).trans (W14_main_v3 m ρ c H)
theorem W15_main_v6 : W15 m ρ c (Proc.devRef .tc main_v6) = cl :=
  (by keep_across hostOps4_2 : W15 m ρ c (Proc.devRef .tc main_v6) = W14 m ρ c (Proc.devRef .tc main_v6)).trans (W14_main_v6 m ρ c H)
theorem W15_main_v30 : W15 m ρ c (Proc.devRef .tc main_v30) = nw :=
  (by keep_across hostOps4_2 : W15 m ρ c (Proc.devRef .tc main_v30) = W14 m ρ c (Proc.devRef .tc main_v30)).trans (W14_main_v30 m ρ c H)
theorem W15_main_v32 : W15 m ρ c (Proc.devRef .tc main_v32) = x0 :=
  (by keep_across hostOps4_2 : W15 m ρ c (Proc.devRef .tc main_v32) = W14 m ρ c (Proc.devRef .tc main_v32)).trans (W14_main_v32 m ρ c H)
theorem W15_main_arg4 : W15 m ρ c (Proc.devRef .tc main_arg4) = a4 :=
  (by keep_across hostOps4_2 : W15 m ρ c (Proc.devRef .tc main_arg4) = W14 m ρ c (Proc.devRef .tc main_arg4)).trans (W14_main_arg4 m ρ c H)
theorem W15_main_arg5 : W15 m ρ c (Proc.devRef .tc main_arg5) = a5 :=
  (by keep_across hostOps4_2 : W15 m ρ c (Proc.devRef .tc main_arg5) = W14 m ρ c (Proc.devRef .tc main_arg5)).trans (W14_main_arg5 m ρ c H)
theorem W15_main_arg6 : W15 m ρ c (Proc.devRef .tc main_arg6) = a6 :=
  (by keep_across hostOps4_2 : W15 m ρ c (Proc.devRef .tc main_arg6) = W14 m ρ c (Proc.devRef .tc main_arg6)).trans (W14_main_arg6 m ρ c H)
theorem W15_main_arg7 : W15 m ρ c (Proc.devRef .tc main_arg7) = a7 :=
  (by keep_across hostOps4_2 : W15 m ρ c (Proc.devRef .tc main_arg7) = W14 m ρ c (Proc.devRef .tc main_arg7)).trans (W14_main_arg7 m ρ c H)
theorem W15_main_arg8 : W15 m ρ c (Proc.devRef .tc main_arg8) = a8 :=
  (by keep_across hostOps4_2 : W15 m ρ c (Proc.devRef .tc main_arg8) = W14 m ρ c (Proc.devRef .tc main_arg8)).trans (W14_main_arg8 m ρ c H)
theorem W15_main_v70 : W15 m ρ c (Proc.devRef .tc main_v70) = KVal.mix2 rw cl nw x0 (KVal.bn o1 (KVal.prow0 a5) (KVal.prow0 a6)) a4 :=
  (by keep_across hostOps4_2 : W15 m ρ c (Proc.devRef .tc main_v70) = W14 m ρ c (Proc.devRef .tc main_v70)).trans (W14_main_v70 m ρ c H)
theorem W15_main_v74 : W15 m ρ c (Proc.devRef .tc main_v74) = KVal.mean (KVal.mix2 rw cl nw x0 (KVal.bn o1 (KVal.prow0 a5) (KVal.prow0 a6)) a4) :=
  (by keep_across hostOps4_2 : W15 m ρ c (Proc.devRef .tc main_v74) = W14 m ρ c (Proc.devRef .tc main_v74)).trans (W14_main_v74 m ρ c H)
theorem W15_main_v75 : W15 m ρ c (Proc.devRef .tc main_v75) = KVal.var (KVal.mix2 rw cl nw x0 (KVal.bn o1 (KVal.prow0 a5) (KVal.prow0 a6)) a4) :=
  (by keep_across hostOps4_2 : W15 m ρ c (Proc.devRef .tc main_v75) = W14 m ρ c (Proc.devRef .tc main_v75)).trans (W14_main_v75 m ρ c H)

/-! ### Boundary 16: after region 4 -/

theorem W16_main_v78 : W16 m ρ c (Proc.devRef .tc main_v78) = KVal.layer2 rw cl nw x0 (KVal.bn o1 (KVal.prow0 a5) (KVal.prow0 a6)) a4 a5 a6 :=
  (W16_arr m ρ c 5).trans (r4 (V15 m ρ) c _ _ _ (W15_main_v70 m ρ c H) (W15_main_v74 m ρ c H) (W15_main_v75 m ρ c H) (W15_main_v76 m ρ c H) (W15_main_v77 m ρ c H))
theorem W16_main_v3 : W16 m ρ c (Proc.devRef .tc main_v3) = rw :=
  (W16_of_ne m ρ c main_v3 (by decide)).trans (W15_main_v3 m ρ c H)
theorem W16_main_v6 : W16 m ρ c (Proc.devRef .tc main_v6) = cl :=
  (W16_of_ne m ρ c main_v6 (by decide)).trans (W15_main_v6 m ρ c H)
theorem W16_main_v30 : W16 m ρ c (Proc.devRef .tc main_v30) = nw :=
  (W16_of_ne m ρ c main_v30 (by decide)).trans (W15_main_v30 m ρ c H)
theorem W16_main_v32 : W16 m ρ c (Proc.devRef .tc main_v32) = x0 :=
  (W16_of_ne m ρ c main_v32 (by decide)).trans (W15_main_v32 m ρ c H)
theorem W16_main_arg4 : W16 m ρ c (Proc.devRef .tc main_arg4) = a4 :=
  (W16_of_ne m ρ c main_arg4 (by decide)).trans (W15_main_arg4 m ρ c H)
theorem W16_main_arg5 : W16 m ρ c (Proc.devRef .tc main_arg5) = a5 :=
  (W16_of_ne m ρ c main_arg5 (by decide)).trans (W15_main_arg5 m ρ c H)
theorem W16_main_arg6 : W16 m ρ c (Proc.devRef .tc main_arg6) = a6 :=
  (W16_of_ne m ρ c main_arg6 (by decide)).trans (W15_main_arg6 m ρ c H)
theorem W16_main_arg7 : W16 m ρ c (Proc.devRef .tc main_arg7) = a7 :=
  (W16_of_ne m ρ c main_arg7 (by decide)).trans (W15_main_arg7 m ρ c H)
theorem W16_main_arg8 : W16 m ρ c (Proc.devRef .tc main_arg8) = a8 :=
  (W16_of_ne m ρ c main_arg8 (by decide)).trans (W15_main_arg8 m ρ c H)

end Fold

/-! ## The middle of the fold: layer 2's result, and the long-lived buffers beside it -/

theorem mid (c : Dev nD) (o1 : KVal.T S50000x96 .f32) (rw cl : KVal.T S850000 .i32) (nw : KVal.T S850000x1 .f32) (x0 : KVal.T S50000x96 .f32)
    (a4 : KVal.T S3x96x96 .f32) (a5 a6 : KVal.T S3x96 .f32) (a7 : KVal.T S96x40 .f32) (a8 : KVal.T S40 .f32)
    (h47 : W6 (F := Ideal) m ρ c (Proc.devRef .tc main_v47) = o1)
    (h3 : W6 (F := Ideal) m ρ c (Proc.devRef .tc main_v3) = rw) (h6 : W6 (F := Ideal) m ρ c (Proc.devRef .tc main_v6) = cl)
    (h30 : W6 (F := Ideal) m ρ c (Proc.devRef .tc main_v30) = nw) (h32 : W6 (F := Ideal) m ρ c (Proc.devRef .tc main_v32) = x0)
    (h4 : W6 (F := Ideal) m ρ c (Proc.devRef .tc main_arg4) = a4) (h5 : W6 (F := Ideal) m ρ c (Proc.devRef .tc main_arg5) = a5)
    (h6' : W6 (F := Ideal) m ρ c (Proc.devRef .tc main_arg6) = a6) (h7 : W6 (F := Ideal) m ρ c (Proc.devRef .tc main_arg7) = a7)
    (h8 : W6 (F := Ideal) m ρ c (Proc.devRef .tc main_arg8) = a8) :
    W16 (F := Ideal) m ρ c (Proc.devRef .tc main_v78) = KVal.layer2 rw cl nw x0 (KVal.bn o1 (KVal.prow0 a5) (KVal.prow0 a6)) a4 a5 a6
    ∧ W16 (F := Ideal) m ρ c (Proc.devRef .tc main_v3) = rw
    ∧ W16 (F := Ideal) m ρ c (Proc.devRef .tc main_v6) = cl
    ∧ W16 (F := Ideal) m ρ c (Proc.devRef .tc main_v30) = nw
    ∧ W16 (F := Ideal) m ρ c (Proc.devRef .tc main_v32) = x0
    ∧ W16 (F := Ideal) m ρ c (Proc.devRef .tc main_arg4) = a4
    ∧ W16 (F := Ideal) m ρ c (Proc.devRef .tc main_arg5) = a5
    ∧ W16 (F := Ideal) m ρ c (Proc.devRef .tc main_arg6) = a6
    ∧ W16 (F := Ideal) m ρ c (Proc.devRef .tc main_arg7) = a7
    ∧ W16 (F := Ideal) m ρ c (Proc.devRef .tc main_arg8) = a8 :=
  have H : At6 m ρ c o1 rw cl nw x0 a4 a5 a6 a7 a8 := ⟨h47, h3, h6, h30, h32, h4, h5, h6', h7, h8⟩
  ⟨W16_main_v78 m ρ c H, W16_main_v3 m ρ c H, W16_main_v6 m ρ c H, W16_main_v30 m ρ c H, W16_main_v32 m ρ c H,
    W16_main_arg4 m ρ c H, W16_main_arg5 m ρ c H, W16_main_arg6 m ρ c H, W16_main_arg7 m ρ c H, W16_main_arg8 m ρ c H⟩

end Cert.Gcn.KFoldM

end
-- ==== Proof.RegMix5.lean ====
/-
  Region 5 (layer 3's mix): the array its ten row blocks leave is c₁·h + c₂·(h·W) with h = 0.9·agg + 0.1·x₀, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg5

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-buffer access, as the printed list. -/
theorem zeros2 : (![0, 0] : Fin 2 → Nat) = fun _ => 0 := funext fun a => by fin_cases a <;> rfl

/-- The mix read at row `p`, column `q` depends on row `p` of the two feature operands and column `q` of the weight
    only: operands that agree there (row `p` of one pair against row `r` of another, of any heights) give the same entry. -/
theorem mixed_rows {A B H : ℕ} (c1 c2 : BitVec 32) (a0 a1 : (M2 A H).Idx → EReal) (b0 b1 : (M2 B H).Idx → EReal)
    (w w' : (M2 H H).Idx → EReal) (p : Fin A) (r : Fin B) (q : Fin H)
    (h0 : ∀ k : Fin H, a0 (ix2 p k) = b0 (ix2 r k)) (h1 : ∀ k : Fin H, a1 (ix2 p k) = b1 (ix2 r k))
    (h2 : ∀ k : Fin H, w (ix2 k q) = w' (ix2 k q)) :
    mixed c1 c2 a0 a1 w (ix2 p q) = mixed c1 c2 b0 b1 w' (ix2 r q) := by
  show FloatOps.addf (F := Ideal) (φ := .f32) (FloatOps.mulf (F := Ideal) (φ := .f32) (lit c1) (resid a0 a1 p q))
      (FloatOps.mulf (F := Ideal) (φ := .f32) (lit c2) (∑ k : Fin H, resid a0 a1 p k * w (ix2 k q)))
    = FloatOps.addf (F := Ideal) (φ := .f32) (FloatOps.mulf (F := Ideal) (φ := .f32) (lit c1) (resid b0 b1 r q))
      (FloatOps.mulf (F := Ideal) (φ := .f32) (lit c2) (∑ k : Fin H, resid b0 b1 r k * w' (ix2 k q)))
  have hr : ∀ k : Fin H, resid a0 a1 p k = resid b0 b1 r k := fun k => by unfold resid; rw [h0 k, h1 k]
  simp only [hr, h2]

/-- The kernel body's result at row `p`, column `q` of a block is the mix of the three loaded blocks there: the
    elementwise operations read at the index, the matrix product into zeros as the sum over the shared axis. -/
theorem pay_apply (x0 x1 : Vec Ideal S5000x96 .f32) (x2 : Vec Ideal S96x96 .f32) (p : Fin 5000) (q : Fin 96) :
    k5_pay1 x0 x1 x2 (ix2 p q) = mixed 0x3F588995#32 0x3E1DD9AD#32 x0 x1 x2 (ix2 p q) := by
  unfold k5_pay1
  simp only [shapeCast_self]
  show FloatOps.addf (F := Ideal) (φ := .f32) (FloatOps.mulf (F := Ideal) (φ := .f32) _ _)
      (FloatOps.mulf (F := Ideal) (φ := .f32) _ (matmul dot_S5000x96_S96x96_S5000x96_1_0_0_1_n_n none _ x2 (constant S5000x96 .f32 0x00000000#32) (ix2 p q))) = _
  rw [Cert.LibMatProd.matmul_zero_apply dot_S5000x96_S96x96_S5000x96_1_0_0_1_n_n rfl]
  rfl

/-- So the body's result is the mix of the three loaded blocks, as one function on the block. -/
theorem pay_eq (x0 x1 : Vec Ideal S5000x96 .f32) (x2 : Vec Ideal S96x96 .f32) :
    k5_pay1 x0 x1 x2 = mixed 0x3F588995#32 0x3E1DD9AD#32 x0 x1 x2 := funext fun j => by
  obtain ⟨p, q, rfl⟩ : ∃ (p : Fin 5000) (q : Fin 96), j = ix2 p q := ⟨j 0, j 1, eq_ix2 j⟩
  exact pay_apply x0 x1 x2 p q

/-- The printed index maps over the grid: the two feature windows move with the output window down the rows and stay
    at column block 0; the weight's window stays at block (0, 0); the output's row block index is at most 9. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (0 : Fin 2) ≤ 9
    ∧ win5_3.index t (1 : Fin 2) = 0 :=
  (by decide +kernel : ∀ t : Fin grid5.N, _)

/-- Every one of the ten row blocks is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

variable (V : (c : Dev nD) → (b : Ref sig .tc) → Buf (Elt Ideal) ((c : Thread nD τ).loc b))

/-- What point `t` writes back is block `t` of the mix of the whole arrays: row `p` of the block is row
    `5000·(block index) + p` of the array on the output's side and on both feature operands' sides, and the weight's
    block is the whole weight. -/
theorem flushed_eq (c : Dev nD) (t : Fin cfg5.N) :
    (dat5 (F := Ideal) V c).flushed 3 t = ((cfg5.win 3).blk t).view.read (Elt Ideal)
      (mixed 0x3F588995#32 0x3E1DD9AD#32 (V c main_v90) (V c main_v32) (V c main_v92)) := by
  show (cfg5.win 3).cut (grid5.coords t) ((dat5 V c).after 3 t) = _
  rw [after5_3]
  unfold out5_3
  rw [View.canon_unit_zero zeros2]
  simp only [View.ld_unit_zero (S := S5000x96) zeros2, View.ld_unit_zero (S := S96x96) zeros2]
  rw [pay_eq]
  obtain ⟨e0, e1, e2, e3, e4, e5, e6, e7⟩ := idx_facts t
  funext j
  obtain ⟨p, q, rfl⟩ : ∃ (p : Fin 5000) (q : Fin 96), j = ix2 p q := ⟨j 0, j 1, eq_ix2 j⟩
  have hr : win5_3.index t (0 : Fin 2) * 5000 + 1 * p.val < 50000 := by have := p.isLt; omega
  show mixed 0x3F588995#32 0x3E1DD9AD#32 (iblk5 V c 0 t) (iblk5 V c 1 t) (iblk5 V c 2 t) (ix2 p q)
    = mixed 0x3F588995#32 0x3E1DD9AD#32 (V c main_v90) (V c main_v32) (V c main_v92) (((cfg5.win 3).blk t).view.emb (ix2 p q))
  have hi : ((cfg5.win 3).blk t).view.emb (ix2 p q) = ix2 (⟨win5_3.index t (0 : Fin 2) * 5000 + 1 * p.val, hr⟩ : Fin 50000) q := by
    funext a; apply Fin.ext
    match a with
    | ⟨0, _⟩ => show win5_3.index t (0 : Fin 2) * 5000 + 1 * p.val = win5_3.index t (0 : Fin 2) * 5000 + 1 * p.val; rfl
    | ⟨1, _⟩ => show win5_3.index t (1 : Fin 2) * 96 + 1 * q.val = q.val; omega
  rw [hi]
  refine mixed_rows _ _ _ _ _ _ _ _ p _ q (fun k => ?_) (fun k => ?_) (fun k => ?_)
  · show V c main_v90 (((cfg5.win 0).blk t).view.emb (ix2 p k)) = V c main_v90 (ix2 _ k)
    refine congrArg _ (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 96 + 1 * k.val = k.val; omega
  · show V c main_v32 (((cfg5.win 1).blk t).view.emb (ix2 p k)) = V c main_v32 (ix2 _ k)
    refine congrArg _ (funext fun a => Fin.ext ?_)
    match a with
    | ⟨0, _⟩ => show win5_1.index t (0 : Fin 2) * 5000 + 1 * p.val = win5_3.index t (0 : Fin 2) * 5000 + 1 * p.val; omega
    | ⟨1, _⟩ => show win5_1.index t (1 : Fin 2) * 96 + 1 * k.val = k.val; omega
  · show V c main_v92 (((cfg5.win 2).blk t).view.emb (ix2 k q)) = V c main_v92 (ix2 k q)
    refine congrArg _ (funext fun a => Fin.ext ?_)
    match a with
    | ⟨0, _⟩ => show win5_2.index t (0 : Fin 2) * 96 + 1 * k.val = k.val; omega
    | ⟨1, _⟩ => show win5_2.index t (1 : Fin 2) * 96 + 1 * q.val = q.val; omega

/-- An index of the array is in point `t`'s block iff each coordinate is in the block's range on its axis. -/
theorem mem_blk (t : Fin cfg5.N) (i : S50000x96.Idx) :
    i ∈ ((cfg5.win 3).blk t).view.set ↔ ∀ a : Fin 2, win5_3.index t a * S5000x96.size a ≤ (i a).val ∧ (i a).val < win5_3.index t a * S5000x96.size a + S5000x96.size a := by
  show i ∈ ((View.whole main_v93).slice (win5_3.rect t)).set ↔ _
  rw [View.set_slice_whole, Rect.mem_set_unit]
  exact Iff.rfl

/-- Every index of the array is in some point's block: row `r` in that of the point whose row block index is `r / 5000`. -/
theorem covered (i : S50000x96.Idx) : ∃ t : Fin cfg5.N, (cfg5.win 3).flush t = true ∧ i ∈ ((cfg5.win 3).blk t).view.set := by
  have hi0 : (i 0).val < 50000 := (i 0).isLt
  have hi1 : (i 1).val < 96 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 96 ≤ (i 1).val ∧ (i 1).val < win5_3.index t (1 : Fin 2) * 96 + 96; omega

/-- The array window 3 ends holding: one function of the arrays the region finds, index by index. -/
theorem final5 (c : Dev nD) :
    (dat5 (F := Ideal) V c).arrAt 3 cfg5.N = Cert.Gcn.mixed 0x3F588995#32 0x3E1DD9AD#32 (V c main_v90) (V c main_v32) (V c main_v92) :=
  (dat5 (F := Ideal) V c).arrAt_eq_of_cover 3 _ (fun t _ => flushed_eq V c t) covered

end Cert.Gcn.Reg5

end
-- ==== Proof.RegBn6.lean ====
/-
  Region 6 (layer 3's batch-norm affine + ReLU): the array its ten row blocks leave, of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg6

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's arithmetic at an entry of the block -/

/-- The zero offsets of a whole-block rectangle. -/
theorem offsets_zero : (![0, 0] : Fin 2 → Nat) = fun _ => 0 := funext fun a => by fin_cases a <;> rfl

/-- A row vector broadcast down the block's rows, read at entry (p, q), is the row's entry (0, q). -/
theorem row_broadcast_apply {α : Type} (x : S1x96.Idx → α) (h : S1x96.Broadcasts S5000x96) (p : Fin 5000) (q : Fin 96) :
    broadcastTo S5000x96 x h (ix2 p q) = x (ix2 0 q) :=
  broadcastTo_apply x h (ix2 p q) (ix2 0 q) (fun a => by
    match a with
    | ⟨0, _⟩ => rfl
    | ⟨1, _⟩ => rfl)

/-- The body's result at entry (p, q) of the block: max(γ(0,q)·(o(p,q) − μ(0,q))·rsqrt(σ²(0,q) + ε) + β(0,q), 0),
    of the scale row γ, the block o, the mean row μ, the variance row σ² and the shift row β. -/
theorem payload_apply (ga : Vec Ideal S1x96 .f32) (o : Vec Ideal S5000x96 .f32) (mu va be : Vec Ideal S1x96 .f32)
    (p : Fin 5000) (q : Fin 96) :
    k6_pay1 ga o mu va be (ix2 p q) =
      FloatOps.maximumf (F := Ideal) (φ := .f32)
        (FloatOps.addf (F := Ideal) (φ := .f32)
          (FloatOps.mulf (F := Ideal) (φ := .f32)
            (FloatOps.mulf (F := Ideal) (φ := .f32) (ga (ix2 0 q))
              (FloatOps.subf (F := Ideal) (φ := .f32) (o (ix2 p q)) (mu (ix2 0 q))))
            (FloatOps.rsqrt (F := Ideal) (φ := .f32)
              (FloatOps.addf (F := Ideal) (φ := .f32) (va (ix2 0 q)) (lit 0x3727C5AC#32))))
          (be (ix2 0 q)))
        (lit 0x00000000#32) := by
  unfold k6_pay1
  simp only [shapeCast_self]
  show FloatOps.maximumf (F := Ideal) (φ := .f32)
        (FloatOps.addf (F := Ideal) (φ := .f32)
          (FloatOps.mulf (F := Ideal) (φ := .f32)
            (FloatOps.mulf (F := Ideal) (φ := .f32) (broadcastTo S5000x96 ga broadcasts_S1x96_S5000x96 (ix2 p q))
              (FloatOps.subf (F := Ideal) (φ := .f32) (o (ix2 p q)) (broadcastTo S5000x96 mu broadcasts_S1x96_S5000x96 (ix2 p q))))
            (broadcastTo S5000x96 (rsqrt (addf va (broadcast S1x96 (Scalar.ofBits .f32 0x3727C5AC#32)))) broadcasts_S1x96_S5000x96 (ix2 p q)))
          (broadcastTo S5000x96 be broadcasts_S1x96_S5000x96 (ix2 p q)))
        (lit 0x00000000#32) = _
  rw [row_broadcast_apply, row_broadcast_apply, row_broadcast_apply, row_broadcast_apply]
  rfl

/-! ## From the ten blocks to the array -/

/-- The printed index maps over the grid: the block of o moves with the output's block; the four rows stay at block
    (0, 0); the output's block index is the point's row block, below ten, and column block zero. -/
theorem index_facts : ∀ t : Fin cfg6.N, win6_0.index t (0 : Fin 2) = win6_5.index t (0 : Fin 2)
    ∧ win6_0.index t (1 : Fin 2) = win6_5.index t (1 : Fin 2)
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) ≤ 9 ∧ win6_5.index t (1 : Fin 2) = 0 :=
  (by decide +kernel : ∀ t : Fin grid6.N, _)

/-- Every row block of the output is some point's. -/
theorem index_onto : ∀ q0 : Fin 10, ∃ t : Fin cfg6.N, win6_5.index t = ![q0.val, 0] :=
  (by decide +kernel : ∀ q0 : Fin 10, ∃ t : Fin grid6.N, win6_5.index t = ![q0.val, 0])

/-- What point `t` writes back is block `t` of the batch-norm affine + ReLU of the arrays the region finds. -/
theorem flushed_eq (c : Dev nD) (t : Fin cfg6.N) :
    (dat6 (F := Ideal) V c).flushed 5 t = ((cfg6.win 5).blk t).view.read (Elt Ideal)
      (Cert.Gcn.bnRelu (V c main_v93) (V c main_v97) (V c main_v98) (V c main_v99) (V c main_v100)) := by
  show (cfg6.win 5).cut (grid6.coords t) ((dat6 (F := Ideal) V c).after 5 t) = _
  rw [after6_5]
  unfold out6_5
  rw [View.canon_unit_zero offsets_zero]
  simp only [View.ld_unit_zero (S := S5000x96) offsets_zero, View.ld_unit_zero (S := S1x96) offsets_zero]
  obtain ⟨e00, e01, e10, e11, e20, e21, e30, e31, e40, e41, e50, e51⟩ := index_facts t
  funext j
  obtain ⟨p, q, rfl⟩ : ∃ (p : Fin 5000) (q : Fin 96), j = ix2 p q := ⟨j 0, j 1, eq_ix2 j⟩
  refine (payload_apply _ _ _ _ _ p q).trans ?_
  have ho : ((cfg6.win 0).blk t).view.emb (ix2 p q) = ((cfg6.win 5).blk t).view.emb (ix2 p q) := by
    funext a; apply Fin.ext
    match a with
    | ⟨0, _⟩ => show win6_0.index t (0 : Fin 2) * 5000 + 1 * p.val = win6_5.index t (0 : Fin 2) * 5000 + 1 * p.val; omega
    | ⟨1, _⟩ => show win6_0.index t (1 : Fin 2) * 96 + 1 * q.val = win6_5.index t (1 : Fin 2) * 96 + 1 * q.val; omega
  have hmu : ((cfg6.win 1).blk t).view.emb (ix2 (0 : Fin 1) q : S1x96.Idx)
      = (ix2 (0 : Fin 1) ((((cfg6.win 5).blk t).view.emb (ix2 p q)) 1 : Fin 96) : S1x96.Idx) := by
    funext a; apply Fin.ext
    match a with
    | ⟨0, _⟩ => show win6_1.index t (0 : Fin 2) * 1 + 1 * 0 = 0; omega
    | ⟨1, _⟩ => show win6_1.index t (1 : Fin 2) * 96 + 1 * q.val = win6_5.index t (1 : Fin 2) * 96 + 1 * q.val; omega
  have hva : ((cfg6.win 2).blk t).view.emb (ix2 (0 : Fin 1) q : S1x96.Idx)
      = (ix2 (0 : Fin 1) ((((cfg6.win 5).blk t).view.emb (ix2 p q)) 1 : Fin 96) : S1x96.Idx) := by
    funext a; apply Fin.ext
    match a with
    | ⟨0, _⟩ => show win6_2.index t (0 : Fin 2) * 1 + 1 * 0 = 0; omega
    | ⟨1, _⟩ => show win6_2.index t (1 : Fin 2) * 96 + 1 * q.val = win6_5.index t (1 : Fin 2) * 96 + 1 * q.val; omega
  have hga : ((cfg6.win 3).blk t).view.emb (ix2 (0 : Fin 1) q : S1x96.Idx)
      = (ix2 (0 : Fin 1) ((((cfg6.win 5).blk t).view.emb (ix2 p q)) 1 : Fin 96) : S1x96.Idx) := by
    funext a; apply Fin.ext
    match a with
    | ⟨0, _⟩ => show win6_3.index t (0 : Fin 2) * 1 + 1 * 0 = 0; omega
    | ⟨1, _⟩ => show win6_3.index t (1 : Fin 2) * 96 + 1 * q.val = win6_5.index t (1 : Fin 2) * 96 + 1 * q.val; omega
  have hbe : ((cfg6.win 4).blk t).view.emb (ix2 (0 : Fin 1) q : S1x96.Idx)
      = (ix2 (0 : Fin 1) ((((cfg6.win 5).blk t).view.emb (ix2 p q)) 1 : Fin 96) : S1x96.Idx) := by
    funext a; apply Fin.ext
    match a with
    | ⟨0, _⟩ => show win6_4.index t (0 : Fin 2) * 1 + 1 * 0 = 0; omega
    | ⟨1, _⟩ => show win6_4.index t (1 : Fin 2) * 96 + 1 * q.val = win6_5.index t (1 : Fin 2) * 96 + 1 * q.val; omega
  show FloatOps.maximumf (F := Ideal) (φ := .f32)
        (FloatOps.addf (F := Ideal) (φ := .f32)
          (FloatOps.mulf (F := Ideal) (φ := .f32)
            (FloatOps.mulf (F := Ideal) (φ := .f32)
              (V c main_v99 (((cfg6.win 3).blk t).view.emb (ix2 (0 : Fin 1) q : S1x96.Idx)))
              (FloatOps.subf (F := Ideal) (φ := .f32)
                (V c main_v93 (((cfg6.win 0).blk t).view.emb (ix2 p q)))
                (V c main_v97 (((cfg6.win 1).blk t).view.emb (ix2 (0 : Fin 1) q : S1x96.Idx)))))
            (FloatOps.rsqrt (F := Ideal) (φ := .f32)
              (FloatOps.addf (F := Ideal) (φ := .f32)
                (V c main_v98 (((cfg6.win 2).blk t).view.emb (ix2 (0 : Fin 1) q : S1x96.Idx)))
                (lit 0x3727C5AC#32))))
          (V c main_v100 (((cfg6.win 4).blk t).view.emb (ix2 (0 : Fin 1) q : S1x96.Idx))))
        (lit 0x00000000#32)
      = Cert.Gcn.bnRelu (V c main_v93) (V c main_v97) (V c main_v98) (V c main_v99) (V c main_v100)
          (((cfg6.win 5).blk t).view.emb (ix2 p q))
  rw [ho, hmu, hva, hga, hbe]
  rfl

/-- An index of the array is in point `t`'s block iff each coordinate is in the block's range on its axis. -/
theorem mem_block (t : Fin cfg6.N) (i : S50000x96.Idx) :
    i ∈ ((cfg6.win 5).blk t).view.set ↔ ∀ a : Fin 2, win6_5.index t a * S5000x96.size a ≤ (i a).val ∧ (i a).val < win6_5.index t a * S5000x96.size a + S5000x96.size a := by
  show i ∈ ((View.whole main_v101).slice (win6_5.rect t)).set ↔ _
  rw [View.set_slice_whole, Rect.mem_set_unit]
  exact Iff.rfl

/-- Every index of the array lies in the block of the point whose row block holds its row: row `r` in block `r / 5000`. -/
theorem covered (i : S50000x96.Idx) :
    ∃ t : Fin cfg6.N, (cfg6.win 5).flush t = true ∧ i ∈ ((cfg6.win 5).blk t).view.set := by
  have hi0 : (i 0).val < 50000 := (i 0).isLt
  have hi1 : (i 1).val < 96 := (i 1).isLt
  obtain ⟨t, ht⟩ := index_onto ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_block]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 96 ≤ (i 1).val ∧ (i 1).val < win6_5.index t (1 : Fin 2) * 96 + 96; omega

/-- The array window 5 ends holding: one function of the arrays the region finds, index by index. -/
theorem final6 (c : Dev nD) :
    (dat6 (F := Ideal) V c).arrAt 5 cfg6.N = Cert.Gcn.bnRelu (V c main_v93) (V c main_v97) (V c main_v98) (V c main_v99) (V c main_v100) := by
  exact (dat6 (F := Ideal) V c).arrAt_eq_of_cover 5 _ (fun t _ => flushed_eq V c t) covered

end Cert.Gcn.Reg6

end
-- ==== Proof.RegFc7.lean ====
/-
  Region 7 (the output layer, 128 padded columns): the array its ten row blocks leave is cur·W₂ᵖ + b₂ᵖ of the whole arrays the region finds.
-/
import proofs.«408610_j12541304504853_3_alg».proof.Proof.Gen.KernelIdeal.Frame
import proofs.«408610_j12541304504853_3_alg».proof.Proof.Spec
import proofs.«408610_j12541304504853_3_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Reg7

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access. -/
theorem offsets_zero : (![0, 0] : Fin 2 → Nat) = fun _ => 0 := funext fun a => by fin_cases a <;> rfl

/-- The body's value at row `p`, column `q` of the block: row `p` of the block of the current features against
    column `q` of the padded weight, plus the padded bias row at `q`. -/
theorem body_apply (x0 : Vec Ideal S5000x96 .f32) (x1 : Vec Ideal S96x128 .f32) (x2 : Vec Ideal S1x128 .f32)
    (p : Fin 5000) (q : Fin 128) :
    k7_pay1 x0 x1 x2 (ix2 p q) = FloatOps.addf (F := Ideal) (φ := .f32)
      (∑ k : Fin 96, x0 (ix2 p k) * x1 (ix2 k q)) (x2 (ix2 0 q)) := by
  unfold k7_pay1
  rw [addf_apply, shapeCast_self, shapeCast_self, shapeCast_self,
    Cert.LibMatProd.matmul_zero_apply dot_S5000x96_S96x128_S5000x128_1_0_0_1_n_n rfl none x0 x1 p q,
    broadcastTo_1b_ab_apply]
  rfl

/-- A block whose feature rows are rows of the array `a0` (row `p` of the block is row `r` of the array), whose weight
    is the whole array `a1` and whose bias row is `a2`, holds at `(p, q)` the linear layer of the arrays at `(r, q)`. -/
theorem body_of_arrays (a0 : S50000x96.Idx → EReal) (a1 : S96x128.Idx → EReal) (a2 : S1x128.Idx → EReal)
    (x0 : Vec Ideal S5000x96 .f32) (x1 : Vec Ideal S96x128 .f32) (x2 : Vec Ideal S1x128 .f32)
    (p : Fin 5000) (q : Fin 128) (r : Fin 50000)
    (h0 : ∀ k : Fin 96, x0 (ix2 p k) = a0 (ix2 r k))
    (h1 : ∀ k : Fin 96, x1 (ix2 k q) = a1 (ix2 k q))
    (h2 : x2 (ix2 0 q) = a2 (ix2 0 q)) :
    k7_pay1 x0 x1 x2 (ix2 p q) = Cert.Gcn.affine a0 a1 a2 (ix2 r q) := by
  rw [body_apply, h2, Finset.sum_congr rfl (fun k _ => by rw [h0 k, h1 k])]
  rfl

/-- The printed index maps over the grid: the feature window and the output window sit at row block `t`, column
    block 0; the weight and the bias row at block (0, 0) at every point. -/
theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the linear layer of the arrays the region finds. -/
theorem flushed_eq (c : Dev nD) (t : Fin cfg7.N) :
    (dat7 (F := Ideal) V c).flushed 3 t
      = ((cfg7.win 3).blk t).view.read (Elt Ideal) (Cert.Gcn.affine (V c main_v101) (V c main_v102) (V c main_v104)) := by
  show (cfg7.win 3).cut (grid7.coords t) ((dat7 V c).after 3 t) = _
  rw [after7_3]
  unfold out7_3
  rw [View.canon_unit_zero offsets_zero]
  simp only [View.ld_unit_zero (S := S5000x96) offsets_zero, View.ld_unit_zero (S := S96x128) offsets_zero,
    View.ld_unit_zero (S := S1x128) offsets_zero]
  obtain ⟨e00, e01, e10, e11, e20, e21, e30, e31⟩ := index_facts t
  funext j
  have ht : t.val < 10 := lt_of_lt_of_eq t.isLt N_7
  have hj0 : (j 0).val < 5000 := (j 0).isLt
  have hj1 : (j 1).val < 128 := (j 1).isLt
  have hj : (win7 3).xinj (grid7.coords t) j = ix2 (⟨(j 0).val, hj0⟩ : Fin 5000) (⟨(j 1).val, hj1⟩ : Fin 128) :=
    funext fun a => by match a with | ⟨0, _⟩ => rfl | ⟨1, _⟩ => rfl
  show k7_pay1 (iblk7 V c 0 t) (iblk7 V c 1 t) (iblk7 V c 2 t) ((win7 3).xinj (grid7.coords t) j) = _
  rw [hj]
  refine (body_of_arrays (V c main_v101) (V c main_v102) (V c main_v104) (iblk7 V c 0 t) (iblk7 V c 1 t) (iblk7 V c 2 t)
    ⟨(j 0).val, hj0⟩ ⟨(j 1).val, hj1⟩ ⟨t.val * 5000 + (j 0).val, by omega⟩ (fun k => ?_) (fun k => ?_) ?_).trans ?_
  · -- the feature block's row is the array's row 5000·t + p
    show V c main_v101 (((cfg7.win 0).blk t).view.emb (ix2 (⟨(j 0).val, hj0⟩ : Fin 5000) k)) = _
    refine congrArg (V c main_v101) (funext fun a => Fin.ext ?_)
    match a with
    | ⟨0, _⟩ => show win7_0.index t (0 : Fin 2) * 5000 + 1 * (j 0).val = t.val * 5000 + (j 0).val; omega
    | ⟨1, _⟩ => show win7_0.index t (1 : Fin 2) * 96 + 1 * k.val = k.val; omega
  · -- the weight block is the whole padded weight
    show V c main_v102 (((cfg7.win 1).blk t).view.emb (ix2 k (⟨(j 1).val, hj1⟩ : Fin 128))) = _
    refine congrArg (V c main_v102) (funext fun a => Fin.ext ?_)
    match a with
    | ⟨0, _⟩ => show win7_1.index t (0 : Fin 2) * 96 + 1 * k.val = k.val; omega
    | ⟨1, _⟩ => show win7_1.index t (1 : Fin 2) * 128 + 1 * (j 1).val = (j 1).val; omega
  · -- the bias block is the whole padded bias row
    show V c main_v104 (((cfg7.win 2).blk t).view.emb (ix2 (0 : Fin 1) (⟨(j 1).val, hj1⟩ : Fin 128))) = _
    refine congrArg (V c main_v104) (funext fun a => Fin.ext ?_)
    match a with
    | ⟨0, _⟩ => show win7_2.index t (0 : Fin 2) * 1 + 1 * 0 = 0; omega
    | ⟨1, _⟩ => show win7_2.index t (1 : Fin 2) * 128 + 1 * (j 1).val = (j 1).val; omega
  · -- and (5000·t + p, q) is where the output block's (p, q) sits in the array
    show Cert.Gcn.affine (V c main_v101) (V c main_v102) (V c main_v104) _
      = Cert.Gcn.affine (V c main_v101) (V c main_v102) (V c main_v104) (((cfg7.win 3).blk t).view.emb j)
    refine congrArg _ (funext fun a => Fin.ext ?_)
    match a with
    | ⟨0, _⟩ => show t.val * 5000 + (j 0).val = win7_3.index t (0 : Fin 2) * 5000 + 1 * (j 0).val; omega
    | ⟨1, _⟩ => show (j 1).val = win7_3.index t (1 : Fin 2) * 128 + 1 * (j 1).val; omega

/-- An index of the array is in point `t`'s block iff each coordinate is in the block's range on its axis. -/
theorem mem_block (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v105).slice (win7_3.rect t)).set ↔ _
  rw [View.set_slice_whole, Rect.mem_set_unit]
  exact Iff.rfl

/-- Every index of the array is in the block of the point its row falls in: row `r` in block `r / 5000`. -/
theorem covered (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨e00, e01, e10, e11, e20, e21, e30, e31⟩ := index_facts t
  have e30' : win7_3.index t (0 : Fin 2) = (i 0).val / 5000 := e30
  refine ⟨t, flush7_3 t, ?_⟩
  rw [mem_block]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 128 ≤ (i 1).val ∧ (i 1).val < win7_3.index t (1 : Fin 2) * 128 + 128
    omega

/-- The array window 3 ends holding: one function of the arrays the region finds, index by index. -/
theorem final7 (c : Dev nD) :
    (dat7 (F := Ideal) V c).arrAt 3 cfg7.N = Cert.Gcn.affine (V c main_v101) (V c main_v102) (V c main_v104) :=
  (dat7 (F := Ideal) V c).arrAt_eq_of_cover 3 (Cert.Gcn.affine (V c main_v101) (V c main_v102) (V c main_v104))
    (fun t _ => flushed_eq V c t) covered

end Cert.Gcn.Reg7

end
-- ==== Proof.KFoldB.lean ====
/-
  The kernel program's fold from region 4's exit to the return: the last graph layer's host-made arrays, its mix
  region, the column statistics, its batch-norm region, the padded output weights, the output region and the final
  slice, each boundary's buffers as the stage functions of the contents at region 4's exit.
-/
import proofs.«408610_j12541304504853_3_alg».proof.Proof.Gen.KernelIdeal.Frame
import proofs.«408610_j12541304504853_3_alg».proof.Proof.KVal
import proofs.«408610_j12541304504853_3_alg».proof.Proof.RegMix5
import proofs.«408610_j12541304504853_3_alg».proof.Proof.RegBn6
import proofs.«408610_j12541304504853_3_alg».proof.Proof.RegFc7
import Idealize.ShloMosaic.Lib.StableHlo.Run

set_option maxRecDepth 16384
set_option maxHeartbeats 1600000

noncomputable section

namespace Cert.Gcn.KFoldB

open Cert.KernelIdeal Cert.KernelIdeal.Gen Idealize.ShloMosaic Idealize.ShloMosaic.TcCoe

/-- A host stretch leaves a buffer none of its operations writes as it found it. -/
local macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch writes, from what it reads (any contents `Wp` before it) -/

section Stretches

variable (Wp : Valuation τ sig (Elt Ideal))

/-- The weighted neighbour sum of the layer's input. -/
theorem h5_v90 (rw cl : KVal.T S850000 .i32) (nw : KVal.T S850000x1 .f32) (cur : KVal.T S50000x96 .f32)
    (h_rw : Wp (Proc.devRef .tc main_v3) = rw) (h_cl : Wp (Proc.devRef .tc main_v6) = cl) (h_nw : Wp (Proc.devRef .tc main_v30) = nw)
    (h_cur : Wp (Proc.devRef .tc main_v78) = cur) :
    StableHlo.after hostOps5 Wp (Proc.devRef .tc main_v90) = KVal.agg rw cl nw cur := by
  subst h_rw h_cl h_nw h_cur
  after_results_simp
  rfl

/-- The layer's weight slice. -/
theorem h5_v92 (cw : KVal.T S3x96x96 .f32) (h_cw : Wp (Proc.devRef .tc main_arg4) = cw) :
    StableHlo.after hostOps5 Wp (Proc.devRef .tc main_v92) = KVal.wsl2 cw := by
  subst h_cw
  after_results_simp
  rfl

/-- The column means of an array. -/
theorem h6_v97 (o : KVal.T S50000x96 .f32) (h_o : Wp (Proc.devRef .tc main_v93) = o) :
    StableHlo.after hostOps6 Wp (Proc.devRef .tc main_v97) = KVal.mean o := by
  subst h_o
  after_results_simp
  rfl

/-- The degrees of freedom taken, as the integer the variance call reads. -/
theorem h6_c23 : StableHlo.after hostOps6 Wp (Proc.devRef .tc main_c_23) = (constantI S_ 32 0#32 : KVal.T S_ .i32) := by
  after_results_simp

/-- The column variances of an array. -/
theorem h6_1_v98 (o : KVal.T S50000x96 .f32) (h_o : Wp (Proc.devRef .tc main_v93) = o)
    (h_c : Wp (Proc.devRef .tc main_c_23) = (constantI S_ 32 0#32 : KVal.T S_ .i32)) :
    StableHlo.after hostOps6_1 Wp (Proc.devRef .tc main_v98) = KVal.var o := by
  after_results_simp
  simp only [StableHlo.TRef.ofBuf, StableHlo.TRef.toBuf, cast_cast, cast_eq]
  rw [h_o, h_c]
  rfl

/-- Row 2 of the scales. -/
theorem h6_2_v99 (g : KVal.T S3x96 .f32) (h_g : Wp (Proc.devRef .tc main_arg5) = g) :
    StableHlo.after hostOps6_2 Wp (Proc.devRef .tc main_v99) = KVal.prow2 g := by
  subst h_g
  after_results_simp
  rfl

/-- Row 2 of the shifts. -/
theorem h6_2_v100 (g : KVal.T S3x96 .f32) (h_g : Wp (Proc.devRef .tc main_arg6) = g) :
    StableHlo.after hostOps6_2 Wp (Proc.devRef .tc main_v100) = KVal.prow2 g := by
  subst h_g
  after_results_simp
  rfl

/-- The padding value of the weight, as the integer the padding call reads. -/
theorem h7_c24 : StableHlo.after hostOps7 Wp (Proc.devRef .tc main_c_24) = (constantI S_ 32 0#32 : KVal.T S_ .i32) := by
  after_results_simp

/-- The output weight with 88 zero columns appended. -/
theorem h7_1_v102 (w2 : KVal.T S96x40 .f32) (h_w : Wp (Proc.devRef .tc main_arg7) = w2)
    (h_c : Wp (Proc.devRef .tc main_c_24) = (constantI S_ 32 0#32 : KVal.T S_ .i32)) :
    StableHlo.after hostOps7_1 Wp (Proc.devRef .tc main_v102) = KVal.padw w2 := by
  after_results_simp
  simp only [StableHlo.TRef.ofBuf, StableHlo.TRef.toBuf, cast_cast, cast_eq]
  rw [h_w, h_c]
  rfl

/-- The padding value of the bias, as the integer the padding call reads. -/
theorem h7_2_c25 : StableHlo.after hostOps7_2 Wp (Proc.devRef .tc main_c_25) = (constantI S_ 32 0#32 : KVal.T S_ .i32) := by
  after_results_simp

/-- The output bias with 88 zeros appended. -/
theorem h7_3_v103 (b2 : KVal.T S40 .f32) (h_b : Wp (Proc.devRef .tc main_arg8) = b2)
    (h_c : Wp (Proc.devRef .tc main_c_25) = (constantI S_ 32 0#32 : KVal.T S_ .i32)) :
    StableHlo.after hostOps7_3 Wp (Proc.devRef .tc main_v103)
      = (pad S128 ![0] ![88] ![0] b2 (sitofp (F := Ideal) .f32 (constantI S_ 32 0#32)) pads_S40_S128_0880 h_S_ : KVal.T S128 .f32) := by
  after_results_simp
  simp only [StableHlo.TRef.ofBuf, StableHlo.TRef.toBuf, cast_cast, cast_eq]
  rw [h_b, h_c]

/-- A vector of 128 entries as a row. -/
theorem h7_4_v104 (p : KVal.T S128 .f32) (h_p : Wp (Proc.devRef .tc main_v103) = p) :
    StableHlo.after hostOps7_4 Wp (Proc.devRef .tc main_v104) = (shapeCast S1x128 p shapeCasts_S128_S1x128 : KVal.T S1x128 .f32) := by
  subst h_p
  after_results_simp
  rfl

/-- The first 40 columns of an array of 128. -/
theorem h8_v106 (p : KVal.T S50000x128 .f32) (h_p : Wp (Proc.devRef .tc main_v105) = p) :
    StableHlo.after hostOps8 Wp (Proc.devRef .tc main_v106) = KVal.out p := by
  subst h_p
  after_results_simp
  rfl

end Stretches

variable (m : (ℓ : Loc nD τ sig) → Buf (Elt Ideal) ℓ) (ρ : Dev nD → PrngReg) (c : Dev nD)

/-- The contents at region 4's exit that the rest of the run reads: the two index rows, the edge weights, the initial
    features, the layer's input, the stacked weights, scales and shifts, the output weight and bias. -/
abbrev rowA : KVal.T S850000 .i32 := W16 m ρ c (Proc.devRef .tc main_v3)
@[inherit_doc rowA] abbrev colA : KVal.T S850000 .i32 := W16 m ρ c (Proc.devRef .tc main_v6)
@[inherit_doc rowA] abbrev wgtA : KVal.T S850000x1 .f32 := W16 m ρ c (Proc.devRef .tc main_v30)
@[inherit_doc rowA] abbrev featA : KVal.T S50000x96 .f32 := W16 m ρ c (Proc.devRef .tc main_v32)
@[inherit_doc rowA] abbrev curA : KVal.T S50000x96 .f32 := W16 m ρ c (Proc.devRef .tc main_v78)
@[inherit_doc rowA] abbrev cwA : KVal.T S3x96x96 .f32 := W16 m ρ c (Proc.devRef .tc main_arg4)
@[inherit_doc rowA] abbrev gamA : KVal.T S3x96 .f32 := W16 m ρ c (Proc.devRef .tc main_arg5)
@[inherit_doc rowA] abbrev betA : KVal.T S3x96 .f32 := W16 m ρ c (Proc.devRef .tc main_arg6)
@[inherit_doc rowA] abbrev w2A : KVal.T S96x40 .f32 := W16 m ρ c (Proc.devRef .tc main_arg7)
@[inherit_doc rowA] abbrev b2A : KVal.T S40 .f32 := W16 m ρ c (Proc.devRef .tc main_arg8)
/-- The last layer's mix of them. -/
abbrev mixA : KVal.T S50000x96 .f32 := KVal.mix3 (rowA m ρ c) (colA m ρ c) (wgtA m ρ c) (featA m ρ c) (curA m ρ c) (cwA m ρ c)
/-- The last layer's output. -/
abbrev layA : KVal.T S50000x96 .f32 :=
  KVal.layer3 (rowA m ρ c) (colA m ρ c) (wgtA m ρ c) (featA m ρ c) (curA m ρ c) (cwA m ρ c) (gamA m ρ c) (betA m ρ c)

/-! ## The last graph layer's host-made arrays (the stretch before region 5) -/

/-- The weighted neighbour sum of the layer's input. -/
theorem W17_v90 : W17 m ρ c (Proc.devRef .tc main_v90) = KVal.agg (rowA m ρ c) (colA m ρ c) (wgtA m ρ c) (curA m ρ c) :=
  h5_v90 (W16 m ρ c) _ _ _ _ rfl rfl rfl rfl
/-- The layer's weight slice. -/
theorem W17_v92 : W17 m ρ c (Proc.devRef .tc main_v92) = KVal.wsl2 (cwA m ρ c) :=
  h5_v92 (W16 m ρ c) _ rfl
/-- The initial features pass the stretch. -/
theorem W17_v32 : W17 m ρ c (Proc.devRef .tc main_v32) = (featA m ρ c) :=
  (show W17 m ρ c (Proc.devRef .tc main_v32) = W16 m ρ c (Proc.devRef .tc main_v32) by untouched hostOps5)
/-- So do the scale rows. -/
theorem W17_arg5 : W17 m ρ c (Proc.devRef .tc main_arg5) = (gamA m ρ c) :=
  (show W17 m ρ c (Proc.devRef .tc main_arg5) = W16 m ρ c (Proc.devRef .tc main_arg5) by untouched hostOps5)
/-- So do the shift rows. -/
theorem W17_arg6 : W17 m ρ c (Proc.devRef .tc main_arg6) = (betA m ρ c) :=
  (show W17 m ρ c (Proc.devRef .tc main_arg6) = W16 m ρ c (Proc.devRef .tc main_arg6) by untouched hostOps5)
/-- So do the output weight. -/
theorem W17_arg7 : W17 m ρ c (Proc.devRef .tc main_arg7) = (w2A m ρ c) :=
  (show W17 m ρ c (Proc.devRef .tc main_arg7) = W16 m ρ c (Proc.devRef .tc main_arg7) by untouched hostOps5)
/-- So do the output bias. -/
theorem W17_arg8 : W17 m ρ c (Proc.devRef .tc main_arg8) = (b2A m ρ c) :=
  (show W17 m ρ c (Proc.devRef .tc main_arg8) = W16 m ρ c (Proc.devRef .tc main_arg8) by untouched hostOps5)

/-! ## Region 5: the layer's mix -/

/-- The mix region leaves the layer's mix of the neighbour sum with the initial features. -/
theorem W18_v93 : W18 m ρ c (Proc.devRef .tc main_v93) = (mixA m ρ c) := by
  refine (W18_arr m ρ c 3).trans ((Cert.Gcn.Reg5.final5 (V17 m ρ) c).trans ?_)
  show Cert.Gcn.mixed 0x3F588995#32 0x3E1DD9AD#32 (W17 m ρ c (Proc.devRef .tc main_v90)) (W17 m ρ c (Proc.devRef .tc main_v32)) (W17 m ρ c (Proc.devRef .tc main_v92)) = _
  rw [W17_v90, W17_v32, W17_v92]
  rfl

/-- The region leaves the scale rows alone. -/
theorem W18_arg5 : W18 m ρ c (Proc.devRef .tc main_arg5) = (gamA m ρ c) :=
  (W18_of_ne m ρ c main_arg5 (by decide)).trans (W17_arg5 m ρ c)
/-- The region leaves the shift rows alone. -/
theorem W18_arg6 : W18 m ρ c (Proc.devRef .tc main_arg6) = (betA m ρ c) :=
  (W18_of_ne m ρ c main_arg6 (by decide)).trans (W17_arg6 m ρ c)
/-- The region leaves the output weight alone. -/
theorem W18_arg7 : W18 m ρ c (Proc.devRef .tc main_arg7) = (w2A m ρ c) :=
  (W18_of_ne m ρ c main_arg7 (by decide)).trans (W17_arg7 m ρ c)
/-- The region leaves the output bias alone. -/
theorem W18_arg8 : W18 m ρ c (Proc.devRef .tc main_arg8) = (b2A m ρ c) :=
  (W18_of_ne m ρ c main_arg8 (by decide)).trans (W17_arg8 m ρ c)

/-! ## The column statistics and the layer's parameter rows (the three stretches before region 6) -/

/-- The column means of the mix. -/
theorem W19_v97 : W19 m ρ c (Proc.devRef .tc main_v97) = KVal.mean (mixA m ρ c) :=
  h6_v97 (W18 m ρ c) _ (W18_v93 m ρ c)
/-- The degrees of freedom taken, as the integer the variance call reads. -/
theorem W19_c23 : W19 m ρ c (Proc.devRef .tc main_c_23) = (constantI S_ 32 0#32 : KVal.T S_ .i32) :=
  h6_c23 (W18 m ρ c)
/-- The mix passes the stretch. -/
theorem W19_v93 : W19 m ρ c (Proc.devRef .tc main_v93) = (mixA m ρ c) :=
  (show W19 m ρ c (Proc.devRef .tc main_v93) = W18 m ρ c (Proc.devRef .tc main_v93) by untouched hostOps6).trans (W18_v93 m ρ c)
/-- So do the scale rows. -/
theorem W19_arg5 : W19 m ρ c (Proc.devRef .tc main_arg5) = (gamA m ρ c) :=
  (show W19 m ρ c (Proc.devRef .tc main_arg5) = W18 m ρ c (Proc.devRef .tc main_arg5) by untouched hostOps6).trans (W18_arg5 m ρ c)
/-- So do the shift rows. -/
theorem W19_arg6 : W19 m ρ c (Proc.devRef .tc main_arg6) = (betA m ρ c) :=
  (show W19 m ρ c (Proc.devRef .tc main_arg6) = W18 m ρ c (Proc.devRef .tc main_arg6) by untouched hostOps6).trans (W18_arg6 m ρ c)
/-- So do the output weight. -/
theorem W19_arg7 : W19 m ρ c (Proc.devRef .tc main_arg7) = (w2A m ρ c) :=
  (show W19 m ρ c (Proc.devRef .tc main_arg7) = W18 m ρ c (Proc.devRef .tc main_arg7) by untouched hostOps6).trans (W18_arg7 m ρ c)
/-- So do the output bias. -/
theorem W19_arg8 : W19 m ρ c (Proc.devRef .tc main_arg8) = (b2A m ρ c) :=
  (show W19 m ρ c (Proc.devRef .tc main_arg8) = W18 m ρ c (Proc.devRef .tc main_arg8) by untouched hostOps6).trans (W18_arg8 m ρ c)
/-- The column variances of the mix. -/
theorem W20_v98 : W20 m ρ c (Proc.devRef .tc main_v98) = KVal.var (mixA m ρ c) :=
  h6_1_v98 (W19 m ρ c) _ (W19_v93 m ρ c) (W19_c23 m ρ c)
/-- The mix passes the variance call. -/
theorem W20_v93 : W20 m ρ c (Proc.devRef .tc main_v93) = (mixA m ρ c) :=
  (show W20 m ρ c (Proc.devRef .tc main_v93) = W19 m ρ c (Proc.devRef .tc main_v93) by untouched hostOps6_1).trans (W19_v93 m ρ c)
/-- So do its column means. -/
theorem W20_v97 : W20 m ρ c (Proc.devRef .tc main_v97) = KVal.mean (mixA m ρ c) :=
  (show W20 m ρ c (Proc.devRef .tc main_v97) = W19 m ρ c (Proc.devRef .tc main_v97) by untouched hostOps6_1).trans (W19_v97 m ρ c)
/-- So do the scale rows. -/
theorem W20_arg5 : W20 m ρ c (Proc.devRef .tc main_arg5) = (gamA m ρ c) :=
  (show W20 m ρ c (Proc.devRef .tc main_arg5) = W19 m ρ c (Proc.devRef .tc main_arg5) by untouched hostOps6_1).trans (W19_arg5 m ρ c)
/-- So do the shift rows. -/
theorem W20_arg6 : W20 m ρ c (Proc.devRef .tc main_arg6) = (betA m ρ c) :=
  (show W20 m ρ c (Proc.devRef .tc main_arg6) = W19 m ρ c (Proc.devRef .tc main_arg6) by untouched hostOps6_1).trans (W19_arg6 m ρ c)
/-- So do the output weight. -/
theorem W20_arg7 : W20 m ρ c (Proc.devRef .tc main_arg7) = (w2A m ρ c) :=
  (show W20 m ρ c (Proc.devRef .tc main_arg7) = W19 m ρ c (Proc.devRef .tc main_arg7) by untouched hostOps6_1).trans (W19_arg7 m ρ c)
/-- So do the output bias. -/
theorem W20_arg8 : W20 m ρ c (Proc.devRef .tc main_arg8) = (b2A m ρ c) :=
  (show W20 m ρ c (Proc.devRef .tc main_arg8) = W19 m ρ c (Proc.devRef .tc main_arg8) by untouched hostOps6_1).trans (W19_arg8 m ρ c)
/-- The layer's scale row. -/
theorem W21_v99 : W21 m ρ c (Proc.devRef .tc main_v99) = KVal.prow2 (gamA m ρ c) :=
  h6_2_v99 (W20 m ρ c) _ (W20_arg5 m ρ c)
/-- The layer's shift row. -/
theorem W21_v100 : W21 m ρ c (Proc.devRef .tc main_v100) = KVal.prow2 (betA m ρ c) :=
  h6_2_v100 (W20 m ρ c) _ (W20_arg6 m ρ c)
/-- The mix passes the stretch. -/
theorem W21_v93 : W21 m ρ c (Proc.devRef .tc main_v93) = (mixA m ρ c) :=
  (show W21 m ρ c (Proc.devRef .tc main_v93) = W20 m ρ c (Proc.devRef .tc main_v93) by untouched hostOps6_2).trans (W20_v93 m ρ c)
/-- So do its column means. -/
theorem W21_v97 : W21 m ρ c (Proc.devRef .tc main_v97) = KVal.mean (mixA m ρ c) :=
  (show W21 m ρ c (Proc.devRef .tc main_v97) = W20 m ρ c (Proc.devRef .tc main_v97) by untouched hostOps6_2).trans (W20_v97 m ρ c)
/-- So do its column variances. -/
theorem W21_v98 : W21 m ρ c (Proc.devRef .tc main_v98) = KVal.var (mixA m ρ c) :=
  (show W21 m ρ c (Proc.devRef .tc main_v98) = W20 m ρ c (Proc.devRef .tc main_v98) by untouched hostOps6_2).trans (W20_v98 m ρ c)
/-- So do the output weight. -/
theorem W21_arg7 : W21 m ρ c (Proc.devRef .tc main_arg7) = (w2A m ρ c) :=
  (show W21 m ρ c (Proc.devRef .tc main_arg7) = W20 m ρ c (Proc.devRef .tc main_arg7) by untouched hostOps6_2).trans (W20_arg7 m ρ c)
/-- So do the output bias. -/
theorem W21_arg8 : W21 m ρ c (Proc.devRef .tc main_arg8) = (b2A m ρ c) :=
  (show W21 m ρ c (Proc.devRef .tc main_arg8) = W20 m ρ c (Proc.devRef .tc main_arg8) by untouched hostOps6_2).trans (W20_arg8 m ρ c)

/-! ## Region 6: the layer's batch norm and ReLU -/

/-- The batch-norm region leaves the layer's output. -/
theorem W22_v101 : W22 m ρ c (Proc.devRef .tc main_v101) = (layA m ρ c) := by
  refine (W22_arr m ρ c 5).trans ((Cert.Gcn.Reg6.final6 (V21 m ρ) c).trans ?_)
  show Cert.Gcn.bnRelu (W21 m ρ c (Proc.devRef .tc main_v93)) (W21 m ρ c (Proc.devRef .tc main_v97)) (W21 m ρ c (Proc.devRef .tc main_v98)) (W21 m ρ c (Proc.devRef .tc main_v99)) (W21 m ρ c (Proc.devRef .tc main_v100)) = _
  rw [W21_v93, W21_v97, W21_v98, W21_v99, W21_v100]
  rfl

/-- The region leaves the output weight alone. -/
theorem W22_arg7 : W22 m ρ c (Proc.devRef .tc main_arg7) = (w2A m ρ c) :=
  (W22_of_ne m ρ c main_arg7 (by decide)).trans (W21_arg7 m ρ c)
/-- The region leaves the output bias alone. -/
theorem W22_arg8 : W22 m ρ c (Proc.devRef .tc main_arg8) = (b2A m ρ c) :=
  (W22_of_ne m ρ c main_arg8 (by decide)).trans (W21_arg8 m ρ c)

/-! ## The padded output weight and bias (the five stretches before region 7) -/

/-- The weight's padding value, as an integer. -/
theorem W23_c24 : W23 m ρ c (Proc.devRef .tc main_c_24) = (constantI S_ 32 0#32 : KVal.T S_ .i32) :=
  h7_c24 (W22 m ρ c)
/-- The layer's output passes the stretch. -/
theorem W23_v101 : W23 m ρ c (Proc.devRef .tc main_v101) = (layA m ρ c) :=
  (show W23 m ρ c (Proc.devRef .tc main_v101) = W22 m ρ c (Proc.devRef .tc main_v101) by untouched hostOps7).trans (W22_v101 m ρ c)
/-- So do the output weight. -/
theorem W23_arg7 : W23 m ρ c (Proc.devRef .tc main_arg7) = (w2A m ρ c) :=
  (show W23 m ρ c (Proc.devRef .tc main_arg7) = W22 m ρ c (Proc.devRef .tc main_arg7) by untouched hostOps7).trans (W22_arg7 m ρ c)
/-- So do the output bias. -/
theorem W23_arg8 : W23 m ρ c (Proc.devRef .tc main_arg8) = (b2A m ρ c) :=
  (show W23 m ρ c (Proc.devRef .tc main_arg8) = W22 m ρ c (Proc.devRef .tc main_arg8) by untouched hostOps7).trans (W22_arg8 m ρ c)
/-- The output weight with 88 zero columns appended. -/
theorem W24_v102 : W24 m ρ c (Proc.devRef .tc main_v102) = KVal.padw (w2A m ρ c) :=
  h7_1_v102 (W23 m ρ c) _ (W23_arg7 m ρ c) (W23_c24 m ρ c)
/-- The layer's output passes the padding call. -/
theorem W24_v101 : W24 m ρ c (Proc.devRef .tc main_v101) = (layA m ρ c) :=
  (show W24 m ρ c (Proc.devRef .tc main_v101) = W23 m ρ c (Proc.devRef .tc main_v101) by untouched hostOps7_1).trans (W23_v101 m ρ c)
/-- So does the output bias. -/
theorem W24_arg8 : W24 m ρ c (Proc.devRef .tc main_arg8) = (b2A m ρ c) :=
  (show W24 m ρ c (Proc.devRef .tc main_arg8) = W23 m ρ c (Proc.devRef .tc main_arg8) by untouched hostOps7_1).trans (W23_arg8 m ρ c)
/-- The bias's padding value, as an integer. -/
theorem W25_c25 : W25 m ρ c (Proc.devRef .tc main_c_25) = (constantI S_ 32 0#32 : KVal.T S_ .i32) :=
  h7_2_c25 (W24 m ρ c)
/-- The layer's output passes the stretch. -/
theorem W25_v101 : W25 m ρ c (Proc.devRef .tc main_v101) = (layA m ρ c) :=
  (show W25 m ρ c (Proc.devRef .tc main_v101) = W24 m ρ c (Proc.devRef .tc main_v101) by untouched hostOps7_2).trans (W24_v101 m ρ c)
/-- So does the padded weight. -/
theorem W25_v102 : W25 m ρ c (Proc.devRef .tc main_v102) = KVal.padw (w2A m ρ c) :=
  (show W25 m ρ c (Proc.devRef .tc main_v102) = W24 m ρ c (Proc.devRef .tc main_v102) by untouched hostOps7_2).trans (W24_v102 m ρ c)
/-- So does the output bias. -/
theorem W25_arg8 : W25 m ρ c (Proc.devRef .tc main_arg8) = (b2A m ρ c) :=
  (show W25 m ρ c (Proc.devRef .tc main_arg8) = W24 m ρ c (Proc.devRef .tc main_arg8) by untouched hostOps7_2).trans (W24_arg8 m ρ c)
/-- The output bias with 88 zeros appended. -/
theorem W26_v103 : W26 m ρ c (Proc.devRef .tc main_v103) = (pad S128 ![0] ![88] ![0] (b2A m ρ c) (sitofp (F := Ideal) .f32 (constantI S_ 32 0#32)) pads_S40_S128_0880 h_S_ : KVal.T S128 .f32) :=
  h7_3_v103 (W25 m ρ c) _ (W25_arg8 m ρ c) (W25_c25 m ρ c)
/-- The layer's output passes the padding call. -/
theorem W26_v101 : W26 m ρ c (Proc.devRef .tc main_v101) = (layA m ρ c) :=
  (show W26 m ρ c (Proc.devRef .tc main_v101) = W25 m ρ c (Proc.devRef .tc main_v101) by untouched hostOps7_3).trans (W25_v101 m ρ c)
/-- So does the padded weight. -/
theorem W26_v102 : W26 m ρ c (Proc.devRef .tc main_v102) = KVal.padw (w2A m ρ c) :=
  (show W26 m ρ c (Proc.devRef .tc main_v102) = W25 m ρ c (Proc.devRef .tc main_v102) by untouched hostOps7_3).trans (W25_v102 m ρ c)
/-- The padded bias as a row. -/
theorem W27_v104 : W27 m ρ c (Proc.devRef .tc main_v104) = KVal.padb (b2A m ρ c) :=
  h7_4_v104 (W26 m ρ c) _ (W26_v103 m ρ c)
/-- The layer's output passes the stretch. -/
theorem W27_v101 : W27 m ρ c (Proc.devRef .tc main_v101) = (layA m ρ c) :=
  (show W27 m ρ c (Proc.devRef .tc main_v101) = W26 m ρ c (Proc.devRef .tc main_v101) by untouched hostOps7_4).trans (W26_v101 m ρ c)
/-- So does the padded weight. -/
theorem W27_v102 : W27 m ρ c (Proc.devRef .tc main_v102) = KVal.padw (w2A m ρ c) :=
  (show W27 m ρ c (Proc.devRef .tc main_v102) = W26 m ρ c (Proc.devRef .tc main_v102) by untouched hostOps7_4).trans (W26_v102 m ρ c)

/-! ## Region 7: the output layer, and the final slice -/

/-- The output region leaves the linear layer of the last layer's output on the 128 padded columns. -/
theorem W28_v105 : W28 m ρ c (Proc.devRef .tc main_v105) = KVal.outp (layA m ρ c) (w2A m ρ c) (b2A m ρ c) := by
  refine (W28_arr m ρ c 3).trans ((Cert.Gcn.Reg7.final7 (V27 m ρ) c).trans ?_)
  show Cert.Gcn.affine (W27 m ρ c (Proc.devRef .tc main_v101)) (W27 m ρ c (Proc.devRef .tc main_v102)) (W27 m ρ c (Proc.devRef .tc main_v104)) = _
  rw [W27_v101, W27_v102, W27_v104]
  rfl

/-- The result: its first 40 columns. -/
theorem W29_v106 : W29 m ρ c (Proc.devRef .tc main_v106) = KVal.out (KVal.outp (layA m ρ c) (w2A m ρ c) (b2A m ρ c)) :=
  h8_v106 (W28 m ρ c) _ (W28_v105 m ρ c)

/-- From region 4's exit to the return: the result is the first 40 columns of the output layer of the last graph layer,
    of the contents at region 4's exit. -/
theorem tail (m : (ℓ : Loc nD τ sig) → Buf (Elt Ideal) ℓ) (ρ : Dev nD → PrngReg) (c : Dev nD)
    (rw cl : KVal.T S850000 .i32) (nw : KVal.T S850000x1 .f32) (x0 cur2 : KVal.T S50000x96 .f32)
    (a4 : KVal.T S3x96x96 .f32) (a5 a6 : KVal.T S3x96 .f32) (a7 : KVal.T S96x40 .f32) (a8 : KVal.T S40 .f32)
    (h78 : W16 (F := Ideal) m ρ c (Proc.devRef .tc main_v78) = cur2)
    (h3 : W16 (F := Ideal) m ρ c (Proc.devRef .tc main_v3) = rw) (h6 : W16 (F := Ideal) m ρ c (Proc.devRef .tc main_v6) = cl)
    (h30 : W16 (F := Ideal) m ρ c (Proc.devRef .tc main_v30) = nw) (h32 : W16 (F := Ideal) m ρ c (Proc.devRef .tc main_v32) = x0)
    (h4 : W16 (F := Ideal) m ρ c (Proc.devRef .tc main_arg4) = a4) (h5 : W16 (F := Ideal) m ρ c (Proc.devRef .tc main_arg5) = a5)
    (h6' : W16 (F := Ideal) m ρ c (Proc.devRef .tc main_arg6) = a6) (h7 : W16 (F := Ideal) m ρ c (Proc.devRef .tc main_arg7) = a7)
    (h8 : W16 (F := Ideal) m ρ c (Proc.devRef .tc main_arg8) = a8) :
    W29 (F := Ideal) m ρ c (Proc.devRef .tc main_v106) = KVal.out (KVal.outp (KVal.layer3 rw cl nw x0 cur2 a4 a5 a6) a7 a8) := by
  subst h78 h3 h6 h30 h32 h4 h5 h6' h7 h8
  exact W29_v106 m ρ c

end Cert.Gcn.KFoldB

end
-- ==== Proof.KFold.lean ====
/-
  The kernel program's result buffer after the run is the network's value of the launch arrays.

  The run's buffer contents are a fold over the program's segments. Up to the first mix region's exit the fold gives the
  index rows, the edge weights, the input layer's array and layer 1's mixed array as functions of the launch arrays
  (the head); from there to the second batch-norm region's exit it gives layer 2's result (the middle); from there to the
  end the output layer's first 40 columns over layer 3's result (the tail). Layer 1's result is the batch norm of its
  mixed array, so the three compose to the network's value.
-/
import proofs.«408610_j12541304504853_3_alg».proof.Proof.KFoldA
import proofs.«408610_j12541304504853_3_alg».proof.Proof.KFoldM
import proofs.«408610_j12541304504853_3_alg».proof.Proof.KFoldB

noncomputable section

namespace Cert.Gcn.KFold

open Cert.KernelIdeal Cert.KernelIdeal.Gen Idealize.ShloMosaic Idealize.ShloMosaic.TcCoe

/-- The last boundary's contents at the result buffer: the network's value of the nine launch arrays. -/
theorem kvalue (m : (ℓ : Loc nD τ sig) → Buf (Elt Ideal) ℓ) (ρ : Dev nD → PrngReg) (c : Dev nD) :
    W29 (F := Ideal) m ρ c (Proc.devRef .tc main_v106)
      = KVal.value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  obtain ⟨h47, h3, h6, h30, h32, h4, h5, h6', h7, h8⟩ := Cert.Gcn.KFoldA.head m ρ c
  obtain ⟨g78, g3, g6, g30, g32, g4, g5, g6', g7, g8⟩ :=
    Cert.Gcn.KFoldM.mid m ρ c _ _ _ _ _ _ _ _ _ _ h47 h3 h6 h30 h32 h4 h5 h6' h7 h8
  exact Cert.Gcn.KFoldB.tail m ρ c _ _ _ _ _ _ _ _ _ _ g78 g3 g6 g30 g32 g4 g5 g6' g7 g8

end Cert.Gcn.KFold

end
-- ==== Proof.ROps.lean ====
import proofs.«408610_j12541304504853_3_alg».proof.Proof.Gen.ReferenceIdeal
import Idealize.ShloMosaic.Lib.StableHlo.Run

/-! The reference program's operations as lists, in program order, the operations of a called function listed at the
    call over the call's own buffers. `ops0 … ops4` cut the program after each stage: `ops0` ends at the first layer's
    input %34, `ops1 … ops3` are one layer each, `ops4` is the last product and bias. `wJ_K` are the same operations
    cut finer: window J of @main, piece K, a piece ending wherever a call begins or ends. -/

noncomputable section

namespace Cert.Gcn.ROps

open Cert.ReferenceIdeal Cert.ReferenceIdeal.Gen Idealize.ShloMosaic Idealize.ShloMosaic.TcCoe Idealize.SL.Sem

variable {F : FTy → Type} [FloatOps F]

/-- The edge lists with the self loops appended, the degree normalisation %29 and the first layer's input %34: 47 operations. -/
abbrev ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)),
    StableHlo.unary main_arg3 main_v31 (broadcastInDim S1x96 ![1] bcast_S96_S1x96_1 : (⟨S96, .f32⟩ : BufTy).Contents (Elt F) → (⟨S1x96, .f32⟩ : BufTy).Contents (Elt F)),
    StableHlo.unary main_v31 main_v32 (broadcastInDim S50000x96 ![0, 1] bcast_S1x96_S50000x96_0_1 : (⟨S1x96, .f32⟩ : BufTy).Contents (Elt F) → (⟨S50000x96, .f32⟩ : BufTy).Contents (Elt F)),
    StableHlo.binary main_v30 main_v32 main_v33 (addf : (⟨S50000x96, .f32⟩ : BufTy).Contents (Elt F) → (⟨S50000x96, .f32⟩ : BufTy).Contents (Elt F) → (⟨S50000x96, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x96, .f32⟩) (broadcastInDim S50000x96 ![] bcast_S_S50000x96),
    StableHlo.TRef.binary (.of main_v33 : StableHlo.TRef sig ⟨S50000x96, .f32⟩) (.of main_call1_v0 : StableHlo.TRef sig ⟨S50000x96, .f32⟩) (.of main_v34 : StableHlo.TRef sig ⟨S50000x96, .f32⟩) maximumf ]
theorem ops0_sub : (ops0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Layer 1, from %29 and %34 to %84: 84 operations. -/
abbrev ops1 : List (HloOp τ sig (Elt F)) :=
  [ StableHlo.unary main_v29 main_v35 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v36 (broadcastInDim S850000 ![] bcast_S_S850000 : (⟨S_, .i32⟩ : BufTy).Contents (Elt F) → (⟨S850000, .i32⟩ : BufTy).Contents (Elt F)),
    StableHlo.binary main_v3 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v38 (broadcastInDim S850000 ![] bcast_S_S850000 : (⟨S_, .i32⟩ : BufTy).Contents (Elt F) → (⟨S850000, .i32⟩ : BufTy).Contents (Elt F)),
    StableHlo.binary main_v3 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v3 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v34 main_v41 main_v42 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v35 main_v43 (broadcastInDim S850000x96 ![0, 1] bcast_S850000x1_S850000x96_0_1 : (⟨S850000x1, .f32⟩ : BufTy).Contents (Elt F) → (⟨S850000x96, .f32⟩ : BufTy).Contents (Elt F)),
    StableHlo.binary main_v43 main_v42 main_v44 (mulf : (⟨S850000x96, .f32⟩ : BufTy).Contents (Elt F) → (⟨S850000x96, .f32⟩ : BufTy).Contents (Elt F) → (⟨S850000x96, .f32⟩ : BufTy).Contents (Elt F)),
    StableHlo.nullary main_cst_8 (constant S_ .f32 0x00000000#32),
    StableHlo.unary main_cst_8 main_v45 (broadcastInDim S50000x96 ![] bcast_S_S50000x96 : (⟨S_, .f32⟩ : BufTy).Contents (Elt F) → (⟨S50000x96, .f32⟩ : BufTy).Contents (Elt F)),
    StableHlo.unary main_v6 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.nullary main_cst_9 (constant S_ .f32 0x3F666666#32),
    StableHlo.unary main_cst_9 main_v48 (broadcastInDim S50000x96 ![] bcast_S_S50000x96 : (⟨S_, .f32⟩ : BufTy).Contents (Elt F) → (⟨S50000x96, .f32⟩ : BufTy).Contents (Elt F)),
    StableHlo.binary main_v48 main_v47 main_v49 (mulf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x3DCCCCCD#32),
    StableHlo.unary main_cst_10 main_v50 (broadcastInDim S50000x96 ![] bcast_S_S50000x96 : (⟨S_, .f32⟩ : BufTy).Contents (Elt F) → (⟨S50000x96, .f32⟩ : BufTy).Contents (Elt F)),
    StableHlo.binary main_v50 main_v34 main_v51 (mulf : (⟨S50000x96, .f32⟩ : BufTy).Contents (Elt F) → (⟨S50000x96, .f32⟩ : BufTy).Contents (Elt F) → (⟨S50000x96, .f32⟩ : BufTy).Contents (Elt F)),
    StableHlo.binary main_v49 main_v51 main_v52 (addf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x3F183370#32),
    StableHlo.unary main_cst_11 main_v53 (broadcastInDim S50000x96 ![] bcast_S_S50000x96 : (⟨S_, .f32⟩ : BufTy).Contents (Elt F) → (⟨S50000x96, .f32⟩ : BufTy).Contents (Elt F)),
    StableHlo.binary main_v53 main_v52 main_v54 (mulf : (⟨S50000x96, .f32⟩ : BufTy).Contents (Elt F) → (⟨S50000x96, .f32⟩ : BufTy).Contents (Elt F) → (⟨S50000x96, .f32⟩ : BufTy).Contents (Elt F)),
    StableHlo.unary main_arg4 main_v55 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v55 main_v56 rfl shapeCasts_S1x96x96_S96x96,
    StableHlo.binary main_v52 main_v56 main_v57 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_12 (constant S_ .f32 0x3ECF991F#32),
    StableHlo.unary main_cst_12 main_v58 (broadcastInDim S50000x96 ![] bcast_S_S50000x96 : (⟨S_, .f32⟩ : BufTy).Contents (Elt F) → (⟨S50000x96, .f32⟩ : BufTy).Contents (Elt F)),
    StableHlo.binary main_v58 main_v57 main_v59 (mulf : (⟨S50000x96, .f32⟩ : BufTy).Contents (Elt F) → (⟨S50000x96, .f32⟩ : BufTy).Contents (Elt F) → (⟨S50000x96, .f32⟩ : BufTy).Contents (Elt F)),
    StableHlo.binary main_v54 main_v59 main_v60 (addf : (⟨S50000x96, .f32⟩ : BufTy).Contents (Elt F) → (⟨S50000x96, .f32⟩ : BufTy).Contents (Elt F) → (⟨S50000x96, .f32⟩ : BufTy).Contents (Elt F)),
    StableHlo.nullary main_cst_13 (constant S_ .f32 0x00000000#32),
    StableHlo.binary main_v60 main_cst_13 main_v61 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_14 (constant S_ .f32 0x47435000#32),
    StableHlo.unary main_cst_14 main_v62 (broadcastInDim S96 ![] bcast_S_S96 : (⟨S_, .f32⟩ : BufTy).Contents (Elt F) → (⟨S96, .f32⟩ : BufTy).Contents (Elt F)),
    StableHlo.binary main_v61 main_v62 main_v63 (Host.divf : (⟨S96, .f32⟩ : BufTy).Contents (Elt F) → (⟨S96, .f32⟩ : BufTy).Contents (Elt F) → (⟨S96, .f32⟩ : BufTy).Contents (Elt F)),
    StableHlo.nullary main_c_15 (constantI S_ 32 0#32),
    StableHlo.TRef.nullary (.of main_call2_cst : StableHlo.TRef sig ⟨S_, .f32⟩) (constant S_ .f32 0x00000000#32),
    StableHlo.TRef.binary (.of main_v60 : StableHlo.TRef sig ⟨S50000x96, .f32⟩) (.of main_call2_cst : StableHlo.TRef sig ⟨S_, .f32⟩) (.of main_call2_v0 : StableHlo.TRef sig ⟨S96, .f32⟩) (fun x v => Host.reduceAdd x v reducesTo_S50000x96_S96_d0 h_S_),
    StableHlo.TRef.unary (.of main_call2_v0 : StableHlo.TRef sig ⟨S96, .f32⟩) (.of main_call2_v1 : StableHlo.TRef sig ⟨S1x96, .f32⟩) (broadcastInDim S1x96 ![1] bcast_S96_S1x96_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x96, .f32⟩) (broadcastInDim S1x96 ![] bcast_S_S1x96),
    StableHlo.TRef.binary (.of main_call2_v1 : StableHlo.TRef sig ⟨S1x96, .f32⟩) (.of main_call2_v2 : StableHlo.TRef sig ⟨S1x96, .f32⟩) (.of main_call2_v3 : StableHlo.TRef sig ⟨S1x96, .f32⟩) Host.divf,
    StableHlo.TRef.unary (.of main_call2_v3 : StableHlo.TRef sig ⟨S1x96, .f32⟩) (.of main_call2_v4 : StableHlo.TRef sig ⟨S50000x96, .f32⟩) (broadcastInDim S50000x96 ![0, 1] bcast_S1x96_S50000x96_0_1),
    StableHlo.TRef.binary (.of main_v60 : StableHlo.TRef sig ⟨S50000x96, .f32⟩) (.of main_call2_v4 : StableHlo.TRef sig ⟨S50000x96, .f32⟩) (.of main_call2_v5 : StableHlo.TRef sig ⟨S50000x96, .f32⟩) subf,
    StableHlo.TRef.binary (.of main_call2_v5 : StableHlo.TRef sig ⟨S50000x96, .f32⟩) (.of main_call2_v5 : StableHlo.TRef sig ⟨S50000x96, .f32⟩) (.of main_call2_v6 : StableHlo.TRef sig ⟨S50000x96, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x96, .f32⟩) (.of main_call2_cst_2 : StableHlo.TRef sig ⟨S_, .f32⟩) (.of main_call2_v9 : StableHlo.TRef sig ⟨S96, .f32⟩) (fun x v => Host.reduceAdd x v reducesTo_S50000x96_S96_d0 h_S_),
    StableHlo.TRef.unary (.of main_call2_v8 : StableHlo.TRef sig ⟨S_, .f32⟩) (.of main_call2_v10 : StableHlo.TRef sig ⟨S96, .f32⟩) (broadcastInDim S96 ![] bcast_S_S96),
    StableHlo.TRef.binary (.of main_call2_v9 : StableHlo.TRef sig ⟨S96, .f32⟩) (.of main_call2_v10 : StableHlo.TRef sig ⟨S96, .f32⟩) (.of main_call2_v11 : StableHlo.TRef sig ⟨S96, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S96, .f32⟩) (broadcastInDim S96 ![] bcast_S_S96),
    StableHlo.TRef.ternary (.of main_call2_v12 : StableHlo.TRef sig ⟨S_, .i1⟩) (.of main_call2_v11 : StableHlo.TRef sig ⟨S96, .f32⟩) (.of main_call2_call0_v1 : StableHlo.TRef sig ⟨S96, .f32⟩) (.of main_v64 : StableHlo.TRef sig ⟨S96, .f32⟩) (fun p a b => select (broadcastInDim S96 ![] bcast_S_S96 p) a b),
    StableHlo.unary main_arg5 main_v65 ((extractStridedSlice S1x96 ![0, 0] · slices_S3x96_S1x96_0_0) : (⟨S3x96, .f32⟩ : BufTy).Contents (Elt F) → (⟨S1x96, .f32⟩ : BufTy).Contents (Elt F)),
    StableHlo.reshape main_v65 main_v66 rfl shapeCasts_S1x96_S96,
    StableHlo.unary main_v63 main_v67 (broadcastInDim S1x96 ![1] bcast_S96_S1x96_1 : (⟨S96, .f32⟩ : BufTy).Contents (Elt F) → (⟨S1x96, .f32⟩ : BufTy).Contents (Elt F)),
    StableHlo.unary main_v67 main_v68 (broadcastInDim S50000x96 ![0, 1] bcast_S1x96_S50000x96_0_1 : (⟨S1x96, .f32⟩ : BufTy).Contents (Elt F) → (⟨S50000x96, .f32⟩ : BufTy).Contents (Elt F)),
    StableHlo.binary main_v60 main_v68 main_v69 (subf : (⟨S50000x96, .f32⟩ : BufTy).Contents (Elt F) → (⟨S50000x96, .f32⟩ : BufTy).Contents (Elt F) → (⟨S50000x96, .f32⟩ : BufTy).Contents (Elt F)),
    StableHlo.unary main_v66 main_v70 (broadcastInDim S1x96 ![1] bcast_S96_S1x96_1 : (⟨S96, .f32⟩ : BufTy).Contents (Elt F) → (⟨S1x96, .f32⟩ : BufTy).Contents (Elt F)),
    StableHlo.unary main_v70 main_v71 (broadcastInDim S50000x96 ![0, 1] bcast_S1x96_S50000x96_0_1 : (⟨S1x96, .f32⟩ : BufTy).Contents (Elt F) → (⟨S50000x96, .f32⟩ : BufTy).Contents (Elt F)),
    StableHlo.binary main_v71 main_v69 main_v72 (mulf : (⟨S50000x96, .f32⟩ : BufTy).Contents (Elt F) → (⟨S50000x96, .f32⟩ : BufTy).Contents (Elt F) → (⟨S50000x96, .f32⟩ : BufTy).Contents (Elt F)),
    StableHlo.nullary main_cst_16 (constant S_ .f32 0x3727C5AC#32),
    StableHlo.unary main_cst_16 main_v73 (broadcastInDim S96 ![] bcast_S_S96 : (⟨S_, .f32⟩ : BufTy).Contents (Elt F) → (⟨S96, .f32⟩ : BufTy).Contents (Elt F)),
    StableHlo.binary main_v64 main_v73 main_v74 (addf : (⟨S96, .f32⟩ : BufTy).Contents (Elt F) → (⟨S96, .f32⟩ : BufTy).Contents (Elt F) → (⟨S96, .f32⟩ : BufTy).Contents (Elt F)),
    StableHlo.unary main_v74 main_v75 (Host.rsqrt : (⟨S96, .f32⟩ : BufTy).Contents (Elt F) → (⟨S96, .f32⟩ : BufTy).Contents (Elt F)),
    StableHlo.unary main_v75 main_v76 (broadcastInDim S1x96 ![1] bcast_S96_S1x96_1 : (⟨S96, .f32⟩ : BufTy).Contents (Elt F) → (⟨S1x96, .f32⟩ : BufTy).Contents (Elt F)),
    StableHlo.unary main_v76 main_v77 (broadcastInDim S50000x96 ![0, 1] bcast_S1x96_S50000x96_0_1 : (⟨S1x96, .f32⟩ : BufTy).Contents (Elt F) → (⟨S50000x96, .f32⟩ : BufTy).Contents (Elt F)),
    StableHlo.binary main_v72 main_v77 main_v78 (mulf : (⟨S50000x96, .f32⟩ : BufTy).Contents (Elt F) → (⟨S50000x96, .f32⟩ : BufTy).Contents (Elt F) → (⟨S50000x96, .f32⟩ : BufTy).Contents (Elt F)),
    StableHlo.unary main_arg6 main_v79 ((extractStridedSlice S1x96 ![0, 0] · slices_S3x96_S1x96_0_0) : (⟨S3x96, .f32⟩ : BufTy).Contents (Elt F) → (⟨S1x96, .f32⟩ : BufTy).Contents (Elt F)),
    StableHlo.reshape main_v79 main_v80 rfl shapeCasts_S1x96_S96,
    StableHlo.unary main_v80 main_v81 (broadcastInDim S1x96 ![1] bcast_S96_S1x96_1 : (⟨S96, .f32⟩ : BufTy).Contents (Elt F) → (⟨S1x96, .f32⟩ : BufTy).Contents (Elt F)),
    StableHlo.unary main_v81 main_v82 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v82 main_v83 (addf : (⟨S50000x96, .f32⟩ : BufTy).Contents (Elt F) → (⟨S50000x96, .f32⟩ : BufTy).Contents (Elt F) → (⟨S50000x96, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x96, .f32⟩) (broadcastInDim S50000x96 ![] bcast_S_S50000x96),
    StableHlo.TRef.binary (.of main_v83 : StableHlo.TRef sig ⟨S50000x96, .f32⟩) (.of main_call3_v0 : StableHlo.TRef sig ⟨S50000x96, .f32⟩) (.of main_v84 : StableHlo.TRef sig ⟨S50000x96, .f32⟩) maximumf ]
theorem ops1_sub : (ops1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

/-- Layer 2, from %29, %34 and %84 to %134: 84 operations. -/
abbrev ops2 : List (HloOp τ sig (Elt F)) :=
  [ StableHlo.unary main_v29 main_v85 (broadcastInDim S850000x1 ![0] bcast_S850000_S850000x1_0 : (⟨S850000, .f32⟩ : BufTy).Contents (Elt F) → (⟨S850000x1, .f32⟩ : BufTy).Contents (Elt F)),
    StableHlo.nullary main_c_17 (constantI S_ 32 0#32),
    StableHlo.unary main_c_17 main_v86 (broadcastInDim S850000 ![] bcast_S_S850000 : (⟨S_, .i32⟩ : BufTy).Contents (Elt F) → (⟨S850000, .i32⟩ : BufTy).Contents (Elt F)),
    StableHlo.binary main_v3 main_v86 main_v87 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v88 (broadcastInDim S850000 ![] bcast_S_S850000 : (⟨S_, .i32⟩ : BufTy).Contents (Elt F) → (⟨S850000, .i32⟩ : BufTy).Contents (Elt F)),
    StableHlo.binary main_v3 main_v88 main_v89 (addi : (⟨S850000, .i32⟩ : BufTy).Contents (Elt F) → (⟨S850000, .i32⟩ : BufTy).Contents (Elt F) → (⟨S850000, .i32⟩ : BufTy).Contents (Elt F)),
    StableHlo.ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v90 main_v91 (broadcastInDim S850000x1 ![0] bcast_S850000_S850000x1_0 : (⟨S850000, .i32⟩ : BufTy).Contents (Elt F) → (⟨S850000x1, .i32⟩ : BufTy).Contents (Elt F)),
    StableHlo.binary main_v84 main_v91 main_v92 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v85 main_v93 (broadcastInDim S850000x96 ![0, 1] bcast_S850000x1_S850000x96_0_1 : (⟨S850000x1, .f32⟩ : BufTy).Contents (Elt F) → (⟨S850000x96, .f32⟩ : BufTy).Contents (Elt F)),
    StableHlo.binary main_v93 main_v92 main_v94 (mulf : (⟨S850000x96, .f32⟩ : BufTy).Contents (Elt F) → (⟨S850000x96, .f32⟩ : BufTy).Contents (Elt F) → (⟨S850000x96, .f32⟩ : BufTy).Contents (Elt F)),
    StableHlo.nullary main_cst_19 (constant S_ .f32 0x00000000#32),
    StableHlo.unary main_cst_19 main_v95 (broadcastInDim S50000x96 ![] bcast_S_S50000x96 : (⟨S_, .f32⟩ : BufTy).Contents (Elt F) → (⟨S50000x96, .f32⟩ : BufTy).Contents (Elt F)),
    StableHlo.unary main_v6 main_v96 (broadcastInDim S850000x1 ![0] bcast_S850000_S850000x1_0 : (⟨S850000, .i32⟩ : BufTy).Contents (Elt F) → (⟨S850000x1, .i32⟩ : BufTy).Contents (Elt F)),
    StableHlo.ternary main_v95 main_v96 main_v94 main_v97 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.nullary main_cst_20 (constant S_ .f32 0x3F666666#32),
    StableHlo.unary main_cst_20 main_v98 (broadcastInDim S50000x96 ![] bcast_S_S50000x96 : (⟨S_, .f32⟩ : BufTy).Contents (Elt F) → (⟨S50000x96, .f32⟩ : BufTy).Contents (Elt F)),
    StableHlo.binary main_v98 main_v97 main_v99 (mulf : (⟨S50000x96, .f32⟩ : BufTy).Contents (Elt F) → (⟨S50000x96, .f32⟩ : BufTy).Contents (Elt F) → (⟨S50000x96, .f32⟩ : BufTy).Contents (Elt F)),
    StableHlo.nullary main_cst_21 (constant S_ .f32 0x3DCCCCCD#32),
    StableHlo.unary main_cst_21 main_v100 (broadcastInDim S50000x96 ![] bcast_S_S50000x96 : (⟨S_, .f32⟩ : BufTy).Contents (Elt F) → (⟨S50000x96, .f32⟩ : BufTy).Contents (Elt F)),
    StableHlo.binary main_v100 main_v34 main_v101 (mulf : (⟨S50000x96, .f32⟩ : BufTy).Contents (Elt F) → (⟨S50000x96, .f32⟩ : BufTy).Contents (Elt F) → (⟨S50000x96, .f32⟩ : BufTy).Contents (Elt F)),
    StableHlo.binary main_v99 main_v101 main_v102 (addf : (⟨S50000x96, .f32⟩ : BufTy).Contents (Elt F) → (⟨S50000x96, .f32⟩ : BufTy).Contents (Elt F) → (⟨S50000x96, .f32⟩ : BufTy).Contents (Elt F)),
    StableHlo.nullary main_cst_22 (constant S_ .f32 0x3F46E010#32),
    StableHlo.unary main_cst_22 main_v103 (broadcastInDim S50000x96 ![] bcast_S_S50000x96 : (⟨S_, .f32⟩ : BufTy).Contents (Elt F) → (⟨S50000x96, .f32⟩ : BufTy).Contents (Elt F)),
    StableHlo.binary main_v103 main_v102 main_v104 (mulf : (⟨S50000x96, .f32⟩ : BufTy).Contents (Elt F) → (⟨S50000x96, .f32⟩ : BufTy).Contents (Elt F) → (⟨S50000x96, .f32⟩ : BufTy).Contents (Elt F)),
    StableHlo.unary main_arg4 main_v105 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v105 main_v106 rfl shapeCasts_S1x96x96_S96x96,
    StableHlo.binary main_v102 main_v106 main_v107 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_23 (constant S_ .f32 0x3E647FBE#32),
    StableHlo.unary main_cst_23 main_v108 (broadcastInDim S50000x96 ![] bcast_S_S50000x96 : (⟨S_, .f32⟩ : BufTy).Contents (Elt F) → (⟨S50000x96, .f32⟩ : BufTy).Contents (Elt F)),
    StableHlo.binary main_v108 main_v107 main_v109 (mulf : (⟨S50000x96, .f32⟩ : BufTy).Contents (Elt F) → (⟨S50000x96, .f32⟩ : BufTy).Contents (Elt F) → (⟨S50000x96, .f32⟩ : BufTy).Contents (Elt F)),
    StableHlo.binary main_v104 main_v109 main_v110 (addf : (⟨S50000x96, .f32⟩ : BufTy).Contents (Elt F) → (⟨S50000x96, .f32⟩ : BufTy).Contents (Elt F) → (⟨S50000x96, .f32⟩ : BufTy).Contents (Elt F)),
    StableHlo.nullary main_cst_24 (constant S_ .f32 0x00000000#32),
    StableHlo.binary main_v110 main_cst_24 main_v111 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_25 (constant S_ .f32 0x47435000#32),
    StableHlo.unary main_cst_25 main_v112 (broadcastInDim S96 ![] bcast_S_S96 : (⟨S_, .f32⟩ : BufTy).Contents (Elt F) → (⟨S96, .f32⟩ : BufTy).Contents (Elt F)),
    StableHlo.binary main_v111 main_v112 main_v113 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32),
    StableHlo.TRef.nullary (.of main_call4_cst : StableHlo.TRef sig ⟨S_, .f32⟩) (constant S_ .f32 0x00000000#32),
    StableHlo.TRef.binary (.of main_v110 : StableHlo.TRef sig ⟨S50000x96, .f32⟩) (.of main_call4_cst : StableHlo.TRef sig ⟨S_, .f32⟩) (.of main_call4_v0 : StableHlo.TRef sig ⟨S96, .f32⟩) (fun x v => Host.reduceAdd x v reducesTo_S50000x96_S96_d0 h_S_),
    StableHlo.TRef.unary (.of main_call4_v0 : StableHlo.TRef sig ⟨S96, .f32⟩) (.of main_call4_v1 : StableHlo.TRef sig ⟨S1x96, .f32⟩) (broadcastInDim S1x96 ![1] bcast_S96_S1x96_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x96, .f32⟩) (broadcastInDim S1x96 ![] bcast_S_S1x96),
    StableHlo.TRef.binary (.of main_call4_v1 : StableHlo.TRef sig ⟨S1x96, .f32⟩) (.of main_call4_v2 : StableHlo.TRef sig ⟨S1x96, .f32⟩) (.of main_call4_v3 : StableHlo.TRef sig ⟨S1x96, .f32⟩) Host.divf,
    StableHlo.TRef.unary (.of main_call4_v3 : StableHlo.TRef sig ⟨S1x96, .f32⟩) (.of main_call4_v4 : StableHlo.TRef sig ⟨S50000x96, .f32⟩) (broadcastInDim S50000x96 ![0, 1] bcast_S1x96_S50000x96_0_1),
    StableHlo.TRef.binary (.of main_v110 : StableHlo.TRef sig ⟨S50000x96, .f32⟩) (.of main_call4_v4 : StableHlo.TRef sig ⟨S50000x96, .f32⟩) (.of main_call4_v5 : StableHlo.TRef sig ⟨S50000x96, .f32⟩) subf,
    StableHlo.TRef.binary (.of main_call4_v5 : StableHlo.TRef sig ⟨S50000x96, .f32⟩) (.of main_call4_v5 : StableHlo.TRef sig ⟨S50000x96, .f32⟩) (.of main_call4_v6 : StableHlo.TRef sig ⟨S50000x96, .f32⟩) mulf,
    StableHlo.TRef.unary (.of main_c_26 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x96, .f32⟩) (.of main_call4_cst_2 : StableHlo.TRef sig ⟨S_, .f32⟩) (.of main_call4_v9 : StableHlo.TRef sig ⟨S96, .f32⟩) (fun x v => Host.reduceAdd x v reducesTo_S50000x96_S96_d0 h_S_),
    StableHlo.TRef.unary (.of main_call4_v8 : StableHlo.TRef sig ⟨S_, .f32⟩) (.of main_call4_v10 : StableHlo.TRef sig ⟨S96, .f32⟩) (broadcastInDim S96 ![] bcast_S_S96),
    StableHlo.TRef.binary (.of main_call4_v9 : StableHlo.TRef sig ⟨S96, .f32⟩) (.of main_call4_v10 : StableHlo.TRef sig ⟨S96, .f32⟩) (.of main_call4_v11 : StableHlo.TRef sig ⟨S96, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S96, .f32⟩) (broadcastInDim S96 ![] bcast_S_S96),
    StableHlo.TRef.ternary (.of main_call4_v12 : StableHlo.TRef sig ⟨S_, .i1⟩) (.of main_call4_v11 : StableHlo.TRef sig ⟨S96, .f32⟩) (.of main_call4_call0_v1 : StableHlo.TRef sig ⟨S96, .f32⟩) (.of main_v114 : StableHlo.TRef sig ⟨S96, .f32⟩) (fun p a b => select (broadcastInDim S96 ![] bcast_S_S96 p) a b),
    StableHlo.unary main_arg5 main_v115 ((extractStridedSlice S1x96 ![1, 0] · slices_S3x96_S1x96_1_0) : (⟨S3x96, .f32⟩ : BufTy).Contents (Elt F) → (⟨S1x96, .f32⟩ : BufTy).Contents (Elt F)),
    StableHlo.reshape main_v115 main_v116 rfl shapeCasts_S1x96_S96,
    StableHlo.unary main_v113 main_v117 (broadcastInDim S1x96 ![1] bcast_S96_S1x96_1 : (⟨S96, .f32⟩ : BufTy).Contents (Elt F) → (⟨S1x96, .f32⟩ : BufTy).Contents (Elt F)),
    StableHlo.unary main_v117 main_v118 (broadcastInDim S50000x96 ![0, 1] bcast_S1x96_S50000x96_0_1 : (⟨S1x96, .f32⟩ : BufTy).Contents (Elt F) → (⟨S50000x96, .f32⟩ : BufTy).Contents (Elt F)),
    StableHlo.binary main_v110 main_v118 main_v119 (subf : (⟨S50000x96, .f32⟩ : BufTy).Contents (Elt F) → (⟨S50000x96, .f32⟩ : BufTy).Contents (Elt F) → (⟨S50000x96, .f32⟩ : BufTy).Contents (Elt F)),
    StableHlo.unary main_v116 main_v120 (broadcastInDim S1x96 ![1] bcast_S96_S1x96_1 : (⟨S96, .f32⟩ : BufTy).Contents (Elt F) → (⟨S1x96, .f32⟩ : BufTy).Contents (Elt F)),
    StableHlo.unary main_v120 main_v121 (broadcastInDim S50000x96 ![0, 1] bcast_S1x96_S50000x96_0_1 : (⟨S1x96, .f32⟩ : BufTy).Contents (Elt F) → (⟨S50000x96, .f32⟩ : BufTy).Contents (Elt F)),
    StableHlo.binary main_v121 main_v119 main_v122 (mulf : (⟨S50000x96, .f32⟩ : BufTy).Contents (Elt F) → (⟨S50000x96, .f32⟩ : BufTy).Contents (Elt F) → (⟨S50000x96, .f32⟩ : BufTy).Contents (Elt F)),
    StableHlo.nullary main_cst_27 (constant S_ .f32 0x3727C5AC#32),
    StableHlo.unary main_cst_27 main_v123 (broadcastInDim S96 ![] bcast_S_S96 : (⟨S_, .f32⟩ : BufTy).Contents (Elt F) → (⟨S96, .f32⟩ : BufTy).Contents (Elt F)),
    StableHlo.binary main_v114 main_v123 main_v124 (addf : (⟨S96, .f32⟩ : BufTy).Contents (Elt F) → (⟨S96, .f32⟩ : BufTy).Contents (Elt F) → (⟨S96, .f32⟩ : BufTy).Contents (Elt F)),
    StableHlo.unary main_v124 main_v125 (Host.rsqrt : (⟨S96, .f32⟩ : BufTy).Contents (Elt F) → (⟨S96, .f32⟩ : BufTy).Contents (Elt F)),
    StableHlo.unary main_v125 main_v126 (broadcastInDim S1x96 ![1] bcast_S96_S1x96_1 : (⟨S96, .f32⟩ : BufTy).Contents (Elt F) → (⟨S1x96, .f32⟩ : BufTy).Contents (Elt F)),
    StableHlo.unary main_v126 main_v127 (broadcastInDim S50000x96 ![0, 1] bcast_S1x96_S50000x96_0_1 : (⟨S1x96, .f32⟩ : BufTy).Contents (Elt F) → (⟨S50000x96, .f32⟩ : BufTy).Contents (Elt F)),
    StableHlo.binary main_v122 main_v127 main_v128 (mulf : (⟨S50000x96, .f32⟩ : BufTy).Contents (Elt F) → (⟨S50000x96, .f32⟩ : BufTy).Contents (Elt F) → (⟨S50000x96, .f32⟩ : BufTy).Contents (Elt F)),
    StableHlo.unary main_arg6 main_v129 ((extractStridedSlice S1x96 ![1, 0] · slices_S3x96_S1x96_1_0) : (⟨S3x96, .f32⟩ : BufTy).Contents (Elt F) → (⟨S1x96, .f32⟩ : BufTy).Contents (Elt F)),
    StableHlo.reshape main_v129 main_v130 rfl shapeCasts_S1x96_S96,
    StableHlo.unary main_v130 main_v131 (broadcastInDim S1x96 ![1] bcast_S96_S1x96_1 : (⟨S96, .f32⟩ : BufTy).Contents (Elt F) → (⟨S1x96, .f32⟩ : BufTy).Contents (Elt F)),
    StableHlo.unary main_v131 main_v132 (broadcastInDim S50000x96 ![0, 1] bcast_S1x96_S50000x96_0_1 : (⟨S1x96, .f32⟩ : BufTy).Contents (Elt F) → (⟨S50000x96, .f32⟩ : BufTy).Contents (Elt F)),
    StableHlo.binary main_v128 main_v132 main_v133 (addf : (⟨S50000x96, .f32⟩ : BufTy).Contents (Elt F) → (⟨S50000x96, .f32⟩ : BufTy).Contents (Elt F) → (⟨S50000x96, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x96, .f32⟩) (broadcastInDim S50000x96 ![] bcast_S_S50000x96),
    StableHlo.TRef.binary (.of main_v133 : StableHlo.TRef sig ⟨S50000x96, .f32⟩) (.of main_call5_v0 : StableHlo.TRef sig ⟨S50000x96, .f32⟩) (.of main_v134 : StableHlo.TRef sig ⟨S50000x96, .f32⟩) maximumf ]
theorem ops2_sub : (ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

/-- Layer 3, from %29, %34 and %134 to %184: 84 operations. -/
abbrev ops3 : List (HloOp τ sig (Elt F)) :=
  [ StableHlo.unary main_v29 main_v135 (broadcastInDim S850000x1 ![0] bcast_S850000_S850000x1_0 : (⟨S850000, .f32⟩ : BufTy).Contents (Elt F) → (⟨S850000x1, .f32⟩ : BufTy).Contents (Elt F)),
    StableHlo.nullary main_c_28 (constantI S_ 32 0#32),
    StableHlo.unary main_c_28 main_v136 (broadcastInDim S850000 ![] bcast_S_S850000 : (⟨S_, .i32⟩ : BufTy).Contents (Elt F) → (⟨S850000, .i32⟩ : BufTy).Contents (Elt F)),
    StableHlo.binary main_v3 main_v136 main_v137 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v138 (broadcastInDim S850000 ![] bcast_S_S850000 : (⟨S_, .i32⟩ : BufTy).Contents (Elt F) → (⟨S850000, .i32⟩ : BufTy).Contents (Elt F)),
    StableHlo.binary main_v3 main_v138 main_v139 (addi : (⟨S850000, .i32⟩ : BufTy).Contents (Elt F) → (⟨S850000, .i32⟩ : BufTy).Contents (Elt F) → (⟨S850000, .i32⟩ : BufTy).Contents (Elt F)),
    StableHlo.ternary main_v137 main_v139 main_v3 main_v140 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v140 main_v141 (broadcastInDim S850000x1 ![0] bcast_S850000_S850000x1_0 : (⟨S850000, .i32⟩ : BufTy).Contents (Elt F) → (⟨S850000x1, .i32⟩ : BufTy).Contents (Elt F)),
    StableHlo.binary main_v134 main_v141 main_v142 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v135 main_v143 (broadcastInDim S850000x96 ![0, 1] bcast_S850000x1_S850000x96_0_1 : (⟨S850000x1, .f32⟩ : BufTy).Contents (Elt F) → (⟨S850000x96, .f32⟩ : BufTy).Contents (Elt F)),
    StableHlo.binary main_v143 main_v142 main_v144 (mulf : (⟨S850000x96, .f32⟩ : BufTy).Contents (Elt F) → (⟨S850000x96, .f32⟩ : BufTy).Contents (Elt F) → (⟨S850000x96, .f32⟩ : BufTy).Contents (Elt F)),
    StableHlo.nullary main_cst_30 (constant S_ .f32 0x00000000#32),
    StableHlo.unary main_cst_30 main_v145 (broadcastInDim S50000x96 ![] bcast_S_S50000x96 : (⟨S_, .f32⟩ : BufTy).Contents (Elt F) → (⟨S50000x96, .f32⟩ : BufTy).Contents (Elt F)),
    StableHlo.unary main_v6 main_v146 (broadcastInDim S850000x1 ![0] bcast_S850000_S850000x1_0 : (⟨S850000, .i32⟩ : BufTy).Contents (Elt F) → (⟨S850000x1, .i32⟩ : BufTy).Contents (Elt F)),
    StableHlo.ternary main_v145 main_v146 main_v144 main_v147 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.nullary main_cst_31 (constant S_ .f32 0x3F666666#32),
    StableHlo.unary main_cst_31 main_v148 (broadcastInDim S50000x96 ![] bcast_S_S50000x96 : (⟨S_, .f32⟩ : BufTy).Contents (Elt F) → (⟨S50000x96, .f32⟩ : BufTy).Contents (Elt F)),
    StableHlo.binary main_v148 main_v147 main_v149 (mulf : (⟨S50000x96, .f32⟩ : BufTy).Contents (Elt F) → (⟨S50000x96, .f32⟩ : BufTy).Contents (Elt F) → (⟨S50000x96, .f32⟩ : BufTy).Contents (Elt F)),
    StableHlo.nullary main_cst_32 (constant S_ .f32 0x3DCCCCCD#32),
    StableHlo.unary main_cst_32 main_v150 (broadcastInDim S50000x96 ![] bcast_S_S50000x96 : (⟨S_, .f32⟩ : BufTy).Contents (Elt F) → (⟨S50000x96, .f32⟩ : BufTy).Contents (Elt F)),
    StableHlo.binary main_v150 main_v34 main_v151 (mulf : (⟨S50000x96, .f32⟩ : BufTy).Contents (Elt F) → (⟨S50000x96, .f32⟩ : BufTy).Contents (Elt F) → (⟨S50000x96, .f32⟩ : BufTy).Contents (Elt F)),
    StableHlo.binary main_v149 main_v151 main_v152 (addf : (⟨S50000x96, .f32⟩ : BufTy).Contents (Elt F) → (⟨S50000x96, .f32⟩ : BufTy).Contents (Elt F) → (⟨S50000x96, .f32⟩ : BufTy).Contents (Elt F)),
    StableHlo.nullary main_cst_33 (constant S_ .f32 0x3F588995#32),
    StableHlo.unary main_cst_33 main_v153 (broadcastInDim S50000x96 ![] bcast_S_S50000x96 : (⟨S_, .f32⟩ : BufTy).Contents (Elt F) → (⟨S50000x96, .f32⟩ : BufTy).Contents (Elt F)),
    StableHlo.binary main_v153 main_v152 main_v154 (mulf : (⟨S50000x96, .f32⟩ : BufTy).Contents (Elt F) → (⟨S50000x96, .f32⟩ : BufTy).Contents (Elt F) → (⟨S50000x96, .f32⟩ : BufTy).Contents (Elt F)),
    StableHlo.unary main_arg4 main_v155 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v155 main_v156 rfl shapeCasts_S1x96x96_S96x96,
    StableHlo.binary main_v152 main_v156 main_v157 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_34 (constant S_ .f32 0x3E1DD9AD#32),
    StableHlo.unary main_cst_34 main_v158 (broadcastInDim S50000x96 ![] bcast_S_S50000x96 : (⟨S_, .f32⟩ : BufTy).Contents (Elt F) → (⟨S50000x96, .f32⟩ : BufTy).Contents (Elt F)),
    StableHlo.binary main_v158 main_v157 main_v159 (mulf : (⟨S50000x96, .f32⟩ : BufTy).Contents (Elt F) → (⟨S50000x96, .f32⟩ : BufTy).Contents (Elt F) → (⟨S50000x96, .f32⟩ : BufTy).Contents (Elt F)),
    StableHlo.binary main_v154 main_v159 main_v160 (addf : (⟨S50000x96, .f32⟩ : BufTy).Contents (Elt F) → (⟨S50000x96, .f32⟩ : BufTy).Contents (Elt F) → (⟨S50000x96, .f32⟩ : BufTy).Contents (Elt F)),
    StableHlo.nullary main_cst_35 (constant S_ .f32 0x00000000#32),
    StableHlo.binary main_v160 main_cst_35 main_v161 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_36 (constant S_ .f32 0x47435000#32),
    StableHlo.unary main_cst_36 main_v162 (broadcastInDim S96 ![] bcast_S_S96 : (⟨S_, .f32⟩ : BufTy).Contents (Elt F) → (⟨S96, .f32⟩ : BufTy).Contents (Elt F)),
    StableHlo.binary main_v161 main_v162 main_v163 (Host.divf : (⟨S96, .f32⟩ : BufTy).Contents (Elt F) → (⟨S96, .f32⟩ : BufTy).Contents (Elt F) → (⟨S96, .f32⟩ : BufTy).Contents (Elt F)),
    StableHlo.nullary main_c_37 (constantI S_ 32 0#32),
    StableHlo.TRef.nullary (.of main_call6_cst : StableHlo.TRef sig ⟨S_, .f32⟩) (constant S_ .f32 0x00000000#32),
    StableHlo.TRef.binary (.of main_v160 : StableHlo.TRef sig ⟨S50000x96, .f32⟩) (.of main_call6_cst : StableHlo.TRef sig ⟨S_, .f32⟩) (.of main_call6_v0 : StableHlo.TRef sig ⟨S96, .f32⟩) (fun x v => Host.reduceAdd x v reducesTo_S50000x96_S96_d0 h_S_),
    StableHlo.TRef.unary (.of main_call6_v0 : StableHlo.TRef sig ⟨S96, .f32⟩) (.of main_call6_v1 : StableHlo.TRef sig ⟨S1x96, .f32⟩) (broadcastInDim S1x96 ![1] bcast_S96_S1x96_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x96, .f32⟩) (broadcastInDim S1x96 ![] bcast_S_S1x96),
    StableHlo.TRef.binary (.of main_call6_v1 : StableHlo.TRef sig ⟨S1x96, .f32⟩) (.of main_call6_v2 : StableHlo.TRef sig ⟨S1x96, .f32⟩) (.of main_call6_v3 : StableHlo.TRef sig ⟨S1x96, .f32⟩) Host.divf,
    StableHlo.TRef.unary (.of main_call6_v3 : StableHlo.TRef sig ⟨S1x96, .f32⟩) (.of main_call6_v4 : StableHlo.TRef sig ⟨S50000x96, .f32⟩) (broadcastInDim S50000x96 ![0, 1] bcast_S1x96_S50000x96_0_1),
    StableHlo.TRef.binary (.of main_v160 : StableHlo.TRef sig ⟨S50000x96, .f32⟩) (.of main_call6_v4 : StableHlo.TRef sig ⟨S50000x96, .f32⟩) (.of main_call6_v5 : StableHlo.TRef sig ⟨S50000x96, .f32⟩) subf,
    StableHlo.TRef.binary (.of main_call6_v5 : StableHlo.TRef sig ⟨S50000x96, .f32⟩) (.of main_call6_v5 : StableHlo.TRef sig ⟨S50000x96, .f32⟩) (.of main_call6_v6 : StableHlo.TRef sig ⟨S50000x96, .f32⟩) mulf,
    StableHlo.TRef.unary (.of main_c_37 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x96, .f32⟩) (.of main_call6_cst_2 : StableHlo.TRef sig ⟨S_, .f32⟩) (.of main_call6_v9 : StableHlo.TRef sig ⟨S96, .f32⟩) (fun x v => Host.reduceAdd x v reducesTo_S50000x96_S96_d0 h_S_),
    StableHlo.TRef.unary (.of main_call6_v8 : StableHlo.TRef sig ⟨S_, .f32⟩) (.of main_call6_v10 : StableHlo.TRef sig ⟨S96, .f32⟩) (broadcastInDim S96 ![] bcast_S_S96),
    StableHlo.TRef.binary (.of main_call6_v9 : StableHlo.TRef sig ⟨S96, .f32⟩) (.of main_call6_v10 : StableHlo.TRef sig ⟨S96, .f32⟩) (.of main_call6_v11 : StableHlo.TRef sig ⟨S96, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S96, .f32⟩) (broadcastInDim S96 ![] bcast_S_S96),
    StableHlo.TRef.ternary (.of main_call6_v12 : StableHlo.TRef sig ⟨S_, .i1⟩) (.of main_call6_v11 : StableHlo.TRef sig ⟨S96, .f32⟩) (.of main_call6_call0_v1 : StableHlo.TRef sig ⟨S96, .f32⟩) (.of main_v164 : StableHlo.TRef sig ⟨S96, .f32⟩) (fun p a b => select (broadcastInDim S96 ![] bcast_S_S96 p) a b),
    StableHlo.unary main_arg5 main_v165 ((extractStridedSlice S1x96 ![2, 0] · slices_S3x96_S1x96_2_0) : (⟨S3x96, .f32⟩ : BufTy).Contents (Elt F) → (⟨S1x96, .f32⟩ : BufTy).Contents (Elt F)),
    StableHlo.reshape main_v165 main_v166 rfl shapeCasts_S1x96_S96,
    StableHlo.unary main_v163 main_v167 (broadcastInDim S1x96 ![1] bcast_S96_S1x96_1 : (⟨S96, .f32⟩ : BufTy).Contents (Elt F) → (⟨S1x96, .f32⟩ : BufTy).Contents (Elt F)),
    StableHlo.unary main_v167 main_v168 (broadcastInDim S50000x96 ![0, 1] bcast_S1x96_S50000x96_0_1 : (⟨S1x96, .f32⟩ : BufTy).Contents (Elt F) → (⟨S50000x96, .f32⟩ : BufTy).Contents (Elt F)),
    StableHlo.binary main_v160 main_v168 main_v169 (subf : (⟨S50000x96, .f32⟩ : BufTy).Contents (Elt F) → (⟨S50000x96, .f32⟩ : BufTy).Contents (Elt F) → (⟨S50000x96, .f32⟩ : BufTy).Contents (Elt F)),
    StableHlo.unary main_v166 main_v170 (broadcastInDim S1x96 ![1] bcast_S96_S1x96_1 : (⟨S96, .f32⟩ : BufTy).Contents (Elt F) → (⟨S1x96, .f32⟩ : BufTy).Contents (Elt F)),
    StableHlo.unary main_v170 main_v171 (broadcastInDim S50000x96 ![0, 1] bcast_S1x96_S50000x96_0_1 : (⟨S1x96, .f32⟩ : BufTy).Contents (Elt F) → (⟨S50000x96, .f32⟩ : BufTy).Contents (Elt F)),
    StableHlo.binary main_v171 main_v169 main_v172 (mulf : (⟨S50000x96, .f32⟩ : BufTy).Contents (Elt F) → (⟨S50000x96, .f32⟩ : BufTy).Contents (Elt F) → (⟨S50000x96, .f32⟩ : BufTy).Contents (Elt F)),
    StableHlo.nullary main_cst_38 (constant S_ .f32 0x3727C5AC#32),
    StableHlo.unary main_cst_38 main_v173 (broadcastInDim S96 ![] bcast_S_S96 : (⟨S_, .f32⟩ : BufTy).Contents (Elt F) → (⟨S96, .f32⟩ : BufTy).Contents (Elt F)),
    StableHlo.binary main_v164 main_v173 main_v174 (addf : (⟨S96, .f32⟩ : BufTy).Contents (Elt F) → (⟨S96, .f32⟩ : BufTy).Contents (Elt F) → (⟨S96, .f32⟩ : BufTy).Contents (Elt F)),
    StableHlo.unary main_v174 main_v175 (Host.rsqrt : (⟨S96, .f32⟩ : BufTy).Contents (Elt F) → (⟨S96, .f32⟩ : BufTy).Contents (Elt F)),
    StableHlo.unary main_v175 main_v176 (broadcastInDim S1x96 ![1] bcast_S96_S1x96_1 : (⟨S96, .f32⟩ : BufTy).Contents (Elt F) → (⟨S1x96, .f32⟩ : BufTy).Contents (Elt F)),
    StableHlo.unary main_v176 main_v177 (broadcastInDim S50000x96 ![0, 1] bcast_S1x96_S50000x96_0_1 : (⟨S1x96, .f32⟩ : BufTy).Contents (Elt F) → (⟨S50000x96, .f32⟩ : BufTy).Contents (Elt F)),
    StableHlo.binary main_v172 main_v177 main_v178 (mulf : (⟨S50000x96, .f32⟩ : BufTy).Contents (Elt F) → (⟨S50000x96, .f32⟩ : BufTy).Contents (Elt F) → (⟨S50000x96, .f32⟩ : BufTy).Contents (Elt F)),
    StableHlo.unary main_arg6 main_v179 ((extractStridedSlice S1x96 ![2, 0] · slices_S3x96_S1x96_2_0) : (⟨S3x96, .f32⟩ : BufTy).Contents (Elt F) → (⟨S1x96, .f32⟩ : BufTy).Contents (Elt F)),
    StableHlo.reshape main_v179 main_v180 rfl shapeCasts_S1x96_S96,
    StableHlo.unary main_v180 main_v181 (broadcastInDim S1x96 ![1] bcast_S96_S1x96_1 : (⟨S96, .f32⟩ : BufTy).Contents (Elt F) → (⟨S1x96, .f32⟩ : BufTy).Contents (Elt F)),
    StableHlo.unary main_v181 main_v182 (broadcastInDim S50000x96 ![0, 1] bcast_S1x96_S50000x96_0_1 : (⟨S1x96, .f32⟩ : BufTy).Contents (Elt F) → (⟨S50000x96, .f32⟩ : BufTy).Contents (Elt F)),
    StableHlo.binary main_v178 main_v182 main_v183 (addf : (⟨S50000x96, .f32⟩ : BufTy).Contents (Elt F) → (⟨S50000x96, .f32⟩ : BufTy).Contents (Elt F) → (⟨S50000x96, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x96, .f32⟩) (broadcastInDim S50000x96 ![] bcast_S_S50000x96),
    StableHlo.TRef.binary (.of main_v183 : StableHlo.TRef sig ⟨S50000x96, .f32⟩) (.of main_call7_v0 : StableHlo.TRef sig ⟨S50000x96, .f32⟩) (.of main_v184 : StableHlo.TRef sig ⟨S50000x96, .f32⟩) maximumf ]
theorem ops3_sub : (ops3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

/-- The output %188 from %184: 4 operations. -/
abbrev ops4 : List (HloOp τ sig (Elt F)) :=
  [ StableHlo.binary main_v184 main_arg7 main_v185 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    StableHlo.unary main_arg8 main_v186 (broadcastInDim S1x40 ![1] bcast_S40_S1x40_1 : (⟨S40, .f32⟩ : BufTy).Contents (Elt F) → (⟨S1x40, .f32⟩ : BufTy).Contents (Elt F)),
    StableHlo.unary main_v186 main_v187 (broadcastInDim S50000x40 ![0, 1] bcast_S1x40_S50000x40_0_1 : (⟨S1x40, .f32⟩ : BufTy).Contents (Elt F) → (⟨S50000x40, .f32⟩ : BufTy).Contents (Elt F)),
    StableHlo.binary main_v185 main_v187 main_v188 (addf : (⟨S50000x40, .f32⟩ : BufTy).Contents (Elt F) → (⟨S50000x40, .f32⟩ : BufTy).Contents (Elt F) → (⟨S50000x40, .f32⟩ : BufTy).Contents (Elt F)) ]
theorem ops4_sub : (ops4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- The whole program: 303 operations. -/
abbrev ops : List (HloOp τ sig (Elt F)) := ops0 ++ ops1 ++ ops2 ++ ops3 ++ ops4

/-- Window 0 of @main, piece 0: 18 operations. -/
abbrev w0_0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

/-- Window 0 of @main, piece 1 (a call's operations): 3 operations. -/
abbrev w0_1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]

/-- Window 0 of @main, piece 2: 23 operations. -/
abbrev w0_2 : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)),
    StableHlo.unary main_arg3 main_v31 (broadcastInDim S1x96 ![1] bcast_S96_S1x96_1 : (⟨S96, .f32⟩ : BufTy).Contents (Elt F) → (⟨S1x96, .f32⟩ : BufTy).Contents (Elt F)),
    StableHlo.unary main_v31 main_v32 (broadcastInDim S50000x96 ![0, 1] bcast_S1x96_S50000x96_0_1 : (⟨S1x96, .f32⟩ : BufTy).Contents (Elt F) → (⟨S50000x96, .f32⟩ : BufTy).Contents (Elt F)),
    StableHlo.binary main_v30 main_v32 main_v33 (addf : (⟨S50000x96, .f32⟩ : BufTy).Contents (Elt F) → (⟨S50000x96, .f32⟩ : BufTy).Contents (Elt F) → (⟨S50000x96, .f32⟩ : BufTy).Contents (Elt F)) ]

/-- Window 0 of @main, piece 3 (a call's operations): 3 operations. -/
abbrev w0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x96, .f32⟩) (broadcastInDim S50000x96 ![] bcast_S_S50000x96),
    StableHlo.TRef.binary (.of main_v33 : StableHlo.TRef sig ⟨S50000x96, .f32⟩) (.of main_call1_v0 : StableHlo.TRef sig ⟨S50000x96, .f32⟩) (.of main_v34 : StableHlo.TRef sig ⟨S50000x96, .f32⟩) maximumf ]

/-- Window 0 of @main, piece 4: 17 operations. -/
abbrev w0_4 : List (HloOp τ sig (Elt F)) :=
  [ StableHlo.unary main_v29 main_v35 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v36 (broadcastInDim S850000 ![] bcast_S_S850000 : (⟨S_, .i32⟩ : BufTy).Contents (Elt F) → (⟨S850000, .i32⟩ : BufTy).Contents (Elt F)),
    StableHlo.binary main_v3 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v38 (broadcastInDim S850000 ![] bcast_S_S850000 : (⟨S_, .i32⟩ : BufTy).Contents (Elt F) → (⟨S850000, .i32⟩ : BufTy).Contents (Elt F)),
    StableHlo.binary main_v3 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v3 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v34 main_v41 main_v42 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v35 main_v43 (broadcastInDim S850000x96 ![0, 1] bcast_S850000x1_S850000x96_0_1 : (⟨S850000x1, .f32⟩ : BufTy).Contents (Elt F) → (⟨S850000x96, .f32⟩ : BufTy).Contents (Elt F)),
    StableHlo.binary main_v43 main_v42 main_v44 (mulf : (⟨S850000x96, .f32⟩ : BufTy).Contents (Elt F) → (⟨S850000x96, .f32⟩ : BufTy).Contents (Elt F) → (⟨S850000x96, .f32⟩ : BufTy).Contents (Elt F)),
    StableHlo.nullary main_cst_8 (constant S_ .f32 0x00000000#32),
    StableHlo.unary main_cst_8 main_v45 (broadcastInDim S50000x96 ![] bcast_S_S50000x96 : (⟨S_, .f32⟩ : BufTy).Contents (Elt F) → (⟨S50000x96, .f32⟩ : BufTy).Contents (Elt F)),
    StableHlo.unary main_v6 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.nullary main_cst_9 (constant S_ .f32 0x3F666666#32) ]

/-- Window 1 of @main, piece 0: 22 operations. -/
abbrev w1_0 : List (HloOp τ sig (Elt F)) :=
  [ StableHlo.unary main_cst_9 main_v48 (broadcastInDim S50000x96 ![] bcast_S_S50000x96 : (⟨S_, .f32⟩ : BufTy).Contents (Elt F) → (⟨S50000x96, .f32⟩ : BufTy).Contents (Elt F)),
    StableHlo.binary main_v48 main_v47 main_v49 (mulf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x3DCCCCCD#32),
    StableHlo.unary main_cst_10 main_v50 (broadcastInDim S50000x96 ![] bcast_S_S50000x96 : (⟨S_, .f32⟩ : BufTy).Contents (Elt F) → (⟨S50000x96, .f32⟩ : BufTy).Contents (Elt F)),
    StableHlo.binary main_v50 main_v34 main_v51 (mulf : (⟨S50000x96, .f32⟩ : BufTy).Contents (Elt F) → (⟨S50000x96, .f32⟩ : BufTy).Contents (Elt F) → (⟨S50000x96, .f32⟩ : BufTy).Contents (Elt F)),
    StableHlo.binary main_v49 main_v51 main_v52 (addf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x3F183370#32),
    StableHlo.unary main_cst_11 main_v53 (broadcastInDim S50000x96 ![] bcast_S_S50000x96 : (⟨S_, .f32⟩ : BufTy).Contents (Elt F) → (⟨S50000x96, .f32⟩ : BufTy).Contents (Elt F)),
    StableHlo.binary main_v53 main_v52 main_v54 (mulf : (⟨S50000x96, .f32⟩ : BufTy).Contents (Elt F) → (⟨S50000x96, .f32⟩ : BufTy).Contents (Elt F) → (⟨S50000x96, .f32⟩ : BufTy).Contents (Elt F)),
    StableHlo.unary main_arg4 main_v55 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v55 main_v56 rfl shapeCasts_S1x96x96_S96x96,
    StableHlo.binary main_v52 main_v56 main_v57 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_12 (constant S_ .f32 0x3ECF991F#32),
    StableHlo.unary main_cst_12 main_v58 (broadcastInDim S50000x96 ![] bcast_S_S50000x96 : (⟨S_, .f32⟩ : BufTy).Contents (Elt F) → (⟨S50000x96, .f32⟩ : BufTy).Contents (Elt F)),
    StableHlo.binary main_v58 main_v57 main_v59 (mulf : (⟨S50000x96, .f32⟩ : BufTy).Contents (Elt F) → (⟨S50000x96, .f32⟩ : BufTy).Contents (Elt F) → (⟨S50000x96, .f32⟩ : BufTy).Contents (Elt F)),
    StableHlo.binary main_v54 main_v59 main_v60 (addf : (⟨S50000x96, .f32⟩ : BufTy).Contents (Elt F) → (⟨S50000x96, .f32⟩ : BufTy).Contents (Elt F) → (⟨S50000x96, .f32⟩ : BufTy).Contents (Elt F)),
    StableHlo.nullary main_cst_13 (constant S_ .f32 0x00000000#32),
    StableHlo.binary main_v60 main_cst_13 main_v61 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_14 (constant S_ .f32 0x47435000#32),
    StableHlo.unary main_cst_14 main_v62 (broadcastInDim S96 ![] bcast_S_S96 : (⟨S_, .f32⟩ : BufTy).Contents (Elt F) → (⟨S96, .f32⟩ : BufTy).Contents (Elt F)),
    StableHlo.binary main_v61 main_v62 main_v63 (Host.divf : (⟨S96, .f32⟩ : BufTy).Contents (Elt F) → (⟨S96, .f32⟩ : BufTy).Contents (Elt F) → (⟨S96, .f32⟩ : BufTy).Contents (Elt F)),
    StableHlo.nullary main_c_15 (constantI S_ 32 0#32) ]

/-- Window 1 of @main, piece 1 (a call's operations): 22 operations. -/
abbrev w1_1 : List (HloOp τ sig (Elt F)) :=
  [ StableHlo.TRef.nullary (.of main_call2_cst : StableHlo.TRef sig ⟨S_, .f32⟩) (constant S_ .f32 0x00000000#32),
    StableHlo.TRef.binary (.of main_v60 : StableHlo.TRef sig ⟨S50000x96, .f32⟩) (.of main_call2_cst : StableHlo.TRef sig ⟨S_, .f32⟩) (.of main_call2_v0 : StableHlo.TRef sig ⟨S96, .f32⟩) (fun x v => Host.reduceAdd x v reducesTo_S50000x96_S96_d0 h_S_),
    StableHlo.TRef.unary (.of main_call2_v0 : StableHlo.TRef sig ⟨S96, .f32⟩) (.of main_call2_v1 : StableHlo.TRef sig ⟨S1x96, .f32⟩) (broadcastInDim S1x96 ![1] bcast_S96_S1x96_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x96, .f32⟩) (broadcastInDim S1x96 ![] bcast_S_S1x96),
    StableHlo.TRef.binary (.of main_call2_v1 : StableHlo.TRef sig ⟨S1x96, .f32⟩) (.of main_call2_v2 : StableHlo.TRef sig ⟨S1x96, .f32⟩) (.of main_call2_v3 : StableHlo.TRef sig ⟨S1x96, .f32⟩) Host.divf,
    StableHlo.TRef.unary (.of main_call2_v3 : StableHlo.TRef sig ⟨S1x96, .f32⟩) (.of main_call2_v4 : StableHlo.TRef sig ⟨S50000x96, .f32⟩) (broadcastInDim S50000x96 ![0, 1] bcast_S1x96_S50000x96_0_1),
    StableHlo.TRef.binary (.of main_v60 : StableHlo.TRef sig ⟨S50000x96, .f32⟩) (.of main_call2_v4 : StableHlo.TRef sig ⟨S50000x96, .f32⟩) (.of main_call2_v5 : StableHlo.TRef sig ⟨S50000x96, .f32⟩) subf,
    StableHlo.TRef.binary (.of main_call2_v5 : StableHlo.TRef sig ⟨S50000x96, .f32⟩) (.of main_call2_v5 : StableHlo.TRef sig ⟨S50000x96, .f32⟩) (.of main_call2_v6 : StableHlo.TRef sig ⟨S50000x96, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x96, .f32⟩) (.of main_call2_cst_2 : StableHlo.TRef sig ⟨S_, .f32⟩) (.of main_call2_v9 : StableHlo.TRef sig ⟨S96, .f32⟩) (fun x v => Host.reduceAdd x v reducesTo_S50000x96_S96_d0 h_S_),
    StableHlo.TRef.unary (.of main_call2_v8 : StableHlo.TRef sig ⟨S_, .f32⟩) (.of main_call2_v10 : StableHlo.TRef sig ⟨S96, .f32⟩) (broadcastInDim S96 ![] bcast_S_S96),
    StableHlo.TRef.binary (.of main_call2_v9 : StableHlo.TRef sig ⟨S96, .f32⟩) (.of main_call2_v10 : StableHlo.TRef sig ⟨S96, .f32⟩) (.of main_call2_v11 : StableHlo.TRef sig ⟨S96, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S96, .f32⟩) (broadcastInDim S96 ![] bcast_S_S96),
    StableHlo.TRef.ternary (.of main_call2_v12 : StableHlo.TRef sig ⟨S_, .i1⟩) (.of main_call2_v11 : StableHlo.TRef sig ⟨S96, .f32⟩) (.of main_call2_call0_v1 : StableHlo.TRef sig ⟨S96, .f32⟩) (.of main_v64 : StableHlo.TRef sig ⟨S96, .f32⟩) (fun p a b => select (broadcastInDim S96 ![] bcast_S_S96 p) a b) ]

/-- Window 1 of @main, piece 2: 20 operations. -/
abbrev w1_2 : List (HloOp τ sig (Elt F)) :=
  [ StableHlo.unary main_arg5 main_v65 ((extractStridedSlice S1x96 ![0, 0] · slices_S3x96_S1x96_0_0) : (⟨S3x96, .f32⟩ : BufTy).Contents (Elt F) → (⟨S1x96, .f32⟩ : BufTy).Contents (Elt F)),
    StableHlo.reshape main_v65 main_v66 rfl shapeCasts_S1x96_S96,
    StableHlo.unary main_v63 main_v67 (broadcastInDim S1x96 ![1] bcast_S96_S1x96_1 : (⟨S96, .f32⟩ : BufTy).Contents (Elt F) → (⟨S1x96, .f32⟩ : BufTy).Contents (Elt F)),
    StableHlo.unary main_v67 main_v68 (broadcastInDim S50000x96 ![0, 1] bcast_S1x96_S50000x96_0_1 : (⟨S1x96, .f32⟩ : BufTy).Contents (Elt F) → (⟨S50000x96, .f32⟩ : BufTy).Contents (Elt F)),
    StableHlo.binary main_v60 main_v68 main_v69 (subf : (⟨S50000x96, .f32⟩ : BufTy).Contents (Elt F) → (⟨S50000x96, .f32⟩ : BufTy).Contents (Elt F) → (⟨S50000x96, .f32⟩ : BufTy).Contents (Elt F)),
    StableHlo.unary main_v66 main_v70 (broadcastInDim S1x96 ![1] bcast_S96_S1x96_1 : (⟨S96, .f32⟩ : BufTy).Contents (Elt F) → (⟨S1x96, .f32⟩ : BufTy).Contents (Elt F)),
    StableHlo.unary main_v70 main_v71 (broadcastInDim S50000x96 ![0, 1] bcast_S1x96_S50000x96_0_1 : (⟨S1x96, .f32⟩ : BufTy).Contents (Elt F) → (⟨S50000x96, .f32⟩ : BufTy).Contents (Elt F)),
    StableHlo.binary main_v71 main_v69 main_v72 (mulf : (⟨S50000x96, .f32⟩ : BufTy).Contents (Elt F) → (⟨S50000x96, .f32⟩ : BufTy).Contents (Elt F) → (⟨S50000x96, .f32⟩ : BufTy).Contents (Elt F)),
    StableHlo.nullary main_cst_16 (constant S_ .f32 0x3727C5AC#32),
    StableHlo.unary main_cst_16 main_v73 (broadcastInDim S96 ![] bcast_S_S96 : (⟨S_, .f32⟩ : BufTy).Contents (Elt F) → (⟨S96, .f32⟩ : BufTy).Contents (Elt F)),
    StableHlo.binary main_v64 main_v73 main_v74 (addf : (⟨S96, .f32⟩ : BufTy).Contents (Elt F) → (⟨S96, .f32⟩ : BufTy).Contents (Elt F) → (⟨S96, .f32⟩ : BufTy).Contents (Elt F)),
    StableHlo.unary main_v74 main_v75 (Host.rsqrt : (⟨S96, .f32⟩ : BufTy).Contents (Elt F) → (⟨S96, .f32⟩ : BufTy).Contents (Elt F)),
    StableHlo.unary main_v75 main_v76 (broadcastInDim S1x96 ![1] bcast_S96_S1x96_1 : (⟨S96, .f32⟩ : BufTy).Contents (Elt F) → (⟨S1x96, .f32⟩ : BufTy).Contents (Elt F)),
    StableHlo.unary main_v76 main_v77 (broadcastInDim S50000x96 ![0, 1] bcast_S1x96_S50000x96_0_1 : (⟨S1x96, .f32⟩ : BufTy).Contents (Elt F) → (⟨S50000x96, .f32⟩ : BufTy).Contents (Elt F)),
    StableHlo.binary main_v72 main_v77 main_v78 (mulf : (⟨S50000x96, .f32⟩ : BufTy).Contents (Elt F) → (⟨S50000x96, .f32⟩ : BufTy).Contents (Elt F) → (⟨S50000x96, .f32⟩ : BufTy).Contents (Elt F)),
    StableHlo.unary main_arg6 main_v79 ((extractStridedSlice S1x96 ![0, 0] · slices_S3x96_S1x96_0_0) : (⟨S3x96, .f32⟩ : BufTy).Contents (Elt F) → (⟨S1x96, .f32⟩ : BufTy).Contents (Elt F)),
    StableHlo.reshape main_v79 main_v80 rfl shapeCasts_S1x96_S96,
    StableHlo.unary main_v80 main_v81 (broadcastInDim S1x96 ![1] bcast_S96_S1x96_1 : (⟨S96, .f32⟩ : BufTy).Contents (Elt F) → (⟨S1x96, .f32⟩ : BufTy).Contents (Elt F)),
    StableHlo.unary main_v81 main_v82 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v82 main_v83 (addf : (⟨S50000x96, .f32⟩ : BufTy).Contents (Elt F) → (⟨S50000x96, .f32⟩ : BufTy).Contents (Elt F) → (⟨S50000x96, .f32⟩ : BufTy).Contents (Elt F)) ]

/-- Window 1 of @main, piece 3 (a call's operations): 3 operations. -/
abbrev w1_3 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x96, .f32⟩) (broadcastInDim S50000x96 ![] bcast_S_S50000x96),
    StableHlo.TRef.binary (.of main_v83 : StableHlo.TRef sig ⟨S50000x96, .f32⟩) (.of main_call3_v0 : StableHlo.TRef sig ⟨S50000x96, .f32⟩) (.of main_v84 : StableHlo.TRef sig ⟨S50000x96, .f32⟩) maximumf ]

/-- Window 1 of @main, piece 4: 16 operations. -/
abbrev w1_4 : List (HloOp τ sig (Elt F)) :=
  [ StableHlo.unary main_v29 main_v85 (broadcastInDim S850000x1 ![0] bcast_S850000_S850000x1_0 : (⟨S850000, .f32⟩ : BufTy).Contents (Elt F) → (⟨S850000x1, .f32⟩ : BufTy).Contents (Elt F)),
    StableHlo.nullary main_c_17 (constantI S_ 32 0#32),
    StableHlo.unary main_c_17 main_v86 (broadcastInDim S850000 ![] bcast_S_S850000 : (⟨S_, .i32⟩ : BufTy).Contents (Elt F) → (⟨S850000, .i32⟩ : BufTy).Contents (Elt F)),
    StableHlo.binary main_v3 main_v86 main_v87 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v88 (broadcastInDim S850000 ![] bcast_S_S850000 : (⟨S_, .i32⟩ : BufTy).Contents (Elt F) → (⟨S850000, .i32⟩ : BufTy).Contents (Elt F)),
    StableHlo.binary main_v3 main_v88 main_v89 (addi : (⟨S850000, .i32⟩ : BufTy).Contents (Elt F) → (⟨S850000, .i32⟩ : BufTy).Contents (Elt F) → (⟨S850000, .i32⟩ : BufTy).Contents (Elt F)),
    StableHlo.ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v90 main_v91 (broadcastInDim S850000x1 ![0] bcast_S850000_S850000x1_0 : (⟨S850000, .i32⟩ : BufTy).Contents (Elt F) → (⟨S850000x1, .i32⟩ : BufTy).Contents (Elt F)),
    StableHlo.binary main_v84 main_v91 main_v92 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v85 main_v93 (broadcastInDim S850000x96 ![0, 1] bcast_S850000x1_S850000x96_0_1 : (⟨S850000x1, .f32⟩ : BufTy).Contents (Elt F) → (⟨S850000x96, .f32⟩ : BufTy).Contents (Elt F)),
    StableHlo.binary main_v93 main_v92 main_v94 (mulf : (⟨S850000x96, .f32⟩ : BufTy).Contents (Elt F) → (⟨S850000x96, .f32⟩ : BufTy).Contents (Elt F) → (⟨S850000x96, .f32⟩ : BufTy).Contents (Elt F)),
    StableHlo.nullary main_cst_19 (constant S_ .f32 0x00000000#32),
    StableHlo.unary main_cst_19 main_v95 (broadcastInDim S50000x96 ![] bcast_S_S50000x96 : (⟨S_, .f32⟩ : BufTy).Contents (Elt F) → (⟨S50000x96, .f32⟩ : BufTy).Contents (Elt F)),
    StableHlo.unary main_v6 main_v96 (broadcastInDim S850000x1 ![0] bcast_S850000_S850000x1_0 : (⟨S850000, .i32⟩ : BufTy).Contents (Elt F) → (⟨S850000x1, .i32⟩ : BufTy).Contents (Elt F)),
    StableHlo.ternary main_v95 main_v96 main_v94 main_v97 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]

/-- Window 2 of @main, piece 0: 23 operations. -/
abbrev w2_0 : List (HloOp τ sig (Elt F)) :=
  [ StableHlo.nullary main_cst_20 (constant S_ .f32 0x3F666666#32),
    StableHlo.unary main_cst_20 main_v98 (broadcastInDim S50000x96 ![] bcast_S_S50000x96 : (⟨S_, .f32⟩ : BufTy).Contents (Elt F) → (⟨S50000x96, .f32⟩ : BufTy).Contents (Elt F)),
    StableHlo.binary main_v98 main_v97 main_v99 (mulf : (⟨S50000x96, .f32⟩ : BufTy).Contents (Elt F) → (⟨S50000x96, .f32⟩ : BufTy).Contents (Elt F) → (⟨S50000x96, .f32⟩ : BufTy).Contents (Elt F)),
    StableHlo.nullary main_cst_21 (constant S_ .f32 0x3DCCCCCD#32),
    StableHlo.unary main_cst_21 main_v100 (broadcastInDim S50000x96 ![] bcast_S_S50000x96 : (⟨S_, .f32⟩ : BufTy).Contents (Elt F) → (⟨S50000x96, .f32⟩ : BufTy).Contents (Elt F)),
    StableHlo.binary main_v100 main_v34 main_v101 (mulf : (⟨S50000x96, .f32⟩ : BufTy).Contents (Elt F) → (⟨S50000x96, .f32⟩ : BufTy).Contents (Elt F) → (⟨S50000x96, .f32⟩ : BufTy).Contents (Elt F)),
    StableHlo.binary main_v99 main_v101 main_v102 (addf : (⟨S50000x96, .f32⟩ : BufTy).Contents (Elt F) → (⟨S50000x96, .f32⟩ : BufTy).Contents (Elt F) → (⟨S50000x96, .f32⟩ : BufTy).Contents (Elt F)),
    StableHlo.nullary main_cst_22 (constant S_ .f32 0x3F46E010#32),
    StableHlo.unary main_cst_22 main_v103 (broadcastInDim S50000x96 ![] bcast_S_S50000x96 : (⟨S_, .f32⟩ : BufTy).Contents (Elt F) → (⟨S50000x96, .f32⟩ : BufTy).Contents (Elt F)),
    StableHlo.binary main_v103 main_v102 main_v104 (mulf : (⟨S50000x96, .f32⟩ : BufTy).Contents (Elt F) → (⟨S50000x96, .f32⟩ : BufTy).Contents (Elt F) → (⟨S50000x96, .f32⟩ : BufTy).Contents (Elt F)),
    StableHlo.unary main_arg4 main_v105 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v105 main_v106 rfl shapeCasts_S1x96x96_S96x96,
    StableHlo.binary main_v102 main_v106 main_v107 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_23 (constant S_ .f32 0x3E647FBE#32),
    StableHlo.unary main_cst_23 main_v108 (broadcastInDim S50000x96 ![] bcast_S_S50000x96 : (⟨S_, .f32⟩ : BufTy).Contents (Elt F) → (⟨S50000x96, .f32⟩ : BufTy).Contents (Elt F)),
    StableHlo.binary main_v108 main_v107 main_v109 (mulf : (⟨S50000x96, .f32⟩ : BufTy).Contents (Elt F) → (⟨S50000x96, .f32⟩ : BufTy).Contents (Elt F) → (⟨S50000x96, .f32⟩ : BufTy).Contents (Elt F)),
    StableHlo.binary main_v104 main_v109 main_v110 (addf : (⟨S50000x96, .f32⟩ : BufTy).Contents (Elt F) → (⟨S50000x96, .f32⟩ : BufTy).Contents (Elt F) → (⟨S50000x96, .f32⟩ : BufTy).Contents (Elt F)),
    StableHlo.nullary main_cst_24 (constant S_ .f32 0x00000000#32),
    StableHlo.binary main_v110 main_cst_24 main_v111 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_25 (constant S_ .f32 0x47435000#32),
    StableHlo.unary main_cst_25 main_v112 (broadcastInDim S96 ![] bcast_S_S96 : (⟨S_, .f32⟩ : BufTy).Contents (Elt F) → (⟨S96, .f32⟩ : BufTy).Contents (Elt F)),
    StableHlo.binary main_v111 main_v112 main_v113 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32) ]

/-- Window 2 of @main, piece 1 (a call's operations): 22 operations. -/
abbrev w2_1 : List (HloOp τ sig (Elt F)) :=
  [ StableHlo.TRef.nullary (.of main_call4_cst : StableHlo.TRef sig ⟨S_, .f32⟩) (constant S_ .f32 0x00000000#32),
    StableHlo.TRef.binary (.of main_v110 : StableHlo.TRef sig ⟨S50000x96, .f32⟩) (.of main_call4_cst : StableHlo.TRef sig ⟨S_, .f32⟩) (.of main_call4_v0 : StableHlo.TRef sig ⟨S96, .f32⟩) (fun x v => Host.reduceAdd x v reducesTo_S50000x96_S96_d0 h_S_),
    StableHlo.TRef.unary (.of main_call4_v0 : StableHlo.TRef sig ⟨S96, .f32⟩) (.of main_call4_v1 : StableHlo.TRef sig ⟨S1x96, .f32⟩) (broadcastInDim S1x96 ![1] bcast_S96_S1x96_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x96, .f32⟩) (broadcastInDim S1x96 ![] bcast_S_S1x96),
    StableHlo.TRef.binary (.of main_call4_v1 : StableHlo.TRef sig ⟨S1x96, .f32⟩) (.of main_call4_v2 : StableHlo.TRef sig ⟨S1x96, .f32⟩) (.of main_call4_v3 : StableHlo.TRef sig ⟨S1x96, .f32⟩) Host.divf,
    StableHlo.TRef.unary (.of main_call4_v3 : StableHlo.TRef sig ⟨S1x96, .f32⟩) (.of main_call4_v4 : StableHlo.TRef sig ⟨S50000x96, .f32⟩) (broadcastInDim S50000x96 ![0, 1] bcast_S1x96_S50000x96_0_1),
    StableHlo.TRef.binary (.of main_v110 : StableHlo.TRef sig ⟨S50000x96, .f32⟩) (.of main_call4_v4 : StableHlo.TRef sig ⟨S50000x96, .f32⟩) (.of main_call4_v5 : StableHlo.TRef sig ⟨S50000x96, .f32⟩) subf,
    StableHlo.TRef.binary (.of main_call4_v5 : StableHlo.TRef sig ⟨S50000x96, .f32⟩) (.of main_call4_v5 : StableHlo.TRef sig ⟨S50000x96, .f32⟩) (.of main_call4_v6 : StableHlo.TRef sig ⟨S50000x96, .f32⟩) mulf,
    StableHlo.TRef.unary (.of main_c_26 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x96, .f32⟩) (.of main_call4_cst_2 : StableHlo.TRef sig ⟨S_, .f32⟩) (.of main_call4_v9 : StableHlo.TRef sig ⟨S96, .f32⟩) (fun x v => Host.reduceAdd x v reducesTo_S50000x96_S96_d0 h_S_),
    StableHlo.TRef.unary (.of main_call4_v8 : StableHlo.TRef sig ⟨S_, .f32⟩) (.of main_call4_v10 : StableHlo.TRef sig ⟨S96, .f32⟩) (broadcastInDim S96 ![] bcast_S_S96),
    StableHlo.TRef.binary (.of main_call4_v9 : StableHlo.TRef sig ⟨S96, .f32⟩) (.of main_call4_v10 : StableHlo.TRef sig ⟨S96, .f32⟩) (.of main_call4_v11 : StableHlo.TRef sig ⟨S96, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S96, .f32⟩) (broadcastInDim S96 ![] bcast_S_S96),
    StableHlo.TRef.ternary (.of main_call4_v12 : StableHlo.TRef sig ⟨S_, .i1⟩) (.of main_call4_v11 : StableHlo.TRef sig ⟨S96, .f32⟩) (.of main_call4_call0_v1 : StableHlo.TRef sig ⟨S96, .f32⟩) (.of main_v114 : StableHlo.TRef sig ⟨S96, .f32⟩) (fun p a b => select (broadcastInDim S96 ![] bcast_S_S96 p) a b) ]

/-- Window 2 of @main, piece 2: 20 operations. -/
abbrev w2_2 : List (HloOp τ sig (Elt F)) :=
  [ StableHlo.unary main_arg5 main_v115 ((extractStridedSlice S1x96 ![1, 0] · slices_S3x96_S1x96_1_0) : (⟨S3x96, .f32⟩ : BufTy).Contents (Elt F) → (⟨S1x96, .f32⟩ : BufTy).Contents (Elt F)),
    StableHlo.reshape main_v115 main_v116 rfl shapeCasts_S1x96_S96,
    StableHlo.unary main_v113 main_v117 (broadcastInDim S1x96 ![1] bcast_S96_S1x96_1 : (⟨S96, .f32⟩ : BufTy).Contents (Elt F) → (⟨S1x96, .f32⟩ : BufTy).Contents (Elt F)),
    StableHlo.unary main_v117 main_v118 (broadcastInDim S50000x96 ![0, 1] bcast_S1x96_S50000x96_0_1 : (⟨S1x96, .f32⟩ : BufTy).Contents (Elt F) → (⟨S50000x96, .f32⟩ : BufTy).Contents (Elt F)),
    StableHlo.binary main_v110 main_v118 main_v119 (subf : (⟨S50000x96, .f32⟩ : BufTy).Contents (Elt F) → (⟨S50000x96, .f32⟩ : BufTy).Contents (Elt F) → (⟨S50000x96, .f32⟩ : BufTy).Contents (Elt F)),
    StableHlo.unary main_v116 main_v120 (broadcastInDim S1x96 ![1] bcast_S96_S1x96_1 : (⟨S96, .f32⟩ : BufTy).Contents (Elt F) → (⟨S1x96, .f32⟩ : BufTy).Contents (Elt F)),
    StableHlo.unary main_v120 main_v121 (broadcastInDim S50000x96 ![0, 1] bcast_S1x96_S50000x96_0_1 : (⟨S1x96, .f32⟩ : BufTy).Contents (Elt F) → (⟨S50000x96, .f32⟩ : BufTy).Contents (Elt F)),
    StableHlo.binary main_v121 main_v119 main_v122 (mulf : (⟨S50000x96, .f32⟩ : BufTy).Contents (Elt F) → (⟨S50000x96, .f32⟩ : BufTy).Contents (Elt F) → (⟨S50000x96, .f32⟩ : BufTy).Contents (Elt F)),
    StableHlo.nullary main_cst_27 (constant S_ .f32 0x3727C5AC#32),
    StableHlo.unary main_cst_27 main_v123 (broadcastInDim S96 ![] bcast_S_S96 : (⟨S_, .f32⟩ : BufTy).Contents (Elt F) → (⟨S96, .f32⟩ : BufTy).Contents (Elt F)),
    StableHlo.binary main_v114 main_v123 main_v124 (addf : (⟨S96, .f32⟩ : BufTy).Contents (Elt F) → (⟨S96, .f32⟩ : BufTy).Contents (Elt F) → (⟨S96, .f32⟩ : BufTy).Contents (Elt F)),
    StableHlo.unary main_v124 main_v125 (Host.rsqrt : (⟨S96, .f32⟩ : BufTy).Contents (Elt F) → (⟨S96, .f32⟩ : BufTy).Contents (Elt F)),
    StableHlo.unary main_v125 main_v126 (broadcastInDim S1x96 ![1] bcast_S96_S1x96_1 : (⟨S96, .f32⟩ : BufTy).Contents (Elt F) → (⟨S1x96, .f32⟩ : BufTy).Contents (Elt F)),
    StableHlo.unary main_v126 main_v127 (broadcastInDim S50000x96 ![0, 1] bcast_S1x96_S50000x96_0_1 : (⟨S1x96, .f32⟩ : BufTy).Contents (Elt F) → (⟨S50000x96, .f32⟩ : BufTy).Contents (Elt F)),
    StableHlo.binary main_v122 main_v127 main_v128 (mulf : (⟨S50000x96, .f32⟩ : BufTy).Contents (Elt F) → (⟨S50000x96, .f32⟩ : BufTy).Contents (Elt F) → (⟨S50000x96, .f32⟩ : BufTy).Contents (Elt F)),
    StableHlo.unary main_arg6 main_v129 ((extractStridedSlice S1x96 ![1, 0] · slices_S3x96_S1x96_1_0) : (⟨S3x96, .f32⟩ : BufTy).Contents (Elt F) → (⟨S1x96, .f32⟩ : BufTy).Contents (Elt F)),
    StableHlo.reshape main_v129 main_v130 rfl shapeCasts_S1x96_S96,
    StableHlo.unary main_v130 main_v131 (broadcastInDim S1x96 ![1] bcast_S96_S1x96_1 : (⟨S96, .f32⟩ : BufTy).Contents (Elt F) → (⟨S1x96, .f32⟩ : BufTy).Contents (Elt F)),
    StableHlo.unary main_v131 main_v132 (broadcastInDim S50000x96 ![0, 1] bcast_S1x96_S50000x96_0_1 : (⟨S1x96, .f32⟩ : BufTy).Contents (Elt F) → (⟨S50000x96, .f32⟩ : BufTy).Contents (Elt F)),
    StableHlo.binary main_v128 main_v132 main_v133 (addf : (⟨S50000x96, .f32⟩ : BufTy).Contents (Elt F) → (⟨S50000x96, .f32⟩ : BufTy).Contents (Elt F) → (⟨S50000x96, .f32⟩ : BufTy).Contents (Elt F)) ]

/-- Window 2 of @main, piece 3 (a call's operations): 3 operations. -/
abbrev w2_3 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x96, .f32⟩) (broadcastInDim S50000x96 ![] bcast_S_S50000x96),
    StableHlo.TRef.binary (.of main_v133 : StableHlo.TRef sig ⟨S50000x96, .f32⟩) (.of main_call5_v0 : StableHlo.TRef sig ⟨S50000x96, .f32⟩) (.of main_v134 : StableHlo.TRef sig ⟨S50000x96, .f32⟩) maximumf ]

/-- Window 2 of @main, piece 4: 15 operations. -/
abbrev w2_4 : List (HloOp τ sig (Elt F)) :=
  [ StableHlo.unary main_v29 main_v135 (broadcastInDim S850000x1 ![0] bcast_S850000_S850000x1_0 : (⟨S850000, .f32⟩ : BufTy).Contents (Elt F) → (⟨S850000x1, .f32⟩ : BufTy).Contents (Elt F)),
    StableHlo.nullary main_c_28 (constantI S_ 32 0#32),
    StableHlo.unary main_c_28 main_v136 (broadcastInDim S850000 ![] bcast_S_S850000 : (⟨S_, .i32⟩ : BufTy).Contents (Elt F) → (⟨S850000, .i32⟩ : BufTy).Contents (Elt F)),
    StableHlo.binary main_v3 main_v136 main_v137 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v138 (broadcastInDim S850000 ![] bcast_S_S850000 : (⟨S_, .i32⟩ : BufTy).Contents (Elt F) → (⟨S850000, .i32⟩ : BufTy).Contents (Elt F)),
    StableHlo.binary main_v3 main_v138 main_v139 (addi : (⟨S850000, .i32⟩ : BufTy).Contents (Elt F) → (⟨S850000, .i32⟩ : BufTy).Contents (Elt F) → (⟨S850000, .i32⟩ : BufTy).Contents (Elt F)),
    StableHlo.ternary main_v137 main_v139 main_v3 main_v140 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v140 main_v141 (broadcastInDim S850000x1 ![0] bcast_S850000_S850000x1_0 : (⟨S850000, .i32⟩ : BufTy).Contents (Elt F) → (⟨S850000x1, .i32⟩ : BufTy).Contents (Elt F)),
    StableHlo.binary main_v134 main_v141 main_v142 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v135 main_v143 (broadcastInDim S850000x96 ![0, 1] bcast_S850000x1_S850000x96_0_1 : (⟨S850000x1, .f32⟩ : BufTy).Contents (Elt F) → (⟨S850000x96, .f32⟩ : BufTy).Contents (Elt F)),
    StableHlo.binary main_v143 main_v142 main_v144 (mulf : (⟨S850000x96, .f32⟩ : BufTy).Contents (Elt F) → (⟨S850000x96, .f32⟩ : BufTy).Contents (Elt F) → (⟨S850000x96, .f32⟩ : BufTy).Contents (Elt F)),
    StableHlo.nullary main_cst_30 (constant S_ .f32 0x00000000#32),
    StableHlo.unary main_cst_30 main_v145 (broadcastInDim S50000x96 ![] bcast_S_S50000x96 : (⟨S_, .f32⟩ : BufTy).Contents (Elt F) → (⟨S50000x96, .f32⟩ : BufTy).Contents (Elt F)),
    StableHlo.unary main_v6 main_v146 (broadcastInDim S850000x1 ![0] bcast_S850000_S850000x1_0 : (⟨S850000, .i32⟩ : BufTy).Contents (Elt F) → (⟨S850000x1, .i32⟩ : BufTy).Contents (Elt F)) ]

/-- Window 3 of @main, piece 0: 24 operations. -/
abbrev w3_0 : List (HloOp τ sig (Elt F)) :=
  [ StableHlo.ternary main_v145 main_v146 main_v144 main_v147 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.nullary main_cst_31 (constant S_ .f32 0x3F666666#32),
    StableHlo.unary main_cst_31 main_v148 (broadcastInDim S50000x96 ![] bcast_S_S50000x96 : (⟨S_, .f32⟩ : BufTy).Contents (Elt F) → (⟨S50000x96, .f32⟩ : BufTy).Contents (Elt F)),
    StableHlo.binary main_v148 main_v147 main_v149 (mulf : (⟨S50000x96, .f32⟩ : BufTy).Contents (Elt F) → (⟨S50000x96, .f32⟩ : BufTy).Contents (Elt F) → (⟨S50000x96, .f32⟩ : BufTy).Contents (Elt F)),
    StableHlo.nullary main_cst_32 (constant S_ .f32 0x3DCCCCCD#32),
    StableHlo.unary main_cst_32 main_v150 (broadcastInDim S50000x96 ![] bcast_S_S50000x96 : (⟨S_, .f32⟩ : BufTy).Contents (Elt F) → (⟨S50000x96, .f32⟩ : BufTy).Contents (Elt F)),
    StableHlo.binary main_v150 main_v34 main_v151 (mulf : (⟨S50000x96, .f32⟩ : BufTy).Contents (Elt F) → (⟨S50000x96, .f32⟩ : BufTy).Contents (Elt F) → (⟨S50000x96, .f32⟩ : BufTy).Contents (Elt F)),
    StableHlo.binary main_v149 main_v151 main_v152 (addf : (⟨S50000x96, .f32⟩ : BufTy).Contents (Elt F) → (⟨S50000x96, .f32⟩ : BufTy).Contents (Elt F) → (⟨S50000x96, .f32⟩ : BufTy).Contents (Elt F)),
    StableHlo.nullary main_cst_33 (constant S_ .f32 0x3F588995#32),
    StableHlo.unary main_cst_33 main_v153 (broadcastInDim S50000x96 ![] bcast_S_S50000x96 : (⟨S_, .f32⟩ : BufTy).Contents (Elt F) → (⟨S50000x96, .f32⟩ : BufTy).Contents (Elt F)),
    StableHlo.binary main_v153 main_v152 main_v154 (mulf : (⟨S50000x96, .f32⟩ : BufTy).Contents (Elt F) → (⟨S50000x96, .f32⟩ : BufTy).Contents (Elt F) → (⟨S50000x96, .f32⟩ : BufTy).Contents (Elt F)),
    StableHlo.unary main_arg4 main_v155 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v155 main_v156 rfl shapeCasts_S1x96x96_S96x96,
    StableHlo.binary main_v152 main_v156 main_v157 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_34 (constant S_ .f32 0x3E1DD9AD#32),
    StableHlo.unary main_cst_34 main_v158 (broadcastInDim S50000x96 ![] bcast_S_S50000x96 : (⟨S_, .f32⟩ : BufTy).Contents (Elt F) → (⟨S50000x96, .f32⟩ : BufTy).Contents (Elt F)),
    StableHlo.binary main_v158 main_v157 main_v159 (mulf : (⟨S50000x96, .f32⟩ : BufTy).Contents (Elt F) → (⟨S50000x96, .f32⟩ : BufTy).Contents (Elt F) → (⟨S50000x96, .f32⟩ : BufTy).Contents (Elt F)),
    StableHlo.binary main_v154 main_v159 main_v160 (addf : (⟨S50000x96, .f32⟩ : BufTy).Contents (Elt F) → (⟨S50000x96, .f32⟩ : BufTy).Contents (Elt F) → (⟨S50000x96, .f32⟩ : BufTy).Contents (Elt F)),
    StableHlo.nullary main_cst_35 (constant S_ .f32 0x00000000#32),
    StableHlo.binary main_v160 main_cst_35 main_v161 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_36 (constant S_ .f32 0x47435000#32),
    StableHlo.unary main_cst_36 main_v162 (broadcastInDim S96 ![] bcast_S_S96 : (⟨S_, .f32⟩ : BufTy).Contents (Elt F) → (⟨S96, .f32⟩ : BufTy).Contents (Elt F)),
    StableHlo.binary main_v161 main_v162 main_v163 (Host.divf : (⟨S96, .f32⟩ : BufTy).Contents (Elt F) → (⟨S96, .f32⟩ : BufTy).Contents (Elt F) → (⟨S96, .f32⟩ : BufTy).Contents (Elt F)),
    StableHlo.nullary main_c_37 (constantI S_ 32 0#32) ]

/-- Window 3 of @main, piece 1 (a call's operations): 22 operations. -/
abbrev w3_1 : List (HloOp τ sig (Elt F)) :=
  [ StableHlo.TRef.nullary (.of main_call6_cst : StableHlo.TRef sig ⟨S_, .f32⟩) (constant S_ .f32 0x00000000#32),
    StableHlo.TRef.binary (.of main_v160 : StableHlo.TRef sig ⟨S50000x96, .f32⟩) (.of main_call6_cst : StableHlo.TRef sig ⟨S_, .f32⟩) (.of main_call6_v0 : StableHlo.TRef sig ⟨S96, .f32⟩) (fun x v => Host.reduceAdd x v reducesTo_S50000x96_S96_d0 h_S_),
    StableHlo.TRef.unary (.of main_call6_v0 : StableHlo.TRef sig ⟨S96, .f32⟩) (.of main_call6_v1 : StableHlo.TRef sig ⟨S1x96, .f32⟩) (broadcastInDim S1x96 ![1] bcast_S96_S1x96_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x96, .f32⟩) (broadcastInDim S1x96 ![] bcast_S_S1x96),
    StableHlo.TRef.binary (.of main_call6_v1 : StableHlo.TRef sig ⟨S1x96, .f32⟩) (.of main_call6_v2 : StableHlo.TRef sig ⟨S1x96, .f32⟩) (.of main_call6_v3 : StableHlo.TRef sig ⟨S1x96, .f32⟩) Host.divf,
    StableHlo.TRef.unary (.of main_call6_v3 : StableHlo.TRef sig ⟨S1x96, .f32⟩) (.of main_call6_v4 : StableHlo.TRef sig ⟨S50000x96, .f32⟩) (broadcastInDim S50000x96 ![0, 1] bcast_S1x96_S50000x96_0_1),
    StableHlo.TRef.binary (.of main_v160 : StableHlo.TRef sig ⟨S50000x96, .f32⟩) (.of main_call6_v4 : StableHlo.TRef sig ⟨S50000x96, .f32⟩) (.of main_call6_v5 : StableHlo.TRef sig ⟨S50000x96, .f32⟩) subf,
    StableHlo.TRef.binary (.of main_call6_v5 : StableHlo.TRef sig ⟨S50000x96, .f32⟩) (.of main_call6_v5 : StableHlo.TRef sig ⟨S50000x96, .f32⟩) (.of main_call6_v6 : StableHlo.TRef sig ⟨S50000x96, .f32⟩) mulf,
    StableHlo.TRef.unary (.of main_c_37 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x96, .f32⟩) (.of main_call6_cst_2 : StableHlo.TRef sig ⟨S_, .f32⟩) (.of main_call6_v9 : StableHlo.TRef sig ⟨S96, .f32⟩) (fun x v => Host.reduceAdd x v reducesTo_S50000x96_S96_d0 h_S_),
    StableHlo.TRef.unary (.of main_call6_v8 : StableHlo.TRef sig ⟨S_, .f32⟩) (.of main_call6_v10 : StableHlo.TRef sig ⟨S96, .f32⟩) (broadcastInDim S96 ![] bcast_S_S96),
    StableHlo.TRef.binary (.of main_call6_v9 : StableHlo.TRef sig ⟨S96, .f32⟩) (.of main_call6_v10 : StableHlo.TRef sig ⟨S96, .f32⟩) (.of main_call6_v11 : StableHlo.TRef sig ⟨S96, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S96, .f32⟩) (broadcastInDim S96 ![] bcast_S_S96),
    StableHlo.TRef.ternary (.of main_call6_v12 : StableHlo.TRef sig ⟨S_, .i1⟩) (.of main_call6_v11 : StableHlo.TRef sig ⟨S96, .f32⟩) (.of main_call6_call0_v1 : StableHlo.TRef sig ⟨S96, .f32⟩) (.of main_v164 : StableHlo.TRef sig ⟨S96, .f32⟩) (fun p a b => select (broadcastInDim S96 ![] bcast_S_S96 p) a b) ]

/-- Window 3 of @main, piece 2: 20 operations. -/
abbrev w3_2 : List (HloOp τ sig (Elt F)) :=
  [ StableHlo.unary main_arg5 main_v165 ((extractStridedSlice S1x96 ![2, 0] · slices_S3x96_S1x96_2_0) : (⟨S3x96, .f32⟩ : BufTy).Contents (Elt F) → (⟨S1x96, .f32⟩ : BufTy).Contents (Elt F)),
    StableHlo.reshape main_v165 main_v166 rfl shapeCasts_S1x96_S96,
    StableHlo.unary main_v163 main_v167 (broadcastInDim S1x96 ![1] bcast_S96_S1x96_1 : (⟨S96, .f32⟩ : BufTy).Contents (Elt F) → (⟨S1x96, .f32⟩ : BufTy).Contents (Elt F)),
    StableHlo.unary main_v167 main_v168 (broadcastInDim S50000x96 ![0, 1] bcast_S1x96_S50000x96_0_1 : (⟨S1x96, .f32⟩ : BufTy).Contents (Elt F) → (⟨S50000x96, .f32⟩ : BufTy).Contents (Elt F)),
    StableHlo.binary main_v160 main_v168 main_v169 (subf : (⟨S50000x96, .f32⟩ : BufTy).Contents (Elt F) → (⟨S50000x96, .f32⟩ : BufTy).Contents (Elt F) → (⟨S50000x96, .f32⟩ : BufTy).Contents (Elt F)),
    StableHlo.unary main_v166 main_v170 (broadcastInDim S1x96 ![1] bcast_S96_S1x96_1 : (⟨S96, .f32⟩ : BufTy).Contents (Elt F) → (⟨S1x96, .f32⟩ : BufTy).Contents (Elt F)),
    StableHlo.unary main_v170 main_v171 (broadcastInDim S50000x96 ![0, 1] bcast_S1x96_S50000x96_0_1 : (⟨S1x96, .f32⟩ : BufTy).Contents (Elt F) → (⟨S50000x96, .f32⟩ : BufTy).Contents (Elt F)),
    StableHlo.binary main_v171 main_v169 main_v172 (mulf : (⟨S50000x96, .f32⟩ : BufTy).Contents (Elt F) → (⟨S50000x96, .f32⟩ : BufTy).Contents (Elt F) → (⟨S50000x96, .f32⟩ : BufTy).Contents (Elt F)),
    StableHlo.nullary main_cst_38 (constant S_ .f32 0x3727C5AC#32),
    StableHlo.unary main_cst_38 main_v173 (broadcastInDim S96 ![] bcast_S_S96 : (⟨S_, .f32⟩ : BufTy).Contents (Elt F) → (⟨S96, .f32⟩ : BufTy).Contents (Elt F)),
    StableHlo.binary main_v164 main_v173 main_v174 (addf : (⟨S96, .f32⟩ : BufTy).Contents (Elt F) → (⟨S96, .f32⟩ : BufTy).Contents (Elt F) → (⟨S96, .f32⟩ : BufTy).Contents (Elt F)),
    StableHlo.unary main_v174 main_v175 (Host.rsqrt : (⟨S96, .f32⟩ : BufTy).Contents (Elt F) → (⟨S96, .f32⟩ : BufTy).Contents (Elt F)),
    StableHlo.unary main_v175 main_v176 (broadcastInDim S1x96 ![1] bcast_S96_S1x96_1 : (⟨S96, .f32⟩ : BufTy).Contents (Elt F) → (⟨S1x96, .f32⟩ : BufTy).Contents (Elt F)),
    StableHlo.unary main_v176 main_v177 (broadcastInDim S50000x96 ![0, 1] bcast_S1x96_S50000x96_0_1 : (⟨S1x96, .f32⟩ : BufTy).Contents (Elt F) → (⟨S50000x96, .f32⟩ : BufTy).Contents (Elt F)),
    StableHlo.binary main_v172 main_v177 main_v178 (mulf : (⟨S50000x96, .f32⟩ : BufTy).Contents (Elt F) → (⟨S50000x96, .f32⟩ : BufTy).Contents (Elt F) → (⟨S50000x96, .f32⟩ : BufTy).Contents (Elt F)),
    StableHlo.unary main_arg6 main_v179 ((extractStridedSlice S1x96 ![2, 0] · slices_S3x96_S1x96_2_0) : (⟨S3x96, .f32⟩ : BufTy).Contents (Elt F) → (⟨S1x96, .f32⟩ : BufTy).Contents (Elt F)),
    StableHlo.reshape main_v179 main_v180 rfl shapeCasts_S1x96_S96,
    StableHlo.unary main_v180 main_v181 (broadcastInDim S1x96 ![1] bcast_S96_S1x96_1 : (⟨S96, .f32⟩ : BufTy).Contents (Elt F) → (⟨S1x96, .f32⟩ : BufTy).Contents (Elt F)),
    StableHlo.unary main_v181 main_v182 (broadcastInDim S50000x96 ![0, 1] bcast_S1x96_S50000x96_0_1 : (⟨S1x96, .f32⟩ : BufTy).Contents (Elt F) → (⟨S50000x96, .f32⟩ : BufTy).Contents (Elt F)),
    StableHlo.binary main_v178 main_v182 main_v183 (addf : (⟨S50000x96, .f32⟩ : BufTy).Contents (Elt F) → (⟨S50000x96, .f32⟩ : BufTy).Contents (Elt F) → (⟨S50000x96, .f32⟩ : BufTy).Contents (Elt F)) ]

/-- Window 3 of @main, piece 3 (a call's operations): 3 operations. -/
abbrev w3_3 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x96, .f32⟩) (broadcastInDim S50000x96 ![] bcast_S_S50000x96),
    StableHlo.TRef.binary (.of main_v183 : StableHlo.TRef sig ⟨S50000x96, .f32⟩) (.of main_call7_v0 : StableHlo.TRef sig ⟨S50000x96, .f32⟩) (.of main_v184 : StableHlo.TRef sig ⟨S50000x96, .f32⟩) maximumf ]

/-- Window 3 of @main, piece 4: 4 operations. -/
abbrev w3_4 : List (HloOp τ sig (Elt F)) :=
  [ StableHlo.binary main_v184 main_arg7 main_v185 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    StableHlo.unary main_arg8 main_v186 (broadcastInDim S1x40 ![1] bcast_S40_S1x40_1 : (⟨S40, .f32⟩ : BufTy).Contents (Elt F) → (⟨S1x40, .f32⟩ : BufTy).Contents (Elt F)),
    StableHlo.unary main_v186 main_v187 (broadcastInDim S50000x40 ![0, 1] bcast_S1x40_S50000x40_0_1 : (⟨S1x40, .f32⟩ : BufTy).Contents (Elt F) → (⟨S50000x40, .f32⟩ : BufTy).Contents (Elt F)),
    StableHlo.binary main_v185 main_v187 main_v188 (addf : (⟨S50000x40, .f32⟩ : BufTy).Contents (Elt F) → (⟨S50000x40, .f32⟩ : BufTy).Contents (Elt F) → (⟨S50000x40, .f32⟩ : BufTy).Contents (Elt F)) ]

end Cert.Gcn.ROps

end
-- ==== Proof.RRun.lean ====
import proofs.«408610_j12541304504853_3_alg».proof.Proof.ROps
import Idealize.ShloMosaic.Lib.StableHlo.Run
import Idealize.ShloMosaic.Lib.Pipeline.Regions

/-! The reference program is the straight line of its operations, and its run: from any memory every TensorCore
    buffer ends at the fold of the operations over the launch contents. -/

noncomputable section

namespace Cert.Gcn.RRun

open Cert.ReferenceIdeal Cert.ReferenceIdeal.Gen Idealize.ShloMosaic Idealize.ShloMosaic.TcCoe Idealize.SL.Sem Idealize.ShloMosaic.StableHlo
open Cert.Gcn.ROps

variable {F : FTy → Type} [FloatOps F]

/-- The host programs of this signature. -/
abbrev Pr (F : FTy → Type) [FloatOps F] :=
  Prog (TpuEff nD τ sig (Elt F) (Pipeline.Sig Λ₀ (Fin 0) fun p => (pcfgs (F := F) p).Adm) .tc) PUnit

/-- Straight lines run one after the other are the straight line of their concatenation. -/
theorem chain_seq : ∀ ls : List (List (HloOp τ sig (Elt F))),
    (Pipeline.chain (ls.map fun l => (seq l : Pr F)) : Pr F) = seq ls.flatten
  | [] => rfl
  | l :: ls => by
    rw [List.map_cons, Pipeline.chain_cons, List.flatten_cons, seq_append, chain_seq ls]

/-! ## Each window of @main is its pieces in order: a called function's body is the line of its own operations -/

theorem part0_eq (c : Dev nD) : main_part0 (F := F) c
    = (Pipeline.chainK [seq w0_0, seq w0_1, seq w0_2, seq w0_3] (seq w0_4) : Pr F) := by
  chain_rfl

theorem part1_eq (c : Dev nD) : main_part1 (F := F) c
    = (Pipeline.chainK [seq w1_0, seq w1_1, seq w1_2, seq w1_3] (seq w1_4) : Pr F) := by
  chain_rfl

theorem part2_eq (c : Dev nD) : main_part2 (F := F) c
    = (Pipeline.chainK [seq w2_0, seq w2_1, seq w2_2, seq w2_3] (seq w2_4) : Pr F) := by
  chain_rfl

theorem part3_eq (c : Dev nD) : main_part3 (F := F) c
    = (Pipeline.chain [seq w3_0, seq w3_1, seq w3_2, seq w3_3, seq w3_4] : Pr F) := by
  chain_rfl

/-- The windows' pieces, in order. -/
abbrev pieces : List (List (HloOp τ sig (Elt F))) :=
  [w0_0, w0_1, w0_2, w0_3, w0_4, w1_0, w1_1, w1_2, w1_3, w1_4, w2_0, w2_1, w2_2, w2_3, w2_4, w3_0, w3_1, w3_2, w3_3, w3_4]

/-- The pieces in order are the five stretches in order: the same operations, cut differently. -/
theorem pieces_eq : (pieces : List (List (HloOp τ sig (Elt F)))).flatten = ops := by
  chain_rfl

/-- @main is the straight line of its 303 operations. -/
theorem main_eq (c : Dev nD) : main (F := F) c = seq ops := by
  show (main_part0 (F := F) c >>= fun _ => main_part1 (F := F) c >>= fun _ => main_part2 (F := F) c >>= fun _ =>
    main_part3 (F := F) c) = _
  rewrite [part3_eq (F := F), part2_eq (F := F), Pipeline.chainK_bind_chain, part1_eq (F := F), Pipeline.chainK_bind_chain,
    part0_eq (F := F), Pipeline.chainK_bind_chain, ← pieces_eq (F := F)]
  exact chain_seq (F := F) pieces

/-! ## The run -/

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {a b : List α} (ha : a.Forall p) (hb : b.Forall p) : (a ++ b).Forall p :=
  List.forall_iff_forall_mem.2 fun x hx =>
    (List.mem_append.1 hx).elim (List.forall_iff_forall_mem.1 ha x) (List.forall_iff_forall_mem.1 hb x)

/-- Every operation touches TensorCore references only. -/
theorem ops_sub : (ops : List (HloOp τ sig (Elt F))).Forall fun op => op.bufs ⊆ tcRefs τ sig :=
  forall_append (forall_append (forall_append (forall_append ops0_sub ops1_sub) ops2_sub) ops3_sub) ops4_sub

/-! No operation leaves a result undetermined: stretch by stretch, operation by operation. -/

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · rcases List.mem_append.1 h with h | h
    · rcases List.mem_append.1 h with h | h
      · rcases List.mem_append.1 h with h | h
        · exact ops0_fresh op h
        · exact ops1_fresh op h
      · exact ops2_fresh op h
    · exact ops3_fresh op h
  · exact ops4_fresh op h

/-- From any memory with zero counters, every weakly fair execution of @main terminates with each TensorCore
    buffer at the fold of the 303 operations over the device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Gcn.RRun

end
-- ==== Proof.RFoldBase.lean ====
/-
  What the reference's fold rests on: the fold over two lists in a row, a buffer that no operation of a list writes,
  and a buffer that each of the program's five stretches keeps.
-/
import proofs.«408610_j12541304504853_3_alg».proof.Proof.ROps
import Idealize.ShloMosaic.Lib.StableHlo.Run
import Idealize.ShloMosaic.PureOps.Ideal

noncomputable section

namespace Cert.Gcn.RFold

open Cert.ReferenceIdeal Cert.ReferenceIdeal.Gen Idealize.ShloMosaic Idealize.ShloMosaic.TcCoe Idealize.ShloMosaic.StableHlo

/-- A buffer that no operation of a literal list writes keeps its contents: each operation's written set is its one
    result buffer, and the buffer's reference differs from each of them. The argument names the list. -/
macro "rfold_keeps" ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The fold over two lists in a row is the fold over the second from the fold over the first. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by
    rw [List.cons_append, StableHlo.after_cons, StableHlo.after_cons, after_app l₁ l₂]

/-- A buffer each of the five stretches keeps is kept by the whole program. -/
theorem after_ops_of_keeps (b : DevRef τ sig)
    (h0 : ∀ V, StableHlo.after (ROps.ops0 (F := Ideal)) V b = V b)
    (h1 : ∀ V, StableHlo.after (ROps.ops1 (F := Ideal)) V b = V b)
    (h2 : ∀ V, StableHlo.after (ROps.ops2 (F := Ideal)) V b = V b)
    (h3 : ∀ V, StableHlo.after (ROps.ops3 (F := Ideal)) V b = V b)
    (h4 : ∀ V, StableHlo.after (ROps.ops4 (F := Ideal)) V b = V b)
    (V : Valuation τ sig (Elt Ideal)) : StableHlo.after (ROps.ops (F := Ideal)) V b = V b := by
  show StableHlo.after (ROps.ops0 ++ ROps.ops1 ++ ROps.ops2 ++ ROps.ops3 ++ ROps.ops4) V b = V b
  rw [after_app, after_app, after_app, after_app, h4, h3, h2, h1, h0]

end Cert.Gcn.RFold

end
-- ==== Proof.RKeep.lean ====
/- Each stretch of the reference's operations leaves each of the nine arguments in place (`keepJ_argK`: stretch J,
    argument K), layers 1 and 2 leave the edge lists %3 and %6, the normalisation %29 and the first layer's input %34
    in place (`keep1_v3` … `keep2_v34`), and so each argument ends the whole program as launched (`rargK`). One
    theorem per pair, each by the same step: no operation of the stretch has that buffer as its result. -/
import proofs.«408610_j12541304504853_3_alg».proof.Proof.RFoldBase

set_option maxHeartbeats 1600000

noncomputable section

namespace Cert.Gcn.RFold

open Cert.ReferenceIdeal Cert.ReferenceIdeal.Gen Idealize.ShloMosaic Idealize.ShloMosaic.TcCoe Idealize.ShloMosaic.StableHlo

section Stretches

variable (V : Valuation τ sig (Elt Ideal))

/-! Stretch 0 writes no argument. -/
theorem keep0_arg0 : StableHlo.after (ROps.ops0 (F := Ideal)) V (main_arg0 : DevRef τ sig) = V (main_arg0 : DevRef τ sig) := by
  rfold_keeps ROps.ops0
theorem keep0_arg1 : StableHlo.after (ROps.ops0 (F := Ideal)) V (main_arg1 : DevRef τ sig) = V (main_arg1 : DevRef τ sig) := by
  rfold_keeps ROps.ops0
theorem keep0_arg2 : StableHlo.after (ROps.ops0 (F := Ideal)) V (main_arg2 : DevRef τ sig) = V (main_arg2 : DevRef τ sig) := by
  rfold_keeps ROps.ops0
theorem keep0_arg3 : StableHlo.after (ROps.ops0 (F := Ideal)) V (main_arg3 : DevRef τ sig) = V (main_arg3 : DevRef τ sig) := by
  rfold_keeps ROps.ops0
theorem keep0_arg4 : StableHlo.after (ROps.ops0 (F := Ideal)) V (main_arg4 : DevRef τ sig) = V (main_arg4 : DevRef τ sig) := by
  rfold_keeps ROps.ops0
theorem keep0_arg5 : StableHlo.after (ROps.ops0 (F := Ideal)) V (main_arg5 : DevRef τ sig) = V (main_arg5 : DevRef τ sig) := by
  rfold_keeps ROps.ops0
theorem keep0_arg6 : StableHlo.after (ROps.ops0 (F := Ideal)) V (main_arg6 : DevRef τ sig) = V (main_arg6 : DevRef τ sig) := by
  rfold_keeps ROps.ops0
theorem keep0_arg7 : StableHlo.after (ROps.ops0 (F := Ideal)) V (main_arg7 : DevRef τ sig) = V (main_arg7 : DevRef τ sig) := by
  rfold_keeps ROps.ops0
theorem keep0_arg8 : StableHlo.after (ROps.ops0 (F := Ideal)) V (main_arg8 : DevRef τ sig) = V (main_arg8 : DevRef τ sig) := by
  rfold_keeps ROps.ops0

/-! Stretch 1 writes no argument. -/
theorem keep1_arg0 : StableHlo.after (ROps.ops1 (F := Ideal)) V (main_arg0 : DevRef τ sig) = V (main_arg0 : DevRef τ sig) := by
  rfold_keeps ROps.ops1
theorem keep1_arg1 : StableHlo.after (ROps.ops1 (F := Ideal)) V (main_arg1 : DevRef τ sig) = V (main_arg1 : DevRef τ sig) := by
  rfold_keeps ROps.ops1
theorem keep1_arg2 : StableHlo.after (ROps.ops1 (F := Ideal)) V (main_arg2 : DevRef τ sig) = V (main_arg2 : DevRef τ sig) := by
  rfold_keeps ROps.ops1
theorem keep1_arg3 : StableHlo.after (ROps.ops1 (F := Ideal)) V (main_arg3 : DevRef τ sig) = V (main_arg3 : DevRef τ sig) := by
  rfold_keeps ROps.ops1
theorem keep1_arg4 : StableHlo.after (ROps.ops1 (F := Ideal)) V (main_arg4 : DevRef τ sig) = V (main_arg4 : DevRef τ sig) := by
  rfold_keeps ROps.ops1
theorem keep1_arg5 : StableHlo.after (ROps.ops1 (F := Ideal)) V (main_arg5 : DevRef τ sig) = V (main_arg5 : DevRef τ sig) := by
  rfold_keeps ROps.ops1
theorem keep1_arg6 : StableHlo.after (ROps.ops1 (F := Ideal)) V (main_arg6 : DevRef τ sig) = V (main_arg6 : DevRef τ sig) := by
  rfold_keeps ROps.ops1
theorem keep1_arg7 : StableHlo.after (ROps.ops1 (F := Ideal)) V (main_arg7 : DevRef τ sig) = V (main_arg7 : DevRef τ sig) := by
  rfold_keeps ROps.ops1
theorem keep1_arg8 : StableHlo.after (ROps.ops1 (F := Ideal)) V (main_arg8 : DevRef τ sig) = V (main_arg8 : DevRef τ sig) := by
  rfold_keeps ROps.ops1

/-! Stretch 2 writes no argument. -/
theorem keep2_arg0 : StableHlo.after (ROps.ops2 (F := Ideal)) V (main_arg0 : DevRef τ sig) = V (main_arg0 : DevRef τ sig) := by
  rfold_keeps ROps.ops2
theorem keep2_arg1 : StableHlo.after (ROps.ops2 (F := Ideal)) V (main_arg1 : DevRef τ sig) = V (main_arg1 : DevRef τ sig) := by
  rfold_keeps ROps.ops2
theorem keep2_arg2 : StableHlo.after (ROps.ops2 (F := Ideal)) V (main_arg2 : DevRef τ sig) = V (main_arg2 : DevRef τ sig) := by
  rfold_keeps ROps.ops2
theorem keep2_arg3 : StableHlo.after (ROps.ops2 (F := Ideal)) V (main_arg3 : DevRef τ sig) = V (main_arg3 : DevRef τ sig) := by
  rfold_keeps ROps.ops2
theorem keep2_arg4 : StableHlo.after (ROps.ops2 (F := Ideal)) V (main_arg4 : DevRef τ sig) = V (main_arg4 : DevRef τ sig) := by
  rfold_keeps ROps.ops2
theorem keep2_arg5 : StableHlo.after (ROps.ops2 (F := Ideal)) V (main_arg5 : DevRef τ sig) = V (main_arg5 : DevRef τ sig) := by
  rfold_keeps ROps.ops2
theorem keep2_arg6 : StableHlo.after (ROps.ops2 (F := Ideal)) V (main_arg6 : DevRef τ sig) = V (main_arg6 : DevRef τ sig) := by
  rfold_keeps ROps.ops2
theorem keep2_arg7 : StableHlo.after (ROps.ops2 (F := Ideal)) V (main_arg7 : DevRef τ sig) = V (main_arg7 : DevRef τ sig) := by
  rfold_keeps ROps.ops2
theorem keep2_arg8 : StableHlo.after (ROps.ops2 (F := Ideal)) V (main_arg8 : DevRef τ sig) = V (main_arg8 : DevRef τ sig) := by
  rfold_keeps ROps.ops2

/-! Stretch 3 writes no argument. -/
theorem keep3_arg0 : StableHlo.after (ROps.ops3 (F := Ideal)) V (main_arg0 : DevRef τ sig) = V (main_arg0 : DevRef τ sig) := by
  rfold_keeps ROps.ops3
theorem keep3_arg1 : StableHlo.after (ROps.ops3 (F := Ideal)) V (main_arg1 : DevRef τ sig) = V (main_arg1 : DevRef τ sig) := by
  rfold_keeps ROps.ops3
theorem keep3_arg2 : StableHlo.after (ROps.ops3 (F := Ideal)) V (main_arg2 : DevRef τ sig) = V (main_arg2 : DevRef τ sig) := by
  rfold_keeps ROps.ops3
theorem keep3_arg3 : StableHlo.after (ROps.ops3 (F := Ideal)) V (main_arg3 : DevRef τ sig) = V (main_arg3 : DevRef τ sig) := by
  rfold_keeps ROps.ops3
theorem keep3_arg4 : StableHlo.after (ROps.ops3 (F := Ideal)) V (main_arg4 : DevRef τ sig) = V (main_arg4 : DevRef τ sig) := by
  rfold_keeps ROps.ops3
theorem keep3_arg5 : StableHlo.after (ROps.ops3 (F := Ideal)) V (main_arg5 : DevRef τ sig) = V (main_arg5 : DevRef τ sig) := by
  rfold_keeps ROps.ops3
theorem keep3_arg6 : StableHlo.after (ROps.ops3 (F := Ideal)) V (main_arg6 : DevRef τ sig) = V (main_arg6 : DevRef τ sig) := by
  rfold_keeps ROps.ops3
theorem keep3_arg7 : StableHlo.after (ROps.ops3 (F := Ideal)) V (main_arg7 : DevRef τ sig) = V (main_arg7 : DevRef τ sig) := by
  rfold_keeps ROps.ops3
theorem keep3_arg8 : StableHlo.after (ROps.ops3 (F := Ideal)) V (main_arg8 : DevRef τ sig) = V (main_arg8 : DevRef τ sig) := by
  rfold_keeps ROps.ops3

/-! Stretch 4 writes no argument. -/
theorem keep4_arg0 : StableHlo.after (ROps.ops4 (F := Ideal)) V (main_arg0 : DevRef τ sig) = V (main_arg0 : DevRef τ sig) := by
  rfold_keeps ROps.ops4
theorem keep4_arg1 : StableHlo.after (ROps.ops4 (F := Ideal)) V (main_arg1 : DevRef τ sig) = V (main_arg1 : DevRef τ sig) := by
  rfold_keeps ROps.ops4
theorem keep4_arg2 : StableHlo.after (ROps.ops4 (F := Ideal)) V (main_arg2 : DevRef τ sig) = V (main_arg2 : DevRef τ sig) := by
  rfold_keeps ROps.ops4
theorem keep4_arg3 : StableHlo.after (ROps.ops4 (F := Ideal)) V (main_arg3 : DevRef τ sig) = V (main_arg3 : DevRef τ sig) := by
  rfold_keeps ROps.ops4
theorem keep4_arg4 : StableHlo.after (ROps.ops4 (F := Ideal)) V (main_arg4 : DevRef τ sig) = V (main_arg4 : DevRef τ sig) := by
  rfold_keeps ROps.ops4
theorem keep4_arg5 : StableHlo.after (ROps.ops4 (F := Ideal)) V (main_arg5 : DevRef τ sig) = V (main_arg5 : DevRef τ sig) := by
  rfold_keeps ROps.ops4
theorem keep4_arg6 : StableHlo.after (ROps.ops4 (F := Ideal)) V (main_arg6 : DevRef τ sig) = V (main_arg6 : DevRef τ sig) := by
  rfold_keeps ROps.ops4
theorem keep4_arg7 : StableHlo.after (ROps.ops4 (F := Ideal)) V (main_arg7 : DevRef τ sig) = V (main_arg7 : DevRef τ sig) := by
  rfold_keeps ROps.ops4
theorem keep4_arg8 : StableHlo.after (ROps.ops4 (F := Ideal)) V (main_arg8 : DevRef τ sig) = V (main_arg8 : DevRef τ sig) := by
  rfold_keeps ROps.ops4

/-! Layers 1 and 2 write neither the edge lists, nor the normalisation, nor the first layer's input. -/
theorem keep1_v3 : StableHlo.after (ROps.ops1 (F := Ideal)) V (main_v3 : DevRef τ sig) = V (main_v3 : DevRef τ sig) := by
  rfold_keeps ROps.ops1
theorem keep1_v6 : StableHlo.after (ROps.ops1 (F := Ideal)) V (main_v6 : DevRef τ sig) = V (main_v6 : DevRef τ sig) := by
  rfold_keeps ROps.ops1
theorem keep1_v29 : StableHlo.after (ROps.ops1 (F := Ideal)) V (main_v29 : DevRef τ sig) = V (main_v29 : DevRef τ sig) := by
  rfold_keeps ROps.ops1
theorem keep1_v34 : StableHlo.after (ROps.ops1 (F := Ideal)) V (main_v34 : DevRef τ sig) = V (main_v34 : DevRef τ sig) := by
  rfold_keeps ROps.ops1
theorem keep2_v3 : StableHlo.after (ROps.ops2 (F := Ideal)) V (main_v3 : DevRef τ sig) = V (main_v3 : DevRef τ sig) := by
  rfold_keeps ROps.ops2
theorem keep2_v6 : StableHlo.after (ROps.ops2 (F := Ideal)) V (main_v6 : DevRef τ sig) = V (main_v6 : DevRef τ sig) := by
  rfold_keeps ROps.ops2
theorem keep2_v29 : StableHlo.after (ROps.ops2 (F := Ideal)) V (main_v29 : DevRef τ sig) = V (main_v29 : DevRef τ sig) := by
  rfold_keeps ROps.ops2
theorem keep2_v34 : StableHlo.after (ROps.ops2 (F := Ideal)) V (main_v34 : DevRef τ sig) = V (main_v34 : DevRef τ sig) := by
  rfold_keeps ROps.ops2

end Stretches

/-! The arguments end as launched. -/

theorem rarg0 (m : (ℓ : Loc nD τ sig) → Buf (Elt Ideal) ℓ) (c : Dev nD) :
    StableHlo.after (ROps.ops (F := Ideal)) (StableHlo.launchContents m c) (main_arg0 : DevRef τ sig)
      = m ((c.tc : Thread nD τ).loc main_arg0) :=
  after_ops_of_keeps _ (fun V => keep0_arg0 V) (fun V => keep1_arg0 V) (fun V => keep2_arg0 V)
    (fun V => keep3_arg0 V) (fun V => keep4_arg0 V) _

theorem rarg1 (m : (ℓ : Loc nD τ sig) → Buf (Elt Ideal) ℓ) (c : Dev nD) :
    StableHlo.after (ROps.ops (F := Ideal)) (StableHlo.launchContents m c) (main_arg1 : DevRef τ sig)
      = m ((c.tc : Thread nD τ).loc main_arg1) :=
  after_ops_of_keeps _ (fun V => keep0_arg1 V) (fun V => keep1_arg1 V) (fun V => keep2_arg1 V)
    (fun V => keep3_arg1 V) (fun V => keep4_arg1 V) _

theorem rarg2 (m : (ℓ : Loc nD τ sig) → Buf (Elt Ideal) ℓ) (c : Dev nD) :
    StableHlo.after (ROps.ops (F := Ideal)) (StableHlo.launchContents m c) (main_arg2 : DevRef τ sig)
      = m ((c.tc : Thread nD τ).loc main_arg2) :=
  after_ops_of_keeps _ (fun V => keep0_arg2 V) (fun V => keep1_arg2 V) (fun V => keep2_arg2 V)
    (fun V => keep3_arg2 V) (fun V => keep4_arg2 V) _

theorem rarg3 (m : (ℓ : Loc nD τ sig) → Buf (Elt Ideal) ℓ) (c : Dev nD) :
    StableHlo.after (ROps.ops (F := Ideal)) (StableHlo.launchContents m c) (main_arg3 : DevRef τ sig)
      = m ((c.tc : Thread nD τ).loc main_arg3) :=
  after_ops_of_keeps _ (fun V => keep0_arg3 V) (fun V => keep1_arg3 V) (fun V => keep2_arg3 V)
    (fun V => keep3_arg3 V) (fun V => keep4_arg3 V) _

theorem rarg4 (m : (ℓ : Loc nD τ sig) → Buf (Elt Ideal) ℓ) (c : Dev nD) :
    StableHlo.after (ROps.ops (F := Ideal)) (StableHlo.launchContents m c) (main_arg4 : DevRef τ sig)
      = m ((c.tc : Thread nD τ).loc main_arg4) :=
  after_ops_of_keeps _ (fun V => keep0_arg4 V) (fun V => keep1_arg4 V) (fun V => keep2_arg4 V)
    (fun V => keep3_arg4 V) (fun V => keep4_arg4 V) _

theorem rarg5 (m : (ℓ : Loc nD τ sig) → Buf (Elt Ideal) ℓ) (c : Dev nD) :
    StableHlo.after (ROps.ops (F := Ideal)) (StableHlo.launchContents m c) (main_arg5 : DevRef τ sig)
      = m ((c.tc : Thread nD τ).loc main_arg5) :=
  after_ops_of_keeps _ (fun V => keep0_arg5 V) (fun V => keep1_arg5 V) (fun V => keep2_arg5 V)
    (fun V => keep3_arg5 V) (fun V => keep4_arg5 V) _

theorem rarg6 (m : (ℓ : Loc nD τ sig) → Buf (Elt Ideal) ℓ) (c : Dev nD) :
    StableHlo.after (ROps.ops (F := Ideal)) (StableHlo.launchContents m c) (main_arg6 : DevRef τ sig)
      = m ((c.tc : Thread nD τ).loc main_arg6) :=
  after_ops_of_keeps _ (fun V => keep0_arg6 V) (fun V => keep1_arg6 V) (fun V => keep2_arg6 V)
    (fun V => keep3_arg6 V) (fun V => keep4_arg6 V) _

theorem rarg7 (m : (ℓ : Loc nD τ sig) → Buf (Elt Ideal) ℓ) (c : Dev nD) :
    StableHlo.after (ROps.ops (F := Ideal)) (StableHlo.launchContents m c) (main_arg7 : DevRef τ sig)
      = m ((c.tc : Thread nD τ).loc main_arg7) :=
  after_ops_of_keeps _ (fun V => keep0_arg7 V) (fun V => keep1_arg7 V) (fun V => keep2_arg7 V)
    (fun V => keep3_arg7 V) (fun V => keep4_arg7 V) _

theorem rarg8 (m : (ℓ : Loc nD τ sig) → Buf (Elt Ideal) ℓ) (c : Dev nD) :
    StableHlo.after (ROps.ops (F := Ideal)) (StableHlo.launchContents m c) (main_arg8 : DevRef τ sig)
      = m ((c.tc : Thread nD τ).loc main_arg8) :=
  after_ops_of_keeps _ (fun V => keep0_arg8 V) (fun V => keep1_arg8 V) (fun V => keep2_arg8 V)
    (fun V => keep3_arg8 V) (fun V => keep4_arg8 V) _

end Cert.Gcn.RFold

end
-- ==== Proof.RVal.lean ====
import proofs.«408610_j12541304504853_3_alg».proof.ReferenceIdeal
import Idealize.ShloMosaic.PureOps.Ideal.Laws

/-! The reference program's value on the extended reals, as named stage functions of its arguments: each is the
    composition of the operations that make it, in the operations' own spelling. Every definition takes the
    program's shape facts as an instance. -/

noncomputable section

namespace Cert.Gcn.RVal

open Cert.ReferenceIdeal Idealize.ShloMosaic Idealize.SL.Sem
open Cert.ReferenceIdeal.Facts₀ Cert.ReferenceIdeal.Facts

variable [Facts]

/-- A float array of shape S over the extended reals, and a 32-bit integer array of shape S: what a buffer of
    that shape and element type holds. -/
abbrev FA (S : Shape) : Type := FVec Ideal S .f32
@[inherit_doc FA] abbrev IA (S : Shape) : Type := IVec S 32

/-! ## The graph: edge endpoints, self loops appended, and the symmetric normalisation -/

/-- %3: the edges' first row followed by 0 … 49999 (one self loop per node). -/
def row (e : IA S2x800000) : IA S850000 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- %6: the edges' second row followed by 0 … 49999. -/
def col (e : IA S2x800000) : IA S850000 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- An index list as a gather's index column: entry r, or r + 50000 where r is negative. -/
def wrap (r : IA S850000) : IA S850000x1 :=
  broadcastInDim S850000x1 ![0] bcast_S850000_S850000x1_0
    (select (cmpi .slt r (broadcastInDim S850000 ![] bcast_S_S850000 (constantI S_ 32 0#32)))
      (addi r (broadcastInDim S850000 ![] bcast_S_S850000 (constantI S_ 32 50000#32))) r)

/-- %10: each node's degree, one added per entry of c naming it. -/
def deg (c : IA S850000) : FA S50000 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 c)
    (broadcastInDim S850000 ![] bcast_S_S850000 (constant (F := Ideal) S_ .f32 0x3F800000#32))

/-- %14: the reciprocal square root of a positive degree, zero elsewhere. -/
def dinv (d : FA S50000) : FA S50000 :=
  select (cmpf .ogt d (broadcastInDim S50000 ![] bcast_S_S50000 (constant (F := Ideal) S_ .f32 0x00000000#32)))
    (Host.rsqrt d)
    (broadcastInDim S50000 ![] bcast_S_S50000 (constant (F := Ideal) S_ .f32 0x00000000#32))

/-- %29: per entry, the product of its two endpoints' normalisations. -/
def norm (e : IA S2x800000) : FA S850000 :=
  mulf (Host.gather gather_S50000_S850000x1_S850000_n_0_n_n_0_1_1 (dinv (deg (col e))) (wrap (row e)))
    (Host.gather gather_S50000_S850000x1_S850000_n_0_n_n_0_1_1 (dinv (deg (col e))) (wrap (col e)))

/-! ## The dense pieces -/

/-- max(y, 0), entry by entry. -/
def relu (y : FA S50000x96) : FA S50000x96 :=
  maximumf y (broadcastInDim S50000x96 ![] bcast_S_S50000x96 (constant (F := Ideal) S_ .f32 0x00000000#32))

/-- A vector of 96 as every row of a 50000 × 96 array. -/
def rows (v : FA S96) : FA S50000x96 :=
  broadcastInDim S50000x96 ![0, 1] bcast_S1x96_S50000x96_0_1 (broadcastInDim S1x96 ![1] bcast_S96_S1x96_1 v)

/-- %34: relu (x · w + b). -/
def x1 (x : FA S50000x256) (w : FA S256x96) (b : FA S96) : FA S50000x96 :=
  relu (addf (Host.dotGeneral dot_S50000x256_S256x96_S50000x96_1_0_0_1_n_n none x w) (rows b))

/-- %47: per node, the sum over the entries whose column names it of norm · cur at the entry's (wrapped) row. -/
def agg (rw cl : IA S850000) (nrm : FA S850000) (cur : FA S50000x96) : FA S50000x96 :=
  Host.scatterAdd scatter_S50000x96_S850000x1_S850000x96_1_0_0_1
    (broadcastInDim S50000x96 ![] bcast_S_S50000x96 (constant (F := Ideal) S_ .f32 0x00000000#32))
    (broadcastInDim S850000x1 ![0] bcast_S850000_S850000x1_0 cl)
    (mulf (broadcastInDim S850000x96 ![0, 1] bcast_S850000x1_S850000x96_0_1 (broadcastInDim S850000x1 ![0] bcast_S850000_S850000x1_0 nrm))
      (Host.gather gather_S50000x96_S850000x1_S850000x96_1_0_n_n_0_1_196 cur (wrap rw)))

/-- %52: 0.9 · a + 0.1 · x0 (the two constants as the program has them). -/
def blend (a x0 : FA S50000x96) : FA S50000x96 :=
  addf (mulf (broadcastInDim S50000x96 ![] bcast_S_S50000x96 (constant (F := Ideal) S_ .f32 0x3F666666#32)) a)
    (mulf (broadcastInDim S50000x96 ![] bcast_S_S50000x96 (constant (F := Ideal) S_ .f32 0x3DCCCCCD#32)) x0)

/-- %60: c1 · h + c2 · (h · w) with h the blend of a and x0. -/
def mix (c1 c2 : BitVec 32) (a x0 : FA S50000x96) (w : FA S96x96) : FA S50000x96 :=
  addf (mulf (broadcastInDim S50000x96 ![] bcast_S_S50000x96 (constant (F := Ideal) S_ .f32 c1)) (blend a x0))
    (mulf (broadcastInDim S50000x96 ![] bcast_S_S50000x96 (constant (F := Ideal) S_ .f32 c2))
      (Host.dotGeneral dot_S50000x96_S96x96_S50000x96_1_0_0_1_n_n none (blend a x0) w))

/-- %63: the column sums divided by 50000. -/
def mean (o : FA S50000x96) : FA S96 :=
  Host.divf (Host.reduceAdd o (constant (F := Ideal) S_ .f32 0x00000000#32) reducesTo_S50000x96_S96_d0 h_S_)
    (broadcastInDim S96 ![] bcast_S_S96 (constant (F := Ideal) S_ .f32 0x47435000#32))

/-- The called function's divisor: 50000 minus its second argument (0) as a float. -/
def cnt : FA S_ :=
  subf (constant (F := Ideal) S_ .f32 0x47435000#32) (sitofp (F := Ideal) .f32 (constantI S_ 32 0#32))

/-- o minus its column means (the called function's own mean, through a 1 × 96 row). -/
def centered (o : FA S50000x96) : FA S50000x96 :=
  subf o (broadcastInDim S50000x96 ![0, 1] bcast_S1x96_S50000x96_0_1
    (Host.divf (broadcastInDim S1x96 ![1] bcast_S96_S1x96_1
        (Host.reduceAdd o (constant (F := Ideal) S_ .f32 0x00000000#32) reducesTo_S50000x96_S96_d0 h_S_))
      (broadcastInDim S1x96 ![] bcast_S_S1x96 (constant (F := Ideal) S_ .f32 0x47435000#32))))

/-- %64: the column sums of the squared centred entries over the divisor where that is positive, the constant
    0x7FC00000 elsewhere. -/
def var (o : FA S50000x96) : FA S96 :=
  select (broadcastInDim S96 ![] bcast_S_S96 (cmpf .ogt cnt (constant (F := Ideal) S_ .f32 0x00000000#32)))
    (Host.divf (Host.reduceAdd (mulf (centered o) (centered o)) (constant (F := Ideal) S_ .f32 0x00000000#32) reducesTo_S50000x96_S96_d0 h_S_)
      (broadcastInDim S96 ![] bcast_S_S96 cnt))
    (broadcastInDim S96 ![] bcast_S_S96 (constant (F := Ideal) S_ .f32 0x7FC00000#32))

/-- %84: relu (g · (o − mu) · rsqrt (v + eps) + b), g, mu, v and b along the rows. -/
def bn (o : FA S50000x96) (mu v g b : FA S96) : FA S50000x96 :=
  relu (addf (mulf (mulf (rows g) (subf o (rows mu)))
      (rows (Host.rsqrt (addf v (broadcastInDim S96 ![] bcast_S_S96 (constant (F := Ideal) S_ .f32 0x3727C5AC#32))))))
    (rows b))

/-- A mixed array normalised by its own column mean and variance. -/
def bnOf (o : FA S50000x96) (g b : FA S96) : FA S50000x96 := bn o (mean o) (var o) g b

/-! ## The layers: each with its own slice of the three parameter arrays and its own pair of constants -/

def layer1 (rw cl : IA S850000) (nrm : FA S850000) (x0 cur : FA S50000x96)
    (cw : FA S3x96x96) (g bt : FA S3x96) : FA S50000x96 :=
  bnOf (mix 0x3F183370#32 0x3ECF991F#32 (agg rw cl nrm cur) x0
      (shapeCast S96x96 (extractStridedSlice S1x96x96 ![0, 0, 0] cw slices_S3x96x96_S1x96x96_0_0_0) shapeCasts_S1x96x96_S96x96))
    (shapeCast S96 (extractStridedSlice S1x96 ![0, 0] g slices_S3x96_S1x96_0_0) shapeCasts_S1x96_S96)
    (shapeCast S96 (extractStridedSlice S1x96 ![0, 0] bt slices_S3x96_S1x96_0_0) shapeCasts_S1x96_S96)

def layer2 (rw cl : IA S850000) (nrm : FA S850000) (x0 cur : FA S50000x96)
    (cw : FA S3x96x96) (g bt : FA S3x96) : FA S50000x96 :=
  bnOf (mix 0x3F46E010#32 0x3E647FBE#32 (agg rw cl nrm cur) x0
      (shapeCast S96x96 (extractStridedSlice S1x96x96 ![1, 0, 0] cw slices_S3x96x96_S1x96x96_1_0_0) shapeCasts_S1x96x96_S96x96))
    (shapeCast S96 (extractStridedSlice S1x96 ![1, 0] g slices_S3x96_S1x96_1_0) shapeCasts_S1x96_S96)
    (shapeCast S96 (extractStridedSlice S1x96 ![1, 0] bt slices_S3x96_S1x96_1_0) shapeCasts_S1x96_S96)

def layer3 (rw cl : IA S850000) (nrm : FA S850000) (x0 cur : FA S50000x96)
    (cw : FA S3x96x96) (g bt : FA S3x96) : FA S50000x96 :=
  bnOf (mix 0x3F588995#32 0x3E1DD9AD#32 (agg rw cl nrm cur) x0
      (shapeCast S96x96 (extractStridedSlice S1x96x96 ![2, 0, 0] cw slices_S3x96x96_S1x96x96_2_0_0) shapeCasts_S1x96x96_S96x96))
    (shapeCast S96 (extractStridedSlice S1x96 ![2, 0] g slices_S3x96_S1x96_2_0) shapeCasts_S1x96_S96)
    (shapeCast S96 (extractStridedSlice S1x96 ![2, 0] bt slices_S3x96_S1x96_2_0) shapeCasts_S1x96_S96)

/-- %188: cur · w2 + b2. -/
def out (cur : FA S50000x96) (w2 : FA S96x40) (b2 : FA S40) : FA S50000x40 :=
  addf (Host.dotGeneral dot_S50000x96_S96x40_S50000x40_1_0_0_1_n_n none cur w2)
    (broadcastInDim S50000x40 ![0, 1] bcast_S1x40_S50000x40_0_1 (broadcastInDim S1x40 ![1] bcast_S40_S1x40_1 b2))

/-- The program's result as a function of its nine arguments. -/
def value (a0 : FA S50000x256) (a1 : IA S2x800000) (a2 : FA S256x96) (a3 : FA S96)
    (a4 : FA S3x96x96) (a5 a6 : FA S3x96) (a7 : FA S96x40) (a8 : FA S40) : FA S50000x40 :=
  out (layer3 (row a1) (col a1) (norm a1) (x1 a0 a2 a3)
      (layer2 (row a1) (col a1) (norm a1) (x1 a0 a2 a3)
        (layer1 (row a1) (col a1) (norm a1) (x1 a0 a2 a3) (x1 a0 a2 a3) a4 a5 a6) a4 a5 a6) a4 a5 a6) a7 a8

end Cert.Gcn.RVal

end
-- ==== Proof.RFoldL1.lean ====
/-
  The reference's graph layer 1 as a fold of its 84 operations: from any starting contents, what the layer's last
  buffer ends holding is the layer's stage function of the contents it reads, and every buffer the layer does not write
  keeps its contents.
-/
import proofs.«408610_j12541304504853_3_alg».proof.Proof.ROps
import proofs.«408610_j12541304504853_3_alg».proof.Proof.RVal
import Idealize.ShloMosaic.Lib.StableHlo.Run

set_option maxRecDepth 16384

noncomputable section

namespace Cert.Gcn.RFoldL

open Cert.ReferenceIdeal Cert.ReferenceIdeal.Gen Idealize.ShloMosaic Idealize.ShloMosaic.TcCoe Idealize.ShloMosaic.StableHlo

/-- A buffer none of the listed operations writes keeps its contents: each operation's written buffer is another
    reference. -/
local macro "not_written" ops:ident : tactic =>
  `(tactic| exact StableHlo.after_of_forall_not_mem _ _ (List.forall_iff_forall_mem.mp (by
      simp only [$ops:ident, List.drop_succ_cons, List.drop_zero, List.take_succ_cons, List.take_zero,
        List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The value a literal piece of a layer's operations leaves in a buffer it writes: the operations' results composed. -/
local macro "piece_value" ops:ident : tactic =>
  `(tactic| (simp only [$ops:ident, List.drop_succ_cons, List.drop_zero, List.take_succ_cons, List.take_zero]
             after_results_simp))

/-- Operations run one list after another are the concatenation run as one. -/
private theorem after_cat : ∀ (l₁ l₂ : List (HloOp τ sig (Elt Ideal))) (W : Valuation τ sig (Elt Ideal)),
    StableHlo.after (l₁ ++ l₂) W = StableHlo.after l₂ (StableHlo.after l₁ W)
  | [], _, _ => rfl
  | op :: l₁, l₂, W => by rw [List.cons_append, StableHlo.after_cons, StableHlo.after_cons, after_cat l₁ l₂]

/-- A list cut in four consecutive pieces. -/
private theorem cut4 {α : Type} (l : List α) (a b c : Nat) :
    l = l.take a ++ ((l.drop a).take b ++ (((l.drop a).drop b).take c ++ ((l.drop a).drop b).drop c)) := by
  rw [List.take_append_drop, List.take_append_drop, List.take_append_drop]

variable (V : Valuation τ sig (Elt Ideal))

/-- The buffers layer 1's operations write, in the operations' order. -/
def layer1_written : List (Ref sig .tc) :=
  [
    main_v35, main_c_6, main_v36, main_v37, main_c_7, main_v38, main_v39, main_v40,
    main_v41, main_v42, main_v43, main_v44, main_cst_8, main_v45, main_v46, main_v47,
    main_cst_9, main_v48, main_v49, main_cst_10, main_v50, main_v51, main_v52, main_cst_11,
    main_v53, main_v54, main_v55, main_v56, main_v57, main_cst_12, main_v58, main_v59,
    main_v60, main_cst_13, main_v61, main_cst_14, main_v62, main_v63, main_c_15, main_call2_cst,
    main_call2_v0, main_call2_v1, main_call2_cst_0, main_call2_v2, main_call2_v3, main_call2_v4, main_call2_v5, main_call2_v6,
    main_call2_v7, main_call2_cst_1, main_call2_v8, main_call2_cst_2, main_call2_v9, main_call2_v10, main_call2_v11, main_call2_cst_3,
    main_call2_v12, main_call2_cst_4, main_call2_call0_v0, main_call2_call0_v1, main_v64, main_v65, main_v66, main_v67,
    main_v68, main_v69, main_v70, main_v71, main_v72, main_cst_16, main_v73, main_v74,
    main_v75, main_v76, main_v77, main_v78, main_v79, main_v80, main_v81, main_v82,
    main_v83, main_call3_cst, main_call3_v0, main_v84 ]

theorem layer1_writes : (ROps.ops1 (F := Ideal)).Forall fun op =>
    op.writes ⊆ (layer1_written.map (Proc.devRef (τ := τ) .tc)).toFinset := by
  simp only [ROps.ops1, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-! The graph, the first layer's input and the program's arguments pass through layer 1 unchanged. -/
theorem layer1_keep_v3 : StableHlo.after (ROps.ops1 (F := Ideal)) V (main_v3 : DevRef τ sig) = V main_v3 :=
  StableHlo.after_of_writes_sub _ V layer1_writes (by decide)
theorem layer1_keep_v6 : StableHlo.after (ROps.ops1 (F := Ideal)) V (main_v6 : DevRef τ sig) = V main_v6 :=
  StableHlo.after_of_writes_sub _ V layer1_writes (by decide)
theorem layer1_keep_v29 : StableHlo.after (ROps.ops1 (F := Ideal)) V (main_v29 : DevRef τ sig) = V main_v29 :=
  StableHlo.after_of_writes_sub _ V layer1_writes (by decide)
theorem layer1_keep_v34 : StableHlo.after (ROps.ops1 (F := Ideal)) V (main_v34 : DevRef τ sig) = V main_v34 :=
  StableHlo.after_of_writes_sub _ V layer1_writes (by decide)
theorem layer1_keep_arg0 : StableHlo.after (ROps.ops1 (F := Ideal)) V (main_arg0 : DevRef τ sig) = V main_arg0 :=
  StableHlo.after_of_writes_sub _ V layer1_writes (by decide)
theorem layer1_keep_arg1 : StableHlo.after (ROps.ops1 (F := Ideal)) V (main_arg1 : DevRef τ sig) = V main_arg1 :=
  StableHlo.after_of_writes_sub _ V layer1_writes (by decide)
theorem layer1_keep_arg2 : StableHlo.after (ROps.ops1 (F := Ideal)) V (main_arg2 : DevRef τ sig) = V main_arg2 :=
  StableHlo.after_of_writes_sub _ V layer1_writes (by decide)
theorem layer1_keep_arg3 : StableHlo.after (ROps.ops1 (F := Ideal)) V (main_arg3 : DevRef τ sig) = V main_arg3 :=
  StableHlo.after_of_writes_sub _ V layer1_writes (by decide)
theorem layer1_keep_arg4 : StableHlo.after (ROps.ops1 (F := Ideal)) V (main_arg4 : DevRef τ sig) = V main_arg4 :=
  StableHlo.after_of_writes_sub _ V layer1_writes (by decide)
theorem layer1_keep_arg5 : StableHlo.after (ROps.ops1 (F := Ideal)) V (main_arg5 : DevRef τ sig) = V main_arg5 :=
  StableHlo.after_of_writes_sub _ V layer1_writes (by decide)
theorem layer1_keep_arg6 : StableHlo.after (ROps.ops1 (F := Ideal)) V (main_arg6 : DevRef τ sig) = V main_arg6 :=
  StableHlo.after_of_writes_sub _ V layer1_writes (by decide)
theorem layer1_keep_arg7 : StableHlo.after (ROps.ops1 (F := Ideal)) V (main_arg7 : DevRef τ sig) = V main_arg7 :=
  StableHlo.after_of_writes_sub _ V layer1_writes (by decide)
theorem layer1_keep_arg8 : StableHlo.after (ROps.ops1 (F := Ideal)) V (main_arg8 : DevRef τ sig) = V main_arg8 :=
  StableHlo.after_of_writes_sub _ V layer1_writes (by decide)

/-! ## Layer 1 -/

/-- The aggregation: the layer's first 16 operations. -/
theorem layer1_agg : StableHlo.after ((ROps.ops1 (F := Ideal)).take 16) V (main_v47 : DevRef τ sig)
    = RVal.agg (V main_v3) (V main_v6) (V main_v29) (V main_v34) := by
  piece_value ROps.ops1
  rfl
theorem layer1_agg_keep_v34 : StableHlo.after ((ROps.ops1 (F := Ideal)).take 16) V (main_v34 : DevRef τ sig) = V main_v34 := by not_written ROps.ops1
theorem layer1_agg_keep_arg4 : StableHlo.after ((ROps.ops1 (F := Ideal)).take 16) V (main_arg4 : DevRef τ sig) = V main_arg4 := by not_written ROps.ops1
theorem layer1_agg_keep_arg5 : StableHlo.after ((ROps.ops1 (F := Ideal)).take 16) V (main_arg5 : DevRef τ sig) = V main_arg5 := by not_written ROps.ops1
theorem layer1_agg_keep_arg6 : StableHlo.after ((ROps.ops1 (F := Ideal)).take 16) V (main_arg6 : DevRef τ sig) = V main_arg6 := by not_written ROps.ops1

/-- The mix of the aggregate with the first layer's input, its column means, and the integer zero the variance's
    divisor is made of: the next 23 operations. -/
theorem layer1_mix : StableHlo.after (((ROps.ops1 (F := Ideal)).drop 16).take 23) V (main_v60 : DevRef τ sig)
    = RVal.mix 0x3F183370#32 0x3ECF991F#32 (V main_v47) (V main_v34) (shapeCast S96x96 (extractStridedSlice S1x96x96 ![0, 0, 0] (V main_arg4) slices_S3x96x96_S1x96x96_0_0_0) shapeCasts_S1x96x96_S96x96) := by
  piece_value ROps.ops1
  rfl
theorem layer1_mean : StableHlo.after (((ROps.ops1 (F := Ideal)).drop 16).take 23) V (main_v63 : DevRef τ sig)
    = RVal.mean (RVal.mix 0x3F183370#32 0x3ECF991F#32 (V main_v47) (V main_v34) (shapeCast S96x96 (extractStridedSlice S1x96x96 ![0, 0, 0] (V main_arg4) slices_S3x96x96_S1x96x96_0_0_0) shapeCasts_S1x96x96_S96x96)) := by
  piece_value ROps.ops1
  rfl
theorem layer1_zero : StableHlo.after (((ROps.ops1 (F := Ideal)).drop 16).take 23) V (main_c_15 : DevRef τ sig) = constantI S_ 32 0#32 := by
  piece_value ROps.ops1
theorem layer1_mix_keep_arg5 : StableHlo.after (((ROps.ops1 (F := Ideal)).drop 16).take 23) V (main_arg5 : DevRef τ sig) = V main_arg5 := by not_written ROps.ops1
theorem layer1_mix_keep_arg6 : StableHlo.after (((ROps.ops1 (F := Ideal)).drop 16).take 23) V (main_arg6 : DevRef τ sig) = V main_arg6 := by not_written ROps.ops1

/-- The column variances (the called function's 22 operations), from contents whose divisor constant is the zero. -/
theorem layer1_var (h : V main_c_15 = constantI S_ 32 0#32) : StableHlo.after ((((ROps.ops1 (F := Ideal)).drop 16).drop 23).take 22) V (main_v64 : DevRef τ sig)
    = RVal.var (V main_v60) := by
  piece_value ROps.ops1
  rw [h]
  rfl
theorem layer1_var_keep_o : StableHlo.after ((((ROps.ops1 (F := Ideal)).drop 16).drop 23).take 22) V (main_v60 : DevRef τ sig) = V main_v60 := by not_written ROps.ops1
theorem layer1_var_keep_mean : StableHlo.after ((((ROps.ops1 (F := Ideal)).drop 16).drop 23).take 22) V (main_v63 : DevRef τ sig) = V main_v63 := by not_written ROps.ops1
theorem layer1_var_keep_arg5 : StableHlo.after ((((ROps.ops1 (F := Ideal)).drop 16).drop 23).take 22) V (main_arg5 : DevRef τ sig) = V main_arg5 := by not_written ROps.ops1
theorem layer1_var_keep_arg6 : StableHlo.after ((((ROps.ops1 (F := Ideal)).drop 16).drop 23).take 22) V (main_arg6 : DevRef τ sig) = V main_arg6 := by not_written ROps.ops1

/-- The normalisation by given means and variances, the scale and shift, and the ReLU: the last 23 operations. -/
theorem layer1_bn : StableHlo.after ((((ROps.ops1 (F := Ideal)).drop 16).drop 23).drop 22) V (main_v84 : DevRef τ sig)
    = RVal.bn (V main_v60) (V main_v63) (V main_v64) (shapeCast S96 (extractStridedSlice S1x96 ![0, 0] (V main_arg5) slices_S3x96_S1x96_0_0) shapeCasts_S1x96_S96) (shapeCast S96 (extractStridedSlice S1x96 ![0, 0] (V main_arg6) slices_S3x96_S1x96_0_0) shapeCasts_S1x96_S96) := by
  piece_value ROps.ops1
  rfl

/-- Layer 1's result, from any contents: the layer's stage function of the graph, the first layer's input, the
    layer's input and the three parameter arrays. -/
theorem layer1_fold : StableHlo.after (ROps.ops1 (F := Ideal)) V (main_v84 : DevRef τ sig)
    = RVal.layer1 (V main_v3) (V main_v6) (V main_v29) (V main_v34) (V main_v34) (V main_arg4) (V main_arg5) (V main_arg6) := by
  rw [cut4 (ROps.ops1 (F := Ideal)) 16 23 22, after_cat, after_cat, after_cat, layer1_bn,
    layer1_var_keep_o, layer1_var_keep_mean, layer1_var _ (layer1_zero _), layer1_var_keep_arg5, layer1_var_keep_arg6,
    layer1_mix, layer1_mean, layer1_mix_keep_arg5, layer1_mix_keep_arg6,
    layer1_agg, layer1_agg_keep_v34, layer1_agg_keep_arg4, layer1_agg_keep_arg5, layer1_agg_keep_arg6]
  rfl

end Cert.Gcn.RFoldL

end
-- ==== Proof.RFoldL2.lean ====
/-
  The reference's graph layer 2 as a fold of its 84 operations: from any starting contents, what the layer's last
  buffer ends holding is the layer's stage function of the contents it reads, and every buffer the layer does not write
  keeps its contents.
-/
import proofs.«408610_j12541304504853_3_alg».proof.Proof.ROps
import proofs.«408610_j12541304504853_3_alg».proof.Proof.RVal
import Idealize.ShloMosaic.Lib.StableHlo.Run

set_option maxRecDepth 16384

noncomputable section

namespace Cert.Gcn.RFoldL

open Cert.ReferenceIdeal Cert.ReferenceIdeal.Gen Idealize.ShloMosaic Idealize.ShloMosaic.TcCoe Idealize.ShloMosaic.StableHlo

/-- A buffer none of the listed operations writes keeps its contents: each operation's written buffer is another
    reference. -/
local macro "not_written" ops:ident : tactic =>
  `(tactic| exact StableHlo.after_of_forall_not_mem _ _ (List.forall_iff_forall_mem.mp (by
      simp only [$ops:ident, List.drop_succ_cons, List.drop_zero, List.take_succ_cons, List.take_zero,
        List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The value a literal piece of a layer's operations leaves in a buffer it writes: the operations' results composed. -/
local macro "piece_value" ops:ident : tactic =>
  `(tactic| (simp only [$ops:ident, List.drop_succ_cons, List.drop_zero, List.take_succ_cons, List.take_zero]
             after_results_simp))

/-- Operations run one list after another are the concatenation run as one. -/
private theorem after_cat : ∀ (l₁ l₂ : List (HloOp τ sig (Elt Ideal))) (W : Valuation τ sig (Elt Ideal)),
    StableHlo.after (l₁ ++ l₂) W = StableHlo.after l₂ (StableHlo.after l₁ W)
  | [], _, _ => rfl
  | op :: l₁, l₂, W => by rw [List.cons_append, StableHlo.after_cons, StableHlo.after_cons, after_cat l₁ l₂]

/-- A list cut in four consecutive pieces. -/
private theorem cut4 {α : Type} (l : List α) (a b c : Nat) :
    l = l.take a ++ ((l.drop a).take b ++ (((l.drop a).drop b).take c ++ ((l.drop a).drop b).drop c)) := by
  rw [List.take_append_drop, List.take_append_drop, List.take_append_drop]

variable (V : Valuation τ sig (Elt Ideal))

/-- The buffers layer 2's operations write, in the operations' order. -/
def layer2_written : List (Ref sig .tc) :=
  [
    main_v85, main_c_17, main_v86, main_v87, main_c_18, main_v88, main_v89, main_v90,
    main_v91, main_v92, main_v93, main_v94, main_cst_19, main_v95, main_v96, main_v97,
    main_cst_20, main_v98, main_v99, main_cst_21, main_v100, main_v101, main_v102, main_cst_22,
    main_v103, main_v104, main_v105, main_v106, main_v107, main_cst_23, main_v108, main_v109,
    main_v110, main_cst_24, main_v111, main_cst_25, main_v112, main_v113, main_c_26, main_call4_cst,
    main_call4_v0, main_call4_v1, main_call4_cst_0, main_call4_v2, main_call4_v3, main_call4_v4, main_call4_v5, main_call4_v6,
    main_call4_v7, main_call4_cst_1, main_call4_v8, main_call4_cst_2, main_call4_v9, main_call4_v10, main_call4_v11, main_call4_cst_3,
    main_call4_v12, main_call4_cst_4, main_call4_call0_v0, main_call4_call0_v1, main_v114, main_v115, main_v116, main_v117,
    main_v118, main_v119, main_v120, main_v121, main_v122, main_cst_27, main_v123, main_v124,
    main_v125, main_v126, main_v127, main_v128, main_v129, main_v130, main_v131, main_v132,
    main_v133, main_call5_cst, main_call5_v0, main_v134 ]

theorem layer2_writes : (ROps.ops2 (F := Ideal)).Forall fun op =>
    op.writes ⊆ (layer2_written.map (Proc.devRef (τ := τ) .tc)).toFinset := by
  simp only [ROps.ops2, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-! The graph, the first layer's input and the program's arguments pass through layer 2 unchanged. -/
theorem layer2_keep_v3 : StableHlo.after (ROps.ops2 (F := Ideal)) V (main_v3 : DevRef τ sig) = V main_v3 :=
  StableHlo.after_of_writes_sub _ V layer2_writes (by decide)
theorem layer2_keep_v6 : StableHlo.after (ROps.ops2 (F := Ideal)) V (main_v6 : DevRef τ sig) = V main_v6 :=
  StableHlo.after_of_writes_sub _ V layer2_writes (by decide)
theorem layer2_keep_v29 : StableHlo.after (ROps.ops2 (F := Ideal)) V (main_v29 : DevRef τ sig) = V main_v29 :=
  StableHlo.after_of_writes_sub _ V layer2_writes (by decide)
theorem layer2_keep_v34 : StableHlo.after (ROps.ops2 (F := Ideal)) V (main_v34 : DevRef τ sig) = V main_v34 :=
  StableHlo.after_of_writes_sub _ V layer2_writes (by decide)
theorem layer2_keep_arg0 : StableHlo.after (ROps.ops2 (F := Ideal)) V (main_arg0 : DevRef τ sig) = V main_arg0 :=
  StableHlo.after_of_writes_sub _ V layer2_writes (by decide)
theorem layer2_keep_arg1 : StableHlo.after (ROps.ops2 (F := Ideal)) V (main_arg1 : DevRef τ sig) = V main_arg1 :=
  StableHlo.after_of_writes_sub _ V layer2_writes (by decide)
theorem layer2_keep_arg2 : StableHlo.after (ROps.ops2 (F := Ideal)) V (main_arg2 : DevRef τ sig) = V main_arg2 :=
  StableHlo.after_of_writes_sub _ V layer2_writes (by decide)
theorem layer2_keep_arg3 : StableHlo.after (ROps.ops2 (F := Ideal)) V (main_arg3 : DevRef τ sig) = V main_arg3 :=
  StableHlo.after_of_writes_sub _ V layer2_writes (by decide)
theorem layer2_keep_arg4 : StableHlo.after (ROps.ops2 (F := Ideal)) V (main_arg4 : DevRef τ sig) = V main_arg4 :=
  StableHlo.after_of_writes_sub _ V layer2_writes (by decide)
theorem layer2_keep_arg5 : StableHlo.after (ROps.ops2 (F := Ideal)) V (main_arg5 : DevRef τ sig) = V main_arg5 :=
  StableHlo.after_of_writes_sub _ V layer2_writes (by decide)
theorem layer2_keep_arg6 : StableHlo.after (ROps.ops2 (F := Ideal)) V (main_arg6 : DevRef τ sig) = V main_arg6 :=
  StableHlo.after_of_writes_sub _ V layer2_writes (by decide)
theorem layer2_keep_arg7 : StableHlo.after (ROps.ops2 (F := Ideal)) V (main_arg7 : DevRef τ sig) = V main_arg7 :=
  StableHlo.after_of_writes_sub _ V layer2_writes (by decide)
theorem layer2_keep_arg8 : StableHlo.after (ROps.ops2 (F := Ideal)) V (main_arg8 : DevRef τ sig) = V main_arg8 :=
  StableHlo.after_of_writes_sub _ V layer2_writes (by decide)

/-! ## Layer 2 -/

/-- The aggregation: the layer's first 16 operations. -/
theorem layer2_agg : StableHlo.after ((ROps.ops2 (F := Ideal)).take 16) V (main_v97 : DevRef τ sig)
    = RVal.agg (V main_v3) (V main_v6) (V main_v29) (V main_v84) := by
  piece_value ROps.ops2
  rfl
theorem layer2_agg_keep_v34 : StableHlo.after ((ROps.ops2 (F := Ideal)).take 16) V (main_v34 : DevRef τ sig) = V main_v34 := by not_written ROps.ops2
theorem layer2_agg_keep_arg4 : StableHlo.after ((ROps.ops2 (F := Ideal)).take 16) V (main_arg4 : DevRef τ sig) = V main_arg4 := by not_written ROps.ops2
theorem layer2_agg_keep_arg5 : StableHlo.after ((ROps.ops2 (F := Ideal)).take 16) V (main_arg5 : DevRef τ sig) = V main_arg5 := by not_written ROps.ops2
theorem layer2_agg_keep_arg6 : StableHlo.after ((ROps.ops2 (F := Ideal)).take 16) V (main_arg6 : DevRef τ sig) = V main_arg6 := by not_written ROps.ops2

/-- The mix of the aggregate with the first layer's input, its column means, and the integer zero the variance's
    divisor is made of: the next 23 operations. -/
theorem layer2_mix : StableHlo.after (((ROps.ops2 (F := Ideal)).drop 16).take 23) V (main_v110 : DevRef τ sig)
    = RVal.mix 0x3F46E010#32 0x3E647FBE#32 (V main_v97) (V main_v34) (shapeCast S96x96 (extractStridedSlice S1x96x96 ![1, 0, 0] (V main_arg4) slices_S3x96x96_S1x96x96_1_0_0) shapeCasts_S1x96x96_S96x96) := by
  piece_value ROps.ops2
  rfl
theorem layer2_mean : StableHlo.after (((ROps.ops2 (F := Ideal)).drop 16).take 23) V (main_v113 : DevRef τ sig)
    = RVal.mean (RVal.mix 0x3F46E010#32 0x3E647FBE#32 (V main_v97) (V main_v34) (shapeCast S96x96 (extractStridedSlice S1x96x96 ![1, 0, 0] (V main_arg4) slices_S3x96x96_S1x96x96_1_0_0) shapeCasts_S1x96x96_S96x96)) := by
  piece_value ROps.ops2
  rfl
theorem layer2_zero : StableHlo.after (((ROps.ops2 (F := Ideal)).drop 16).take 23) V (main_c_26 : DevRef τ sig) = constantI S_ 32 0#32 := by
  piece_value ROps.ops2
theorem layer2_mix_keep_arg5 : StableHlo.after (((ROps.ops2 (F := Ideal)).drop 16).take 23) V (main_arg5 : DevRef τ sig) = V main_arg5 := by not_written ROps.ops2
theorem layer2_mix_keep_arg6 : StableHlo.after (((ROps.ops2 (F := Ideal)).drop 16).take 23) V (main_arg6 : DevRef τ sig) = V main_arg6 := by not_written ROps.ops2

/-- The column variances (the called function's 22 operations), from contents whose divisor constant is the zero. -/
theorem layer2_var (h : V main_c_26 = constantI S_ 32 0#32) : StableHlo.after ((((ROps.ops2 (F := Ideal)).drop 16).drop 23).take 22) V (main_v114 : DevRef τ sig)
    = RVal.var (V main_v110) := by
  piece_value ROps.ops2
  rw [h]
  rfl
theorem layer2_var_keep_o : StableHlo.after ((((ROps.ops2 (F := Ideal)).drop 16).drop 23).take 22) V (main_v110 : DevRef τ sig) = V main_v110 := by not_written ROps.ops2
theorem layer2_var_keep_mean : StableHlo.after ((((ROps.ops2 (F := Ideal)).drop 16).drop 23).take 22) V (main_v113 : DevRef τ sig) = V main_v113 := by not_written ROps.ops2
theorem layer2_var_keep_arg5 : StableHlo.after ((((ROps.ops2 (F := Ideal)).drop 16).drop 23).take 22) V (main_arg5 : DevRef τ sig) = V main_arg5 := by not_written ROps.ops2
theorem layer2_var_keep_arg6 : StableHlo.after ((((ROps.ops2 (F := Ideal)).drop 16).drop 23).take 22) V (main_arg6 : DevRef τ sig) = V main_arg6 := by not_written ROps.ops2

/-- The normalisation by given means and variances, the scale and shift, and the ReLU: the last 23 operations. -/
theorem layer2_bn : StableHlo.after ((((ROps.ops2 (F := Ideal)).drop 16).drop 23).drop 22) V (main_v134 : DevRef τ sig)
    = RVal.bn (V main_v110) (V main_v113) (V main_v114) (shapeCast S96 (extractStridedSlice S1x96 ![1, 0] (V main_arg5) slices_S3x96_S1x96_1_0) shapeCasts_S1x96_S96) (shapeCast S96 (extractStridedSlice S1x96 ![1, 0] (V main_arg6) slices_S3x96_S1x96_1_0) shapeCasts_S1x96_S96) := by
  piece_value ROps.ops2
  rfl

/-- Layer 2's result, from any contents: the layer's stage function of the graph, the first layer's input, the
    layer's input and the three parameter arrays. -/
theorem layer2_fold : StableHlo.after (ROps.ops2 (F := Ideal)) V (main_v134 : DevRef τ sig)
    = RVal.layer2 (V main_v3) (V main_v6) (V main_v29) (V main_v34) (V main_v84) (V main_arg4) (V main_arg5) (V main_arg6) := by
  rw [cut4 (ROps.ops2 (F := Ideal)) 16 23 22, after_cat, after_cat, after_cat, layer2_bn,
    layer2_var_keep_o, layer2_var_keep_mean, layer2_var _ (layer2_zero _), layer2_var_keep_arg5, layer2_var_keep_arg6,
    layer2_mix, layer2_mean, layer2_mix_keep_arg5, layer2_mix_keep_arg6,
    layer2_agg, layer2_agg_keep_v34, layer2_agg_keep_arg4, layer2_agg_keep_arg5, layer2_agg_keep_arg6]
  rfl

end Cert.Gcn.RFoldL

end
-- ==== Proof.RFoldL3.lean ====
/-
  The reference's graph layer 3 as a fold of its 84 operations: from any starting contents, what the layer's last
  buffer ends holding is the layer's stage function of the contents it reads, and every buffer the layer does not write
  keeps its contents.
-/
import proofs.«408610_j12541304504853_3_alg».proof.Proof.ROps
import proofs.«408610_j12541304504853_3_alg».proof.Proof.RVal
import Idealize.ShloMosaic.Lib.StableHlo.Run

set_option maxRecDepth 16384

noncomputable section

namespace Cert.Gcn.RFoldL

open Cert.ReferenceIdeal Cert.ReferenceIdeal.Gen Idealize.ShloMosaic Idealize.ShloMosaic.TcCoe Idealize.ShloMosaic.StableHlo

/-- A buffer none of the listed operations writes keeps its contents: each operation's written buffer is another
    reference. -/
local macro "not_written" ops:ident : tactic =>
  `(tactic| exact StableHlo.after_of_forall_not_mem _ _ (List.forall_iff_forall_mem.mp (by
      simp only [$ops:ident, List.drop_succ_cons, List.drop_zero, List.take_succ_cons, List.take_zero,
        List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The value a literal piece of a layer's operations leaves in a buffer it writes: the operations' results composed. -/
local macro "piece_value" ops:ident : tactic =>
  `(tactic| (simp only [$ops:ident, List.drop_succ_cons, List.drop_zero, List.take_succ_cons, List.take_zero]
             after_results_simp))

/-- Operations run one list after another are the concatenation run as one. -/
private theorem after_cat : ∀ (l₁ l₂ : List (HloOp τ sig (Elt Ideal))) (W : Valuation τ sig (Elt Ideal)),
    StableHlo.after (l₁ ++ l₂) W = StableHlo.after l₂ (StableHlo.after l₁ W)
  | [], _, _ => rfl
  | op :: l₁, l₂, W => by rw [List.cons_append, StableHlo.after_cons, StableHlo.after_cons, after_cat l₁ l₂]

/-- A list cut in four consecutive pieces. -/
private theorem cut4 {α : Type} (l : List α) (a b c : Nat) :
    l = l.take a ++ ((l.drop a).take b ++ (((l.drop a).drop b).take c ++ ((l.drop a).drop b).drop c)) := by
  rw [List.take_append_drop, List.take_append_drop, List.take_append_drop]

variable (V : Valuation τ sig (Elt Ideal))

/-- The buffers layer 3's operations write, in the operations' order. -/
def layer3_written : List (Ref sig .tc) :=
  [
    main_v135, main_c_28, main_v136, main_v137, main_c_29, main_v138, main_v139, main_v140,
    main_v141, main_v142, main_v143, main_v144, main_cst_30, main_v145, main_v146, main_v147,
    main_cst_31, main_v148, main_v149, main_cst_32, main_v150, main_v151, main_v152, main_cst_33,
    main_v153, main_v154, main_v155, main_v156, main_v157, main_cst_34, main_v158, main_v159,
    main_v160, main_cst_35, main_v161, main_cst_36, main_v162, main_v163, main_c_37, main_call6_cst,
    main_call6_v0, main_call6_v1, main_call6_cst_0, main_call6_v2, main_call6_v3, main_call6_v4, main_call6_v5, main_call6_v6,
    main_call6_v7, main_call6_cst_1, main_call6_v8, main_call6_cst_2, main_call6_v9, main_call6_v10, main_call6_v11, main_call6_cst_3,
    main_call6_v12, main_call6_cst_4, main_call6_call0_v0, main_call6_call0_v1, main_v164, main_v165, main_v166, main_v167,
    main_v168, main_v169, main_v170, main_v171, main_v172, main_cst_38, main_v173, main_v174,
    main_v175, main_v176, main_v177, main_v178, main_v179, main_v180, main_v181, main_v182,
    main_v183, main_call7_cst, main_call7_v0, main_v184 ]

theorem layer3_writes : (ROps.ops3 (F := Ideal)).Forall fun op =>
    op.writes ⊆ (layer3_written.map (Proc.devRef (τ := τ) .tc)).toFinset := by
  simp only [ROps.ops3, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-! The graph, the first layer's input and the program's arguments pass through layer 3 unchanged. -/
theorem layer3_keep_v3 : StableHlo.after (ROps.ops3 (F := Ideal)) V (main_v3 : DevRef τ sig) = V main_v3 :=
  StableHlo.after_of_writes_sub _ V layer3_writes (by decide)
theorem layer3_keep_v6 : StableHlo.after (ROps.ops3 (F := Ideal)) V (main_v6 : DevRef τ sig) = V main_v6 :=
  StableHlo.after_of_writes_sub _ V layer3_writes (by decide)
theorem layer3_keep_v29 : StableHlo.after (ROps.ops3 (F := Ideal)) V (main_v29 : DevRef τ sig) = V main_v29 :=
  StableHlo.after_of_writes_sub _ V layer3_writes (by decide)
theorem layer3_keep_v34 : StableHlo.after (ROps.ops3 (F := Ideal)) V (main_v34 : DevRef τ sig) = V main_v34 :=
  StableHlo.after_of_writes_sub _ V layer3_writes (by decide)
theorem layer3_keep_arg0 : StableHlo.after (ROps.ops3 (F := Ideal)) V (main_arg0 : DevRef τ sig) = V main_arg0 :=
  StableHlo.after_of_writes_sub _ V layer3_writes (by decide)
theorem layer3_keep_arg1 : StableHlo.after (ROps.ops3 (F := Ideal)) V (main_arg1 : DevRef τ sig) = V main_arg1 :=
  StableHlo.after_of_writes_sub _ V layer3_writes (by decide)
theorem layer3_keep_arg2 : StableHlo.after (ROps.ops3 (F := Ideal)) V (main_arg2 : DevRef τ sig) = V main_arg2 :=
  StableHlo.after_of_writes_sub _ V layer3_writes (by decide)
theorem layer3_keep_arg3 : StableHlo.after (ROps.ops3 (F := Ideal)) V (main_arg3 : DevRef τ sig) = V main_arg3 :=
  StableHlo.after_of_writes_sub _ V layer3_writes (by decide)
theorem layer3_keep_arg4 : StableHlo.after (ROps.ops3 (F := Ideal)) V (main_arg4 : DevRef τ sig) = V main_arg4 :=
  StableHlo.after_of_writes_sub _ V layer3_writes (by decide)
theorem layer3_keep_arg5 : StableHlo.after (ROps.ops3 (F := Ideal)) V (main_arg5 : DevRef τ sig) = V main_arg5 :=
  StableHlo.after_of_writes_sub _ V layer3_writes (by decide)
theorem layer3_keep_arg6 : StableHlo.after (ROps.ops3 (F := Ideal)) V (main_arg6 : DevRef τ sig) = V main_arg6 :=
  StableHlo.after_of_writes_sub _ V layer3_writes (by decide)
theorem layer3_keep_arg7 : StableHlo.after (ROps.ops3 (F := Ideal)) V (main_arg7 : DevRef τ sig) = V main_arg7 :=
  StableHlo.after_of_writes_sub _ V layer3_writes (by decide)
theorem layer3_keep_arg8 : StableHlo.after (ROps.ops3 (F := Ideal)) V (main_arg8 : DevRef τ sig) = V main_arg8 :=
  StableHlo.after_of_writes_sub _ V layer3_writes (by decide)

/-! ## Layer 3 -/

/-- The aggregation: the layer's first 16 operations. -/
theorem layer3_agg : StableHlo.after ((ROps.ops3 (F := Ideal)).take 16) V (main_v147 : DevRef τ sig)
    = RVal.agg (V main_v3) (V main_v6) (V main_v29) (V main_v134) := by
  piece_value ROps.ops3
  rfl
theorem layer3_agg_keep_v34 : StableHlo.after ((ROps.ops3 (F := Ideal)).take 16) V (main_v34 : DevRef τ sig) = V main_v34 := by not_written ROps.ops3
theorem layer3_agg_keep_arg4 : StableHlo.after ((ROps.ops3 (F := Ideal)).take 16) V (main_arg4 : DevRef τ sig) = V main_arg4 := by not_written ROps.ops3
theorem layer3_agg_keep_arg5 : StableHlo.after ((ROps.ops3 (F := Ideal)).take 16) V (main_arg5 : DevRef τ sig) = V main_arg5 := by not_written ROps.ops3
theorem layer3_agg_keep_arg6 : StableHlo.after ((ROps.ops3 (F := Ideal)).take 16) V (main_arg6 : DevRef τ sig) = V main_arg6 := by not_written ROps.ops3

/-- The mix of the aggregate with the first layer's input, its column means, and the integer zero the variance's
    divisor is made of: the next 23 operations. -/
theorem layer3_mix : StableHlo.after (((ROps.ops3 (F := Ideal)).drop 16).take 23) V (main_v160 : DevRef τ sig)
    = RVal.mix 0x3F588995#32 0x3E1DD9AD#32 (V main_v147) (V main_v34) (shapeCast S96x96 (extractStridedSlice S1x96x96 ![2, 0, 0] (V main_arg4) slices_S3x96x96_S1x96x96_2_0_0) shapeCasts_S1x96x96_S96x96) := by
  piece_value ROps.ops3
  rfl
theorem layer3_mean : StableHlo.after (((ROps.ops3 (F := Ideal)).drop 16).take 23) V (main_v163 : DevRef τ sig)
    = RVal.mean (RVal.mix 0x3F588995#32 0x3E1DD9AD#32 (V main_v147) (V main_v34) (shapeCast S96x96 (extractStridedSlice S1x96x96 ![2, 0, 0] (V main_arg4) slices_S3x96x96_S1x96x96_2_0_0) shapeCasts_S1x96x96_S96x96)) := by
  piece_value ROps.ops3
  rfl
theorem layer3_zero : StableHlo.after (((ROps.ops3 (F := Ideal)).drop 16).take 23) V (main_c_37 : DevRef τ sig) = constantI S_ 32 0#32 := by
  piece_value ROps.ops3
theorem layer3_mix_keep_arg5 : StableHlo.after (((ROps.ops3 (F := Ideal)).drop 16).take 23) V (main_arg5 : DevRef τ sig) = V main_arg5 := by not_written ROps.ops3
theorem layer3_mix_keep_arg6 : StableHlo.after (((ROps.ops3 (F := Ideal)).drop 16).take 23) V (main_arg6 : DevRef τ sig) = V main_arg6 := by not_written ROps.ops3

/-- The column variances (the called function's 22 operations), from contents whose divisor constant is the zero. -/
theorem layer3_var (h : V main_c_37 = constantI S_ 32 0#32) : StableHlo.after ((((ROps.ops3 (F := Ideal)).drop 16).drop 23).take 22) V (main_v164 : DevRef τ sig)
    = RVal.var (V main_v160) := by
  piece_value ROps.ops3
  rw [h]
  rfl
theorem layer3_var_keep_o : StableHlo.after ((((ROps.ops3 (F := Ideal)).drop 16).drop 23).take 22) V (main_v160 : DevRef τ sig) = V main_v160 := by not_written ROps.ops3
theorem layer3_var_keep_mean : StableHlo.after ((((ROps.ops3 (F := Ideal)).drop 16).drop 23).take 22) V (main_v163 : DevRef τ sig) = V main_v163 := by not_written ROps.ops3
theorem layer3_var_keep_arg5 : StableHlo.after ((((ROps.ops3 (F := Ideal)).drop 16).drop 23).take 22) V (main_arg5 : DevRef τ sig) = V main_arg5 := by not_written ROps.ops3
theorem layer3_var_keep_arg6 : StableHlo.after ((((ROps.ops3 (F := Ideal)).drop 16).drop 23).take 22) V (main_arg6 : DevRef τ sig) = V main_arg6 := by not_written ROps.ops3

/-- The normalisation by given means and variances, the scale and shift, and the ReLU: the last 23 operations. -/
theorem layer3_bn : StableHlo.after ((((ROps.ops3 (F := Ideal)).drop 16).drop 23).drop 22) V (main_v184 : DevRef τ sig)
    = RVal.bn (V main_v160) (V main_v163) (V main_v164) (shapeCast S96 (extractStridedSlice S1x96 ![2, 0] (V main_arg5) slices_S3x96_S1x96_2_0) shapeCasts_S1x96_S96) (shapeCast S96 (extractStridedSlice S1x96 ![2, 0] (V main_arg6) slices_S3x96_S1x96_2_0) shapeCasts_S1x96_S96) := by
  piece_value ROps.ops3
  rfl

/-- Layer 3's result, from any contents: the layer's stage function of the graph, the first layer's input, the
    layer's input and the three parameter arrays. -/
theorem layer3_fold : StableHlo.after (ROps.ops3 (F := Ideal)) V (main_v184 : DevRef τ sig)
    = RVal.layer3 (V main_v3) (V main_v6) (V main_v29) (V main_v34) (V main_v134) (V main_arg4) (V main_arg5) (V main_arg6) := by
  rw [cut4 (ROps.ops3 (F := Ideal)) 16 23 22, after_cat, after_cat, after_cat, layer3_bn,
    layer3_var_keep_o, layer3_var_keep_mean, layer3_var _ (layer3_zero _), layer3_var_keep_arg5, layer3_var_keep_arg6,
    layer3_mix, layer3_mean, layer3_mix_keep_arg5, layer3_mix_keep_arg6,
    layer3_agg, layer3_agg_keep_v34, layer3_agg_keep_arg4, layer3_agg_keep_arg5, layer3_agg_keep_arg6]
  rfl

end Cert.Gcn.RFoldL

end
-- ==== Proof.RFoldL.lean ====
/-
  The reference's three graph layers as folds of their operations, one module per layer.
-/
import proofs.«408610_j12541304504853_3_alg».proof.Proof.RFoldL1
import proofs.«408610_j12541304504853_3_alg».proof.Proof.RFoldL2
import proofs.«408610_j12541304504853_3_alg».proof.Proof.RFoldL3
-- ==== Proof.RFold.lean ====
/-
  The reference program's fold, stretch by stretch: what the first and the last stretch of its operations leave in the
  buffers they write, as the stage functions of what they read; then, with the three layers' folds and the buffers each
  stretch leaves in place, the whole program's result as the one function of its nine arguments.
-/
import proofs.«408610_j12541304504853_3_alg».proof.Proof.RKeep
import proofs.«408610_j12541304504853_3_alg».proof.Proof.RVal
import proofs.«408610_j12541304504853_3_alg».proof.Proof.RFoldL
import Idealize.ShloMosaic.Lib.StableHlo.Run

set_option maxHeartbeats 1600000

noncomputable section

namespace Cert.Gcn.RFold

open Cert.ReferenceIdeal Cert.ReferenceIdeal.Gen Idealize.ShloMosaic Idealize.ShloMosaic.TcCoe Idealize.ShloMosaic.StableHlo

section Stretches

variable (V : Valuation τ sig (Elt Ideal))

/-! Stretch 0 leaves the edge lists with the self loops appended and the first layer's input. -/

theorem ops0_row : StableHlo.after (ROps.ops0 (F := Ideal)) V (main_v3 : DevRef τ sig)
    = RVal.row (V (main_arg1 : DevRef τ sig)) := by
  after_results
  rfl

theorem ops0_col : StableHlo.after (ROps.ops0 (F := Ideal)) V (main_v6 : DevRef τ sig)
    = RVal.col (V (main_arg1 : DevRef τ sig)) := by
  after_results
  rfl

theorem ops0_x1 : StableHlo.after (ROps.ops0 (F := Ideal)) V (main_v34 : DevRef τ sig)
    = RVal.x1 (V (main_arg0 : DevRef τ sig)) (V (main_arg2 : DevRef τ sig)) (V (main_arg3 : DevRef τ sig)) := by
  after_results_simp
  rfl

/-! The normalisation, piece by piece: the degrees and their two readings (18 operations), the guarded reciprocal
    square root (the called function's 3), the two gathers and their product (23), and the 3 after them. -/

theorem ops0_cut : (ROps.ops0 (F := Ideal)) = ROps.w0_0 ++ ROps.w0_1 ++ ROps.w0_2 ++ ROps.w0_3 := rfl

theorem w00_pos : StableHlo.after (ROps.w0_0 (F := Ideal)) V (main_v12 : DevRef τ sig)
    = cmpf .ogt (RVal.deg (RVal.col (V (main_arg1 : DevRef τ sig))))
        (broadcastInDim S50000 ![] bcast_S_S50000 (constant (F := Ideal) S_ .f32 0x00000000#32)) := by
  after_results
  rfl

theorem w00_rsqrt : StableHlo.after (ROps.w0_0 (F := Ideal)) V (main_v13 : DevRef τ sig)
    = Host.rsqrt (RVal.deg (RVal.col (V (main_arg1 : DevRef τ sig)))) := by
  after_results
  rfl

theorem w00_zero : StableHlo.after (ROps.w0_0 (F := Ideal)) V (main_cst_2 : DevRef τ sig)
    = constant (F := Ideal) S_ .f32 0x00000000#32 := by
  after_results

theorem w00_row : StableHlo.after (ROps.w0_0 (F := Ideal)) V (main_v3 : DevRef τ sig)
    = RVal.row (V (main_arg1 : DevRef τ sig)) := by
  after_results
  rfl

theorem w00_col : StableHlo.after (ROps.w0_0 (F := Ideal)) V (main_v6 : DevRef τ sig)
    = RVal.col (V (main_arg1 : DevRef τ sig)) := by
  after_results
  rfl

theorem w01_where : StableHlo.after (ROps.w0_1 (F := Ideal)) V (main_v14 : DevRef τ sig)
    = select (V (main_v12 : DevRef τ sig) : IVec S50000 1) (V (main_v13 : DevRef τ sig) : RVal.FA S50000)
        (broadcastInDim S50000 ![] bcast_S_S50000 (V (main_cst_2 : DevRef τ sig) : RVal.FA S_)) := by
  after_results
  rfl

theorem w01_row : StableHlo.after (ROps.w0_1 (F := Ideal)) V (main_v3 : DevRef τ sig) = V (main_v3 : DevRef τ sig) := by
  rfold_keeps ROps.w0_1
theorem w01_col : StableHlo.after (ROps.w0_1 (F := Ideal)) V (main_v6 : DevRef τ sig) = V (main_v6 : DevRef τ sig) := by
  rfold_keeps ROps.w0_1

theorem w02_norm : StableHlo.after (ROps.w0_2 (F := Ideal)) V (main_v29 : DevRef τ sig)
    = (mulf (Host.gather gather_S50000_S850000x1_S850000_n_0_n_n_0_1_1 (V (main_v14 : DevRef τ sig) : RVal.FA S50000)
              (RVal.wrap (V (main_v3 : DevRef τ sig))))
        (Host.gather gather_S50000_S850000x1_S850000_n_0_n_n_0_1_1 (V (main_v14 : DevRef τ sig) : RVal.FA S50000)
              (RVal.wrap (V (main_v6 : DevRef τ sig)))) : RVal.FA S850000) := by
  after_results_simp
  rfl

theorem w03_norm : StableHlo.after (ROps.w0_3 (F := Ideal)) V (main_v29 : DevRef τ sig) = V (main_v29 : DevRef τ sig) := by
  rfold_keeps ROps.w0_3

theorem ops0_norm : StableHlo.after (ROps.ops0 (F := Ideal)) V (main_v29 : DevRef τ sig)
    = RVal.norm (V (main_arg1 : DevRef τ sig)) := by
  rw [ops0_cut, after_app, after_app, after_app, w03_norm, w02_norm, w01_where, w01_row, w01_col,
    w00_pos, w00_rsqrt, w00_zero, w00_row, w00_col]
  rfl

/-! Stretch 4 leaves the output layer of layer 3's result. -/

theorem ops4_out : StableHlo.after (ROps.ops4 (F := Ideal)) V (main_v188 : DevRef τ sig)
    = RVal.out (V (main_v184 : DevRef τ sig)) (V (main_arg7 : DevRef τ sig)) (V (main_arg8 : DevRef τ sig)) := by
  after_results
  rfl

end Stretches

/-- The program's result from any starting contents: the one function of what the nine arguments' buffers hold. Stretch
    4 reads layer 3's result, each layer reads the layer before it, the edge lists, the normalisation and the first
    layer's input, and stretch 0 makes those four from the arguments; no stretch writes what a later one reads of an
    earlier one. -/
theorem value_fold (V : Valuation τ sig (Elt Ideal)) :
    StableHlo.after (ROps.ops (F := Ideal)) V (main_v188 : DevRef τ sig)
      = RVal.value (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  show StableHlo.after (ROps.ops0 ++ ROps.ops1 ++ ROps.ops2 ++ ROps.ops3 ++ ROps.ops4) V _ = _
  rw [after_app, after_app, after_app, after_app]
  -- the output layer, of layer 3's result
  rw [ops4_out, RFoldL.layer3_fold, keep3_arg7, keep3_arg8]
  -- layer 2's result and what layer 3 reads beside it
  rw [RFoldL.layer2_fold, keep2_v3, keep2_v6, keep2_v29, keep2_v34, keep2_arg4, keep2_arg5, keep2_arg6, keep2_arg7, keep2_arg8]
  -- layer 1's result and what layers 2 and 3 read beside it
  rw [RFoldL.layer1_fold, keep1_v3, keep1_v6, keep1_v29, keep1_v34, keep1_arg4, keep1_arg5, keep1_arg6, keep1_arg7, keep1_arg8]
  -- the edge lists, the normalisation and the first layer's input, of the arguments
  rw [ops0_row, ops0_col, ops0_norm, ops0_x1, keep0_arg4, keep0_arg5, keep0_arg6, keep0_arg7, keep0_arg8]
  rfl

/-- The reference's result array after its run from the launch memory. -/
theorem rvalue (m : (ℓ : Loc nD τ sig) → Buf (Elt Ideal) ℓ) (c : Dev nD) :
    StableHlo.after (ROps.ops (F := Ideal)) (StableHlo.launchContents m c) (main_v188 : DevRef τ sig)
      = RVal.value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  value_fold (StableHlo.launchContents m c)

end Cert.Gcn.RFold

end
-- ==== Proof.BridgeIdx.lean ====
/-
  The dense stages of the two programs, index by index.

  The reference spells a linear layer, the residual mix and the batch-norm affine with whole-array operations: a matrix
  product, a vector broadcast first to a one-row matrix and then down the rows, a sum, a maximum against a splat zero.
  The kernel side's stage functions (Spec.lean) say the same scalar expression at every index, with the vectors kept as
  one-row matrices. Each theorem here reads one spelling at an index and finds the other: no law of arithmetic is used,
  only what each operation reads at an index.
-/
import proofs.«408610_j12541304504853_3_alg».proof.Proof.Spec
import proofs.«408610_j12541304504853_3_alg».proof.Proof.LibMatProd
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Gcn.BridgeIdx

open Idealize.ShloMosaic Idealize.ShloMosaic.ValueIdx

/-- A vector shape. -/
abbrev V1 (n : ℕ) : Shape := ⟨1, ![n]⟩
/-- The scalar shape. -/
abbrev S0 : Shape := ⟨0, ![]⟩

/-! ## Broadcasts read at an index -/

section Reads
variable {α : Type}

/-- A scalar broadcast to any shape reads the scalar everywhere. -/
theorem bcast0_apply {t : Shape} (h : S0.BroadcastsInDim t (![] : Fin 0 → Fin t.rank)) (v : S0.Idx → α) (j : t.Idx) :
    broadcastInDim t (![] : Fin 0 → Fin t.rank) h v j = v ix0 :=
  broadcastInDim_apply _ h v j ix0 fun a => a.elim0

/-- A vector broadcast to a one-row matrix reads, at `(u, q)`, the vector at `q`. -/
theorem bcastRow_apply {B : ℕ} (h : (V1 B).BroadcastsInDim (M2 1 B) (![1] : Fin 1 → Fin 2)) (v : (V1 B).Idx → α)
    (u : Fin 1) (q : Fin B) : broadcastInDim (M2 1 B) (![1] : Fin 1 → Fin 2) h v (ix2 u q) = v (ix1 q) := by
  refine broadcastInDim_apply _ h v (ix2 u q) (ix1 q) fun a => ?_
  match a with
  | ⟨0, _⟩ =>
    show q.val = if B = 1 then 0 else q.val
    split
    · have := q.isLt; omega
    · rfl

/-- A one-row matrix broadcast down `A` rows reads, at `(p, q)`, the row at `q`. -/
theorem bcastRows_apply {A B : ℕ} (h : (M2 1 B).BroadcastsInDim (M2 A B) (![0, 1] : Fin 2 → Fin 2)) (v : (M2 1 B).Idx → α)
    (p : Fin A) (q : Fin B) : broadcastInDim (M2 A B) (![0, 1] : Fin 2 → Fin 2) h v (ix2 p q) = v (ix2 (0 : Fin 1) q) := by
  refine broadcastInDim_apply _ h v (ix2 p q) (ix2 (0 : Fin 1) q) fun a => ?_
  match a with
  | ⟨0, _⟩ => rfl
  | ⟨1, _⟩ =>
    show q.val = if B = 1 then 0 else q.val
    split
    · have := q.isLt; omega
    · rfl

/-- A vector broadcast to a one-row matrix and then down the rows reads, at `(p, q)`, the vector at `q`. -/
theorem bcastVec_apply {A B : ℕ} (h1 : (V1 B).BroadcastsInDim (M2 1 B) (![1] : Fin 1 → Fin 2))
    (h2 : (M2 1 B).BroadcastsInDim (M2 A B) (![0, 1] : Fin 2 → Fin 2)) (v : (V1 B).Idx → α) (p : Fin A) (q : Fin B) :
    broadcastInDim (M2 A B) (![0, 1] : Fin 2 → Fin 2) h2 (broadcastInDim (M2 1 B) (![1] : Fin 1 → Fin 2) h1 v) (ix2 p q)
      = v (ix1 q) :=
  (bcastRows_apply h2 _ p q).trans (bcastRow_apply h1 v 0 q)

end Reads

/-! ## The linear layers -/

section Dense
variable {A K B : ℕ}

/-- The splat zero a maximum is taken against reads the literal zero. -/
theorem zero_apply {t : Shape} (h : S0.BroadcastsInDim t (![] : Fin 0 → Fin t.rank)) (c : BitVec 32) (j : t.Idx) :
    broadcastInDim t (![] : Fin 0 → Fin t.rank) h (constant (F := Ideal) S0 .f32 c) j = lit c := rfl

/-- `x·w + b` with the bias a vector broadcast to every row is `affine` with the bias as a one-row matrix `r` that
    agrees with the vector entry by entry. -/
theorem affine_eq (d : DotDims (M2 A K) (M2 K B) (M2 A B)) (hd : d = DotDims.plain A K B)
    (h1 : (V1 B).BroadcastsInDim (M2 1 B) (![1] : Fin 1 → Fin 2)) (h2 : (M2 1 B).BroadcastsInDim (M2 A B) (![0, 1] : Fin 2 → Fin 2))
    (x : FVec Ideal (M2 A K) .f32) (w : FVec Ideal (M2 K B) .f32) (b : FVec Ideal (V1 B) .f32) (r : (M2 1 B).Idx → EReal)
    (hr : ∀ q : Fin B, r (ix2 (0 : Fin 1) q) = b (ix1 q)) :
    addf (Host.dotGeneral d none x w) (broadcastInDim (M2 A B) (![0, 1] : Fin 2 → Fin 2) h2 (broadcastInDim (M2 1 B) (![1] : Fin 1 → Fin 2) h1 b))
      = affine x w r := by
  funext i
  obtain ⟨p, q, rfl⟩ : ∃ (p : Fin A) (q : Fin B), i = ix2 p q := ⟨i 0, i 1, eq_ix2 i⟩
  show FloatOps.addf (F := Ideal) (φ := .f32) (Host.dotGeneral d none x w (ix2 p q))
      (broadcastInDim (M2 A B) (![0, 1] : Fin 2 → Fin 2) h2 (broadcastInDim (M2 1 B) (![1] : Fin 1 → Fin 2) h1 b) (ix2 p q))
    = FloatOps.addf (F := Ideal) (φ := .f32) (∑ k : Fin K, x (ix2 p k) * w (ix2 k q)) (r (ix2 (0 : Fin 1) q))
  rw [Cert.LibMatProd.dotGeneral_apply d hd none x w p q, bcastVec_apply h1 h2 b p q, hr q]

/-- The input layer: `max(x·w + b, 0)`. -/
theorem fcRelu_eq (d : DotDims (M2 A K) (M2 K B) (M2 A B)) (hd : d = DotDims.plain A K B)
    (h1 : (V1 B).BroadcastsInDim (M2 1 B) (![1] : Fin 1 → Fin 2)) (h2 : (M2 1 B).BroadcastsInDim (M2 A B) (![0, 1] : Fin 2 → Fin 2))
    (h0 : S0.BroadcastsInDim (M2 A B) (![] : Fin 0 → Fin 2))
    (x : FVec Ideal (M2 A K) .f32) (w : FVec Ideal (M2 K B) .f32) (b : FVec Ideal (V1 B) .f32) (r : (M2 1 B).Idx → EReal)
    (hr : ∀ q : Fin B, r (ix2 (0 : Fin 1) q) = b (ix1 q)) :
    maximumf (addf (Host.dotGeneral d none x w)
        (broadcastInDim (M2 A B) (![0, 1] : Fin 2 → Fin 2) h2 (broadcastInDim (M2 1 B) (![1] : Fin 1 → Fin 2) h1 b)))
      (broadcastInDim (M2 A B) (![] : Fin 0 → Fin 2) h0 (constant (F := Ideal) S0 .f32 0x00000000#32))
      = fcRelu x w r := by
  rw [affine_eq d hd h1 h2 x w b r hr]
  rfl

/-- A vector reshaped to a one-row matrix agrees with the vector entry by entry. -/
theorem reshapeRow_apply (hc : (V1 B).ShapeCasts (M2 1 B)) (b : (V1 B).Idx → EReal) (q : Fin B) :
    shapeCast (M2 1 B) b hc (ix2 (0 : Fin 1) q) = b (ix1 q) :=
  shapeCast_a_1a_apply b hc 0 q

/-- A one-row matrix reshaped to a vector agrees with the row entry by entry. -/
theorem reshapeVec_apply (hc : (M2 1 B).ShapeCasts (V1 B)) (r : (M2 1 B).Idx → EReal) (q : Fin B) :
    r (ix2 (0 : Fin 1) q) = shapeCast (V1 B) r hc (ix1 q) :=
  (shapeCast_1a_a_apply r hc q).symm

end Dense

/-! ## The residual mix -/

section Mix
variable {A H : ℕ}

/-- `c₁·h + c₂·(h·w)` with `h = 0.9·agg + 0.1·x₀`, every literal a splat. -/
theorem mixed_eq (d : DotDims (M2 A H) (M2 H H) (M2 A H)) (hd : d = DotDims.plain A H H)
    (h0 : S0.BroadcastsInDim (M2 A H) (![] : Fin 0 → Fin 2)) (c1 c2 : BitVec 32)
    (agg x0 : FVec Ideal (M2 A H) .f32) (w : FVec Ideal (M2 H H) .f32) :
    addf
      (mulf (broadcastInDim (M2 A H) (![] : Fin 0 → Fin 2) h0 (constant (F := Ideal) S0 .f32 c1))
        (addf (mulf (broadcastInDim (M2 A H) (![] : Fin 0 → Fin 2) h0 (constant (F := Ideal) S0 .f32 0x3F666666#32)) agg)
          (mulf (broadcastInDim (M2 A H) (![] : Fin 0 → Fin 2) h0 (constant (F := Ideal) S0 .f32 0x3DCCCCCD#32)) x0)))
      (mulf (broadcastInDim (M2 A H) (![] : Fin 0 → Fin 2) h0 (constant (F := Ideal) S0 .f32 c2))
        (Host.dotGeneral d none
          (addf (mulf (broadcastInDim (M2 A H) (![] : Fin 0 → Fin 2) h0 (constant (F := Ideal) S0 .f32 0x3F666666#32)) agg)
            (mulf (broadcastInDim (M2 A H) (![] : Fin 0 → Fin 2) h0 (constant (F := Ideal) S0 .f32 0x3DCCCCCD#32)) x0)) w))
      = mixed c1 c2 agg x0 w := by
  funext i
  obtain ⟨p, q, rfl⟩ : ∃ (p : Fin A) (q : Fin H), i = ix2 p q := ⟨i 0, i 1, eq_ix2 i⟩
  show FloatOps.addf (F := Ideal) (φ := .f32)
      (FloatOps.mulf (F := Ideal) (φ := .f32) (lit c1) (resid agg x0 p q))
      (FloatOps.mulf (F := Ideal) (φ := .f32) (lit c2) (Host.dotGeneral d none
        (addf (mulf (broadcastInDim (M2 A H) (![] : Fin 0 → Fin 2) h0 (constant (F := Ideal) S0 .f32 0x3F666666#32)) agg)
          (mulf (broadcastInDim (M2 A H) (![] : Fin 0 → Fin 2) h0 (constant (F := Ideal) S0 .f32 0x3DCCCCCD#32)) x0)) w (ix2 p q)))
    = _
  rw [Cert.LibMatProd.dotGeneral_apply d hd none _ w p q]
  rfl

end Mix

/-! ## The statistics: a row on one side, a vector on the other -/

section Stats
variable {B : ℕ}

/-- The mean: the column sums `s` over the splat count, as a one-row matrix at `(0, q)` and as a vector at `q`. -/
theorem meanRow_apply (h1 : (V1 B).BroadcastsInDim (M2 1 B) (![1] : Fin 1 → Fin 2))
    (hr : S0.BroadcastsInDim (M2 1 B) (![] : Fin 0 → Fin 2)) (hv : S0.BroadcastsInDim (V1 B) (![] : Fin 0 → Fin 1))
    (s : FVec Ideal (V1 B) .f32) (n : FVec Ideal S0 .f32) (q : Fin B) :
    Host.divf (broadcastInDim (M2 1 B) (![1] : Fin 1 → Fin 2) h1 s) (broadcastInDim (M2 1 B) (![] : Fin 0 → Fin 2) hr n) (ix2 (0 : Fin 1) q)
      = Host.divf s (broadcastInDim (V1 B) (![] : Fin 0 → Fin 1) hv n) (ix1 q) := by
  show FloatOps.hostDivf (F := Ideal) (φ := .f32) (broadcastInDim (M2 1 B) (![1] : Fin 1 → Fin 2) h1 s (ix2 (0 : Fin 1) q))
      (broadcastInDim (M2 1 B) (![] : Fin 0 → Fin 2) hr n (ix2 (0 : Fin 1) q))
    = FloatOps.hostDivf (F := Ideal) (φ := .f32) (s (ix1 q)) (broadcastInDim (V1 B) (![] : Fin 0 → Fin 1) hv n (ix1 q))
  rw [bcastRow_apply h1 s 0 q, bcast0_apply hr n, bcast0_apply hv n]

/-- The variance: the column sums `s` of the squared deviations over the scalar count `n`, under the select on the scalar
    condition `c` with the scalar `z` in the other branch: as a one-row matrix at `(0, q)` and as a vector at `q`. -/
theorem varRow_apply (h1 : (V1 B).BroadcastsInDim (M2 1 B) (![1] : Fin 1 → Fin 2))
    (hr : S0.BroadcastsInDim (M2 1 B) (![] : Fin 0 → Fin 2)) (hv : S0.BroadcastsInDim (V1 B) (![] : Fin 0 → Fin 1))
    (c : IVec S0 1) (s : FVec Ideal (V1 B) .f32) (n z : FVec Ideal S0 .f32) (q : Fin B) :
    select (broadcastInDim (M2 1 B) (![] : Fin 0 → Fin 2) hr c)
        (Host.divf (broadcastInDim (M2 1 B) (![1] : Fin 1 → Fin 2) h1 s) (broadcastInDim (M2 1 B) (![] : Fin 0 → Fin 2) hr n))
        (broadcastInDim (M2 1 B) (![] : Fin 0 → Fin 2) hr z) (ix2 (0 : Fin 1) q)
      = select (broadcastInDim (V1 B) (![] : Fin 0 → Fin 1) hv c)
        (Host.divf s (broadcastInDim (V1 B) (![] : Fin 0 → Fin 1) hv n))
        (broadcastInDim (V1 B) (![] : Fin 0 → Fin 1) hv z) (ix1 q) := by
  show Scalar.select (broadcastInDim (M2 1 B) (![] : Fin 0 → Fin 2) hr c (ix2 (0 : Fin 1) q))
      (Host.divf (broadcastInDim (M2 1 B) (![1] : Fin 1 → Fin 2) h1 s) (broadcastInDim (M2 1 B) (![] : Fin 0 → Fin 2) hr n) (ix2 (0 : Fin 1) q))
      (broadcastInDim (M2 1 B) (![] : Fin 0 → Fin 2) hr z (ix2 (0 : Fin 1) q))
    = Scalar.select (broadcastInDim (V1 B) (![] : Fin 0 → Fin 1) hv c (ix1 q))
      (Host.divf s (broadcastInDim (V1 B) (![] : Fin 0 → Fin 1) hv n) (ix1 q))
      (broadcastInDim (V1 B) (![] : Fin 0 → Fin 1) hv z (ix1 q))
  rw [meanRow_apply h1 hr hv s n q, bcast0_apply hr c, bcast0_apply hv c, bcast0_apply hr z, bcast0_apply hv z]

end Stats

/-! ## The batch-norm affine and ReLU -/

section Bn
variable {A H : ℕ}

/-- `max(γ·(o − μ)·rsqrt(σ² + ε) + β, 0)` with the four vectors each broadcast to every row is `bnRelu` with them as
    one-row matrices that agree with the vectors entry by entry. -/
theorem bnRelu_eq (h1 : (V1 H).BroadcastsInDim (M2 1 H) (![1] : Fin 1 → Fin 2))
    (h2 : (M2 1 H).BroadcastsInDim (M2 A H) (![0, 1] : Fin 2 → Fin 2))
    (h0 : S0.BroadcastsInDim (M2 A H) (![] : Fin 0 → Fin 2)) (hv : S0.BroadcastsInDim (V1 H) (![] : Fin 0 → Fin 1))
    (o : FVec Ideal (M2 A H) .f32) (mean var gamma beta : FVec Ideal (V1 H) .f32) (mr vr gr br : (M2 1 H).Idx → EReal)
    (hm : ∀ q : Fin H, mr (ix2 (0 : Fin 1) q) = mean (ix1 q)) (hvar : ∀ q : Fin H, vr (ix2 (0 : Fin 1) q) = var (ix1 q))
    (hg : ∀ q : Fin H, gr (ix2 (0 : Fin 1) q) = gamma (ix1 q)) (hb : ∀ q : Fin H, br (ix2 (0 : Fin 1) q) = beta (ix1 q)) :
    maximumf
      (addf
        (mulf
          (mulf (broadcastInDim (M2 A H) (![0, 1] : Fin 2 → Fin 2) h2 (broadcastInDim (M2 1 H) (![1] : Fin 1 → Fin 2) h1 gamma))
            (subf o (broadcastInDim (M2 A H) (![0, 1] : Fin 2 → Fin 2) h2 (broadcastInDim (M2 1 H) (![1] : Fin 1 → Fin 2) h1 mean))))
          (broadcastInDim (M2 A H) (![0, 1] : Fin 2 → Fin 2) h2 (broadcastInDim (M2 1 H) (![1] : Fin 1 → Fin 2) h1
            (Host.rsqrt (addf var (broadcastInDim (V1 H) (![] : Fin 0 → Fin 1) hv (constant (F := Ideal) S0 .f32 0x3727C5AC#32)))))))
        (broadcastInDim (M2 A H) (![0, 1] : Fin 2 → Fin 2) h2 (broadcastInDim (M2 1 H) (![1] : Fin 1 → Fin 2) h1 beta)))
      (broadcastInDim (M2 A H) (![] : Fin 0 → Fin 2) h0 (constant (F := Ideal) S0 .f32 0x00000000#32))
      = bnRelu o mr vr gr br := by
  funext i
  obtain ⟨p, q, rfl⟩ : ∃ (p : Fin A) (q : Fin H), i = ix2 p q := ⟨i 0, i 1, eq_ix2 i⟩
  show FloatOps.maximumf (F := Ideal) (φ := .f32)
      (FloatOps.addf (F := Ideal) (φ := .f32)
        (FloatOps.mulf (F := Ideal) (φ := .f32)
          (FloatOps.mulf (F := Ideal) (φ := .f32)
            (broadcastInDim (M2 A H) (![0, 1] : Fin 2 → Fin 2) h2 (broadcastInDim (M2 1 H) (![1] : Fin 1 → Fin 2) h1 gamma) (ix2 p q))
            (FloatOps.subf (F := Ideal) (φ := .f32) (o (ix2 p q))
              (broadcastInDim (M2 A H) (![0, 1] : Fin 2 → Fin 2) h2 (broadcastInDim (M2 1 H) (![1] : Fin 1 → Fin 2) h1 mean) (ix2 p q))))
          (broadcastInDim (M2 A H) (![0, 1] : Fin 2 → Fin 2) h2 (broadcastInDim (M2 1 H) (![1] : Fin 1 → Fin 2) h1
            (Host.rsqrt (addf var (broadcastInDim (V1 H) (![] : Fin 0 → Fin 1) hv (constant (F := Ideal) S0 .f32 0x3727C5AC#32))))) (ix2 p q)))
        (broadcastInDim (M2 A H) (![0, 1] : Fin 2 → Fin 2) h2 (broadcastInDim (M2 1 H) (![1] : Fin 1 → Fin 2) h1 beta) (ix2 p q)))
      (lit 0x00000000#32)
    = FloatOps.maximumf (F := Ideal) (φ := .f32)
      (FloatOps.addf (F := Ideal) (φ := .f32)
        (FloatOps.mulf (F := Ideal) (φ := .f32)
          (FloatOps.mulf (F := Ideal) (φ := .f32) (gr (ix2 (0 : Fin 1) q))
            (FloatOps.subf (F := Ideal) (φ := .f32) (o (ix2 p q)) (mr (ix2 (0 : Fin 1) q))))
          (FloatOps.rsqrt (F := Ideal) (φ := .f32)
            (FloatOps.addf (F := Ideal) (φ := .f32) (vr (ix2 (0 : Fin 1) q)) (lit 0x3727C5AC#32))))
        (br (ix2 (0 : Fin 1) q)))
      (lit 0x00000000#32)
  rw [bcastVec_apply h1 h2 gamma p q, bcastVec_apply h1 h2 mean p q, bcastVec_apply h1 h2 beta p q,
    bcastVec_apply h1 h2 (Host.rsqrt (addf var (broadcastInDim (V1 H) (![] : Fin 0 → Fin 1) hv (constant (F := Ideal) S0 .f32 0x3727C5AC#32)))) p q,
    hm q, hvar q, hg q, hb q]
  rfl

end Bn

/-! ## The output layer: 128 padded columns, the first 40 kept -/

section Out
variable {A K : ℕ}

/-- The weights padded on the right from 40 to 128 columns read, at a column below 40, the weights. -/
theorem padW_apply (hp : (M2 K 40).Pads (![0, 0] : Fin 2 → ℕ) ![0, 88] ![0, 0] (M2 K 128)) {u : Shape} (hu : 0 < u.numel)
    (w : (M2 K 40).Idx → EReal) (v : u.Idx → EReal) (k : Fin K) (j : Fin 40) (j' : Fin 128) (hj : j'.val = j.val) :
    pad (M2 K 128) (![0, 0] : Fin 2 → ℕ) ![0, 88] ![0, 0] w v hp hu (ix2 k j') = w (ix2 k j) := by
  refine pad_apply_of_inside _ _ _ w v hp hu (ix2 k j') (ix2 k j) fun a => ?_
  match a with
  | ⟨0, _⟩ => show k.val = 0 + k.val * (0 + 1); omega
  | ⟨1, _⟩ => show j'.val = 0 + j.val * (0 + 1); omega

/-- The bias padded from 40 to 128 entries reads, at an entry below 40, the bias. -/
theorem padB_apply (hp : (V1 40).Pads (![0] : Fin 1 → ℕ) ![88] ![0] (V1 128)) {u : Shape} (hu : 0 < u.numel)
    (b : (V1 40).Idx → EReal) (v : u.Idx → EReal) (j : Fin 40) (j' : Fin 128) (hj : j'.val = j.val) :
    pad (V1 128) (![0] : Fin 1 → ℕ) ![88] ![0] b v hp hu (ix1 j') = b (ix1 j) := by
  refine pad_apply_of_inside _ _ _ b v hp hu (ix1 j') (ix1 j) fun a => ?_
  match a with
  | ⟨0, _⟩ => show j'.val = 0 + j.val * (0 + 1); omega

/-- The linear layer on the padded weights and bias, cut back to the first 40 columns, is the linear layer on the weights
    and bias: at a column below 40 every padded entry read is an original one. -/
theorem out_eq (d : DotDims (M2 A K) (M2 K 40) (M2 A 40)) (hd : d = DotDims.plain A K 40)
    (h1 : (V1 40).BroadcastsInDim (M2 1 40) (![1] : Fin 1 → Fin 2)) (h2 : (M2 1 40).BroadcastsInDim (M2 A 40) (![0, 1] : Fin 2 → Fin 2))
    (hpw : (M2 K 40).Pads (![0, 0] : Fin 2 → ℕ) ![0, 88] ![0, 0] (M2 K 128)) (hpb : (V1 40).Pads (![0] : Fin 1 → ℕ) ![88] ![0] (V1 128))
    {u u' : Shape} (hu : 0 < u.numel) (hu' : 0 < u'.numel) (hc : (V1 128).ShapeCasts (M2 1 128))
    (hs : (M2 A 128).Slices (![0, 0] : Fin 2 → ℕ) (M2 A 40))
    (x : FVec Ideal (M2 A K) .f32) (w : FVec Ideal (M2 K 40) .f32) (b : FVec Ideal (V1 40) .f32) (v : u.Idx → EReal) (v' : u'.Idx → EReal) :
    extractStridedSlice (M2 A 40) (![0, 0] : Fin 2 → ℕ)
        (affine x (pad (M2 K 128) (![0, 0] : Fin 2 → ℕ) ![0, 88] ![0, 0] w v hpw hu)
          (shapeCast (M2 1 128) (pad (V1 128) (![0] : Fin 1 → ℕ) ![88] ![0] b v' hpb hu') hc)) hs
      = addf (Host.dotGeneral d none x w)
          (broadcastInDim (M2 A 40) (![0, 1] : Fin 2 → Fin 2) h2 (broadcastInDim (M2 1 40) (![1] : Fin 1 → Fin 2) h1 b)) := by
  funext i
  obtain ⟨p, j, rfl⟩ : ∃ (p : Fin A) (j : Fin 40), i = ix2 p j := ⟨i 0, i 1, eq_ix2 i⟩
  have hj : (⟨j.val, by have := j.isLt; omega⟩ : Fin 128).val = 0 + j.val := (Nat.zero_add _).symm
  rw [slice2_axis1_apply 0 _ hs p j ⟨j.val, by have := j.isLt; omega⟩ hj]
  show FloatOps.addf (F := Ideal) (φ := .f32)
      (∑ k : Fin K, x (ix2 p k) * pad (M2 K 128) (![0, 0] : Fin 2 → ℕ) ![0, 88] ![0, 0] w v hpw hu (ix2 k ⟨j.val, by have := j.isLt; omega⟩))
      (shapeCast (M2 1 128) (pad (V1 128) (![0] : Fin 1 → ℕ) ![88] ![0] b v' hpb hu') hc (ix2 (0 : Fin 1) ⟨j.val, by have := j.isLt; omega⟩))
    = FloatOps.addf (F := Ideal) (φ := .f32) (Host.dotGeneral d none x w (ix2 p j))
      (broadcastInDim (M2 A 40) (![0, 1] : Fin 2 → Fin 2) h2 (broadcastInDim (M2 1 40) (![1] : Fin 1 → Fin 2) h1 b) (ix2 p j))
  rw [Cert.LibMatProd.dotGeneral_apply d hd none x w p j, bcastVec_apply h1 h2 b p j,
    shapeCast_a_1a_apply _ hc 0 _, padB_apply hpb hu' b v' j _ rfl]
  congr 1
  exact Finset.sum_congr rfl fun k _ => by rw [padW_apply hpw hu w v k j _ rfl]

end Out

end Cert.Gcn.BridgeIdx

end
-- ==== Proof.Bridge.lean ====
/-
  The two programs' values are one function of the nine arguments.

  The kernel side's stage functions (KVal.lean) and the reference's (RVal.lean) are compared stage by stage. The graph
  arrays (the two index rows, the degrees and their inverse square roots, the edge weights, the weighted neighbour sums,
  the slices of the stacked layer weights) are made by the same operations on both sides. The dense stages differ only
  in spelling, index by index (BridgeIdx.lean): the kernel side keeps the input bias, the column statistics and each
  layer's scale and shift as one-row matrices where the reference has vectors broadcast to every row, and computes
  the output layer on 128 padded columns of which the first 40 are kept.
-/
import proofs.«408610_j12541304504853_3_alg».proof.Proof.KVal
import proofs.«408610_j12541304504853_3_alg».proof.Proof.RVal
import proofs.«408610_j12541304504853_3_alg».proof.Proof.BridgeIdx

noncomputable section

namespace Cert.Gcn.Bridge

open Idealize.ShloMosaic Idealize.ShloMosaic.ValueIdx Cert.Gcn.BridgeIdx

variable [Cert.KernelIdeal.Facts₀] [Cert.ReferenceIdeal.Facts]

-- the scatter-adds, gathers and column sums are the same operation of the same operands on both sides: compared by
-- their operands, never opened
attribute [local irreducible] Host.scatterAdd Host.gather Host.reduceAdd

/-! ## The graph arrays: the same operations on both sides -/

/-- A vector of 850000 entries as a column. -/
abbrev ncol {α : Type} (v : Cert.ReferenceIdeal.S850000.Idx → α) : Cert.ReferenceIdeal.S850000x1.Idx → α :=
  broadcastInDim Cert.ReferenceIdeal.S850000x1 ![0] Cert.ReferenceIdeal.Facts₀.bcast_S850000_S850000x1_0 v

/-- The source indices with the self loops. -/
theorem row_eq (e : KVal.T Cert.KernelIdeal.S2x800000 .i32) : KVal.row e = RVal.row e := rfl
/-- The target indices with the self loops. -/
theorem col_eq (e : KVal.T Cert.KernelIdeal.S2x800000 .i32) : KVal.col e = RVal.col e := rfl
/-- An index list with the negative entries wrapped, as a column. -/
theorem wrap_eq (ix : KVal.T Cert.KernelIdeal.S850000 .i32) : ncol (KVal.wrap ix) = RVal.wrap ix := rfl
/-- The inverse square roots of the positive degrees. -/
theorem dinv_eq (cl : KVal.T Cert.KernelIdeal.S850000 .i32) : KVal.dinv cl = RVal.dinv (RVal.deg cl) := rfl
/-- The edge weights: a column on the kernel side, a vector on the reference's. -/
theorem normw_eq (e : KVal.T Cert.KernelIdeal.S2x800000 .i32) : KVal.normw e = ncol (RVal.norm e) := rfl
/-- The weighted neighbour sums, from the column of edge weights and from the vector. -/
theorem agg_eq (rw cl : KVal.T Cert.KernelIdeal.S850000 .i32) (nm : RVal.FA Cert.ReferenceIdeal.S850000)
    (cur : KVal.T Cert.KernelIdeal.S50000x96 .f32) : KVal.agg rw cl (ncol nm) cur = RVal.agg rw cl nm cur := rfl

/-! ## The dense stages -/

/-- The input layer. -/
theorem x1_eq (x : KVal.T Cert.KernelIdeal.S50000x256 .f32) (w : KVal.T Cert.KernelIdeal.S256x96 .f32)
    (b : KVal.T Cert.KernelIdeal.S96 .f32) : KVal.x1 x w b = RVal.x1 x w b :=
  (fcRelu_eq Cert.ReferenceIdeal.dot_S50000x256_S256x96_S50000x96_1_0_0_1_n_n rfl Cert.ReferenceIdeal.Facts₀.bcast_S96_S1x96_1
    Cert.ReferenceIdeal.Facts₀.bcast_S1x96_S50000x96_0_1 Cert.ReferenceIdeal.Facts₀.bcast_S_S50000x96 x w b (KVal.brow b)
    (fun q => reshapeRow_apply Cert.KernelIdeal.Facts₀.shapeCasts_S96_S1x96 b q)).symm

/-- The residual mix, for any pair of literals. -/
theorem mix_eq (c1 c2 : BitVec 32) (ag x0 : KVal.T Cert.KernelIdeal.S50000x96 .f32) (w : KVal.T Cert.KernelIdeal.S96x96 .f32) :
    Cert.Gcn.mixed c1 c2 ag x0 w = RVal.mix c1 c2 ag x0 w :=
  (mixed_eq Cert.ReferenceIdeal.dot_S50000x96_S96x96_S50000x96_1_0_0_1_n_n rfl Cert.ReferenceIdeal.Facts₀.bcast_S_S50000x96
    c1 c2 ag x0 w).symm

/-- The mean row agrees with the mean vector entry by entry. -/
theorem mean_apply (o : KVal.T Cert.KernelIdeal.S50000x96 .f32) (q : Fin 96) :
    KVal.mean o (ix2 (0 : Fin 1) q) = RVal.mean o (ix1 q) :=
  meanRow_apply Cert.KernelIdeal.Facts₀.bcast_S96_S1x96_1 Cert.KernelIdeal.Facts₀.bcast_S_S1x96 Cert.ReferenceIdeal.Facts₀.bcast_S_S96 _ _ q

/-- The variance row agrees with the variance vector entry by entry: the squared deviations summed are the same array. -/
theorem var_apply (o : KVal.T Cert.KernelIdeal.S50000x96 .f32) (q : Fin 96) :
    KVal.var o (ix2 (0 : Fin 1) q) = RVal.var o (ix1 q) :=
  varRow_apply Cert.KernelIdeal.Facts₀.bcast_S96_S1x96_1 Cert.KernelIdeal.Facts₀.bcast_S_S1x96 Cert.ReferenceIdeal.Facts₀.bcast_S_S96 _ _ _ _ q

/-- A one-row matrix agrees with its reshape to a vector entry by entry. -/
theorem prow_apply (r : KVal.T Cert.KernelIdeal.S1x96 .f32) (q : Fin 96) :
    r (ix2 (0 : Fin 1) q) = shapeCast Cert.ReferenceIdeal.S96 r Cert.ReferenceIdeal.Facts₀.shapeCasts_S1x96_S96 (ix1 q) :=
  reshapeVec_apply Cert.ReferenceIdeal.Facts₀.shapeCasts_S1x96_S96 r q

/-- Batch norm and ReLU, the scale and shift rows agreeing with the vectors entry by entry. -/
theorem bn_eq (o : KVal.T Cert.KernelIdeal.S50000x96 .f32) (gr br : KVal.T Cert.KernelIdeal.S1x96 .f32)
    (g b : RVal.FA Cert.ReferenceIdeal.S96)
    (hg : ∀ q : Fin 96, gr (ix2 (0 : Fin 1) q) = g (ix1 q)) (hb : ∀ q : Fin 96, br (ix2 (0 : Fin 1) q) = b (ix1 q)) :
    KVal.bn o gr br = RVal.bnOf o g b :=
  (bnRelu_eq Cert.ReferenceIdeal.Facts₀.bcast_S96_S1x96_1 Cert.ReferenceIdeal.Facts₀.bcast_S1x96_S50000x96_0_1
    Cert.ReferenceIdeal.Facts₀.bcast_S_S50000x96 Cert.ReferenceIdeal.Facts₀.bcast_S_S96 o (RVal.mean o) (RVal.var o) g b
    (KVal.mean o) (KVal.var o) gr br (mean_apply o) (var_apply o) hg hb).symm

/-- The output layer: on the padded weights and bias, cut back to 40 columns, and on the weights and bias. -/
theorem out_eq' (cur : KVal.T Cert.KernelIdeal.S50000x96 .f32) (w2 : KVal.T Cert.KernelIdeal.S96x40 .f32)
    (b2 : KVal.T Cert.KernelIdeal.S40 .f32) : KVal.out (KVal.outp cur w2 b2) = RVal.out cur w2 b2 :=
  out_eq Cert.ReferenceIdeal.dot_S50000x96_S96x40_S50000x40_1_0_0_1_n_n rfl Cert.ReferenceIdeal.Facts₀.bcast_S40_S1x40_1
    Cert.ReferenceIdeal.Facts₀.bcast_S1x40_S50000x40_0_1 Cert.KernelIdeal.Facts₀.pads_S96x40_S96x128_000_0880
    Cert.KernelIdeal.Facts₀.pads_S40_S128_0880 Cert.KernelIdeal.Facts₀.h_S_ Cert.KernelIdeal.Facts₀.h_S_
    Cert.KernelIdeal.Facts₀.shapeCasts_S128_S1x128 Cert.KernelIdeal.Facts₀.slices_S50000x128_S50000x40_0_0 cur w2 b2 _ _

/-! ## The layers and the network -/

/-- Layer 1. -/
theorem layer1_eq (rw cl : KVal.T Cert.KernelIdeal.S850000 .i32) (nm : RVal.FA Cert.ReferenceIdeal.S850000)
    (x0 cur : KVal.T Cert.KernelIdeal.S50000x96 .f32) (cw : KVal.T Cert.KernelIdeal.S3x96x96 .f32)
    (g bt : KVal.T Cert.KernelIdeal.S3x96 .f32) :
    KVal.layer1 rw cl (ncol nm) x0 cur cw g bt = RVal.layer1 rw cl nm x0 cur cw g bt := by
  unfold KVal.layer1 RVal.layer1 KVal.mix1
  rw [agg_eq rw cl nm cur, mix_eq]
  exact bn_eq _ _ _ _ _ (fun q => prow_apply _ q) (fun q => prow_apply _ q)

/-- Layer 2. -/
theorem layer2_eq (rw cl : KVal.T Cert.KernelIdeal.S850000 .i32) (nm : RVal.FA Cert.ReferenceIdeal.S850000)
    (x0 cur : KVal.T Cert.KernelIdeal.S50000x96 .f32) (cw : KVal.T Cert.KernelIdeal.S3x96x96 .f32)
    (g bt : KVal.T Cert.KernelIdeal.S3x96 .f32) :
    KVal.layer2 rw cl (ncol nm) x0 cur cw g bt = RVal.layer2 rw cl nm x0 cur cw g bt := by
  unfold KVal.layer2 RVal.layer2 KVal.mix2
  rw [agg_eq rw cl nm cur, mix_eq]
  exact bn_eq _ _ _ _ _ (fun q => prow_apply _ q) (fun q => prow_apply _ q)

/-- Layer 3. -/
theorem layer3_eq (rw cl : KVal.T Cert.KernelIdeal.S850000 .i32) (nm : RVal.FA Cert.ReferenceIdeal.S850000)
    (x0 cur : KVal.T Cert.KernelIdeal.S50000x96 .f32) (cw : KVal.T Cert.KernelIdeal.S3x96x96 .f32)
    (g bt : KVal.T Cert.KernelIdeal.S3x96 .f32) :
    KVal.layer3 rw cl (ncol nm) x0 cur cw g bt = RVal.layer3 rw cl nm x0 cur cw g bt := by
  unfold KVal.layer3 RVal.layer3 KVal.mix3
  rw [agg_eq rw cl nm cur, mix_eq]
  exact bn_eq _ _ _ _ _ (fun q => prow_apply _ q) (fun q => prow_apply _ q)

/-- The two programs' results are one function of the nine arguments. -/
theorem value_eq (a0 : KVal.T Cert.KernelIdeal.S50000x256 .f32) (a1 : KVal.T Cert.KernelIdeal.S2x800000 .i32)
    (a2 : KVal.T Cert.KernelIdeal.S256x96 .f32) (a3 : KVal.T Cert.KernelIdeal.S96 .f32) (a4 : KVal.T Cert.KernelIdeal.S3x96x96 .f32)
    (a5 a6 : KVal.T Cert.KernelIdeal.S3x96 .f32) (a7 : KVal.T Cert.KernelIdeal.S96x40 .f32) (a8 : KVal.T Cert.KernelIdeal.S40 .f32) :
    KVal.value a0 a1 a2 a3 a4 a5 a6 a7 a8 = RVal.value a0 a1 a2 a3 a4 a5 a6 a7 a8 := by
  unfold KVal.value RVal.value
  rw [normw_eq a1, x1_eq a0 a2 a3, row_eq a1, col_eq a1, layer1_eq, layer2_eq, layer3_eq, out_eq']

end Cert.Gcn.Bridge

end
-- ==== Proof.lean ====
/-
  GCN2 message passing: a Pallas kernel program of eight regions against its plain reference, on the extended reals.

  Both programs compute, for node features x, an edge list e and the layers' parameters,
    x₁ = max(x·W₁ + b₁, 0);  three times  cur ↦ max(γ·(o − mean o)·rsqrt(var o + ε) + β, 0)  with
    o = c₁·h + c₂·(h·W),  h = 0.9·agg + 0.1·x₁,  agg = the normalised neighbour sum of cur over e;  out = cur·W₂ + b₂.
  The kernel program computes the dense stages in regions of ten row blocks (the last on 128 padded columns, of which
  the first 40 are kept) and the sparse ones on the host; the reference computes everything on the host. Stage by
  stage the two are the same scalar expression at every index, so the two results are one function of the arguments
  (`Cert.Gcn.Bridge.value_eq`); the kernel program's run ends with its result buffer at that function
  (`Cert.Gcn.KFold.kvalue` over the run of the segments), the reference's at the same one (`Cert.Gcn.RFold.rvalue`
  over the run of its operation list). The frames of the two kernel programs are the segments' runs; the reference's
  frame is its run with the result dropped. No ideal-pass rewrite was applied, so the idealization claim is trivial.
-/
import proofs.«408610_j12541304504853_3_alg».proof.Defs
import proofs.«408610_j12541304504853_3_alg».proof.Proof.Gen.Kernel
import proofs.«408610_j12541304504853_3_alg».proof.Proof.Gen.Kernel.Frame
import proofs.«408610_j12541304504853_3_alg».proof.Proof.Gen.KernelIdeal
import proofs.«408610_j12541304504853_3_alg».proof.Proof.Gen.KernelIdeal.Frame
import proofs.«408610_j12541304504853_3_alg».proof.Proof.Gen.ReferenceIdeal
import proofs.«408610_j12541304504853_3_alg».proof.Proof.Gen.Pre_finite_inputs
import proofs.«408610_j12541304504853_3_alg».proof.Proof.KRun
import proofs.«408610_j12541304504853_3_alg».proof.Proof.KFold
import proofs.«408610_j12541304504853_3_alg».proof.Proof.RRun
import proofs.«408610_j12541304504853_3_alg».proof.Proof.RFold
import proofs.«408610_j12541304504853_3_alg».proof.Proof.Bridge
import Idealize.ShloMosaic.Adequacy
import Idealize.ShloMosaic.Init

noncomputable section

namespace Cert.Proof

open Idealize.ShloMosaic Idealize.SL.Sem

namespace GcnClaims

theorem frame_k : Cert.frame_Kernel := fun m ρ _ => Cert.Kernel.Gen.frame m ρ
theorem frame_ki : Cert.frame_KernelIdeal := fun m ρ _ => Cert.KernelIdeal.Gen.frame m ρ

/-- The reference's run with the result dropped: no operation writes an argument. -/
theorem frame_ri : Cert.frame_ReferenceIdeal := fun m ρ _ =>
  (θ_run Cert.ReferenceIdeal.defs _ _).mono (fun r h c =>
    ⟨(h c Cert.ReferenceIdeal.main_arg0).trans (Cert.Gcn.RFold.rarg0 m c),
     (h c Cert.ReferenceIdeal.main_arg1).trans (Cert.Gcn.RFold.rarg1 m c),
     (h c Cert.ReferenceIdeal.main_arg2).trans (Cert.Gcn.RFold.rarg2 m c),
     (h c Cert.ReferenceIdeal.main_arg3).trans (Cert.Gcn.RFold.rarg3 m c),
     (h c Cert.ReferenceIdeal.main_arg4).trans (Cert.Gcn.RFold.rarg4 m c),
     (h c Cert.ReferenceIdeal.main_arg5).trans (Cert.Gcn.RFold.rarg5 m c),
     (h c Cert.ReferenceIdeal.main_arg6).trans (Cert.Gcn.RFold.rarg6 m c),
     (h c Cert.ReferenceIdeal.main_arg7).trans (Cert.Gcn.RFold.rarg7 m c),
     (h c Cert.ReferenceIdeal.main_arg8).trans (Cert.Gcn.RFold.rarg8 m c)⟩)
    (Cert.Gcn.RRun.run_all (F := Ideal) m ρ)

/-- Both runs end with their result buffer at one function of the arguments, which agree. -/
theorem algebraic : Cert.algebraic_KernelIdeal_ReferenceIdeal := by
  intro m ρ m' ρ' _ hagree
  refine ⟨fun c => Cert.Gcn.KVal.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.KFold.kvalue m ρ c), (h c).2⟩)
      (Cert.KernelIdeal.GenV.run_value (F := Ideal) m ρ)
  · refine (θ_run Cert.ReferenceIdeal.defs _ _).mono (fun r h c => ?_) (Cert.Gcn.RRun.run_all (F := Ideal) m' ρ')
    obtain ⟨h0, h1, h2, h3, h4, h5, h6, h7, h8⟩ := hagree c
    refine ⟨(h c Cert.ReferenceIdeal.main_v188).trans ((Cert.Gcn.RFold.rvalue m' c).trans ?_),
     (h c Cert.ReferenceIdeal.main_arg0).trans (Cert.Gcn.RFold.rarg0 m' c),
     (h c Cert.ReferenceIdeal.main_arg1).trans (Cert.Gcn.RFold.rarg1 m' c),
     (h c Cert.ReferenceIdeal.main_arg2).trans (Cert.Gcn.RFold.rarg2 m' c),
     (h c Cert.ReferenceIdeal.main_arg3).trans (Cert.Gcn.RFold.rarg3 m' c),
     (h c Cert.ReferenceIdeal.main_arg4).trans (Cert.Gcn.RFold.rarg4 m' c),
     (h c Cert.ReferenceIdeal.main_arg5).trans (Cert.Gcn.RFold.rarg5 m' c),
     (h c Cert.ReferenceIdeal.main_arg6).trans (Cert.Gcn.RFold.rarg6 m' c),
     (h c Cert.ReferenceIdeal.main_arg7).trans (Cert.Gcn.RFold.rarg7 m' c),
     (h c Cert.ReferenceIdeal.main_arg8).trans (Cert.Gcn.RFold.rarg8 m' c)⟩
    rw [h0, h1, h2, h3, h4, h5, h6, h7, h8]
    exact (Cert.Gcn.Bridge.value_eq _ _ _ _ _ _ _ _ _).symm

end GcnClaims

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, trivial, GcnClaims.algebraic⟩

end Cert.Proof

end
